-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v226) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x512 : Shape := ⟨3, ![4, 2048, 512]⟩
abbrev S512x512 : Shape := ⟨2, ![512, 512]⟩
abbrev S_ : Shape := ⟨0, ![]⟩

class Facts : Prop where
  bcast_S_S4x2048x512 : S_.BroadcastsInDim S4x2048x512 (![] : Fin 0 → Fin S4x2048x512.rank)
  reducesTo_S4x2048x512_S_d0_1_2 : S4x2048x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S4x2048x512 .f32) (main_arg1 : FVec F S512x512 .f32) (main_arg2 : FVec F S512x512 .f32) : IVec S_ 1 :=
  let main_v0 : FVec F S4x2048x512 .f32 := Host.absf main_arg0
  let main_cst : FVec F S_ .f32 := constant S_ .f32 0x7F800000#32
  let main_v1 : FVec F S4x2048x512 .f32 := broadcastInDim S4x2048x512 ![] bcast_S_S4x2048x512 main_cst
  let main_v2 : IVec S4x2048x512 1 := cmpf .olt main_v0 main_v1
  let main_c : IVec S_ 1 := constantI S_ 1 1#1
  let main_v3 : IVec S_ 1 := (fun x v => Host.reduce IntOp.andi x v reducesTo_S4x2048x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  main_v13
-- ==== Kernel.lean ====
abbrev S4x2048x512 : Shape := ⟨3, ![4, 2048, 512]⟩
abbrev S512x512 : Shape := ⟨2, ![512, 512]⟩
abbrev S1x2048x512 : Shape := ⟨3, ![1, 2048, 512]⟩
abbrev S2048x512 : Shape := ⟨2, ![2048, 512]⟩
abbrev S2048 : Shape := ⟨1, ![2048]⟩
abbrev S2048x1 : Shape := ⟨2, ![2048, 1]⟩
abbrev S1x512 : Shape := ⟨2, ![1, 512]⟩
abbrev S2047x512 : Shape := ⟨2, ![2047, 512]⟩
abbrev S2047x1 : Shape := ⟨2, ![2047, 1]⟩
abbrev S1x1 : Shape := ⟨2, ![1, 1]⟩
abbrev S2x512 : Shape := ⟨2, ![2, 512]⟩
abbrev S2046x512 : Shape := ⟨2, ![2046, 512]⟩
abbrev S4x512 : Shape := ⟨2, ![4, 512]⟩
abbrev S2044x512 : Shape := ⟨2, ![2044, 512]⟩
abbrev S8x512 : Shape := ⟨2, ![8, 512]⟩
abbrev S2040x512 : Shape := ⟨2, ![2040, 512]⟩
abbrev S16x512 : Shape := ⟨2, ![16, 512]⟩
abbrev S2032x512 : Shape := ⟨2, ![2032, 512]⟩
abbrev S32x512 : Shape := ⟨2, ![32, 512]⟩
abbrev S2016x512 : Shape := ⟨2, ![2016, 512]⟩
abbrev S64x512 : Shape := ⟨2, ![64, 512]⟩
abbrev S1984x512 : Shape := ⟨2, ![1984, 512]⟩
abbrev S128x512 : Shape := ⟨2, ![128, 512]⟩
abbrev S1920x512 : Shape := ⟨2, ![1920, 512]⟩
abbrev S256x512 : Shape := ⟨2, ![256, 512]⟩
abbrev S1792x512 : Shape := ⟨2, ![1792, 512]⟩
abbrev S1536x512 : Shape := ⟨2, ![1536, 512]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S4x2048x512, .f32⟩
  | .hbm, ⟨1, _⟩ => ⟨S512x512, .f32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S4x2048x512, .f32⟩
  | .local _ .vmem, ⟨0, _⟩ => ⟨S1x2048x512, .f32⟩
  | .local _ .vmem, ⟨1, _⟩ => ⟨S1x2048x512, .f32⟩
  | .local _ .vmem, ⟨2, _⟩ => ⟨S512x512, .f32⟩
  | .local _ .vmem, ⟨3, _⟩ => ⟨S512x512, .f32⟩
  | .local _ .vmem, ⟨4, _⟩ => ⟨S1x2048x512, .f32⟩
  | .local _ .vmem, ⟨5, _⟩ => ⟨S1x2048x512, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S512x512_S512x512_1_0 : S512x512.Transposes [1, 0] S512x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  reduces_S2048x512_S2048 : S2048x512.Reduces [1] S2048
  shapeCasts_S2048_S2048x1 : S2048.ShapeCasts S2048x1
  slices_S2048x512_o1_0_S2047x512 : S2048x512.Slices ![1, 0] S2047x512
  concatenates_S2047x512_S1x512_S2048x512_d0 : Shape.Concatenates [S2047x512, S1x512] S2048x512 0
  slices_S2048x1_o1_0_S2047x1 : S2048x1.Slices ![1, 0] S2047x1
  concatenates_S2047x1_S1x1_S2048x1_d0 : Shape.Concatenates [S2047x1, S1x1] S2048x1 0
  slices_S2048x1_o0_0_S2047x1 : S2048x1.Slices ![0, 0] S2047x1
  concatenates_S1x1_S2047x1_S2048x1_d0 : Shape.Concatenates [S1x1, S2047x1] S2048x1 0
  shapeCasts_S2048x1_S2048x1 : S2048x1.ShapeCasts S2048x1
  broadcasts_S2048x1_S2048x512 : S2048x1.Broadcasts S2048x512
  slices_S2048x512_o0_0_S2047x512 : S2048x512.Slices ![0, 0] S2047x512
  concatenates_S1x512_S2047x512_S2048x512_d0 : Shape.Concatenates [S1x512, S2047x512] S2048x512 0
  slices_S2048x512_o0_0_S2046x512 : S2048x512.Slices ![0, 0] S2046x512
  concatenates_S2x512_S2046x512_S2048x512_d0 : Shape.Concatenates [S2x512, S2046x512] S2048x512 0
  slices_S2048x512_o0_0_S2044x512 : S2048x512.Slices ![0, 0] S2044x512
  concatenates_S4x512_S2044x512_S2048x512_d0 : Shape.Concatenates [S4x512, S2044x512] S2048x512 0
  slices_S2048x512_o0_0_S2040x512 : S2048x512.Slices ![0, 0] S2040x512
  concatenates_S8x512_S2040x512_S2048x512_d0 : Shape.Concatenates [S8x512, S2040x512] S2048x512 0
  slices_S2048x512_o0_0_S2032x512 : S2048x512.Slices ![0, 0] S2032x512
  concatenates_S16x512_S2032x512_S2048x512_d0 : Shape.Concatenates [S16x512, S2032x512] S2048x512 0
  slices_S2048x512_o0_0_S2016x512 : S2048x512.Slices ![0, 0] S2016x512
  concatenates_S32x512_S2016x512_S2048x512_d0 : Shape.Concatenates [S32x512, S2016x512] S2048x512 0
  slices_S2048x512_o0_0_S1984x512 : S2048x512.Slices ![0, 0] S1984x512
  concatenates_S64x512_S1984x512_S2048x512_d0 : Shape.Concatenates [S64x512, S1984x512] S2048x512 0
  slices_S2048x512_o0_0_S1920x512 : S2048x512.Slices ![0, 0] S1920x512
  concatenates_S128x512_S1920x512_S2048x512_d0 : Shape.Concatenates [S128x512, S1920x512] S2048x512 0
  slices_S2048x512_o0_0_S1792x512 : S2048x512.Slices ![0, 0] S1792x512
  concatenates_S256x512_S1792x512_S2048x512_d0 : Shape.Concatenates [S256x512, S1792x512] S2048x512 0
  slices_S2048x512_o0_0_S1536x512 : S2048x512.Slices ![0, 0] S1536x512
  concatenates_S512x512_S1536x512_S2048x512_d0 : Shape.Concatenates [S512x512, S1536x512] S2048x512 0
  slices_S2048x512_o0_0_S1024x512 : S2048x512.Slices ![0, 0] S1024x512
  concatenates_S1024x512_S1024x512_S2048x512_d0 : Shape.Concatenates [S1024x512, S1024x512] S2048x512 0
  shapeCasts_S2048x512_S1x2048x512 : S2048x512.ShapeCasts S1x2048x512
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S4x2048x512.size a
  hwx0_0 : ∀ i : grid0.Coords, EltTy.bits .f32 = 32 ∨ (Rect.block (s := S4x2048x512) S1x2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x512.size a ≤ S4x2048x512.size a
  hwx0_3 : ∀ i : grid0.Coords, EltTy.bits .f32 = 32 ∨ (Rect.block (s := S4x2048x512) S1x2048x512.size (cc0_transform_3 i) (hinb0_3 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x512 : Shape := ⟨3, ![4, 2048, 512]⟩
abbrev S512x512 : Shape := ⟨2, ![512, 512]⟩
abbrev S4x2047x512 : Shape := ⟨3, ![4, 2047, 512]⟩
abbrev S_ : Shape := ⟨0, ![]⟩
abbrev S4x2047 : Shape := ⟨2, ![4, 2047]⟩
abbrev S4x2047x1 : Shape := ⟨3, ![4, 2047, 1]⟩
abbrev S4x1 : Shape := ⟨2, ![4, 1]⟩
abbrev S4x2048 : Shape := ⟨2, ![4, 2048]⟩
abbrev S1 : Shape := ⟨1, ![1]⟩
abbrev S4 : Shape := ⟨1, ![4]⟩
abbrev S4x2048x1 : Shape := ⟨3, ![4, 2048, 1]⟩
abbrev S1x1x1 : Shape := ⟨3, ![1, 1, 1]⟩
abbrev S2048 : Shape := ⟨1, ![2048]⟩
abbrev S1x2048 : Shape := ⟨2, ![1, 2048]⟩
abbrev S4x512 : Shape := ⟨2, ![4, 512]⟩
abbrev S4x1x512 : Shape := ⟨3, ![4, 1, 512]⟩
abbrev S4x2x512 : Shape := ⟨3, ![4, 2, 512]⟩
abbrev S4x2046x512 : Shape := ⟨3, ![4, 2046, 512]⟩
abbrev S4x4x512 : Shape := ⟨3, ![4, 4, 512]⟩
abbrev S4x2044x512 : Shape := ⟨3, ![4, 2044, 512]⟩
abbrev S4x8x512 : Shape := ⟨3, ![4, 8, 512]⟩
abbrev S4x2040x512 : Shape := ⟨3, ![4, 2040, 512]⟩
abbrev S4x16x512 : Shape := ⟨3, ![4, 16, 512]⟩
abbrev S4x2032x512 : Shape := ⟨3, ![4, 2032, 512]⟩
abbrev S4x32x512 : Shape := ⟨3, ![4, 32, 512]⟩
abbrev S4x2016x512 : Shape := ⟨3, ![4, 2016, 512]⟩
abbrev S4x64x512 : Shape := ⟨3, ![4, 64, 512]⟩
abbrev S4x1984x512 : Shape := ⟨3, ![4, 1984, 512]⟩
abbrev S4x128x512 : Shape := ⟨3, ![4, 128, 512]⟩
abbrev S4x1920x512 : Shape := ⟨3, ![4, 1920, 512]⟩
abbrev S4x256x512 : Shape := ⟨3, ![4, 256, 512]⟩
abbrev S4x1792x512 : Shape := ⟨3, ![4, 1792, 512]⟩
abbrev S4x512x512 : Shape := ⟨3, ![4, 512, 512]⟩
abbrev S4x1536x512 : Shape := ⟨3, ![4, 1536, 512]⟩
abbrev S4x1024x512 : Shape := ⟨3, ![4, 1024, 512]⟩

abbrev nBuf : Space → Nat
  | .hbm => 337
  | .vmem => 0
  | .smem => 0
  | _ => 0

abbrev hbmTy0_0 (i : Nat) : BufTy := match i % 128 with
  | 0 => ⟨S4x2048x512, .f32⟩
  | 1 => ⟨S512x512, .f32⟩
  | 2 => ⟨S512x512, .f32⟩
  | 3 => ⟨S4x2047x512, .f32⟩
  | 4 => ⟨S4x2047x512, .f32⟩
  | 5 => ⟨S4x2047x512, .f32⟩
  | 6 => ⟨S_, .f32⟩
  | 7 => ⟨S4x2047, .f32⟩
  | 8 => ⟨S4x2047x1, .f32⟩
  | 9 => ⟨S4x2047x1, .f32⟩
  | 10 => ⟨S_, .f32⟩
  | 11 => ⟨S4x2047x1, .f32⟩
  | 12 => ⟨S4x2047x1, .f32⟩
  | 13 => ⟨S4x2047x512, .f32⟩
  | 14 => ⟨S4x2047x512, .f32⟩
  | 15 => ⟨S4x2047x512, .f32⟩
  | 16 => ⟨S4x2047x512, .f32⟩
  | 17 => ⟨S4x2047x512, .f32⟩
  | 18 => ⟨S_, .f32⟩
  | 19 => ⟨S4x2047, .f32⟩
  | 20 => ⟨S4x2047x1, .f32⟩
  | 21 => ⟨S4x2047x1, .f32⟩
  | 22 => ⟨S_, .f32⟩
  | 23 => ⟨S4x2047x1, .f32⟩
  | 24 => ⟨S4x2047x1, .f32⟩
  | 25 => ⟨S4x2047x512, .f32⟩
  | 26 => ⟨S4x2047x512, .f32⟩
  | 27 => ⟨S4x2047x512, .f32⟩
  | 28 => ⟨S_, .f32⟩
  | 29 => ⟨S4x2047, .f32⟩
  | 30 => ⟨S_, .f32⟩
  | 31 => ⟨S4x1, .f32⟩
  | 32 => ⟨S_, .f32⟩
  | 33 => ⟨S4x2047, .f32⟩
  | 34 => ⟨S4x2047, .f32⟩
  | 35 => ⟨S_, .f32⟩
  | 36 => ⟨S4x2047, .f32⟩
  | 37 => ⟨S4x2047, .f32⟩
  | 38 => ⟨S_, .f32⟩
  | 39 => ⟨S_, .f32⟩
  | 40 => ⟨S_, .f32⟩
  | 41 => ⟨S4x2047, .f32⟩
  | 42 => ⟨S4x2047, .f32⟩
  | 43 => ⟨S_, .f32⟩
  | 44 => ⟨S4x2047, .f32⟩
  | 45 => ⟨S4x2047, .f32⟩
  | 46 => ⟨S4x2048, .f32⟩
  | 47 => ⟨S_, .i32⟩
  | 48 => ⟨S1, .i32⟩
  | 49 => ⟨S_, .f32⟩
  | 50 => ⟨S4, .f32⟩
  | 51 => ⟨S4x2048, .f32⟩
  | 52 => ⟨S_, .f32⟩
  | 53 => ⟨S4x2048, .f32⟩
  | 54 => ⟨S4x2048, .i1⟩
  | 55 => ⟨S4x2048, .i1⟩
  | 56 => ⟨S4x2048, .i32⟩
  | 57 => ⟨S4x2048, .i32⟩
  | 58 => ⟨S4x2048, .i32⟩
  | 59 => ⟨S4x2048, .i32⟩
  | 60 => ⟨S4x2048, .i32⟩
  | 61 => ⟨S_, .i32⟩
  | 62 => ⟨S4, .i32⟩
  | 63 => ⟨S4x2048x1, .i32⟩
  | 64 => ⟨S_, .i32⟩
  | 65 => ⟨S4x2048x1, .i32⟩
  | 66 => ⟨S4x2048x1, .i1⟩
  | 67 => ⟨S_, .i32⟩
  | 68 => ⟨S4x2048x1, .i32⟩
  | 69 => ⟨S4x2048x1, .i32⟩
  | 70 => ⟨S4x2048x1, .i32⟩
  | 71 => ⟨S1, .i32⟩
  | 72 => ⟨S_, .i32⟩
  | 73 => ⟨S4x2048x1, .i32⟩
  | 74 => ⟨S4x2048x1, .i1⟩
  | 75 => ⟨S1x1x1, .i32⟩
  | 76 => ⟨S4x2048x1, .i32⟩
  | 77 => ⟨S4x2048x1, .i1⟩
  | 78 => ⟨S4x2048x1, .i1⟩
  | 79 => ⟨S_, .i1⟩
  | 80 => ⟨S4x2048, .i1⟩
  | 81 => ⟨S4x2048x512, .f32⟩
  | 82 => ⟨S4x2048x512, .i1⟩
  | 83 => ⟨S_, .f32⟩
  | 84 => ⟨S4x2048x512, .f32⟩
  | 85 => ⟨S4x2048x512, .f32⟩
  | 86 => ⟨S2048, .i32⟩
  | 87 => ⟨S1x2048, .i32⟩
  | 88 => ⟨S4x1, .i32⟩
  | 89 => ⟨S4x2048, .i32⟩
  | 90 => ⟨S4x2048, .i32⟩
  | 91 => ⟨S4x2048, .i1⟩
  | 92 => ⟨S_, .i32⟩
  | 93 => ⟨S4x2048, .i32⟩
  | 94 => ⟨S4x2048, .i1⟩
  | 95 => ⟨S_, .i32⟩
  | 96 => ⟨S4x2048, .i32⟩
  | 97 => ⟨S4x2048, .i32⟩
  | 98 => ⟨S4x2048, .i32⟩
  | 99 => ⟨S4x2048x1, .i32⟩
  | 100 => ⟨S1, .i32⟩
  | 101 => ⟨S_, .i32⟩
  | 102 => ⟨S4x2048x1, .i32⟩
  | 103 => ⟨S4x2048x1, .i1⟩
  | 104 => ⟨S1x1x1, .i32⟩
  | 105 => ⟨S4x2048x1, .i32⟩
  | 106 => ⟨S4x2048x1, .i1⟩
  | 107 => ⟨S4x2048x1, .i1⟩
  | 108 => ⟨S_, .i1⟩
  | 109 => ⟨S4x2048, .i1⟩
  | 110 => ⟨S4x2048, .f32⟩
  | 111 => ⟨S_, .f32⟩
  | 112 => ⟨S4x2048, .f32⟩
  | 113 => ⟨S4x2048, .f32⟩
  | 114 => ⟨S4x2048, .f32⟩
  | 115 => ⟨S4x2048, .f32⟩
  | 116 => ⟨S_, .f32⟩
  | 117 => ⟨S4x2048, .f32⟩
  | 118 => ⟨S4x2048, .f32⟩
  | 119 => ⟨S_, .f32⟩
  | 120 => ⟨S_, .f32⟩
  | 121 => ⟨S_, .f32⟩
  | 122 => ⟨S4x2048, .f32⟩
  | 123 => ⟨S4x2048, .f32⟩
  | 124 => ⟨S_, .f32⟩
  | 125 => ⟨S4x2048, .f32⟩
  | 126 => ⟨S4x2048, .f32⟩
  | 127 => ⟨S_, .f32⟩
  | _ => ⟨S4x2048x512, .f32⟩

abbrev hbmTy0_1 (i : Nat) : BufTy := match i % 128 with
  | 0 => ⟨S4x512, .f32⟩
  | 1 => ⟨S4x2048x1, .f32⟩
  | 2 => ⟨S4x2048x512, .f32⟩
  | 3 => ⟨S_, .f32⟩
  | 4 => ⟨S4x2048, .f32⟩
  | 5 => ⟨S4x2048, .f32⟩
  | 6 => ⟨S4x2048x1, .f32⟩
  | 7 => ⟨S4x2048x512, .f32⟩
  | 8 => ⟨S4x2048x512, .f32⟩
  | 9 => ⟨S4x1x512, .f32⟩
  | 10 => ⟨S4x1x512, .f32⟩
  | 11 => ⟨S4x1x512, .f32⟩
  | 12 => ⟨S4x1x512, .f32⟩
  | 13 => ⟨S4x1x512, .f32⟩
  | 14 => ⟨S4x2047x512, .f32⟩
  | 15 => ⟨S4x2048x512, .f32⟩
  | 16 => ⟨S4x1x512, .f32⟩
  | 17 => ⟨S4x2047x512, .f32⟩
  | 18 => ⟨S4x2047x512, .f32⟩
  | 19 => ⟨S4x2047x512, .f32⟩
  | 20 => ⟨S4x2047x512, .f32⟩
  | 21 => ⟨S4x2047x512, .f32⟩
  | 22 => ⟨S4x2048x512, .f32⟩
  | 23 => ⟨S4x1x512, .f32⟩
  | 24 => ⟨S4x2047x512, .f32⟩
  | 25 => ⟨S4x2047x512, .f32⟩
  | 26 => ⟨S4x2047x512, .f32⟩
  | 27 => ⟨S4x2048x512, .f32⟩
  | 28 => ⟨S4x2x512, .f32⟩
  | 29 => ⟨S4x2046x512, .f32⟩
  | 30 => ⟨S4x2046x512, .f32⟩
  | 31 => ⟨S4x2046x512, .f32⟩
  | 32 => ⟨S4x2046x512, .f32⟩
  | 33 => ⟨S4x2046x512, .f32⟩
  | 34 => ⟨S4x2048x512, .f32⟩
  | 35 => ⟨S4x2x512, .f32⟩
  | 36 => ⟨S4x2046x512, .f32⟩
  | 37 => ⟨S4x2046x512, .f32⟩
  | 38 => ⟨S4x2046x512, .f32⟩
  | 39 => ⟨S4x2048x512, .f32⟩
  | 40 => ⟨S4x4x512, .f32⟩
  | 41 => ⟨S4x2044x512, .f32⟩
  | 42 => ⟨S4x2044x512, .f32⟩
  | 43 => ⟨S4x2044x512, .f32⟩
  | 44 => ⟨S4x2044x512, .f32⟩
  | 45 => ⟨S4x2044x512, .f32⟩
  | 46 => ⟨S4x2048x512, .f32⟩
  | 47 => ⟨S4x4x512, .f32⟩
  | 48 => ⟨S4x2044x512, .f32⟩
  | 49 => ⟨S4x2044x512, .f32⟩
  | 50 => ⟨S4x2044x512, .f32⟩
  | 51 => ⟨S4x2048x512, .f32⟩
  | 52 => ⟨S4x8x512, .f32⟩
  | 53 => ⟨S4x2040x512, .f32⟩
  | 54 => ⟨S4x2040x512, .f32⟩
  | 55 => ⟨S4x2040x512, .f32⟩
  | 56 => ⟨S4x2040x512, .f32⟩
  | 57 => ⟨S4x2040x512, .f32⟩
  | 58 => ⟨S4x2048x512, .f32⟩
  | 59 => ⟨S4x8x512, .f32⟩
  | 60 => ⟨S4x2040x512, .f32⟩
  | 61 => ⟨S4x2040x512, .f32⟩
  | 62 => ⟨S4x2040x512, .f32⟩
  | 63 => ⟨S4x2048x512, .f32⟩
  | 64 => ⟨S4x16x512, .f32⟩
  | 65 => ⟨S4x2032x512, .f32⟩
  | 66 => ⟨S4x2032x512, .f32⟩
  | 67 => ⟨S4x2032x512, .f32⟩
  | 68 => ⟨S4x2032x512, .f32⟩
  | 69 => ⟨S4x2032x512, .f32⟩
  | 70 => ⟨S4x2048x512, .f32⟩
  | 71 => ⟨S4x16x512, .f32⟩
  | 72 => ⟨S4x2032x512, .f32⟩
  | 73 => ⟨S4x2032x512, .f32⟩
  | 74 => ⟨S4x2032x512, .f32⟩
  | 75 => ⟨S4x2048x512, .f32⟩
  | 76 => ⟨S4x32x512, .f32⟩
  | 77 => ⟨S4x2016x512, .f32⟩
  | 78 => ⟨S4x2016x512, .f32⟩
  | 79 => ⟨S4x2016x512, .f32⟩
  | 80 => ⟨S4x2016x512, .f32⟩
  | 81 => ⟨S4x2016x512, .f32⟩
  | 82 => ⟨S4x2048x512, .f32⟩
  | 83 => ⟨S4x32x512, .f32⟩
  | 84 => ⟨S4x2016x512, .f32⟩
  | 85 => ⟨S4x2016x512, .f32⟩
  | 86 => ⟨S4x2016x512, .f32⟩
  | 87 => ⟨S4x2048x512, .f32⟩
  | 88 => ⟨S4x64x512, .f32⟩
  | 89 => ⟨S4x1984x512, .f32⟩
  | 90 => ⟨S4x1984x512, .f32⟩
  | 91 => ⟨S4x1984x512, .f32⟩
  | 92 => ⟨S4x1984x512, .f32⟩
  | 93 => ⟨S4x1984x512, .f32⟩
  | 94 => ⟨S4x2048x512, .f32⟩
  | 95 => ⟨S4x64x512, .f32⟩
  | 96 => ⟨S4x1984x512, .f32⟩
  | 97 => ⟨S4x1984x512, .f32⟩
  | 98 => ⟨S4x1984x512, .f32⟩
  | 99 => ⟨S4x2048x512, .f32⟩
  | 100 => ⟨S4x128x512, .f32⟩
  | 101 => ⟨S4x1920x512, .f32⟩
  | 102 => ⟨S4x1920x512, .f32⟩
  | 103 => ⟨S4x1920x512, .f32⟩
  | 104 => ⟨S4x1920x512, .f32⟩
  | 105 => ⟨S4x1920x512, .f32⟩
  | 106 => ⟨S4x2048x512, .f32⟩
  | 107 => ⟨S4x128x512, .f32⟩
  | 108 => ⟨S4x1920x512, .f32⟩
  | 109 => ⟨S4x1920x512, .f32⟩
  | 110 => ⟨S4x1920x512, .f32⟩
  | 111 => ⟨S4x2048x512, .f32⟩
  | 112 => ⟨S4x256x512, .f32⟩
  | 113 => ⟨S4x1792x512, .f32⟩
  | 114 => ⟨S4x1792x512, .f32⟩
  | 115 => ⟨S4x1792x512, .f32⟩
  | 116 => ⟨S4x1792x512, .f32⟩
  | 117 => ⟨S4x1792x512, .f32⟩
  | 118 => ⟨S4x2048x512, .f32⟩
  | 119 => ⟨S4x256x512, .f32⟩
  | 120 => ⟨S4x1792x512, .f32⟩
  | 121 => ⟨S4x1792x512, .f32⟩
  | 122 => ⟨S4x1792x512, .f32⟩
  | 123 => ⟨S4x2048x512, .f32⟩
  | 124 => ⟨S4x512x512, .f32⟩
  | 125 => ⟨S4x1536x512, .f32⟩
  | 126 => ⟨S4x1536x512, .f32⟩
  | 127 => ⟨S4x1536x512, .f32⟩
  | _ => ⟨S4x2048x512, .f32⟩

abbrev hbmTy0_2 (i : Nat) : BufTy := match i % 128 with
  | 0 => ⟨S4x1536x512, .f32⟩
  | 1 => ⟨S4x1536x512, .f32⟩
  | 2 => ⟨S4x2048x512, .f32⟩
  | 3 => ⟨S4x512x512, .f32⟩
  | 4 => ⟨S4x1536x512, .f32⟩
  | 5 => ⟨S4x1536x512, .f32⟩
  | 6 => ⟨S4x1536x512, .f32⟩
  | 7 => ⟨S4x2048x512, .f32⟩
  | 8 => ⟨S4x1024x512, .f32⟩
  | 9 => ⟨S4x1024x512, .f32⟩
  | 10 => ⟨S4x1024x512, .f32⟩
  | 11 => ⟨S4x1024x512, .f32⟩
  | 12 => ⟨S4x1024x512, .f32⟩
  | 13 => ⟨S4x1024x512, .f32⟩
  | 14 => ⟨S4x2048x512, .f32⟩
  | 15 => ⟨S4x1024x512, .f32⟩
  | 16 => ⟨S4x1024x512, .f32⟩
  | 17 => ⟨S4x1024x512, .f32⟩
  | 18 => ⟨S4x1024x512, .f32⟩
  | 19 => ⟨S4x2048x512, .f32⟩
  | 20 => ⟨S4x2048x1, .i1⟩
  | 21 => ⟨S4x2048x1, .f32⟩
  | 22 => ⟨S4x2048x512, .f32⟩
  | 23 => ⟨S4x2048x512, .f32⟩
  | 24 => ⟨S4x2048, .i32⟩
  | 25 => ⟨S_, .i32⟩
  | 26 => ⟨S_, .i32⟩
  | 27 => ⟨S4x2048, .i32⟩
  | 28 => ⟨S_, .i32⟩
  | 29 => ⟨S4x2048, .i32⟩
  | 30 => ⟨S4x2048, .i32⟩
  | 31 => ⟨S_, .i32⟩
  | 32 => ⟨S_, .i32⟩
  | 33 => ⟨S_, .i32⟩
  | 34 => ⟨S4x2048, .i32⟩
  | 35 => ⟨S4x2048, .i32⟩
  | 36 => ⟨S_, .i32⟩
  | 37 => ⟨S4x2048, .i32⟩
  | 38 => ⟨S4x2048, .i32⟩
  | 39 => ⟨S_, .i32⟩
  | 40 => ⟨S4x2048, .i32⟩
  | 41 => ⟨S4x2048, .i1⟩
  | 42 => ⟨S4x2048x1, .i32⟩
  | 43 => ⟨S_, .i32⟩
  | 44 => ⟨S4x2048x1, .i32⟩
  | 45 => ⟨S4x2048x1, .i1⟩
  | 46 => ⟨S_, .i32⟩
  | 47 => ⟨S4x2048x1, .i32⟩
  | 48 => ⟨S4x2048x1, .i32⟩
  | 49 => ⟨S4x2048x1, .i32⟩
  | 50 => ⟨S1, .i32⟩
  | 51 => ⟨S_, .i32⟩
  | 52 => ⟨S4x2048x1, .i32⟩
  | 53 => ⟨S4x2048x1, .i1⟩
  | 54 => ⟨S1x1x1, .i32⟩
  | 55 => ⟨S4x2048x1, .i32⟩
  | 56 => ⟨S4x2048x1, .i1⟩
  | 57 => ⟨S4x2048x1, .i1⟩
  | 58 => ⟨S_, .i1⟩
  | 59 => ⟨S4x2048, .i1⟩
  | 60 => ⟨S4x2048x512, .f32⟩
  | 61 => ⟨S4x2048x512, .i1⟩
  | 62 => ⟨S_, .f32⟩
  | 63 => ⟨S4x2048x512, .f32⟩
  | 64 => ⟨S4x2048x512, .f32⟩
  | 65 => ⟨S4x2048x1, .i1⟩
  | 66 => ⟨S4x2048x1, .f32⟩
  | 67 => ⟨S4x2048x512, .f32⟩
  | 68 => ⟨S4x2048x512, .f32⟩
  | 69 => ⟨S_, .f32⟩
  | 70 => ⟨S4x2048, .f32⟩
  | 71 => ⟨S4x2048, .f32⟩
  | 72 => ⟨S4x2048, .f32⟩
  | 73 => ⟨S_, .f32⟩
  | 74 => ⟨S4x2048, .f32⟩
  | 75 => ⟨S4x2048, .f32⟩
  | 76 => ⟨S4x2048, .f32⟩
  | 77 => ⟨S4x2048x1, .f32⟩
  | 78 => ⟨S4x2048x512, .f32⟩
  | 79 => ⟨S4x2048x512, .f32⟩
  | 80 => ⟨S4x2048x512, .f32⟩
  | _ => ⟨S4x2048x512, .f32⟩

abbrev hbmTy (i : Nat) : BufTy := match i / 128 with
  | 0 => hbmTy0_0 i
  | 1 => hbmTy0_1 i
  | 2 => hbmTy0_2 i
  | _ => ⟨S4x2048x512, .f32⟩

abbrev bufTy : (tb : Table) → Fin (tcTables nBuf tb) → BufTy
  | .hbm, ⟨i, _⟩ => hbmTy i
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_cst_7 : Ref sig .tc := ⟨.hbm, 38, rfl⟩
abbrev main_cst_8 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v27 : Ref sig .tc := ⟨.hbm, 45, rfl⟩
abbrev main_v28 : Ref sig .tc := ⟨.hbm, 46, rfl⟩
abbrev main_c : Ref sig .tc := ⟨.hbm, 47, rfl⟩
abbrev main_v29 : Ref sig .tc := ⟨.hbm, 48, rfl⟩
abbrev main_cst_9 : Ref sig .tc := ⟨.hbm, 49, rfl⟩
abbrev main_v30 : Ref sig .tc := ⟨.hbm, 50, rfl⟩
abbrev main_v31 : Ref sig .tc := ⟨.hbm, 51, rfl⟩
abbrev main_cst_10 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_call1_v0 : Ref sig .tc := ⟨.hbm, 57, rfl⟩
abbrev main_call1_v1_0 : Ref sig .tc := ⟨.hbm, 58, rfl⟩
abbrev main_v36 : Ref sig .tc := ⟨.hbm, 59, rfl⟩
abbrev main_v37 : Ref sig .tc := ⟨.hbm, 60, rfl⟩
abbrev main_c_11 : Ref sig .tc := ⟨.hbm, 61, rfl⟩
abbrev main_v38 : Ref sig .tc := ⟨.hbm, 62, rfl⟩
abbrev main_v39 : Ref sig .tc := ⟨.hbm, 63, rfl⟩
abbrev main_call2_c : Ref sig .tc := ⟨.hbm, 64, rfl⟩
abbrev main_call2_v0 : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_c_1 : Ref sig .tc := ⟨.hbm, 71, rfl⟩
abbrev main_call2_c_2 : Ref sig .tc := ⟨.hbm, 72, rfl⟩
abbrev main_call2_v5 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_call2_v9 : Ref sig .tc := ⟨.hbm, 77, rfl⟩
abbrev main_call2_v10 : Ref sig .tc := ⟨.hbm, 78, rfl⟩
abbrev main_call2_c_3 : Ref sig .tc := ⟨.hbm, 79, rfl⟩
abbrev main_call2_v11 : Ref sig .tc := ⟨.hbm, 80, rfl⟩
abbrev main_call2_v12 : Ref sig .tc := ⟨.hbm, 81, rfl⟩
abbrev main_call2_v13 : Ref sig .tc := ⟨.hbm, 82, rfl⟩
abbrev main_call2_cst : Ref sig .tc := ⟨.hbm, 83, rfl⟩
abbrev main_call2_v14 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_call3_c : Ref sig .tc := ⟨.hbm, 92, rfl⟩
abbrev main_call3_v0 : Ref sig .tc := ⟨.hbm, 93, rfl⟩
abbrev main_call3_v1 : Ref sig .tc := ⟨.hbm, 94, rfl⟩
abbrev main_call3_c_0 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_call3_v5 : Ref sig .tc := ⟨.hbm, 99, rfl⟩
abbrev main_call3_c_1 : Ref sig .tc := ⟨.hbm, 100, rfl⟩
abbrev main_call3_c_2 : Ref sig .tc := ⟨.hbm, 101, rfl⟩
abbrev main_call3_v6 : Ref sig .tc := ⟨.hbm, 102, rfl⟩
abbrev main_call3_v7 : Ref sig .tc := ⟨.hbm, 103, rfl⟩
abbrev main_call3_v8 : Ref sig .tc := ⟨.hbm, 104, rfl⟩
abbrev main_call3_v9 : Ref sig .tc := ⟨.hbm, 105, rfl⟩
abbrev main_call3_v10 : Ref sig .tc := ⟨.hbm, 106, rfl⟩
abbrev main_call3_v11 : Ref sig .tc := ⟨.hbm, 107, rfl⟩
abbrev main_call3_c_3 : Ref sig .tc := ⟨.hbm, 108, rfl⟩
abbrev main_call3_v12 : Ref sig .tc := ⟨.hbm, 109, rfl⟩
abbrev main_call3_v13 : Ref sig .tc := ⟨.hbm, 110, rfl⟩
abbrev main_call3_cst : Ref sig .tc := ⟨.hbm, 111, rfl⟩
abbrev main_call3_v14 : Ref sig .tc := ⟨.hbm, 112, rfl⟩
abbrev main_v47 : Ref sig .tc := ⟨.hbm, 113, rfl⟩
abbrev main_v48 : Ref sig .tc := ⟨.hbm, 114, rfl⟩
abbrev main_v49 : Ref sig .tc := ⟨.hbm, 115, rfl⟩
abbrev main_cst_12 : Ref sig .tc := ⟨.hbm, 116, rfl⟩
abbrev main_v50 : Ref sig .tc := ⟨.hbm, 117, rfl⟩
abbrev main_v51 : Ref sig .tc := ⟨.hbm, 118, rfl⟩
abbrev main_cst_13 : Ref sig .tc := ⟨.hbm, 119, rfl⟩
abbrev main_cst_14 : Ref sig .tc := ⟨.hbm, 120, rfl⟩
abbrev main_call4_v0 : Ref sig .tc := ⟨.hbm, 121, rfl⟩
abbrev main_call4_v1 : Ref sig .tc := ⟨.hbm, 122, rfl⟩
abbrev main_call4_v2 : Ref sig .tc := ⟨.hbm, 123, rfl⟩
abbrev main_call4_v3 : Ref sig .tc := ⟨.hbm, 124, rfl⟩
abbrev main_call4_v4 : Ref sig .tc := ⟨.hbm, 125, rfl⟩
abbrev main_v52 : Ref sig .tc := ⟨.hbm, 126, rfl⟩
abbrev main_cst_15 : Ref sig .tc := ⟨.hbm, 127, rfl⟩
abbrev main_v53 : Ref sig .tc := ⟨.hbm, 128, rfl⟩
abbrev main_v54 : Ref sig .tc := ⟨.hbm, 129, rfl⟩
abbrev main_v55 : Ref sig .tc := ⟨.hbm, 130, rfl⟩
abbrev main_cst_16 : Ref sig .tc := ⟨.hbm, 131, rfl⟩
abbrev main_v56 : Ref sig .tc := ⟨.hbm, 132, rfl⟩
abbrev main_v57 : Ref sig .tc := ⟨.hbm, 133, rfl⟩
abbrev main_v58 : Ref sig .tc := ⟨.hbm, 134, rfl⟩
abbrev main_v59 : Ref sig .tc := ⟨.hbm, 135, rfl⟩
abbrev main_v60 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_v64 : Ref sig .tc := ⟨.hbm, 140, rfl⟩
abbrev main_v65 : Ref sig .tc := ⟨.hbm, 141, rfl⟩
abbrev main_v66 : Ref sig .tc := ⟨.hbm, 142, rfl⟩
abbrev main_v67 : Ref sig .tc := ⟨.hbm, 143, rfl⟩
abbrev main_v68 : Ref sig .tc := ⟨.hbm, 144, rfl⟩
abbrev main_v69 : Ref sig .tc := ⟨.hbm, 145, rfl⟩
abbrev main_v70 : Ref sig .tc := ⟨.hbm, 146, rfl⟩
abbrev main_v71 : Ref sig .tc := ⟨.hbm, 147, rfl⟩
abbrev main_v72 : Ref sig .tc := ⟨.hbm, 148, rfl⟩
abbrev main_v73 : Ref sig .tc := ⟨.hbm, 149, rfl⟩
abbrev main_v74 : Ref sig .tc := ⟨.hbm, 150, rfl⟩
abbrev main_v75 : Ref sig .tc := ⟨.hbm, 151, rfl⟩
abbrev main_v76 : Ref sig .tc := ⟨.hbm, 152, rfl⟩
abbrev main_v77 : Ref sig .tc := ⟨.hbm, 153, rfl⟩
abbrev main_v78 : Ref sig .tc := ⟨.hbm, 154, rfl⟩
abbrev main_v79 : Ref sig .tc := ⟨.hbm, 155, rfl⟩
abbrev main_v80 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩
abbrev main_v84 : Ref sig .tc := ⟨.hbm, 160, rfl⟩
abbrev main_v85 : Ref sig .tc := ⟨.hbm, 161, rfl⟩
abbrev main_v86 : Ref sig .tc := ⟨.hbm, 162, rfl⟩
abbrev main_v87 : Ref sig .tc := ⟨.hbm, 163, rfl⟩
abbrev main_v88 : Ref sig .tc := ⟨.hbm, 164, rfl⟩
abbrev main_v89 : Ref sig .tc := ⟨.hbm, 165, rfl⟩
abbrev main_v90 : Ref sig .tc := ⟨.hbm, 166, rfl⟩
abbrev main_v91 : Ref sig .tc := ⟨.hbm, 167, rfl⟩
abbrev main_v92 : Ref sig .tc := ⟨.hbm, 168, rfl⟩
abbrev main_v93 : Ref sig .tc := ⟨.hbm, 169, rfl⟩
abbrev main_v94 : Ref sig .tc := ⟨.hbm, 170, rfl⟩
abbrev main_v95 : Ref sig .tc := ⟨.hbm, 171, rfl⟩
abbrev main_v96 : Ref sig .tc := ⟨.hbm, 172, rfl⟩
abbrev main_v97 : Ref sig .tc := ⟨.hbm, 173, rfl⟩
abbrev main_v98 : Ref sig .tc := ⟨.hbm, 174, rfl⟩
abbrev main_v99 : Ref sig .tc := ⟨.hbm, 175, rfl⟩
abbrev main_v100 : Ref sig .tc := ⟨.hbm, 176, rfl⟩
abbrev main_v101 : Ref sig .tc := ⟨.hbm, 177, rfl⟩
abbrev main_v102 : Ref sig .tc := ⟨.hbm, 178, rfl⟩
abbrev main_v103 : Ref sig .tc := ⟨.hbm, 179, rfl⟩
abbrev main_v104 : Ref sig .tc := ⟨.hbm, 180, rfl⟩
abbrev main_v105 : Ref sig .tc := ⟨.hbm, 181, rfl⟩
abbrev main_v106 : Ref sig .tc := ⟨.hbm, 182, rfl⟩
abbrev main_v107 : Ref sig .tc := ⟨.hbm, 183, rfl⟩
abbrev main_v108 : Ref sig .tc := ⟨.hbm, 184, rfl⟩
abbrev main_v109 : Ref sig .tc := ⟨.hbm, 185, rfl⟩
abbrev main_v110 : Ref sig .tc := ⟨.hbm, 186, rfl⟩
abbrev main_v111 : Ref sig .tc := ⟨.hbm, 187, rfl⟩
abbrev main_v112 : Ref sig .tc := ⟨.hbm, 188, rfl⟩
abbrev main_v113 : Ref sig .tc := ⟨.hbm, 189, rfl⟩
abbrev main_v114 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_v118 : Ref sig .tc := ⟨.hbm, 194, rfl⟩
abbrev main_v119 : Ref sig .tc := ⟨.hbm, 195, rfl⟩
abbrev main_v120 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩
abbrev main_v124 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_v128 : Ref sig .tc := ⟨.hbm, 204, rfl⟩
abbrev main_v129 : Ref sig .tc := ⟨.hbm, 205, rfl⟩
abbrev main_v130 : Ref sig .tc := ⟨.hbm, 206, rfl⟩
abbrev main_v131 : Ref sig .tc := ⟨.hbm, 207, rfl⟩
abbrev main_v132 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_v141 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_v146 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_v150 : Ref sig .tc := ⟨.hbm, 226, rfl⟩
abbrev main_v151 : Ref sig .tc := ⟨.hbm, 227, rfl⟩
abbrev main_v152 : Ref sig .tc := ⟨.hbm, 228, rfl⟩
abbrev main_v153 : Ref sig .tc := ⟨.hbm, 229, rfl⟩
abbrev main_v154 : Ref sig .tc := ⟨.hbm, 230, rfl⟩
abbrev main_v155 : Ref sig .tc := ⟨.hbm, 231, rfl⟩
abbrev main_v156 : Ref sig .tc := ⟨.hbm, 232, rfl⟩
abbrev main_v157 : Ref sig .tc := ⟨.hbm, 233, rfl⟩
abbrev main_v158 : Ref sig .tc := ⟨.hbm, 234, rfl⟩
abbrev main_v159 : Ref sig .tc := ⟨.hbm, 235, rfl⟩
abbrev main_v160 : Ref sig .tc := ⟨.hbm, 236, rfl⟩
abbrev main_v161 : Ref sig .tc := ⟨.hbm, 237, rfl⟩
abbrev main_v162 : Ref sig .tc := ⟨.hbm, 238, rfl⟩
abbrev main_v163 : Ref sig .tc := ⟨.hbm, 239, rfl⟩
abbrev main_v164 : Ref sig .tc := ⟨.hbm, 240, rfl⟩
abbrev main_v165 : Ref sig .tc := ⟨.hbm, 241, rfl⟩
abbrev main_v166 : Ref sig .tc := ⟨.hbm, 242, rfl⟩
abbrev main_v167 : Ref sig .tc := ⟨.hbm, 243, rfl⟩
abbrev main_v168 : Ref sig .tc := ⟨.hbm, 244, rfl⟩
abbrev main_v169 : Ref sig .tc := ⟨.hbm, 245, rfl⟩
abbrev main_v170 : Ref sig .tc := ⟨.hbm, 246, rfl⟩
abbrev main_v171 : Ref sig .tc := ⟨.hbm, 247, rfl⟩
abbrev main_v172 : Ref sig .tc := ⟨.hbm, 248, rfl⟩
abbrev main_v173 : Ref sig .tc := ⟨.hbm, 249, rfl⟩
abbrev main_v174 : Ref sig .tc := ⟨.hbm, 250, rfl⟩
abbrev main_v175 : Ref sig .tc := ⟨.hbm, 251, rfl⟩
abbrev main_v176 : Ref sig .tc := ⟨.hbm, 252, rfl⟩
abbrev main_v177 : Ref sig .tc := ⟨.hbm, 253, rfl⟩
abbrev main_v178 : Ref sig .tc := ⟨.hbm, 254, rfl⟩
abbrev main_v179 : Ref sig .tc := ⟨.hbm, 255, rfl⟩
abbrev main_v180 : Ref sig .tc := ⟨.hbm, 256, rfl⟩
abbrev main_v181 : Ref sig .tc := ⟨.hbm, 257, rfl⟩
abbrev main_v182 : Ref sig .tc := ⟨.hbm, 258, rfl⟩
abbrev main_v183 : Ref sig .tc := ⟨.hbm, 259, rfl⟩
abbrev main_v184 : Ref sig .tc := ⟨.hbm, 260, rfl⟩
abbrev main_v185 : Ref sig .tc := ⟨.hbm, 261, rfl⟩
abbrev main_v186 : Ref sig .tc := ⟨.hbm, 262, rfl⟩
abbrev main_v187 : Ref sig .tc := ⟨.hbm, 263, rfl⟩
abbrev main_v188 : Ref sig .tc := ⟨.hbm, 264, rfl⟩
abbrev main_v189 : Ref sig .tc := ⟨.hbm, 265, rfl⟩
abbrev main_v190 : Ref sig .tc := ⟨.hbm, 266, rfl⟩
abbrev main_v191 : Ref sig .tc := ⟨.hbm, 267, rfl⟩
abbrev main_v192 : Ref sig .tc := ⟨.hbm, 268, rfl⟩
abbrev main_v193 : Ref sig .tc := ⟨.hbm, 269, rfl⟩
abbrev main_v194 : Ref sig .tc := ⟨.hbm, 270, rfl⟩
abbrev main_v195 : Ref sig .tc := ⟨.hbm, 271, rfl⟩
abbrev main_v196 : Ref sig .tc := ⟨.hbm, 272, rfl⟩
abbrev main_v197 : Ref sig .tc := ⟨.hbm, 273, rfl⟩
abbrev main_v198 : Ref sig .tc := ⟨.hbm, 274, rfl⟩
abbrev main_v199 : Ref sig .tc := ⟨.hbm, 275, rfl⟩
abbrev main_v200 : Ref sig .tc := ⟨.hbm, 276, rfl⟩
abbrev main_v201 : Ref sig .tc := ⟨.hbm, 277, rfl⟩
abbrev main_v202 : Ref sig .tc := ⟨.hbm, 278, rfl⟩
abbrev main_v203 : Ref sig .tc := ⟨.hbm, 279, rfl⟩
abbrev main_v204 : Ref sig .tc := ⟨.hbm, 280, rfl⟩
abbrev main_call5_call0_c : Ref sig .tc := ⟨.hbm, 281, rfl⟩
abbrev main_call5_call0_v0 : Ref sig .tc := ⟨.hbm, 282, rfl⟩
abbrev main_v205 : Ref sig .tc := ⟨.hbm, 283, rfl⟩
abbrev main_c_17 : Ref sig .tc := ⟨.hbm, 284, rfl⟩
abbrev main_v206 : Ref sig .tc := ⟨.hbm, 285, rfl⟩
abbrev main_v207 : Ref sig .tc := ⟨.hbm, 286, rfl⟩
abbrev main_c_18 : Ref sig .tc := ⟨.hbm, 287, rfl⟩
abbrev main_c_19 : Ref sig .tc := ⟨.hbm, 288, rfl⟩
abbrev main_call6_v0 : Ref sig .tc := ⟨.hbm, 289, rfl⟩
abbrev main_call6_v1 : Ref sig .tc := ⟨.hbm, 290, rfl⟩
abbrev main_call6_v2 : Ref sig .tc := ⟨.hbm, 291, rfl⟩
abbrev main_call6_v3 : Ref sig .tc := ⟨.hbm, 292, rfl⟩
abbrev main_call6_v4 : Ref sig .tc := ⟨.hbm, 293, rfl⟩
abbrev main_v208 : Ref sig .tc := ⟨.hbm, 294, rfl⟩
abbrev main_c_20 : Ref sig .tc := ⟨.hbm, 295, rfl⟩
abbrev main_v209 : Ref sig .tc := ⟨.hbm, 296, rfl⟩
abbrev main_v210 : Ref sig .tc := ⟨.hbm, 297, rfl⟩
abbrev main_v211 : Ref sig .tc := ⟨.hbm, 298, rfl⟩
abbrev main_call7_c : Ref sig .tc := ⟨.hbm, 299, rfl⟩
abbrev main_call7_v0 : Ref sig .tc := ⟨.hbm, 300, rfl⟩
abbrev main_call7_v1 : Ref sig .tc := ⟨.hbm, 301, rfl⟩
abbrev main_call7_c_0 : Ref sig .tc := ⟨.hbm, 302, rfl⟩
abbrev main_call7_v2 : Ref sig .tc := ⟨.hbm, 303, rfl⟩
abbrev main_call7_v3 : Ref sig .tc := ⟨.hbm, 304, rfl⟩
abbrev main_call7_v4 : Ref sig .tc := ⟨.hbm, 305, rfl⟩
abbrev main_call7_c_1 : Ref sig .tc := ⟨.hbm, 306, rfl⟩
abbrev main_call7_c_2 : Ref sig .tc := ⟨.hbm, 307, rfl⟩
abbrev main_call7_v5 : Ref sig .tc := ⟨.hbm, 308, rfl⟩
abbrev main_call7_v6 : Ref sig .tc := ⟨.hbm, 309, rfl⟩
abbrev main_call7_v7 : Ref sig .tc := ⟨.hbm, 310, rfl⟩
abbrev main_call7_v8 : Ref sig .tc := ⟨.hbm, 311, rfl⟩
abbrev main_call7_v9 : Ref sig .tc := ⟨.hbm, 312, rfl⟩
abbrev main_call7_v10 : Ref sig .tc := ⟨.hbm, 313, rfl⟩
abbrev main_call7_c_3 : Ref sig .tc := ⟨.hbm, 314, rfl⟩
abbrev main_call7_v11 : Ref sig .tc := ⟨.hbm, 315, rfl⟩
abbrev main_call7_v12 : Ref sig .tc := ⟨.hbm, 316, rfl⟩
abbrev main_call7_v13 : Ref sig .tc := ⟨.hbm, 317, rfl⟩
abbrev main_call7_cst : Ref sig .tc := ⟨.hbm, 318, rfl⟩
abbrev main_call7_v14 : Ref sig .tc := ⟨.hbm, 319, rfl⟩
abbrev main_v212 : Ref sig .tc := ⟨.hbm, 320, rfl⟩
abbrev main_v213 : Ref sig .tc := ⟨.hbm, 321, rfl⟩
abbrev main_v214 : Ref sig .tc := ⟨.hbm, 322, rfl⟩
abbrev main_v215 : Ref sig .tc := ⟨.hbm, 323, rfl⟩
abbrev main_v216 : Ref sig .tc := ⟨.hbm, 324, rfl⟩
abbrev main_cst_21 : Ref sig .tc := ⟨.hbm, 325, rfl⟩
abbrev main_v217 : Ref sig .tc := ⟨.hbm, 326, rfl⟩
abbrev main_v218 : Ref sig .tc := ⟨.hbm, 327, rfl⟩
abbrev main_v219 : Ref sig .tc := ⟨.hbm, 328, rfl⟩
abbrev main_cst_22 : Ref sig .tc := ⟨.hbm, 329, rfl⟩
abbrev main_v220 : Ref sig .tc := ⟨.hbm, 330, rfl⟩
abbrev main_v221 : Ref sig .tc := ⟨.hbm, 331, rfl⟩
abbrev main_v222 : Ref sig .tc := ⟨.hbm, 332, rfl⟩
abbrev main_v223 : Ref sig .tc := ⟨.hbm, 333, rfl⟩
abbrev main_v224 : Ref sig .tc := ⟨.hbm, 334, rfl⟩
abbrev main_v225 : Ref sig .tc := ⟨.hbm, 335, rfl⟩
abbrev main_v226 : Ref sig .tc := ⟨.hbm, 336, rfl⟩

abbrev nD : Nat := 1
abbrev τ : Topo := Topo.v7x

variable {F : FTy → Type} [FloatOps F]

class Facts₀ : Prop where
  slices_S4x2048x512_S4x2047x512_0_0_0 : S4x2048x512.Slices ![0, 0, 0] S4x2047x512
  reducesTo_S4x2047x512_S4x2047_d2 : S4x2047x512.ReducesTo [2] S4x2047
  h_S_ : 0 < S_.numel
  bcast_S4x2047_S4x2047x1_0_1 : S4x2047.BroadcastsInDim S4x2047x1 (![0, 1] : Fin 2 → Fin S4x2047x1.rank)
  bcast_S_S4x2047x1 : S_.BroadcastsInDim S4x2047x1 (![] : Fin 0 → Fin S4x2047x1.rank)
  bcast_S4x2047x1_S4x2047x512_0_1_2 : S4x2047x1.BroadcastsInDim S4x2047x512 (![0, 1, 2] : Fin 3 → Fin S4x2047x512.rank)
  slices_S4x2048x512_S4x2047x512_0_1_0 : S4x2048x512.Slices ![0, 1, 0] S4x2047x512
  bcast_S_S4x1 : S_.BroadcastsInDim S4x1 (![] : Fin 0 → Fin S4x1.rank)
  bcast_S_S4x2047 : S_.BroadcastsInDim S4x2047 (![] : Fin 0 → Fin S4x2047.rank)
  concatenates_S4x1_S4x2047_S4x2048_d1 : Shape.Concatenates [S4x1, S4x2047] S4x2048 1
  bcast_S_S1 : S_.BroadcastsInDim S1 (![] : Fin 0 → Fin S1.rank)
  bcast_S_S4 : S_.BroadcastsInDim S4 (![] : Fin 0 → Fin S4.rank)
  bcast_S_S4x2048 : S_.BroadcastsInDim S4x2048 (![] : Fin 0 → Fin S4x2048.rank)
  natLt_1_32 : 1 < 32
  reducesTo_S4x2048_S4_d1 : S4x2048.ReducesTo [1] S4
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S1_S1x1x1_2 : S1.BroadcastsInDim S1x1x1 (![2] : Fin 1 → Fin S1x1x1.rank)
  bcast_S1x1x1_S4x2048x1_0_1_2 : S1x1x1.BroadcastsInDim S4x2048x1 (![0, 1, 2] : Fin 3 → Fin S4x2048x1.rank)
  reducesTo_S4x2048x1_S4x2048_d2 : S4x2048x1.ReducesTo [2] S4x2048
  bcast_S4x2048_S4x2048x512_0_1 : S4x2048.BroadcastsInDim S4x2048x512 (![0, 1] : Fin 2 → Fin S4x2048x512.rank)
  bcast_S_S4x2048x512 : S_.BroadcastsInDim S4x2048x512 (![] : Fin 0 → Fin S4x2048x512.rank)
  bcast_S2048_S1x2048_1 : S2048.BroadcastsInDim S1x2048 (![1] : Fin 1 → Fin S1x2048.rank)
  bcast_S4_S4x1_0 : S4.BroadcastsInDim S4x1 (![0] : Fin 1 → Fin S4x1.rank)
  bcast_S1x2048_S4x2048_0_1 : S1x2048.BroadcastsInDim S4x2048 (![0, 1] : Fin 2 → Fin S4x2048.rank)
  bcast_S4x1_S4x2048_0_1 : S4x1.BroadcastsInDim S4x2048 (![0, 1] : Fin 2 → Fin S4x2048.rank)
  shapeCasts_S4x2048_S4x2048x1 : S4x2048.ShapeCasts S4x2048x1
  bcast_S_S4x512 : S_.BroadcastsInDim S4x512 (![] : Fin 0 → Fin S4x512.rank)
  bcast_S4x2048x1_S4x2048x512_0_1_2 : S4x2048x1.BroadcastsInDim S4x2048x512 (![0, 1, 2] : Fin 3 → Fin S4x2048x512.rank)
  slices_S4x2048x512_S4x1x512_0_0_0 : S4x2048x512.Slices ![0, 0, 0] S4x1x512
  bcast_S4x512_S4x1x512_0_2 : S4x512.BroadcastsInDim S4x1x512 (![0, 2] : Fin 2 → Fin S4x1x512.rank)
  concatenates_S4x1x512_S4x2047x512_S4x2048x512_d1 : Shape.Concatenates [S4x1x512, S4x2047x512] S4x2048x512 1
  slices_S4x2048x512_S4x2x512_0_0_0 : S4x2048x512.Slices ![0, 0, 0] S4x2x512
  slices_S4x2048x512_S4x2046x512_0_2_0 : S4x2048x512.Slices ![0, 2, 0] S4x2046x512
  slices_S4x2048x512_S4x2046x512_0_0_0 : S4x2048x512.Slices ![0, 0, 0] S4x2046x512
  concatenates_S4x2x512_S4x2046x512_S4x2048x512_d1 : Shape.Concatenates [S4x2x512, S4x2046x512] S4x2048x512 1
  slices_S4x2048x512_S4x4x512_0_0_0 : S4x2048x512.Slices ![0, 0, 0] S4x4x512
  slices_S4x2048x512_S4x2044x512_0_4_0 : S4x2048x512.Slices ![0, 4, 0] S4x2044x512
  slices_S4x2048x512_S4x2044x512_0_0_0 : S4x2048x512.Slices ![0, 0, 0] S4x2044x512
  concatenates_S4x4x512_S4x2044x512_S4x2048x512_d1 : Shape.Concatenates [S4x4x512, S4x2044x512] S4x2048x512 1
  slices_S4x2048x512_S4x8x512_0_0_0 : S4x2048x512.Slices ![0, 0, 0] S4x8x512
  slices_S4x2048x512_S4x2040x512_0_8_0 : S4x2048x512.Slices ![0, 8, 0] S4x2040x512
  slices_S4x2048x512_S4x2040x512_0_0_0 : S4x2048x512.Slices ![0, 0, 0] S4x2040x512
  concatenates_S4x8x512_S4x2040x512_S4x2048x512_d1 : Shape.Concatenates [S4x8x512, S4x2040x512] S4x2048x512 1
  slices_S4x2048x512_S4x16x512_0_0_0 : S4x2048x512.Slices ![0, 0, 0] S4x16x512
  slices_S4x2048x512_S4x2032x512_0_16_0 : S4x2048x512.Slices ![0, 16, 0] S4x2032x512
  slices_S4x2048x512_S4x2032x512_0_0_0 : S4x2048x512.Slices ![0, 0, 0] S4x2032x512
  concatenates_S4x16x512_S4x2032x512_S4x2048x512_d1 : Shape.Concatenates [S4x16x512, S4x2032x512] S4x2048x512 1
  slices_S4x2048x512_S4x32x512_0_0_0 : S4x2048x512.Slices ![0, 0, 0] S4x32x512
  slices_S4x2048x512_S4x2016x512_0_32_0 : S4x2048x512.Slices ![0, 32, 0] S4x2016x512
  slices_S4x2048x512_S4x2016x512_0_0_0 : S4x2048x512.Slices ![0, 0, 0] S4x2016x512
  concatenates_S4x32x512_S4x2016x512_S4x2048x512_d1 : Shape.Concatenates [S4x32x512, S4x2016x512] S4x2048x512 1
  slices_S4x2048x512_S4x64x512_0_0_0 : S4x2048x512.Slices ![0, 0, 0] S4x64x512
  slices_S4x2048x512_S4x1984x512_0_64_0 : S4x2048x512.Slices ![0, 64, 0] S4x1984x512
  slices_S4x2048x512_S4x1984x512_0_0_0 : S4x2048x512.Slices ![0, 0, 0] S4x1984x512
  concatenates_S4x64x512_S4x1984x512_S4x2048x512_d1 : Shape.Concatenates [S4x64x512, S4x1984x512] S4x2048x512 1
  slices_S4x2048x512_S4x128x512_0_0_0 : S4x2048x512.Slices ![0, 0, 0] S4x128x512
  slices_S4x2048x512_S4x1920x512_0_128_0 : S4x2048x512.Slices ![0, 128, 0] S4x1920x512
  slices_S4x2048x512_S4x1920x512_0_0_0 : S4x2048x512.Slices ![0, 0, 0] S4x1920x512
  concatenates_S4x128x512_S4x1920x512_S4x2048x512_d1 : Shape.Concatenates [S4x128x512, S4x1920x512] S4x2048x512 1
  slices_S4x2048x512_S4x256x512_0_0_0 : S4x2048x512.Slices ![0, 0, 0] S4x256x512
  slices_S4x2048x512_S4x1792x512_0_256_0 : S4x2048x512.Slices ![0, 256, 0] S4x1792x512
  slices_S4x2048x512_S4x1792x512_0_0_0 : S4x2048x512.Slices ![0, 0, 0] S4x1792x512
  concatenates_S4x256x512_S4x1792x512_S4x2048x512_d1 : Shape.Concatenates [S4x256x512, S4x1792x512] S4x2048x512 1
  slices_S4x2048x512_S4x512x512_0_0_0 : S4x2048x512.Slices ![0, 0, 0] S4x512x512
  slices_S4x2048x512_S4x1536x512_0_512_0 : S4x2048x512.Slices ![0, 512, 0] S4x1536x512
  slices_S4x2048x512_S4x1536x512_0_0_0 : S4x2048x512.Slices ![0, 0, 0] S4x1536x512
  concatenates_S4x512x512_S4x1536x512_S4x2048x512_d1 : Shape.Concatenates [S4x512x512, S4x1536x512] S4x2048x512 1
  slices_S4x2048x512_S4x1024x512_0_0_0 : S4x2048x512.Slices ![0, 0, 0] S4x1024x512
  slices_S4x2048x512_S4x1024x512_0_1024_0 : S4x2048x512.Slices ![0, 1024, 0] S4x1024x512
  concatenates_S4x1024x512_S4x1024x512_S4x2048x512_d1 : Shape.Concatenates [S4x1024x512, S4x1024x512] S4x2048x512 1
  bcast_S_S_ : S_.BroadcastsInDim S_ (![] : Fin 0 → Fin S_.rank)
  reduceWindows_S4x2048_S4x2048_w1s1p0_0_w2048s1p2047_0 : S4x2048.ReduceWindows (![1, 2048] : Fin 2 → Nat) ![1, 1] ![0, 2047] ![0, 0] S4x2048
  dot_S4x2047x512_S512x512_S4x2047x512_2_1_01_0_n_n_wf : DotDims.WF S4x2047x512 S512x512 S4x2047x512 [2] [1] [0, 1] [0] [] []
  scatter_S4x2048_S1_S4_0_1_1_0_wf : ScatterDims.WF S4x2048 S1 S4 [0] [1] [1] 0
  gather_S4x2048x512_S4x2048x1_S4x2048x512_2_1_0_0_1_2_11512_wf : GatherDims.WF S4x2048x512 S4x2048x1 S4x2048x512 [2] [1] [0] [1] [0] 2 ![1, 1, 512]
  gather_S4x2048_S4x2048x1_S4x2048_n_1_0_0_1_2_11_wf : GatherDims.WF S4x2048 S4x2048x1 S4x2048 [] [1] [0] [1] [0] 2 ![1, 1]

variable [Facts₀]

def dot_S4x2047x512_S512x512_S4x2047x512_2_1_01_0_n_n : DotDims S4x2047x512 S512x512 S4x2047x512 where
  lhsContracting := [2]
  rhsContracting := [1]
  lhsNonContracting := [0, 1]
  rhsNonContracting := [0]
  lhsBatch := []
  rhsBatch := []
  wf := dot_S4x2047x512_S512x512_S4x2047x512_2_1_01_0_n_n_wf
def scatter_S4x2048_S1_S4_0_1_1_0 : ScatterDims S4x2048 S1 S4 where
  updateWindowDims := [0]
  insertedWindowDims := [1]
  scatterDimsToOperandDims := [1]
  indexVectorDim := 0
  wf := scatter_S4x2048_S1_S4_0_1_1_0_wf
def comparator_i32_i32_d1 : BitVec 32 × BitVec 32 → BitVec 32 × BitVec 32 → BitVec 1 :=
  fun l r =>
    let v2 := IntOp.cmpi .slt l.1 r.1
    v2
def gather_S4x2048x512_S4x2048x1_S4x2048x512_2_1_0_0_1_2_11512 : GatherDims S4x2048x512 S4x2048x1 S4x2048x512 where
  offsetDims := [2]
  collapsedSliceDims := [1]
  operandBatchingDims := [0]
  startIndicesBatchingDims := [0]
  startIndexMap := [1]
  indexVectorDim := 2
  sliceSizes := ![1, 1, 512]
  wf := gather_S4x2048x512_S4x2048x1_S4x2048x512_2_1_0_0_1_2_11512_wf
def gather_S4x2048_S4x2048x1_S4x2048_n_1_0_0_1_2_11 : GatherDims S4x2048 S4x2048x1 S4x2048 where
  offsetDims := []
  collapsedSliceDims := [1]
  operandBatchingDims := [0]
  startIndicesBatchingDims := [0]
  startIndexMap := [1]
  indexVectorDim := 2
  sliceSizes := ![1, 1]
  wf := gather_S4x2048_S4x2048x1_S4x2048_n_1_0_0_1_2_11_wf

class Facts : Prop extends Facts₀ where

variable [Facts]
-- ==== Proof.KernelBody.lean ====
/-
  The kernel's result array as ONE function of the argument arrays: grid point b stages sequence b of the
  first argument and the two weight matrices transposed by the host, and writes back the body's value of them
  as block b of the result. `kbody` is that value — the body's arithmetic as one pure term of the three staged
  blocks —, `KOut` the whole array, `run` the program's run ending there.
-/
import proofs.«173479_g14800457302192_cont_week2b_463_2_alg».proof.Proof.Gen.KernelIdeal.Value
import Idealize.ShloMosaic.Lib.ValueIdx

noncomputable section

namespace Cert.KernelIdeal.KVal

open Cert.KernelIdeal Cert.KernelIdeal.Gen Idealize.ShloMosaic Idealize.ShloMosaic.TcCoe Idealize.SL.Sem
open Idealize.ShloMosaic.ValueIdx

variable {F : FTy → Type} [FloatOps F]

/-- The body after the router: from the sequence `v1` (rows × width) and the clipped half-complement cosines
    `v38` (one per row), the sequence plus its scanned state, as the staged block's shape. -/
def kRest (v1 : FVec F S2048x512 .f32) (v38 : FVec F S2048x1 .f32) : FVec F S1x2048x512 .f32 :=
  k0_pay1 v1 (k0_pay19 (k0_pay9 v1 v38) (k0_pay10 v38) (k0_pay11 v1 v38) (k0_pay12 (F := F)) (k0_pay13 v38))
    (k0_pay20 (k0_pay10 v38) (k0_pay12 (F := F)) (k0_pay13 v38)) (Scalar.ofBits .f32 0x00000000#32)

/-- The body's value of its three staged blocks. -/
def kbody (x0 : Vec F S1x2048x512 .f32) (x1 : Vec F S512x512 .f32) (x2 : Vec F S512x512 .f32) : Vec F S1x2048x512 .f32 :=
  kRest (k0_pay2 x0) (k0_pay3 x0 x1 x2)

/-- The whole result array: entry (b, l, d) is the body's value at (0, l, d) of sequence b and the transposed weights. -/
def KOut (x : FVec F S4x2048x512 .f32) (wq wk : FVec F S512x512 .f32) : FVec F S4x2048x512 .f32 :=
  fun i => kbody (fun y : S1x2048x512.Idx => x (ix3 (i 0) (y 1) (y 2)))
    (transpose S512x512 [1, 0] wq Facts₀.transposes_S512x512_S512x512_1_0)
    (transpose S512x512 [1, 0] wk Facts₀.transposes_S512x512_S512x512_1_0) (ix3 0 (i 1) (i 2))

/-- The zero offsets of the rank-3 block's one rectangle. -/
theorem zero3 : (![0, 0, 0] : Fin 3 → Nat) = fun _ => 0 := funext fun a => by fin_cases a <;> rfl
/-- The zero offsets of a weight matrix's one rectangle. -/
theorem zero2 : (![0, 0] : Fin 2 → Nat) = fun _ => 0 := funext fun a => by fin_cases a <;> rfl

/-- One store over the whole block, every load over a whole block: what the body leaves in the result's
    staging block is `kbody` of the three staged blocks. -/
theorem out_eq_kbody (x0 : Vec F S1x2048x512 .f32) (x1 : Vec F S512x512 .f32) (x2 : Vec F S512x512 .f32) :
    out0_3 x0 x1 x2 = kbody x0 x1 x2 := by
  unfold out0_3
  rw [View.canon_unit_zero zero3]
  simp only [View.ld_unit_zero (S := S1x2048x512) zero3, View.ld_unit_zero (S := S512x512) zero2]
  rfl

variable (m : (ℓ : Loc nD τ sig) → Buf (Elt F) ℓ) (ρ : Dev nD → PrngReg)

/-- The printed index maps, decided over the four grid points: the sequence's block and the result's block are both
    block (b, 0, 0) at point b, the weights' windows are the whole matrices. -/
theorem index_facts : ∀ t : Fin cfg0.N, win0_0.index t (0 : Fin 3) = win0_3.index t (0 : Fin 3)
    ∧ win0_0.index t (1 : Fin 3) = 0 ∧ win0_0.index t (2 : Fin 3) = 0
    ∧ win0_3.index t (1 : Fin 3) = 0 ∧ win0_3.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val :=
  (by decide +kernel : ∀ t : Fin grid0.N, _)

/-- The first weight matrix as the region finds it: the host's transpose of the second argument. -/
theorem weights_q (c : Dev nD) : (V m c main_v0 : S512x512.Idx → Elt F .f32)
    = transpose S512x512 [1, 0] (m ((c : Thread nD τ).loc main_arg1)) Facts₀.transposes_S512x512_S512x512_1_0 := by
  dsimp only [Gen.V, Gen.hostOps0]; after_results

/-- The second weight matrix as the region finds it: the host's transpose of the third argument. -/
theorem weights_k (c : Dev nD) : (V m c main_v1 : S512x512.Idx → Elt F .f32)
    = transpose S512x512 [1, 0] (m ((c : Thread nD τ).loc main_arg2)) Facts₀.transposes_S512x512_S512x512_1_0 := by
  dsimp only [Gen.V, Gen.hostOps0]; after_results

/-- The staged sequence at point t, read at y, is the first argument at (block index of t, y 1, y 2); with i any
    index of the result array inside point t's block, that is row i 0 of the argument. -/
theorem seq_block (c : Dev nD) (t : Fin cfg0.N) (i : S4x2048x512.Idx) (hi : (i 0).val = win0_3.index t (0 : Fin 3)) :
    (iblk m c 0 t : Vec F S1x2048x512 .f32)
      = fun y : S1x2048x512.Idx => (m ((c : Thread nD τ).loc main_arg0) : S4x2048x512.Idx → Elt F .f32) (ix3 (i 0) (y 1) (y 2)) := by
  obtain ⟨e0, e1, e2, -⟩ := index_facts t
  funext y
  show V m c main_arg0 (((cfg0.win 0).blk t).view.emb y) = _
  rw [V_main_arg0]
  refine congrArg (m ((c : Thread nD τ).loc main_arg0) : S4x2048x512.Idx → Elt F .f32) ?_
  funext a; apply Fin.ext
  match a with
  | ⟨0, _⟩ => show win0_0.index t (0 : Fin 3) * 1 + 1 * (y 0).val = (i 0).val; have hy : (y 0).val < 1 := (y 0).isLt; omega
  | ⟨1, _⟩ => show win0_0.index t (1 : Fin 3) * 2048 + 1 * (y 1).val = (y 1).val; omega
  | ⟨2, _⟩ => show win0_0.index t (2 : Fin 3) * 512 + 1 * (y 2).val = (y 2).val; omega

/-- The first staged weight block is the whole transposed matrix. -/
theorem wq_block (c : Dev nD) (t : Fin cfg0.N) : (iblk m c 1 t : Vec F S512x512 .f32)
    = transpose S512x512 [1, 0] (m ((c : Thread nD τ).loc main_arg1)) Facts₀.transposes_S512x512_S512x512_1_0 := by
  obtain ⟨-, -, -, -, -, e0, e1, -⟩ := index_facts t
  rw [← weights_q m c]
  funext y
  show V m c main_v0 (((cfg0.win 1).blk t).view.emb y) = V m c main_v0 y
  refine congrArg (V m c main_v0 : S512x512.Idx → Elt F .f32) ?_
  funext a; apply Fin.ext
  match a with
  | ⟨0, _⟩ => show win0_1.index t (0 : Fin 2) * 512 + 1 * (y 0).val = (y 0).val; omega
  | ⟨1, _⟩ => show win0_1.index t (1 : Fin 2) * 512 + 1 * (y 1).val = (y 1).val; omega

/-- The second staged weight block is the whole transposed matrix. -/
theorem wk_block (c : Dev nD) (t : Fin cfg0.N) : (iblk m c 2 t : Vec F S512x512 .f32)
    = transpose S512x512 [1, 0] (m ((c : Thread nD τ).loc main_arg2)) Facts₀.transposes_S512x512_S512x512_1_0 := by
  obtain ⟨-, -, -, -, -, -, -, e0, e1, -⟩ := index_facts t
  rw [← weights_k m c]
  funext y
  show V m c main_v1 (((cfg0.win 2).blk t).view.emb y) = V m c main_v1 y
  refine congrArg (V m c main_v1 : S512x512.Idx → Elt F .f32) ?_
  funext a; apply Fin.ext
  match a with
  | ⟨0, _⟩ => show win0_2.index t (0 : Fin 2) * 512 + 1 * (y 0).val = (y 0).val; omega
  | ⟨1, _⟩ => show win0_2.index t (1 : Fin 2) * 512 + 1 * (y 1).val = (y 1).val; omega

/-- WHAT POINT t WRITES BACK is block t of `KOut` of the argument arrays. -/
theorem flushed_eq (c : Dev nD) (t : Fin cfg0.N) :
    (dats m 0 c).flushed 3 t = ((cfg0.win 3).blk t).view.read (Elt F)
      (KOut (m ((c : Thread nD τ).loc main_arg0)) (m ((c : Thread nD τ).loc main_arg1)) (m ((c : Thread nD τ).loc main_arg2))) := by
  rw [Value.flushed3, out_eq_kbody, wq_block m c t, wk_block m c t]
  obtain ⟨-, -, -, e1, e2, -⟩ := index_facts t
  funext j
  have hi : ((((cfg0.win 3).blk t).view.emb j : S4x2048x512.Idx) 0).val = win0_3.index t (0 : Fin 3) := by
    show win0_3.index t (0 : Fin 3) * 1 + 1 * (j 0).val = _
    have hj : (j 0).val < 1 := (j 0).isLt
    omega
  rw [seq_block m c t (((cfg0.win 3).blk t).view.emb j) hi]
  show kbody _ _ _ ((cfg0.win 3).xinj (grid0.coords t) j) = kbody _ _ _ (ix3 0 ((((cfg0.win 3).blk t).view.emb j : S4x2048x512.Idx) 1) ((((cfg0.win 3).blk t).view.emb j : S4x2048x512.Idx) 2))
  refine congrArg (kbody _ _ _) ?_
  funext a; apply Fin.ext
  match a with
  | ⟨0, _⟩ => show (j 0).val = 0; have hj : (j 0).val < 1 := (j 0).isLt; omega
  | ⟨1, _⟩ => show (j 1).val = win0_3.index t (1 : Fin 3) * 2048 + 1 * (j 1).val; omega
  | ⟨2, _⟩ => show (j 2).val = win0_3.index t (2 : Fin 3) * 512 + 1 * (j 2).val; omega

/-- An index of the result array is in point t's block iff each coordinate is in the block's range on its axis. -/
theorem mem_block (t : Fin cfg0.N) (i : S4x2048x512.Idx) :
    i ∈ ((cfg0.win 3).blk t).view.set ↔ ∀ a : Fin 3, win0_3.index t a * S1x2048x512.size a ≤ (i a).val ∧ (i a).val < win0_3.index t a * S1x2048x512.size a + S1x2048x512.size a := by
  show i ∈ ((View.whole main_v2).slice (win0_3.rect t)).set ↔ _
  rw [View.set_slice_whole, Rect.mem_set_unit]
  exact Iff.rfl

/-- Every index of the result array is in the block of the point numbered by its first coordinate. -/
theorem cover (i : S4x2048x512.Idx) : ∃ t : Fin cfg0.N, (cfg0.win 3).flush t = true ∧ i ∈ ((cfg0.win 3).blk t).view.set := by
  have h0 : (i 0).val < 4 := (i 0).isLt
  have h1 : (i 1).val < 2048 := (i 1).isLt
  have h2 : (i 2).val < 512 := (i 2).isLt
  have hN : (i 0).val < cfg0.N := by rw [show cfg0.N = 4 from N_0]; exact h0
  obtain ⟨-, -, -, e1, e2, -, -, -, -, e0⟩ := index_facts ⟨(i 0).val, hN⟩
  have e0 : win0_3.index ⟨(i 0).val, hN⟩ (0 : Fin 3) = (i 0).val := e0
  refine ⟨⟨(i 0).val, hN⟩, flush0_3 _, ?_⟩
  rw [mem_block]
  intro a
  match a with
  | ⟨0, _⟩ => show win0_3.index _ (0 : Fin 3) * 1 ≤ (i 0).val ∧ (i 0).val < win0_3.index _ (0 : Fin 3) * 1 + 1; rw [e0]; omega
  | ⟨1, _⟩ => show win0_3.index _ (1 : Fin 3) * 2048 ≤ (i 1).val ∧ (i 1).val < win0_3.index _ (1 : Fin 3) * 2048 + 2048; rw [e1]; omega
  | ⟨2, _⟩ => show win0_3.index _ (2 : Fin 3) * 512 ≤ (i 2).val ∧ (i 2).val < win0_3.index _ (2 : Fin 3) * 512 + 512; rw [e2]; omega

/-- THE RESULT ARRAY after the run is `KOut` of the argument arrays. -/
theorem final (c : Dev nD) : (dats m 0 c).arrAt 3 cfg0.N
    = KOut (m ((c : Thread nD τ).loc main_arg0)) (m ((c : Thread nD τ).loc main_arg1)) (m ((c : Thread nD τ).loc main_arg2)) :=
  (dats m 0 c).arrAt_eq_of_cover 3 _ (fun t _ => flushed_eq m c t) cover

/-- Every weakly fair execution of the kernel's program ends with the result array at `KOut` of the argument
    arrays, the arguments unchanged. -/
theorem run : θ_run defs (onTc (τ := τ) (main (F := F))) ⟨m, fun _ => 0, ρ⟩ fun r => ∀ c : Dev nD,
      r.2.mem ((c : Thread nD τ).loc main_v2) = KOut (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.KVal

end
-- ==== Proof.Spec.lean ====
/-
  The mathematics both programs compute, over the reals, with natural-number indices (values outside
  an array's extent are never read). One sequence of L = 2048 rows of width D = 512:

    q_l = W_q x_l,  k_l = W_k x_l,  ‖v‖_ε = max (√(Σ v²)) ε,
    p_0 = 1,  p_l = clip₀¹ ((1 − ⟨q_{l−1}, k_l⟩ / (‖q_{l−1}‖_ε ‖k_l‖_ε)) / 2),
    row l is a boundary when p_l > 1/2;  a_l = 1 − p_l, c_l = p_l at a boundary, a_l = 1, c_l = 0 elsewhere;
    s_0 = c_0 x_0,  s_l = a_l s_{l−1} + c_l x_l,   out_l = x_l + s_l.

  Also here: the first-order linear recurrence `linRec`, the log-depth doubling scan `hsScan` that both
  programs unroll (strides 1, 2, …, 1024), and the embeddings of real tables as arrays of extended reals.
-/
import Idealize.ShloMosaic.PureOps.Ideal

noncomputable section

namespace Cert.Spec

open Idealize.ShloMosaic

/-! ## Real tables as arrays of extended reals -/

/-- A real table indexed by one natural number, as an array of any rank-1 shape. -/
def emb1 (n0 : ℕ) (R : ℕ → ℝ) : (⟨1, ![n0]⟩ : Shape).Idx → EReal := fun i => ((R (i 0).val : ℝ) : EReal)
/-- A real table indexed by two natural numbers, as an array of any rank-2 shape. -/
def emb2 (n0 n1 : ℕ) (R : ℕ → ℕ → ℝ) : (⟨2, ![n0, n1]⟩ : Shape).Idx → EReal :=
  fun i => ((R (i 0).val (i 1).val : ℝ) : EReal)
/-- A real table indexed by three natural numbers, as an array of any rank-3 shape. -/
def emb3 (n0 n1 n2 : ℕ) (R : ℕ → ℕ → ℕ → ℝ) : (⟨3, ![n0, n1, n2]⟩ : Shape).Idx → EReal :=
  fun i => ((R (i 0).val (i 1).val (i 2).val : ℝ) : EReal)

/-! ## The linear recurrence and the doubling scan -/

/-- `s_0 = b_0`, `s_{l+1} = a_{l+1} · s_l + b_{l+1}`. -/
def linRec (a b : ℕ → ℝ) : ℕ → ℝ
  | 0 => b 0
  | l + 1 => a (l + 1) * linRec a b l + b (l + 1)

/-- One doubling step at stride `s`: rows below `s` are kept; row `l ≥ s` composes with row `l − s`. -/
def hsStep (s : ℕ) (p : (ℕ → ℝ) × (ℕ → ℝ)) : (ℕ → ℝ) × (ℕ → ℝ) :=
  (fun l => if l < s then p.1 l else p.1 l * p.1 (l - s),
   fun l => if l < s then p.2 l else p.1 l * p.2 (l - s) + p.2 l)

/-- The strides of the eleven steps. -/
def strides : List ℕ := [1, 2, 4, 8, 16, 32, 64, 128, 256, 512, 1024]

/-- The scan: the eleven doubling steps, the accumulated `b` component. -/
def hsScan (a b : ℕ → ℝ) : ℕ → ℝ := (strides.foldl (fun p s => hsStep s p) (a, b)).2

/-! ## The recurrence of one sequence from its boundary probabilities -/

section coef
variable (P : ℕ → ℝ) (X : ℕ → ℕ → ℝ)
open Classical in
/-- The decay of row `l`: `1 − p_l` at a boundary (`p_l > 1/2`), `1` elsewhere. -/
def aC (l : ℕ) : ℝ := if 1 / 2 < P l then 1 - P l else 1
open Classical in
/-- The weight of row `l`'s own vector: `p_l` at a boundary, `0` elsewhere. -/
def cC (l : ℕ) : ℝ := if 1 / 2 < P l then P l else 0
/-- The carried state of row `l`, coordinate `d`: `s_0 = c_0 x_0`, `s_l = a_l s_{l−1} + c_l x_l`. -/
def state (l d : ℕ) : ℝ := linRec (aC P) (fun l => cC P l * X l d) l
end coef

/-! ## The router -/

section seq
variable (ε : ℝ) (X : ℕ → ℕ → ℝ) (Wq Wk : ℕ → ℕ → ℝ)

/-- `(W x_l)_e = Σ_d x_{l,d} · W_{e,d}`. -/
def proj (W : ℕ → ℕ → ℝ) (l e : ℕ) : ℝ := ∑ d ∈ Finset.range 512, X l d * W e d
/-- `max (√(Σ_e v_e²)) ε`. -/
def nrm (v : ℕ → ℝ) : ℝ := max (Real.sqrt (∑ e ∈ Finset.range 512, v e * v e)) ε
/-- The cosine of `q_l` and `k_{l'}`: the inner product over the product of the clamped norms. -/
def cosQK (l l' : ℕ) : ℝ :=
  (∑ e ∈ Finset.range 512, proj X Wq l e * proj X Wk l' e) / (nrm ε (proj X Wq l) * nrm ε (proj X Wk l'))
/-- `clip₀¹ ((1 − cos(q_l, k_{l+1})) / 2)`: the boundary probability of row `l + 1`. -/
def pm (l : ℕ) : ℝ := min 1 (max 0 ((1 - cosQK ε X Wq Wk l (l + 1)) * (1 / 2)))
/-- The boundary probability of row `l`: `1` at row `0`. -/
def prob (l : ℕ) : ℝ := if l = 0 then 1 else pm ε X Wq Wk (l - 1)
/-- The result of one sequence: `x_l + s_l`. -/
def outSeq (l d : ℕ) : ℝ := X l d + state (prob ε X Wq Wk) X l d

end seq

/-! ## The same result through compaction: boundaries gathered to the front, an exponential moving average
over the gathered rows, each row reading the average at the latest boundary not after it -/

/-- `π` lists the rows `< N` in the order of a stable sort by `key`: smaller key first, equal keys in row order. -/
def SortsBy (key : ℕ → ℕ) (π : ℕ → ℕ) (N : ℕ) : Prop :=
  (∀ j, j < N → π j < N) ∧
  ∀ i j, i < j → j < N → (key (π i) < key (π j) ∨ (key (π i) = key (π j) ∧ π i < π j))

open Classical in
/-- The sort key of row `l`: `0` at a boundary, `1` elsewhere. -/
def keyOf (P : ℕ → ℝ) (l : ℕ) : ℕ := if 1 / 2 < P l then 0 else 1

/-- The stable sorting order of the 2048 rows by `keyOf P`: slot `j` holds row `ordOf P j`. -/
def ordOf (P : ℕ → ℝ) (j : ℕ) : ℕ :=
  if h : j < 2048 then
    (sortedFrom (fun k k' : Fin 2048 => decide (keyOf P k.val < keyOf P k'.val)) ⟨j, h⟩).val
  else 0

section compact
variable (P : ℕ → ℝ) (π : ℕ → ℕ) (X : ℕ → ℕ → ℝ)
open Classical in
/-- How many boundaries among rows `0 … l`. -/
def cntUpTo (l : ℕ) : ℕ := ((Finset.range (l + 1)).filter fun l' => 1 / 2 < P l').card
open Classical in
/-- How many boundaries in the sequence. -/
def nBnd : ℕ := ((Finset.range 2048).filter fun l' => 1 / 2 < P l').card
/-- Slot `j`'s probability: that of the row gathered there, `0` past the boundaries. -/
def chunkProb (j : ℕ) : ℝ := P (π j) * (if j < nBnd P then 1 else 0)
/-- Slot `j`'s decay. -/
def decay (j : ℕ) : ℝ := min 1 (max 0 (1 - chunkProb P π j))
/-- Slot `j`'s input to the average, coordinate `d`; slot `0` also takes the (zero) initial state. -/
def emaB (d j : ℕ) : ℝ :=
  if j < 1 then (1 - decay P π j) * X (π j) d + decay P π j * 0 else (1 - decay P π j) * X (π j) d
/-- The moving average over the slots by the doubling scan, then zeroed past the boundaries. -/
def emaM (d j : ℕ) : ℝ := hsScan (decay P π) (emaB P π X d) j * (if j < nBnd P then 1 else 0)
/-- Row `l` reads the average at the slot of the latest boundary not after it. -/
def longSt (l d : ℕ) : ℝ := emaM P π X d (min (cntUpTo P l - 1) 2047) * (if 1 ≤ cntUpTo P l then 1 else 0)
/-- The straight-through coefficient: `1` in the forward pass. -/
def coef (l : ℕ) : ℝ := 1 + (max (1 - P l) (P l) - max (1 - P l) (P l))
/-- The result of one sequence through compaction. -/
def refSeq (l d : ℕ) : ℝ := X l d + longSt P π X l d * coef P l
end compact

/-- The result of the whole batch: sequence `b` by itself. -/
def out (ε : ℝ) (X : ℕ → ℕ → ℕ → ℝ) (Wq Wk : ℕ → ℕ → ℝ) (b l d : ℕ) : ℝ := outSeq ε (X b) Wq Wk l d

end Cert.Spec

end
-- ==== Proof.Consts.lean ====
/-
  The float constants both programs spell, as the extended reals their bit patterns denote.
-/
import Idealize.ShloMosaic.PureOps.Ideal

noncomputable section

namespace Cert.Consts

open Idealize.ShloMosaic

/-- The clamp of the norms, `9.99999996e-13` as a real. -/
def epsR : ℝ := (Ideal.ofBits .f32 0x2B8CBCCC#32).toReal

/-- The clamp's pattern has exponent field `87` and significand `2^23 + 834764 = 9223372`,
    so it denotes the real `9223372 · 2^(-63)`. -/
theorem ofBits_eps_val :
    Ideal.ofBits .f32 0x2B8CBCCC#32 = ((9223372 * (2 : ℝ) ^ (-63 : Int) : ℝ) : EReal) := by
  simp [Ideal.ofBits, Ideal.ieee, -EReal.coe_mul]

theorem ofBits_eps : Ideal.ofBits .f32 0x2B8CBCCC#32 = ((epsR : ℝ) : EReal) := by
  unfold epsR
  rw [ofBits_eps_val, EReal.toReal_coe]
theorem epsR_pos : 0 < epsR := by
  unfold epsR
  rw [ofBits_eps_val, EReal.toReal_coe]
  positivity
theorem ofBits_zero : Ideal.ofBits .f32 0x00000000#32 = ((0 : ℝ) : EReal) := by
  simp [Ideal.ofBits, Ideal.ieee]
theorem ofBits_one : Ideal.ofBits .f32 0x3F800000#32 = ((1 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num

end Cert.Consts

end
-- ==== Proof.KernelRouter.lean ====
/-
  The router part of the kernel's body over real inputs: on every row but the last, the body's clipped
  half-complement cosine is the real `pm` of Spec — the two matrix products are the projections q and k, the lane
  sums their squared norms and inner products, and every operation on finite values is the real operation.
-/
import proofs.«173479_g14800457302192_cont_week2b_463_2_alg».proof.Proof.KernelBody
import proofs.«173479_g14800457302192_cont_week2b_463_2_alg».proof.Proof.Spec
import proofs.«173479_g14800457302192_cont_week2b_463_2_alg».proof.Proof.Consts
import Idealize.ShloMosaic.Lib.ValueLayout
import Idealize.ShloMosaic.PureOps.Ideal.Laws

noncomputable section

namespace Cert.KernelIdeal.KVal

open Cert.KernelIdeal Cert.KernelIdeal.Gen Idealize.ShloMosaic Idealize.ShloMosaic.TcCoe Idealize.SL.Sem
open Idealize.ShloMosaic.ValueIdx
open Cert.Spec Cert.Consts

/-- The host's transpose of a real table is the transposed real table. -/
theorem transpose_emb2 (W : ℕ → ℕ → ℝ) :
    transpose S512x512 [1, 0] (emb2 512 512 W : FVec Ideal S512x512 .f32) Facts₀.transposes_S512x512_S512x512_1_0
      = (emb2 512 512 fun d e => W e d : FVec Ideal S512x512 .f32) := by
  funext i
  obtain ⟨p, q, rfl⟩ : ∃ (p q : Fin 512), i = ix2 p q := ⟨i 0, i 1, eq_ix2 i⟩
  rw [transpose_ix2_apply]
  rfl

/-- The reshape of the staged block to rows × width. -/
theorem pay2_emb (X : ℕ → ℕ → ℝ) :
    k0_pay2 (F := Ideal) (emb3 1 2048 512 fun _ l d => X l d) = (emb2 2048 512 X : FVec Ideal S2048x512 .f32) := by
  funext i
  obtain ⟨l, d, rfl⟩ : ∃ (l : Fin 2048) (d : Fin 512), i = ix2 l d := ⟨i 0, i 1, eq_ix2 i⟩
  unfold k0_pay2
  rw [shapeCast_1ab_ab_apply]
  rfl

/-- The first product operand is read at the result's row and the contraction position. -/
theorem lhs_axis0 (j : S2048x512.Idx) (k : dot_S2048x512_S512x512_S2048x512_1_0_0_1_n_n.contr.Idx) :
    (dot_S2048x512_S512x512_S2048x512_1_0_0_1_n_n.lhsIdx j k 0).val = (j 0).val := by
  simp [DotDims.lhsIdx, dot_S2048x512_S512x512_S2048x512_1_0_0_1_n_n]; rfl
theorem lhs_axis1 (j : S2048x512.Idx) (k : dot_S2048x512_S512x512_S2048x512_1_0_0_1_n_n.contr.Idx) :
    (dot_S2048x512_S512x512_S2048x512_1_0_0_1_n_n.lhsIdx j k 1).val = (k ⟨0, by decide⟩).val :=
  dot_S2048x512_S512x512_S2048x512_1_0_0_1_n_n.lhsIdx_val_of_single rfl j k
/-- The second operand is read at the contraction position and the result's column. -/
theorem rhs_axis0 (j : S2048x512.Idx) (k : dot_S2048x512_S512x512_S2048x512_1_0_0_1_n_n.contr.Idx) :
    (dot_S2048x512_S512x512_S2048x512_1_0_0_1_n_n.rhsIdx j k 0).val = (k ⟨0, by decide⟩).val :=
  dot_S2048x512_S512x512_S2048x512_1_0_0_1_n_n.rhsIdx_val_of_single rfl j k
theorem rhs_axis1 (j : S2048x512.Idx) (k : dot_S2048x512_S512x512_S2048x512_1_0_0_1_n_n.contr.Idx) :
    (dot_S2048x512_S512x512_S2048x512_1_0_0_1_n_n.rhsIdx j k 1).val = (j 1).val := by
  simp [DotDims.rhsIdx, dot_S2048x512_S512x512_S2048x512_1_0_0_1_n_n]; rfl

/-- The matrix product into a zero accumulator, at row l and column e, is the sum over the contracted coordinate. -/
theorem matmul_zero_ix2 (A : FVec Ideal S2048x512 .f32) (B : FVec Ideal S512x512 .f32) (l : Fin 2048) (e : Fin 512) :
    matmul dot_S2048x512_S512x512_S2048x512_1_0_0_1_n_n none A B (constant (F := Ideal) S2048x512 .f32 0x00000000#32) (ix2 l e)
      = ∑ d : Fin 512, A (ix2 l d) * B (ix2 d e) := by
  show FloatOps.matmul _ none A B _ (ix2 l e) = _
  rw [Ideal.matmul_constant_zero_apply,
    ← Equiv.sum_comp (contrEquiv1 dot_S2048x512_S512x512_S2048x512_1_0_0_1_n_n 512 rfl rfl).symm]
  refine Finset.sum_congr rfl fun c _ => ?_
  have hc := contrEquiv1_symm_val dot_S2048x512_S512x512_S2048x512_1_0_0_1_n_n 512 rfl rfl c
  have hl : dot_S2048x512_S512x512_S2048x512_1_0_0_1_n_n.lhsIdx (ix2 l e)
      ((contrEquiv1 dot_S2048x512_S512x512_S2048x512_1_0_0_1_n_n 512 rfl rfl).symm c) = ix2 l c := by
    funext ax; apply Fin.ext
    match ax with
    | ⟨0, _⟩ => exact lhs_axis0 _ _
    | ⟨1, _⟩ => exact (lhs_axis1 _ _).trans hc
  have hr : dot_S2048x512_S512x512_S2048x512_1_0_0_1_n_n.rhsIdx (ix2 l e)
      ((contrEquiv1 dot_S2048x512_S512x512_S2048x512_1_0_0_1_n_n 512 rfl rfl).symm c) = ix2 c e := by
    funext ax; apply Fin.ext
    match ax with
    | ⟨0, _⟩ => exact (rhs_axis0 _ _).trans hc
    | ⟨1, _⟩ => exact rhs_axis1 _ _
  rw [hl, hr]

/-! ## Coercions of real sums, maxima and minima -/

theorem coe_sum' {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]
theorem coe_max' (x y : ℝ) : ((max x y : ℝ) : EReal) = max (x : EReal) (y : EReal) := EReal.coe_strictMono.monotone.map_max
theorem coe_min' (x y : ℝ) : ((min x y : ℝ) : EReal) = min (x : EReal) (y : EReal) := EReal.coe_strictMono.monotone.map_min

/-- A sum over the 512 lanes of products of real coercions is the coercion of the real sum over `range 512`. -/
theorem sum_lanes_coe (f g : ℕ → ℝ) :
    ∑ d : Fin 512, ((f d.val : ℝ) : EReal) * ((g d.val : ℝ) : EReal) = ((∑ d ∈ Finset.range 512, f d * g d : ℝ) : EReal) := by
  rw [coe_sum', ← Fin.sum_univ_eq_sum_range (fun d => ((f d * g d : ℝ) : EReal)) 512]
  exact Finset.sum_congr rfl fun d _ => (EReal.coe_mul _ _).symm

/-- The product of the row table with a transposed weight table is the table of projections. -/
theorem matmul_emb (X W : ℕ → ℕ → ℝ) :
    matmul (F := Ideal) (φ₁ := .f32) (φ₂ := .f32) dot_S2048x512_S512x512_S2048x512_1_0_0_1_n_n none (emb2 2048 512 X)
        (emb2 512 512 fun d e => W e d) (constant (F := Ideal) S2048x512 .f32 0x00000000#32)
      = (emb2 2048 512 (proj X W) : FVec Ideal S2048x512 .f32) := by
  funext i
  obtain ⟨l, e, rfl⟩ : ∃ (l : Fin 2048) (e : Fin 512), i = ix2 l e := ⟨i 0, i 1, eq_ix2 i⟩
  rw [matmul_zero_ix2]
  exact sum_lanes_coe (fun d => X l.val d) (fun d => W e.val d)

/-- The lane sum of a product of two arrays, kept as a column: row l holds the sum over the lanes. -/
theorem rowsum_ix2 (P Q : FVec Ideal S2048x512 .f32) (h : S2048x512.Reduces [1] S2048) (hc : S2048.ShapeCasts S2048x1)
    (hφ : FKind.Formats .f32) (hacc : (0x00000000#32 : BitVec 32) = 0x00000000#32) (l : Fin 2048) (u : Fin 1) :
    shapeCast S2048x1 (multiReduction (F := Ideal) (φ := .f32) .add [1] S2048 (mulf P Q) 0x00000000#32 h hφ hacc) hc (ix2 l u)
      = ∑ e : Fin 512, P (ix2 l e) * Q (ix2 l e) := by
  rw [shapeCast_apply _ hc (ix2 l u) (ix1 l) (by
    have hu : u.val = 0 := by omega
    rw [Shape.rowMajor_val_one, Shape.rowMajor_val_two]
    show l.val = l.val * 1 + u.val
    omega)]
  refine (Ideal.multiReduction_add_single (mulf P Q) 0x00000000#32 h hφ hacc (ix1 l)).trans ?_
  refine Finset.sum_congr rfl fun k _ => ?_
  have hk : h.lift (ix1 l) k = ix2 l (k : Fin 512) := funext fun c => Fin.ext (by
    match c with
    | ⟨0, _⟩ => rfl
    | ⟨1, _⟩ => rfl)
  rw [hk]
  rfl

/-- For two real tables the lane sum is the coercion of the real sum. -/
theorem rowsum_emb (A B : ℕ → ℕ → ℝ) (h : S2048x512.Reduces [1] S2048) (hc : S2048.ShapeCasts S2048x1)
    (hφ : FKind.Formats .f32) (hacc : (0x00000000#32 : BitVec 32) = 0x00000000#32) (l : Fin 2048) (u : Fin 1) :
    shapeCast S2048x1 (multiReduction (F := Ideal) (φ := .f32) .add [1] S2048
        (mulf (F := Ideal) (φ := .f32) (s := S2048x512) (emb2 2048 512 A) (emb2 2048 512 B)) 0x00000000#32 h hφ hacc) hc (ix2 l u)
      = ((∑ e ∈ Finset.range 512, A l e * B l e : ℝ) : EReal) :=
  (rowsum_ix2 _ _ h hc hφ hacc l u).trans (sum_lanes_coe (fun e => A l.val e) (fun e => B l.val e))

/-- The clamped norm of every row of a real table: the column of `nrm`. -/
theorem norm_emb (A : ℕ → ℕ → ℝ) (h : S2048x512.Reduces [1] S2048) (hc : S2048.ShapeCasts S2048x1)
    (hφ : FKind.Formats .f32) (hacc : (0x00000000#32 : BitVec 32) = 0x00000000#32) :
    maximumf (F := Ideal) (φ := .f32) (sqrt (shapeCast S2048x1 (multiReduction (F := Ideal) (φ := .f32) .add [1] S2048
        (mulf (F := Ideal) (φ := .f32) (s := S2048x512) (emb2 2048 512 A) (emb2 2048 512 A)) 0x00000000#32 h hφ hacc) hc))
        (broadcast S2048x1 (Scalar.ofBits .f32 0x2B8CBCCC#32))
      = emb2 2048 1 (fun l _ => nrm epsR (A l)) := by
  funext i
  obtain ⟨l, u, rfl⟩ : ∃ (l : Fin 2048) (u : Fin 1), i = ix2 l u := ⟨i 0, i 1, eq_ix2 i⟩
  show max (Ideal.sqrt (shapeCast S2048x1 _ hc (ix2 l u))) (Ideal.ofBits .f32 0x2B8CBCCC#32) = ((nrm epsR (A l.val) : ℝ) : EReal)
  rw [rowsum_emb, ofBits_eps, Ideal.sqrt_coe, if_neg (not_lt.mpr (Finset.sum_nonneg fun e _ => mul_self_nonneg _)), ← coe_max']
  rfl

/-- Rows shifted up by one, the last row filled: above the last row, row l reads row l + 1 of the source. -/
theorem shiftRows_apply {α : Type} {n : ℕ} (V : (⟨2, ![2048, n]⟩ : Shape).Idx → α) (Z : (⟨2, ![1, n]⟩ : Shape).Idx → α)
    (hs : (⟨2, ![2048, n]⟩ : Shape).Slices ![1, 0] ⟨2, ![2047, n]⟩)
    (hcat : Shape.Concatenates [(⟨2, ![2047, n]⟩ : Shape), ⟨2, ![1, n]⟩] ⟨2, ![2048, n]⟩ 0)
    (l : Fin 2048) (e : Fin n) (hl : l.val < 2047) (l' : Fin 2048) (hl' : l'.val = l.val + 1) :
    concatenate ⟨2, ![2048, n]⟩ 0 [⟨⟨2, ![2047, n]⟩, extractStridedSlice ⟨2, ![2047, n]⟩ ![1, 0] V hs⟩, ⟨⟨2, ![1, n]⟩, Z⟩] hcat (ix2 l e)
      = V (ix2 l' e) := by
  rw [concatenate_pair_apply_left _ _ _ hcat (ix2 l e) rfl (ix2 (⟨l.val, hl⟩ : Fin 2047) e) (fun b => by
      match b with
      | ⟨0, _⟩ => rfl
      | ⟨1, _⟩ => rfl)]
  exact slice2_axis0_apply 1 V hs ⟨l.val, hl⟩ e l' (by rw [hl']; exact Nat.add_comm _ _)

/-- The inner products of row l with the row below it: the shifted array reads row l + 1 above the last row. -/
theorem shifted_rowsum (A B : ℕ → ℕ → ℝ) (Z : FVec Ideal S1x512 .f32) (h : S2048x512.Reduces [1] S2048)
    (hc : S2048.ShapeCasts S2048x1) (hφ : FKind.Formats .f32) (hacc : (0x00000000#32 : BitVec 32) = 0x00000000#32)
    (hs : S2048x512.Slices ![1, 0] S2047x512) (hcat : Shape.Concatenates [S2047x512, S1x512] S2048x512 0)
    (l : Fin 2048) (u : Fin 1) (hl : l.val < 2047) :
    shapeCast S2048x1 (multiReduction (F := Ideal) (φ := .f32) .add [1] S2048
        (mulf (F := Ideal) (φ := .f32) (s := S2048x512) (emb2 2048 512 A)
          (concatenate S2048x512 0 [⟨S2047x512, extractStridedSlice S2047x512 ![1, 0] (emb2 2048 512 B) hs⟩, ⟨S1x512, Z⟩] hcat))
        0x00000000#32 h hφ hacc) hc (ix2 l u)
      = ((∑ e ∈ Finset.range 512, A l e * B (l + 1) e : ℝ) : EReal) := by
  refine (rowsum_ix2 _ _ h hc hφ hacc l u).trans ?_
  refine (Finset.sum_congr rfl fun e _ => ?_).trans (sum_lanes_coe (fun e => A l.val e) (fun e => B (l.val + 1) e))
  rw [shiftRows_apply (emb2 2048 512 B) Z hs hcat l e hl ⟨l.val + 1, by omega⟩ rfl]
  rfl

/-- The column of norms shifted up by one: above the last row, row l holds the norm of row l + 1. -/
theorem shifted_col (N : ℕ → ℕ → ℝ) (Z : FVec Ideal S1x1 .f32)
    (hs : S2048x1.Slices ![1, 0] S2047x1) (hcat : Shape.Concatenates [S2047x1, S1x1] S2048x1 0)
    (l : Fin 2048) (u : Fin 1) (hl : l.val < 2047) :
    concatenate S2048x1 0 [⟨S2047x1, extractStridedSlice S2047x1 ![1, 0] (emb2 2048 1 N : FVec Ideal S2048x1 .f32) hs⟩, ⟨S1x1, Z⟩] hcat (ix2 l u)
      = ((N (l + 1) u : ℝ) : EReal) := by
  rw [shiftRows_apply (emb2 2048 1 N) Z hs hcat l u hl ⟨l.val + 1, by omega⟩ rfl]
  rfl

/-- The clipped half-complement of a quotient of reals with a positive denominator, computed on coercions. -/
theorem clip_coe (s nq nk : ℝ) (hq : 0 < nq) (hk : 0 < nk) :
    min ((1 : ℝ) : EReal) (max ((0 : ℝ) : EReal)
        ((((1 : ℝ) : EReal) - Ideal.div (s : EReal) ((nq : EReal) * (nk : EReal))) * ((1 / 2 : ℝ) : EReal)))
      = ((min 1 (max 0 ((1 - s / (nq * nk)) * (1 / 2))) : ℝ) : EReal) := by
  rw [← EReal.coe_mul nq nk, Ideal.div_coe (mul_pos hq hk).ne', ← EReal.coe_mul, ← EReal.coe_sub, ← EReal.coe_mul,
    ← coe_max', ← coe_min', mul_one_div s (nq * nk)]

/-- The clamped norm is positive. -/
theorem nrm_pos (v : ℕ → ℝ) : 0 < nrm epsR v := lt_max_of_lt_right epsR_pos

/-- On rows below 2047 the router's output is `pm`: the clipped half-complement cosine of `q_l` and `k_{l+1}`. -/
theorem router_eq (X Wq Wk : ℕ → ℕ → ℝ) (i : S2048x1.Idx) (hi : (i 0).val < 2047) :
    k0_pay3 (F := Ideal) (emb3 1 2048 512 fun _ l d => X l d) (emb2 512 512 fun d e => Wq e d) (emb2 512 512 fun d e => Wk e d) i
      = ((pm epsR X Wq Wk (i 0).val : ℝ) : EReal) := by
  obtain ⟨l, u, rfl⟩ : ∃ (l : Fin 2048) (u : Fin 1), i = ix2 l u := ⟨i 0, i 1, eq_ix2 i⟩
  have hl : l.val < 2047 := hi
  unfold k0_pay3
  dsimp only
  rw [pay2_emb, shapeCast_self, shapeCast_self, matmul_emb, matmul_emb, norm_emb, norm_emb]
  simp only [minimumf_apply, maximumf_apply, mulf_apply, subf_apply, divf_apply, broadcast_apply, Ideal.ofBits_def]
  rw [shifted_rowsum _ _ _ _ _ _ _ _ _ l u hl, shifted_col _ _ _ _ l u hl, ofBits_one, ofBits_zero, ofBits_half]
  exact clip_coe _ _ _ (nrm_pos _) (nrm_pos _)

end Cert.KernelIdeal.KVal

end
-- ==== Proof.KernelScan.lean ====
/-
  The scan part of the kernel's body over real inputs: from the rows X and the per-row cosines' clipped
  half-complements the body forms the probabilities (1 at row 0, the previous row's value elsewhere), the decay and
  weight columns, and runs the eleven doubling steps; its value is X plus the doubling scan of those coefficients.
-/
import proofs.«173479_g14800457302192_cont_week2b_463_2_alg».proof.Proof.KernelBody
import proofs.«173479_g14800457302192_cont_week2b_463_2_alg».proof.Proof.Spec
import proofs.«173479_g14800457302192_cont_week2b_463_2_alg».proof.Proof.Consts

noncomputable section

namespace Cert.KernelIdeal.KVal

open Cert.KernelIdeal Cert.KernelIdeal.Gen Idealize.ShloMosaic Idealize.ShloMosaic.TcCoe Idealize.SL.Sem
open Cert.Spec Cert.Consts

open Idealize.ShloMosaic.ValueIdx

/-! ## Moving a table down by s rows

A block of s constant rows stacked above the first m = 2048 − s rows of a real table B is the table whose row l is the
constant for l < s and row l − s of B from there on. -/

/-- The table B moved down s rows, the constant c in the s rows above. -/
private def shT (s : ℕ) (c : ℝ) (B : ℕ → ℕ → ℝ) : ℕ → ℕ → ℝ := fun l d => if l < s then c else B (l - s) d

/-- s rows of the constant c above the first m rows of B, with s + m = 2048, is B moved down s rows. -/
private theorem shift_table (s m : ℕ) (hsm : s + m = 2048) (c : EReal) (cr : ℝ) (hc : c = ((cr : ℝ) : EReal))
    (B : ℕ → ℕ → ℝ)
    (hS : (⟨2, ![2048, 512]⟩ : Shape).Slices ![0, 0] ⟨2, ![m, 512]⟩)
    (hC : Shape.Concatenates [⟨2, ![s, 512]⟩, ⟨2, ![m, 512]⟩] (⟨2, ![2048, 512]⟩ : Shape) 0) :
    concatenate (⟨2, ![2048, 512]⟩ : Shape) 0
      [⟨⟨2, ![s, 512]⟩, broadcast ⟨2, ![s, 512]⟩ c⟩,
       ⟨⟨2, ![m, 512]⟩, extractStridedSlice ⟨2, ![m, 512]⟩ ![0, 0] (emb2 2048 512 B) hS⟩] hC
    = emb2 2048 512 (shT s cr B) := by
  funext j
  by_cases hl : (j 0).val < s
  · -- a row of the constant block
    refine (concatenate_pair_apply_left 0 _ _ hC j rfl (ix2 ⟨(j 0).val, hl⟩ (j 1)) ?_).trans ?_
    · intro b
      match b with
      | ⟨0, _⟩ => rfl
      | ⟨1, _⟩ => rfl
    · show c = _
      unfold emb2 shT
      simp only [hl, if_true, hc]
  · -- row l ≥ s reads row l − s of the first m rows of B
    have hl' : s ≤ (j 0).val := Nat.le_of_not_lt hl
    have hj0 : (j 0).val < 2048 := (j 0).isLt
    refine (concatenate_pair_apply_right 0 _ _ hC j rfl rfl (ix2 ⟨(j 0).val - s, by omega⟩ (j 1)) ?_ ?_).trans ?_
    · intro b hb
      match b with
      | ⟨0, _⟩ => exact absurd rfl hb
      | ⟨1, _⟩ => rfl
    · show (j 0).val - s + s = (j 0).val
      omega
    · refine (extractStridedSlice_apply _ _ hS _ (ix2 ⟨(j 0).val - s, by omega⟩ (j 1)) ?_).trans ?_
      · intro a
        match a with
        | ⟨0, _⟩ => show _ = 0 + _; simp
        | ⟨1, _⟩ => show _ = 0 + _; simp
      · unfold emb2 shT
        simp only [hl, if_false]

/-! ## Pointwise products and sums of real tables -/

private theorem emb2_mul (A B : ℕ → ℕ → ℝ) :
    mulf (F := Ideal) (φ := .f32) (s := (⟨2, ![2048, 512]⟩ : Shape)) (emb2 2048 512 A) (emb2 2048 512 B)
      = emb2 2048 512 (fun l d => A l d * B l d) := by
  funext i
  show ((A _ _ : ℝ) : EReal) * ((B _ _ : ℝ) : EReal) = ((A _ _ * B _ _ : ℝ) : EReal)
  rw [EReal.coe_mul]

private theorem emb2_add (A B : ℕ → ℕ → ℝ) :
    addf (F := Ideal) (φ := .f32) (s := (⟨2, ![2048, 512]⟩ : Shape)) (emb2 2048 512 A) (emb2 2048 512 B)
      = emb2 2048 512 (fun l d => A l d + B l d) := by
  funext i
  show ((A _ _ : ℝ) : EReal) + ((B _ _ : ℝ) : EReal) = ((A _ _ + B _ _ : ℝ) : EReal)
  rw [EReal.coe_add]

/-! ## One doubling step on tables

At stride s the decay table becomes A_l · A_{l−s} (A_l itself for l < s: ones are moved in) and the accumulated table
becomes B_l + A_l · B_{l−s} (B_l itself for l < s: zeros are moved in). -/

/-- The decay table after a step at stride s. -/
private def stA (s : ℕ) (A : ℕ → ℕ → ℝ) : ℕ → ℕ → ℝ := fun l d => A l d * (if l < s then 1 else A (l - s) d)
/-- The accumulated table after a step at stride s. -/
private def stB (s : ℕ) (A B : ℕ → ℕ → ℝ) : ℕ → ℕ → ℝ := fun l d => B l d + A l d * (if l < s then 0 else B (l - s) d)

private theorem stepA_eq (s m : ℕ) (hsm : s + m = 2048) (A : ℕ → ℕ → ℝ)
    (hS : (⟨2, ![2048, 512]⟩ : Shape).Slices ![0, 0] ⟨2, ![m, 512]⟩)
    (hC : Shape.Concatenates [⟨2, ![s, 512]⟩, ⟨2, ![m, 512]⟩] (⟨2, ![2048, 512]⟩ : Shape) 0) :
    mulf (F := Ideal) (φ := .f32) (s := (⟨2, ![2048, 512]⟩ : Shape)) (emb2 2048 512 A)
      (concatenate (⟨2, ![2048, 512]⟩ : Shape) 0
        [⟨⟨2, ![s, 512]⟩, broadcast ⟨2, ![s, 512]⟩ (Scalar.ofBits (F := Ideal) .f32 0x3F800000#32)⟩,
         ⟨⟨2, ![m, 512]⟩, extractStridedSlice ⟨2, ![m, 512]⟩ ![0, 0] (emb2 2048 512 A) hS⟩] hC)
      = emb2 2048 512 (stA s A) := by
  rw [shift_table s m hsm (Scalar.ofBits (F := Ideal) .f32 0x3F800000#32) 1 ofBits_one A hS hC, emb2_mul]
  rfl

private theorem stepB_eq (s m : ℕ) (hsm : s + m = 2048) (A B : ℕ → ℕ → ℝ)
    (hS : (⟨2, ![2048, 512]⟩ : Shape).Slices ![0, 0] ⟨2, ![m, 512]⟩)
    (hC : Shape.Concatenates [⟨2, ![s, 512]⟩, ⟨2, ![m, 512]⟩] (⟨2, ![2048, 512]⟩ : Shape) 0) :
    addf (F := Ideal) (φ := .f32) (s := (⟨2, ![2048, 512]⟩ : Shape)) (emb2 2048 512 B)
      (mulf (F := Ideal) (φ := .f32) (s := (⟨2, ![2048, 512]⟩ : Shape)) (emb2 2048 512 A)
        (concatenate (⟨2, ![2048, 512]⟩ : Shape) 0
          [⟨⟨2, ![s, 512]⟩, broadcast ⟨2, ![s, 512]⟩ (Scalar.ofBits (F := Ideal) .f32 0x00000000#32)⟩,
           ⟨⟨2, ![m, 512]⟩, extractStridedSlice ⟨2, ![m, 512]⟩ ![0, 0] (emb2 2048 512 B) hS⟩] hC))
      = emb2 2048 512 (stB s A B) := by
  rw [shift_table s m hsm (Scalar.ofBits (F := Ideal) .f32 0x00000000#32) 0 ofBits_zero B hS hC, emb2_mul, emb2_add]
  rfl

/-! ## The steps on tables are the steps of the scan on each column -/

private theorem col_step (s : ℕ) (A B : ℕ → ℕ → ℝ) (d : ℕ) :
    ((fun l => stA s A l d), (fun l => stB s A B l d)) = hsStep s ((fun l => A l d), (fun l => B l d)) := by
  unfold hsStep stA stB
  refine Prod.ext ?_ ?_
  · funext l
    dsimp only
    split_ifs <;> ring
  · funext l
    dsimp only
    split_ifs <;> ring

/-- The pair of tables after the steps at the listed strides, in order. -/
private def tabs (p : (ℕ → ℕ → ℝ) × (ℕ → ℕ → ℝ)) (ss : List ℕ) : (ℕ → ℕ → ℝ) × (ℕ → ℕ → ℝ) :=
  ss.foldl (fun p s => (stA s p.1, stB s p.1 p.2)) p

private theorem col_tabs (d : ℕ) (ss : List ℕ) : ∀ p : (ℕ → ℕ → ℝ) × (ℕ → ℕ → ℝ),
    ((fun l => (tabs p ss).1 l d), (fun l => (tabs p ss).2 l d))
      = ss.foldl (fun q s => hsStep s q) ((fun l => p.1 l d), (fun l => p.2 l d)) := by
  induction ss with
  | nil => intro p; rfl
  | cons s ss ih =>
    intro p
    show ((fun l => (tabs (stA s p.1, stB s p.1 p.2) ss).1 l d), (fun l => (tabs (stA s p.1, stB s p.1 p.2) ss).2 l d)) = _
    rw [ih, List.foldl_cons, ← col_step]

/-- The scan of column d of the coefficients is column d of the accumulated table after the eleven steps. -/
private theorem scan_tabs (a : ℕ → ℝ) (X : ℕ → ℕ → ℝ) (c : ℕ → ℝ) (l d : ℕ) :
    hsScan a (fun l => c l * X l d) l
      = (tabs (fun l _ => a l, fun l d => c l * X l d) strides).2 l d := by
  have h := col_tabs d strides (fun l _ => a l, fun l d => c l * X l d)
  have h2 : (fun l => (tabs (fun l _ => a l, fun l d => c l * X l d) strides).2 l d)
      = (strides.foldl (fun q s => hsStep s q) (a, fun l => c l * X l d)).2 := congrArg Prod.snd h
  exact (congrFun h2 l).symm

/-- The steps at strides 1, 2, 4, then 8 … 256, then 512, 1024 are the eleven steps. -/
private theorem tabs_join (A0 B0 : ℕ → ℕ → ℝ) :
    tabs ((tabs (stA 4 (stA 2 (stA 1 A0)), (tabs (A0, B0) [1, 2, 4]).2) [8, 16, 32, 64, 128, 256]).1,
          (tabs (stA 4 (stA 2 (stA 1 A0)), (tabs (A0, B0) [1, 2, 4]).2) [8, 16, 32, 64, 128, 256]).2) [512, 1024]
      = tabs (A0, B0) strides := by
  simp only [tabs, strides, List.foldl_cons, List.foldl_nil]

/-! ## The probability column, the boundary mask, the decay and weight tables -/

/-- The probability of row l: one at row 0, the previous row's value below. -/
private def PofPm (Pm : ℕ → ℝ) : ℕ → ℝ := fun l => if l = 0 then 1 else Pm (l - 1)

/-- A one above the first 2047 rows of the column: only the rows below 2047 of the column are read. -/
private theorem pay4_eq (Pm : ℕ → ℝ) (v38 : FVec Ideal S2048x1 .f32)
    (h38 : ∀ i : S2048x1.Idx, (i 0).val < 2047 → v38 i = ((Pm (i 0).val : ℝ) : EReal)) :
    k0_pay4 (F := Ideal) v38 = emb2 2048 1 (fun l _ => PofPm Pm l) := by
  unfold k0_pay4
  funext j
  by_cases hl : (j 0).val < 1
  · refine (concatenate_pair_apply_left (s₁ := S1x1) (s₂ := S2047x1) 0 _ _ _ j rfl
      (ix2 (⟨(j 0).val, hl⟩ : Fin 1) (⟨(j 1).val, (j 1).isLt⟩ : Fin 1)) ?_).trans ?_
    · intro b
      match b with
      | ⟨0, _⟩ => rfl
      | ⟨1, _⟩ => rfl
    · show Ideal.ofBits .f32 0x3F800000#32 = _
      have h0 : (j 0).val = 0 := by omega
      unfold emb2 PofPm
      simp only [h0, if_true, ofBits_one]
  · have hj0 : (j 0).val < 2048 := (j 0).isLt
    refine (concatenate_pair_apply_right (s₁ := S1x1) (s₂ := S2047x1) 0 _ _ _ j rfl rfl
      (ix2 (⟨(j 0).val - 1, by omega⟩ : Fin 2047) (⟨(j 1).val, (j 1).isLt⟩ : Fin 1)) ?_ ?_).trans ?_
    · intro b hb
      match b with
      | ⟨0, _⟩ => exact absurd rfl hb
      | ⟨1, _⟩ => rfl
    · show (j 0).val - 1 + 1 = (j 0).val
      omega
    · refine (extractStridedSlice_apply (s := S2048x1) _ _ _ _
        (ix2 (⟨(j 0).val - 1, by omega⟩ : Fin 2048) (⟨(j 1).val, (j 1).isLt⟩ : Fin 1)) ?_).trans ?_
      · intro a
        match a with
        | ⟨0, _⟩ => show (j 0).val - 1 = 0 + ((j 0).val - 1); omega
        | ⟨1, _⟩ => show (j 1).val = 0 + (j 1).val; omega
      · rw [h38 _ (by show (j 0).val - 1 < 2047; omega)]
        have h0 : ¬ (j 0).val = 0 := by omega
        unfold emb2 PofPm
        simp only [h0, if_false]

/-- The mask of the boundaries: the comparison of two real coercions is the comparison of the reals. -/
private theorem pay5_eq (P : ℕ → ℝ) (v38 : FVec Ideal S2048x1 .f32)
    (h4 : k0_pay4 (F := Ideal) v38 = emb2 2048 1 (fun l _ => P l)) (i : S2048x1.Idx) :
    k0_pay5 (F := Ideal) v38 i = BitVec.ofBool (decide ((1 / 2 : ℝ) < P (i 0).val)) := by
  unfold k0_pay5
  rw [h4]
  show Ideal.cmp .ogt (((P (i 0).val : ℝ) : EReal)) (Ideal.ofBits .f32 0x3F000000#32) = _
  rw [ofBits_half]
  unfold Ideal.cmp
  simp only [EReal.coe_lt_coe_iff]

/-- The decay column 1 − p at a boundary, 1 elsewhere, repeated over the width. -/
private theorem pay6_eq (P : ℕ → ℝ) (v38 : FVec Ideal S2048x1 .f32)
    (h4 : k0_pay4 (F := Ideal) v38 = emb2 2048 1 (fun l _ => P l)) :
    k0_pay6 (F := Ideal) v38 = emb2 2048 512 (fun l _ => aC P l) := by
  unfold k0_pay6
  funext j
  refine (broadcastTo_apply (s := S2048x1) _ _ j (ix2 (⟨(j 0).val, (j 0).isLt⟩ : Fin 2048) (0 : Fin 1)) ?_).trans ?_
  · intro a
    match a with
    | ⟨0, _⟩ => rfl
    | ⟨1, _⟩ => rfl
  · refine (shapeCast_apply (s := S2048x1) _ _ _ (ix2 (⟨(j 0).val, (j 0).isLt⟩ : Fin 2048) (0 : Fin 1)) rfl).trans ?_
    rw [select_apply, pay5_eq P v38 h4, subf_apply, h4]
    show Scalar.select _ (Ideal.ofBits .f32 0x3F800000#32 - ((P (j 0).val : ℝ) : EReal)) (Ideal.ofBits .f32 0x3F800000#32)
      = ((aC P (j 0).val : ℝ) : EReal)
    rw [ofBits_one]
    unfold aC
    by_cases h : (1 / 2 : ℝ) < P (j 0).val
    · simp only [h, decide_true, BitVec.ofBool_true, if_true, EReal.coe_sub]
      exact if_pos rfl
    · simp only [h, decide_false, BitVec.ofBool_false, if_false]
      exact if_neg (by decide)

/-- The weight column p at a boundary, 0 elsewhere, repeated over the width. -/
private theorem cC_bcast (P : ℕ → ℝ) (v38 : FVec Ideal S2048x1 .f32)
    (h4 : k0_pay4 (F := Ideal) v38 = emb2 2048 1 (fun l _ => P l)) (hB : S2048x1.Broadcasts S2048x512) :
    broadcastTo S2048x512 (select (k0_pay5 (F := Ideal) v38) (k0_pay4 (F := Ideal) v38)
        (broadcast S2048x1 (Scalar.ofBits (F := Ideal) .f32 0x00000000#32))) hB
      = emb2 2048 512 (fun l _ => cC P l) := by
  funext j
  refine (broadcastTo_apply (s := S2048x1) _ _ j (ix2 (⟨(j 0).val, (j 0).isLt⟩ : Fin 2048) (0 : Fin 1)) ?_).trans ?_
  · intro a
    match a with
    | ⟨0, _⟩ => rfl
    | ⟨1, _⟩ => rfl
  · rw [select_apply, pay5_eq P v38 h4, h4]
    show Scalar.select _ ((P (j 0).val : ℝ) : EReal) (Ideal.ofBits .f32 0x00000000#32) = ((cC P (j 0).val : ℝ) : EReal)
    rw [ofBits_zero]
    unfold cC
    by_cases h : (1 / 2 : ℝ) < P (j 0).val
    · simp only [h, decide_true, BitVec.ofBool_true, if_true]
      exact if_pos rfl
    · simp only [h, decide_false, BitVec.ofBool_false, if_false]
      exact if_neg (by decide)

/-! ## The eleven steps, in the groups the body computes them in -/

private theorem pay7_eq (v38 : FVec Ideal S2048x1 .f32) (A : ℕ → ℕ → ℝ) (h6 : k0_pay6 (F := Ideal) v38 = emb2 2048 512 A) :
    k0_pay7 (F := Ideal) v38 = emb2 2048 512 (stA 1 A) := by
  unfold k0_pay7
  rw [h6]
  exact stepA_eq 1 2047 rfl A _ _

private theorem pay8_eq (v38 : FVec Ideal S2048x1 .f32) (A : ℕ → ℕ → ℝ) (h7 : k0_pay7 (F := Ideal) v38 = emb2 2048 512 A) :
    k0_pay8 (F := Ideal) v38 = emb2 2048 512 (stA 2 A) := by
  unfold k0_pay8
  rw [h7]
  exact stepA_eq 2 2046 rfl A _ _

private theorem pay10_eq (v38 : FVec Ideal S2048x1 .f32) (A : ℕ → ℕ → ℝ) (h8 : k0_pay8 (F := Ideal) v38 = emb2 2048 512 A) :
    k0_pay10 (F := Ideal) v38 = emb2 2048 512 (stA 4 A) := by
  unfold k0_pay10
  rw [h8]
  exact stepA_eq 4 2044 rfl A _ _

/-- The accumulated table after the strides 1, 2, 4, from the weights times the rows. -/
private theorem pay9_eq (X : ℕ → ℕ → ℝ) (P : ℕ → ℝ) (v38 : FVec Ideal S2048x1 .f32)
    (h4 : k0_pay4 (F := Ideal) v38 = emb2 2048 1 (fun l _ => P l)) :
    k0_pay9 (F := Ideal) (emb2 2048 512 X) v38
      = emb2 2048 512 (tabs (fun l _ => aC P l, fun l d => cC P l * X l d) [1, 2, 4]).2 := by
  have h6 := pay6_eq P v38 h4
  have h7 := pay7_eq v38 _ h6
  have h8 := pay8_eq v38 _ h7
  unfold k0_pay9
  dsimp only
  rw [h6, h7, h8, cC_bcast P v38 h4 _]
  rw [emb2_mul, stepB_eq 1 2047 rfl, stepB_eq 2 2046 rfl, stepB_eq 4 2044 rfl]
  rfl

private theorem pay11_eq (v1 : FVec Ideal S2048x512 .f32) (v38 : FVec Ideal S2048x1 .f32) (B : ℕ → ℕ → ℝ)
    (h9 : k0_pay9 (F := Ideal) v1 v38 = emb2 2048 512 B) :
    k0_pay11 (F := Ideal) v1 v38 = emb2 2048 512 (shT 8 0 B) := by
  unfold k0_pay11
  rw [h9]
  exact shift_table 8 2040 rfl _ 0 ofBits_zero B _ _

/-! The decay chain from stride 8 on, from the table A after stride 4 and its first 2040 rows. -/

private theorem pay14_eq (A : ℕ → ℕ → ℝ) (hS : S2048x512.Slices ![0, 0] S2040x512) :
    k0_pay14 (F := Ideal) (emb2 2048 512 A) k0_pay12 (extractStridedSlice S2040x512 ![0, 0] (emb2 2048 512 A) hS)
      = emb2 2048 512 (stA 8 A) := by
  unfold k0_pay14 k0_pay12
  exact stepA_eq 8 2040 rfl A _ _

private theorem pay15_eq (A : ℕ → ℕ → ℝ) (hS : S2048x512.Slices ![0, 0] S2040x512) :
    k0_pay15 (F := Ideal) (emb2 2048 512 A) k0_pay12 (extractStridedSlice S2040x512 ![0, 0] (emb2 2048 512 A) hS)
      = emb2 2048 512 (stA 16 (stA 8 A)) := by
  unfold k0_pay15
  rw [pay14_eq A hS]
  exact stepA_eq 16 2032 rfl _ _ _

private theorem pay16_eq (A : ℕ → ℕ → ℝ) (hS : S2048x512.Slices ![0, 0] S2040x512) :
    k0_pay16 (F := Ideal) (emb2 2048 512 A) k0_pay12 (extractStridedSlice S2040x512 ![0, 0] (emb2 2048 512 A) hS)
      = emb2 2048 512 (stA 32 (stA 16 (stA 8 A))) := by
  unfold k0_pay16
  rw [pay15_eq A hS]
  exact stepA_eq 32 2016 rfl _ _ _

private theorem pay17_eq (A : ℕ → ℕ → ℝ) (hS : S2048x512.Slices ![0, 0] S2040x512) :
    k0_pay17 (F := Ideal) (emb2 2048 512 A) k0_pay12 (extractStridedSlice S2040x512 ![0, 0] (emb2 2048 512 A) hS)
      = emb2 2048 512 (stA 64 (stA 32 (stA 16 (stA 8 A)))) := by
  unfold k0_pay17
  rw [pay16_eq A hS]
  exact stepA_eq 64 1984 rfl _ _ _

private theorem pay18_eq (A : ℕ → ℕ → ℝ) (hS : S2048x512.Slices ![0, 0] S2040x512) :
    k0_pay18 (F := Ideal) (emb2 2048 512 A) k0_pay12 (extractStridedSlice S2040x512 ![0, 0] (emb2 2048 512 A) hS)
      = emb2 2048 512 (stA 128 (stA 64 (stA 32 (stA 16 (stA 8 A))))) := by
  unfold k0_pay18
  rw [pay17_eq A hS]
  exact stepA_eq 128 1920 rfl _ _ _

private theorem pay20_eq (A B : ℕ → ℕ → ℝ) (hS : S2048x512.Slices ![0, 0] S2040x512) :
    k0_pay20 (F := Ideal) (emb2 2048 512 A) k0_pay12 (extractStridedSlice S2040x512 ![0, 0] (emb2 2048 512 A) hS)
      = emb2 2048 512 (tabs (A, B) [8, 16, 32, 64, 128, 256]).1 := by
  unfold k0_pay20
  rw [pay18_eq A hS]
  exact stepA_eq 256 1792 rfl _ _ _

/-- The accumulated table after the strides 8 … 256, from the tables after stride 4. -/
private theorem pay19_eq (A B : ℕ → ℕ → ℝ) (hS : S2048x512.Slices ![0, 0] S2040x512) :
    k0_pay19 (F := Ideal) (emb2 2048 512 B) (emb2 2048 512 A) (emb2 2048 512 (shT 8 0 B)) k0_pay12
        (extractStridedSlice S2040x512 ![0, 0] (emb2 2048 512 A) hS)
      = emb2 2048 512 (tabs (A, B) [8, 16, 32, 64, 128, 256]).2 := by
  have e8 : addf (F := Ideal) (φ := .f32) (s := (⟨2, ![2048, 512]⟩ : Shape)) (emb2 2048 512 B)
      (mulf (F := Ideal) (φ := .f32) (s := (⟨2, ![2048, 512]⟩ : Shape)) (emb2 2048 512 A) (emb2 2048 512 (shT 8 0 B)))
      = emb2 2048 512 (stB 8 A B) := by
    rw [emb2_mul, emb2_add]
    rfl
  unfold k0_pay19
  dsimp only
  rw [pay14_eq A hS, pay15_eq A hS, pay16_eq A hS, pay17_eq A hS, pay18_eq A hS, e8]
  rw [stepB_eq 16 2032 rfl, stepB_eq 32 2016 rfl, stepB_eq 64 1984 rfl, stepB_eq 128 1920 rfl, stepB_eq 256 1792 rfl]
  rfl

/-- The last two steps (the decay only through stride 512) and the sum with the rows, as the staged block's shape. -/
private theorem pay1_eq (X A B : ℕ → ℕ → ℝ) :
    k0_pay1 (F := Ideal) (emb2 2048 512 X) (emb2 2048 512 B) (emb2 2048 512 A) (Scalar.ofBits .f32 0x00000000#32)
      = emb3 1 2048 512 (fun _ l d => X l d + (tabs (A, B) [512, 1024]).2 l d) := by
  unfold k0_pay1
  dsimp only
  rw [stepB_eq 512 1536 rfl, stepA_eq 512 1536 rfl, stepB_eq 1024 1024 rfl, emb2_add]
  funext j
  refine (shapeCast_addUnit_apply ![2048, 512] _ _ j).trans ?_
  rfl

/-- With `v38` real on the rows below 2047 (`Pm`), the body after the router is `X` plus the doubling scan of the
    coefficients of `P l = if l = 0 then 1 else Pm (l − 1)`. -/
theorem kRest_eq (X : ℕ → ℕ → ℝ) (Pm : ℕ → ℝ) (v38 : FVec Ideal S2048x1 .f32)
    (h38 : ∀ i : S2048x1.Idx, (i 0).val < 2047 → v38 i = ((Pm (i 0).val : ℝ) : EReal)) :
    kRest (F := Ideal) (emb2 2048 512 X) v38
      = (emb3 1 2048 512 fun _ l d =>
          X l d + hsScan (aC fun l => if l = 0 then 1 else Pm (l - 1))
            (fun l => cC (fun l => if l = 0 then 1 else Pm (l - 1)) l * X l d) l : FVec Ideal S1x2048x512 .f32) := by
  have h4 := pay4_eq Pm v38 h38
  have h6 := pay6_eq (PofPm Pm) v38 h4
  have h7 := pay7_eq v38 _ h6
  have h8 := pay8_eq v38 _ h7
  have h10 := pay10_eq v38 _ h8
  have h9 := pay9_eq X (PofPm Pm) v38 h4
  have h11 := pay11_eq _ v38 _ h9
  unfold kRest
  rw [h11, h9]
  unfold k0_pay13
  rw [h10, pay19_eq, pay20_eq _ (tabs (fun l _ => aC (PofPm Pm) l, fun l d => cC (PofPm Pm) l * X l d) [1, 2, 4]).2, pay1_eq]
  rw [tabs_join]
  refine congrArg (emb3 1 2048 512) (funext fun _ => funext fun l => funext fun d => ?_)
  exact congrArg (X l d + ·) (scan_tabs (aC (PofPm Pm)) X (cC (PofPm Pm)) l d).symm

end Cert.KernelIdeal.KVal

end
-- ==== Proof.ScanMath.lean ====
/-
  The doubling scan computes the linear recurrence: after the steps of strides 1, 2, …, 2^(k−1) row l holds the
  composition of its last 2^k rows, so after eleven steps every row below 2048 holds the whole recurrence.

  Window quantities: for a width w and a row l, the window is the last min w (l+1) rows ending at l.
  `prodWin a w l` is the product of a over the window; `recWin a b w l` is the recurrence started from zero
  just before the window. Two adjacent windows compose:
    prodWin (u+v) l = prodWin u l · prodWin v (l−u),
    recWin (u+v) l = prodWin u l · recWin v (l−u) + recWin u l        (u ≤ l),
  and a window that already reaches row 0 does not grow. One doubling step at stride s therefore turns the
  width-s windows into the width-2s windows, and a window wider than l is the whole recurrence.
-/
import proofs.«173479_g14800457302192_cont_week2b_463_2_alg».proof.Proof.Spec

noncomputable section

namespace Cert.Spec

/-- The product of `a` over the last `min w (l+1)` rows ending at row `l`. -/
def prodWin (a : ℕ → ℝ) : ℕ → ℕ → ℝ
  | 0, _ => 1
  | _ + 1, 0 => a 0
  | w + 1, l + 1 => a (l + 1) * prodWin a w l

/-- The recurrence over the last `min w (l+1)` rows ending at row `l`, started from zero before them. -/
def recWin (a b : ℕ → ℝ) : ℕ → ℕ → ℝ
  | 0, _ => 0
  | _ + 1, 0 => b 0
  | w + 1, l + 1 => a (l + 1) * recWin a b w l + b (l + 1)

/-- A window that reaches row 0 does not grow. -/
theorem prodWin_sat (a : ℕ → ℝ) (v w : ℕ) : ∀ l, l < w → prodWin a (w + v) l = prodWin a w l := by
  induction w with
  | zero => intro l h; exact absurd h (Nat.not_lt_zero _)
  | succ w ih =>
    intro l h
    rw [Nat.add_right_comm w 1 v]
    cases l with
    | zero => simp only [prodWin]
    | succ l => simp only [prodWin]; rw [ih l (Nat.lt_of_succ_lt_succ h)]

/-- A window that reaches row 0 does not grow. -/
theorem recWin_sat (a b : ℕ → ℝ) (v w : ℕ) : ∀ l, l < w → recWin a b (w + v) l = recWin a b w l := by
  induction w with
  | zero => intro l h; exact absurd h (Nat.not_lt_zero _)
  | succ w ih =>
    intro l h
    rw [Nat.add_right_comm w 1 v]
    cases l with
    | zero => simp only [recWin]
    | succ l => simp only [recWin]; rw [ih l (Nat.lt_of_succ_lt_succ h)]

/-- The product over a window of width `u + v` splits after its last `u` rows. -/
theorem prodWin_split (a : ℕ → ℝ) (v u : ℕ) :
    ∀ l, u ≤ l → prodWin a (u + v) l = prodWin a u l * prodWin a v (l - u) := by
  induction u with
  | zero => intro l _; simp only [Nat.zero_add, prodWin, one_mul, Nat.sub_zero]
  | succ u ih =>
    intro l h
    rw [Nat.add_right_comm u 1 v]
    cases l with
    | zero => exact absurd h (Nat.not_succ_le_zero _)
    | succ l =>
      simp only [prodWin, Nat.add_sub_add_right]
      rw [ih l (Nat.le_of_succ_le_succ h)]
      ring

/-- The recurrence over a window of width `u + v` splits after its last `u` rows. -/
theorem recWin_split (a b : ℕ → ℝ) (v u : ℕ) :
    ∀ l, u ≤ l → recWin a b (u + v) l = prodWin a u l * recWin a b v (l - u) + recWin a b u l := by
  induction u with
  | zero => intro l _; simp only [Nat.zero_add, prodWin, recWin, one_mul, Nat.sub_zero, add_zero]
  | succ u ih =>
    intro l h
    rw [Nat.add_right_comm u 1 v]
    cases l with
    | zero => exact absurd h (Nat.not_succ_le_zero _)
    | succ l =>
      simp only [prodWin, recWin, Nat.add_sub_add_right]
      rw [ih l (Nat.le_of_succ_le_succ h)]
      ring

/-- A window wider than `l` holds the whole recurrence up to row `l`. -/
theorem recWin_full (a b : ℕ → ℝ) (w : ℕ) : ∀ l, l < w → recWin a b w l = linRec a b l := by
  induction w with
  | zero => intro l h; exact absurd h (Nat.not_lt_zero _)
  | succ w ih =>
    intro l h
    cases l with
    | zero => simp only [recWin, linRec]
    | succ l => simp only [recWin, linRec]; rw [ih l (Nat.lt_of_succ_lt_succ h)]

/-- Width-one windows are the inputs themselves. -/
theorem prodWin_one (a : ℕ → ℝ) : prodWin a 1 = a := by
  funext l
  cases l with
  | zero => simp only [prodWin]
  | succ l => simp only [prodWin, mul_one]

/-- Width-one windows are the inputs themselves. -/
theorem recWin_one (a b : ℕ → ℝ) : recWin a b 1 = b := by
  funext l
  cases l with
  | zero => simp only [recWin]
  | succ l => simp only [recWin, mul_zero, zero_add]

/-- One doubling step at stride `s` turns the width-`s` windows into the width-`2s` windows. -/
theorem hsStep_win (a b : ℕ → ℝ) (s t : ℕ) (ht : t = s + s) :
    hsStep s (prodWin a s, recWin a b s) = (prodWin a t, recWin a b t) := by
  subst ht
  unfold hsStep
  refine Prod.ext ?_ ?_
  · funext l
    by_cases h : l < s
    · simp only [if_pos h]; exact (prodWin_sat a s s l h).symm
    · simp only [if_neg h]; exact (prodWin_split a s s l (Nat.le_of_not_lt h)).symm
  · funext l
    by_cases h : l < s
    · simp only [if_pos h]; exact (recWin_sat a b s s l h).symm
    · simp only [if_neg h]; exact (recWin_split a b s s l (Nat.le_of_not_lt h)).symm

/-- After the eleven steps every row holds its window of width 2048. -/
theorem hsScan_win (a b : ℕ → ℝ) : hsScan a b = recWin a b 2048 := by
  have h0 : (a, b) = (prodWin a 1, recWin a b 1) := by rw [prodWin_one, recWin_one]
  simp only [hsScan, strides, List.foldl]
  rw [h0, hsStep_win a b 1 2 rfl, hsStep_win a b 2 4 rfl, hsStep_win a b 4 8 rfl,
    hsStep_win a b 8 16 rfl, hsStep_win a b 16 32 rfl, hsStep_win a b 32 64 rfl,
    hsStep_win a b 64 128 rfl, hsStep_win a b 128 256 rfl, hsStep_win a b 256 512 rfl,
    hsStep_win a b 512 1024 rfl, hsStep_win a b 1024 2048 rfl]

/-- Below row 2048 the eleven doubling steps compute the linear recurrence. -/
theorem hsScan_eq (a b : ℕ → ℝ) (l : ℕ) (hl : l < 2048) : hsScan a b l = linRec a b l := by
  rw [hsScan_win]; exact recWin_full a b 2048 l hl

end Cert.Spec

end
-- ==== Proof.KernelMath.lean ====
/-
  The kernel's result array over real inputs is the table `out`: block b of the result is the body's value of
  sequence b and the transposed weights; the body's router gives the clipped half-complement cosines on every row but the
  last (the only rows the probabilities read), its scan part is the rows plus the doubling scan of the recurrence's
  coefficients, and the doubling scan is the linear recurrence.
-/
import proofs.«173479_g14800457302192_cont_week2b_463_2_alg».proof.Proof.KernelRouter
import proofs.«173479_g14800457302192_cont_week2b_463_2_alg».proof.Proof.KernelScan
import proofs.«173479_g14800457302192_cont_week2b_463_2_alg».proof.Proof.ScanMath

noncomputable section

namespace Cert.KernelIdeal.KVal

open Cert.KernelIdeal Cert.KernelIdeal.Gen Idealize.ShloMosaic Idealize.ShloMosaic.TcCoe Idealize.SL.Sem
open Idealize.ShloMosaic.ValueIdx
open Cert.Spec Cert.Consts

/-- The body's value of one real sequence and the transposed real weights is the sequence's result. -/
theorem kbody_emb (X Wq Wk : ℕ → ℕ → ℝ) :
    kbody (F := Ideal) (emb3 1 2048 512 fun _ l d => X l d)
        (transpose S512x512 [1, 0] (emb2 512 512 Wq : FVec Ideal S512x512 .f32) Facts₀.transposes_S512x512_S512x512_1_0)
        (transpose S512x512 [1, 0] (emb2 512 512 Wk : FVec Ideal S512x512 .f32) Facts₀.transposes_S512x512_S512x512_1_0)
      = (emb3 1 2048 512 fun _ l d => outSeq epsR X Wq Wk l d : Vec Ideal S1x2048x512 .f32) := by
  rw [transpose_emb2, transpose_emb2]
  unfold kbody
  rw [pay2_emb, kRest_eq X (pm epsR X Wq Wk) _ (fun i hi => router_eq X Wq Wk i hi)]
  funext i
  have hP : (fun l => if l = 0 then (1 : ℝ) else pm epsR X Wq Wk (l - 1)) = prob epsR X Wq Wk := rfl
  simp only [emb3, outSeq, state, hP]
  rw [hsScan_eq _ _ _ (i 1).isLt]

/-- The kernel's whole result array over real inputs. -/
theorem KOut_emb (X : ℕ → ℕ → ℕ → ℝ) (Wq Wk : ℕ → ℕ → ℝ) :
    KOut (F := Ideal) (emb3 4 2048 512 X) (emb2 512 512 Wq) (emb2 512 512 Wk)
      = (emb3 4 2048 512 (out epsR X Wq Wk) : FVec Ideal S4x2048x512 .f32) := by
  funext i
  have hx : (fun y : S1x2048x512.Idx => (emb3 4 2048 512 X : FVec Ideal S4x2048x512 .f32) (ix3 (i 0) (y 1) (y 2)))
      = (emb3 1 2048 512 fun _ l d => X (i 0).val l d : Vec Ideal S1x2048x512 .f32) := by
    funext y; rfl
  unfold KOut
  rw [hx, kbody_emb]
  rfl

end Cert.KernelIdeal.KVal

end
-- ==== Proof.RefStageA.lean ====
import proofs.«173479_g14800457302192_cont_week2b_463_2_alg».proof.Proof.Gen.ReferenceIdeal

set_option maxRecDepth 8192

noncomputable section

namespace Cert.ReferenceIdeal.Stage

open Cert.ReferenceIdeal Idealize.ShloMosaic Idealize.ShloMosaic.TcCoe Idealize.SL.Sem
open Facts₀

variable {F : FTy → Type} [FloatOps F]

/-- The router: the boundary probabilities of every sequence (row 0 set to one). -/
def fA (main_arg0 : (⟨S4x2048x512, .f32⟩ : BufTy).Contents (Elt F)) (main_arg1 : (⟨S512x512, .f32⟩ : BufTy).Contents (Elt F)) (main_arg2 : (⟨S512x512, .f32⟩ : BufTy).Contents (Elt F)) : (⟨S4x2048, .f32⟩ : BufTy).Contents (Elt F) :=
  let main_v0 : (⟨S4x2047x512, .f32⟩ : BufTy).Contents (Elt F) := (extractStridedSlice S4x2047x512 ![0, 0, 0] · slices_S4x2048x512_S4x2047x512_0_0_0) main_arg0
  let main_v1 : (⟨S4x2047x512, .f32⟩ : BufTy).Contents (Elt F) := (fun l r => Host.dotGeneral dot_S4x2047x512_S512x512_S4x2047x512_2_1_01_0_n_n none l r) main_v0 main_arg1
  let main_v2 : (⟨S4x2047x512, .f32⟩ : BufTy).Contents (Elt F) := mulf main_v1 main_v1
  let main_cst : (⟨S_, .f32⟩ : BufTy).Contents (Elt F) := (constant S_ .f32 0x00000000#32)
  let main_v3 : (⟨S4x2047, .f32⟩ : BufTy).Contents (Elt F) := (fun x v => Host.reduceAdd x v reducesTo_S4x2047x512_S4x2047_d2 h_S_) main_v2 main_cst
  let main_v4 : (⟨S4x2047x1, .f32⟩ : BufTy).Contents (Elt F) := (broadcastInDim S4x2047x1 ![0, 1] bcast_S4x2047_S4x2047x1_0_1) main_v3
  let main_v5 : (⟨S4x2047x1, .f32⟩ : BufTy).Contents (Elt F) := Host.sqrt main_v4
  let main_cst_0 : (⟨S_, .f32⟩ : BufTy).Contents (Elt F) := (constant S_ .f32 0x2B8CBCCC#32)
  let main_v6 : (⟨S4x2047x1, .f32⟩ : BufTy).Contents (Elt F) := (broadcastInDim S4x2047x1 ![] bcast_S_S4x2047x1) main_cst_0
  let main_v7 : (⟨S4x2047x1, .f32⟩ : BufTy).Contents (Elt F) := maximumf main_v5 main_v6
  let main_v8 : (⟨S4x2047x512, .f32⟩ : BufTy).Contents (Elt F) := (broadcastInDim S4x2047x512 ![0, 1, 2] bcast_S4x2047x1_S4x2047x512_0_1_2) main_v7
  let main_v9 : (⟨S4x2047x512, .f32⟩ : BufTy).Contents (Elt F) := Host.divf main_v1 main_v8
  let main_v10 : (⟨S4x2047x512, .f32⟩ : BufTy).Contents (Elt F) := (extractStridedSlice S4x2047x512 ![0, 1, 0] · slices_S4x2048x512_S4x2047x512_0_1_0) main_arg0
  let main_v11 : (⟨S4x2047x512, .f32⟩ : BufTy).Contents (Elt F) := (fun l r => Host.dotGeneral dot_S4x2047x512_S512x512_S4x2047x512_2_1_01_0_n_n none l r) main_v10 main_arg2
  let main_v12 : (⟨S4x2047x512, .f32⟩ : BufTy).Contents (Elt F) := mulf main_v11 main_v11
  let main_cst_1 : (⟨S_, .f32⟩ : BufTy).Contents (Elt F) := (constant S_ .f32 0x00000000#32)
  let main_v13 : (⟨S4x2047, .f32⟩ : BufTy).Contents (Elt F) := (fun x v => Host.reduceAdd x v reducesTo_S4x2047x512_S4x2047_d2 h_S_) main_v12 main_cst_1
  let main_v14 : (⟨S4x2047x1, .f32⟩ : BufTy).Contents (Elt F) := (broadcastInDim S4x2047x1 ![0, 1] bcast_S4x2047_S4x2047x1_0_1) main_v13
  let main_v15 : (⟨S4x2047x1, .f32⟩ : BufTy).Contents (Elt F) := Host.sqrt main_v14
  let main_cst_2 : (⟨S_, .f32⟩ : BufTy).Contents (Elt F) := (constant S_ .f32 0x2B8CBCCC#32)
  let main_v16 : (⟨S4x2047x1, .f32⟩ : BufTy).Contents (Elt F) := (broadcastInDim S4x2047x1 ![] bcast_S_S4x2047x1) main_cst_2
  let main_v17 : (⟨S4x2047x1, .f32⟩ : BufTy).Contents (Elt F) := maximumf main_v15 main_v16
  let main_v18 : (⟨S4x2047x512, .f32⟩ : BufTy).Contents (Elt F) := (broadcastInDim S4x2047x512 ![0, 1, 2] bcast_S4x2047x1_S4x2047x512_0_1_2) main_v17
  let main_v19 : (⟨S4x2047x512, .f32⟩ : BufTy).Contents (Elt F) := Host.divf main_v11 main_v18
  let main_v20 : (⟨S4x2047x512, .f32⟩ : BufTy).Contents (Elt F) := mulf main_v9 main_v19
  let main_cst_3 : (⟨S_, .f32⟩ : BufTy).Contents (Elt F) := (constant S_ .f32 0x00000000#32)
  let main_v21 : (⟨S4x2047, .f32⟩ : BufTy).Contents (Elt F) := (fun x v => Host.reduceAdd x v reducesTo_S4x2047x512_S4x2047_d2 h_S_) main_v20 main_cst_3
  let main_cst_4 : (⟨S_, .f32⟩ : BufTy).Contents (Elt F) := (constant S_ .f32 0x3F800000#32)
  let main_v22 : (⟨S4x1, .f32⟩ : BufTy).Contents (Elt F) := (broadcastInDim S4x1 ![] bcast_S_S4x1) main_cst_4
  let main_cst_5 : (⟨S_, .f32⟩ : BufTy).Contents (Elt F) := (constant S_ .f32 0x3F800000#32)
  let main_v23 : (⟨S4x2047, .f32⟩ : BufTy).Contents (Elt F) := (broadcastInDim S4x2047 ![] bcast_S_S4x2047) main_cst_5
  let main_v24 : (⟨S4x2047, .f32⟩ : BufTy).Contents (Elt F) := subf main_v23 main_v21
  let main_cst_6 : (⟨S_, .f32⟩ : BufTy).Contents (Elt F) := (constant S_ .f32 0x40000000#32)
  let main_v25 : (⟨S4x2047, .f32⟩ : BufTy).Contents (Elt F) := (broadcastInDim S4x2047 ![] bcast_S_S4x2047) main_cst_6
  let main_v26 : (⟨S4x2047, .f32⟩ : BufTy).Contents (Elt F) := Host.divf main_v24 main_v25
  let main_cst_7 : (⟨S_, .f32⟩ : BufTy).Contents (Elt F) := (constant S_ .f32 0x00000000#32)
  let main_cst_8 : (⟨S_, .f32⟩ : BufTy).Contents (Elt F) := (constant S_ .f32 0x3F800000#32)
  let main_call0_v0 : (⟨S_, .f32⟩ : BufTy).Contents (Elt F) := id main_cst_7
  let main_call0_v1 : (⟨S4x2047, .f32⟩ : BufTy).Contents (Elt F) := (broadcastInDim S4x2047 ![] bcast_S_S4x2047) main_call0_v0
  let main_call0_v2 : (⟨S4x2047, .f32⟩ : BufTy).Contents (Elt F) := maximumf main_call0_v1 main_v26
  let main_call0_v3 : (⟨S_, .f32⟩ : BufTy).Contents (Elt F) := id main_cst_8
  let main_call0_v4 : (⟨S4x2047, .f32⟩ : BufTy).Contents (Elt F) := (broadcastInDim S4x2047 ![] bcast_S_S4x2047) main_call0_v3
  let main_v27 : (⟨S4x2047, .f32⟩ : BufTy).Contents (Elt F) := minimumf main_call0_v4 main_call0_v2
  let main_v28 : (⟨S4x2048, .f32⟩ : BufTy).Contents (Elt F) := (fun a b => concatenate S4x2048 1 [⟨S4x1, a⟩, ⟨S4x2047, b⟩] concatenates_S4x1_S4x2047_S4x2048_d1) main_v22 main_v27
  let main_c : (⟨S_, .i32⟩ : BufTy).Contents (Elt F) := (constantI S_ 32 0#32)
  let main_v29 : (⟨S1, .i32⟩ : BufTy).Contents (Elt F) := (broadcastInDim S1 ![] bcast_S_S1) main_c
  let main_cst_9 : (⟨S_, .f32⟩ : BufTy).Contents (Elt F) := (constant S_ .f32 0x3F800000#32)
  let main_v30 : (⟨S4, .f32⟩ : BufTy).Contents (Elt F) := (broadcastInDim S4 ![] bcast_S_S4) main_cst_9
  let main_v31 : (⟨S4x2048, .f32⟩ : BufTy).Contents (Elt F) := (fun x i u => Host.scatter scatter_S4x2048_S1_S4_0_1_1_0 (fun _ b => b) x i u) main_v28 main_v29 main_v30
  main_v31

end Cert.ReferenceIdeal.Stage

end
-- ==== Proof.RefStageB.lean ====
import proofs.«173479_g14800457302192_cont_week2b_463_2_alg».proof.Proof.Gen.ReferenceIdeal

set_option maxRecDepth 8192

noncomputable section

namespace Cert.ReferenceIdeal.Stage

open Cert.ReferenceIdeal Idealize.ShloMosaic Idealize.ShloMosaic.TcCoe Idealize.SL.Sem
open Facts₀

variable {F : FTy → Type} [FloatOps F]

/-- The boundary mask: probability above one half. -/
def fB33 (main_v31 : (⟨S4x2048, .f32⟩ : BufTy).Contents (Elt F)) : (⟨S4x2048, .i1⟩ : BufTy).Contents (Elt F) :=
  let main_cst_10 : (⟨S_, .f32⟩ : BufTy).Contents (Elt F) := (constant S_ .f32 0x3F000000#32)
  let main_v32 : (⟨S4x2048, .f32⟩ : BufTy).Contents (Elt F) := (broadcastInDim S4x2048 ![] bcast_S_S4x2048) main_cst_10
  let main_v33 : (⟨S4x2048, .i1⟩ : BufTy).Contents (Elt F) := (cmpf .ogt) main_v31 main_v32
  main_v33

/-- The stable sort order of the rows, boundaries first: slot j holds the row index. -/
def fB36 (main_v31 : (⟨S4x2048, .f32⟩ : BufTy).Contents (Elt F)) : (⟨S4x2048, .i32⟩ : BufTy).Contents (Elt F) :=
  let main_cst_10 : (⟨S_, .f32⟩ : BufTy).Contents (Elt F) := (constant S_ .f32 0x3F000000#32)
  let main_v32 : (⟨S4x2048, .f32⟩ : BufTy).Contents (Elt F) := (broadcastInDim S4x2048 ![] bcast_S_S4x2048) main_cst_10
  let main_v33 : (⟨S4x2048, .i1⟩ : BufTy).Contents (Elt F) := (cmpf .ogt) main_v31 main_v32
  let main_v34 : (⟨S4x2048, .i1⟩ : BufTy).Contents (Elt F) := noti main_v33
  let main_v35 : (⟨S4x2048, .i32⟩ : BufTy).Contents (Elt F) := (extui 32 · natLt_1_32) main_v34
  let main_call1_v0 : (⟨S4x2048, .i32⟩ : BufTy).Contents (Elt F) := (iotaInDim S4x2048 32 1)
  let main_v36 : (⟨S4x2048, .i32⟩ : BufTy).Contents (Elt F) := (fun x y => (Host.sort2 S4x2048 1 comparator_i32_i32_d1 x y).2) main_v35 main_call1_v0
  main_v36

/-- The rows gathered in the sort order. -/
def fB40 (main_arg0 : (⟨S4x2048x512, .f32⟩ : BufTy).Contents (Elt F)) (main_v36 : (⟨S4x2048, .i32⟩ : BufTy).Contents (Elt F)) : (⟨S4x2048x512, .f32⟩ : BufTy).Contents (Elt F) :=
  let main_v39 : (⟨S4x2048x1, .i32⟩ : BufTy).Contents (Elt F) := (broadcastInDim S4x2048x1 ![0, 1] bcast_S4x2048_S4x2048x1_0_1) main_v36
  let main_call2_c : (⟨S_, .i32⟩ : BufTy).Contents (Elt F) := (constantI S_ 32 0#32)
  let main_call2_v0 : (⟨S4x2048x1, .i32⟩ : BufTy).Contents (Elt F) := (broadcastInDim S4x2048x1 ![] bcast_S_S4x2048x1) main_call2_c
  let main_call2_v1 : (⟨S4x2048x1, .i1⟩ : BufTy).Contents (Elt F) := (cmpi .slt) main_v39 main_call2_v0
  let main_call2_c_0 : (⟨S_, .i32⟩ : BufTy).Contents (Elt F) := (constantI S_ 32 2048#32)
  let main_call2_v2 : (⟨S4x2048x1, .i32⟩ : BufTy).Contents (Elt F) := (broadcastInDim S4x2048x1 ![] bcast_S_S4x2048x1) main_call2_c_0
  let main_call2_v3 : (⟨S4x2048x1, .i32⟩ : BufTy).Contents (Elt F) := addi main_v39 main_call2_v2
  let main_call2_v4 : (⟨S4x2048x1, .i32⟩ : BufTy).Contents (Elt F) := select main_call2_v1 main_call2_v3 main_v39
  let main_call2_c_1 : (⟨S1, .i32⟩ : BufTy).Contents (Elt F) := (constantI S1 32 2047#32)
  let main_call2_c_2 : (⟨S_, .i32⟩ : BufTy).Contents (Elt F) := (constantI S_ 32 0#32)
  let main_call2_v5 : (⟨S4x2048x1, .i32⟩ : BufTy).Contents (Elt F) := (broadcastInDim S4x2048x1 ![] bcast_S_S4x2048x1) main_call2_c_2
  let main_call2_v6 : (⟨S4x2048x1, .i1⟩ : BufTy).Contents (Elt F) := (cmpi .sge) main_call2_v4 main_call2_v5
  let main_call2_v7 : (⟨S1x1x1, .i32⟩ : BufTy).Contents (Elt F) := (broadcastInDim S1x1x1 ![2] bcast_S1_S1x1x1_2) main_call2_c_1
  let main_call2_v8 : (⟨S4x2048x1, .i32⟩ : BufTy).Contents (Elt F) := (broadcastInDim S4x2048x1 ![0, 1, 2] bcast_S1x1x1_S4x2048x1_0_1_2) main_call2_v7
  let main_call2_v9 : (⟨S4x2048x1, .i1⟩ : BufTy).Contents (Elt F) := (cmpi .sle) main_call2_v4 main_call2_v8
  let main_call2_v10 : (⟨S4x2048x1, .i1⟩ : BufTy).Contents (Elt F) := andi main_call2_v6 main_call2_v9
  let main_call2_c_3 : (⟨S_, .i1⟩ : BufTy).Contents (Elt F) := (constantI S_ 1 1#1)
  let main_call2_v11 : (⟨S4x2048, .i1⟩ : BufTy).Contents (Elt F) := (fun x v => Host.reduce IntOp.andi x v reducesTo_S4x2048x1_S4x2048_d2 h_S_) main_call2_v10 main_call2_c_3
  let main_call2_v12 : (⟨S4x2048x512, .f32⟩ : BufTy).Contents (Elt F) := (fun x i => Host.gather gather_S4x2048x512_S4x2048x1_S4x2048x512_2_1_0_0_1_2_11512 x i) main_arg0 main_call2_v4
  let main_call2_v13 : (⟨S4x2048x512, .i1⟩ : BufTy).Contents (Elt F) := (broadcastInDim S4x2048x512 ![0, 1] bcast_S4x2048_S4x2048x512_0_1) main_call2_v11
  let main_call2_cst : (⟨S_, .f32⟩ : BufTy).Contents (Elt F) := (constant S_ .f32 0x7FC00000#32)
  let main_call2_v14 : (⟨S4x2048x512, .f32⟩ : BufTy).Contents (Elt F) := (broadcastInDim S4x2048x512 ![] bcast_S_S4x2048x512) main_call2_cst
  let main_v40 : (⟨S4x2048x512, .f32⟩ : BufTy).Contents (Elt F) := select main_call2_v13 main_call2_v12 main_call2_v14
  main_v40

/-- Which slots hold a boundary: slot index below the count of boundaries. -/
def fB46 (main_v33 : (⟨S4x2048, .i1⟩ : BufTy).Contents (Elt F)) : (⟨S4x2048, .i1⟩ : BufTy).Contents (Elt F) :=
  let main_v37 : (⟨S4x2048, .i32⟩ : BufTy).Contents (Elt F) := (extui 32 · natLt_1_32) main_v33
  let main_c_11 : (⟨S_, .i32⟩ : BufTy).Contents (Elt F) := (constantI S_ 32 0#32)
  let main_v38 : (⟨S4, .i32⟩ : BufTy).Contents (Elt F) := (fun x v => Host.reduce IntOp.addi x v reducesTo_S4x2048_S4_d1 h_S_) main_v37 main_c_11
  let main_v41 : (⟨S2048, .i32⟩ : BufTy).Contents (Elt F) := (iotaInDim S2048 32 0)
  let main_v42 : (⟨S1x2048, .i32⟩ : BufTy).Contents (Elt F) := (broadcastInDim S1x2048 ![1] bcast_S2048_S1x2048_1) main_v41
  let main_v43 : (⟨S4x1, .i32⟩ : BufTy).Contents (Elt F) := (broadcastInDim S4x1 ![0] bcast_S4_S4x1_0) main_v38
  let main_v44 : (⟨S4x2048, .i32⟩ : BufTy).Contents (Elt F) := (broadcastInDim S4x2048 ![0, 1] bcast_S1x2048_S4x2048_0_1) main_v42
  let main_v45 : (⟨S4x2048, .i32⟩ : BufTy).Contents (Elt F) := (broadcastInDim S4x2048 ![0, 1] bcast_S4x1_S4x2048_0_1) main_v43
  let main_v46 : (⟨S4x2048, .i1⟩ : BufTy).Contents (Elt F) := (cmpi .slt) main_v44 main_v45
  main_v46

/-- The slots' decays: one minus the gathered probability (zeroed past the boundaries), clipped to [0, 1]. -/
def fB52 (main_v31 : (⟨S4x2048, .f32⟩ : BufTy).Contents (Elt F)) (main_v36 : (⟨S4x2048, .i32⟩ : BufTy).Contents (Elt F)) (main_v33 : (⟨S4x2048, .i1⟩ : BufTy).Contents (Elt F)) : (⟨S4x2048, .f32⟩ : BufTy).Contents (Elt F) :=
  let main_v37 : (⟨S4x2048, .i32⟩ : BufTy).Contents (Elt F) := (extui 32 · natLt_1_32) main_v33
  let main_c_11 : (⟨S_, .i32⟩ : BufTy).Contents (Elt F) := (constantI S_ 32 0#32)
  let main_v38 : (⟨S4, .i32⟩ : BufTy).Contents (Elt F) := (fun x v => Host.reduce IntOp.addi x v reducesTo_S4x2048_S4_d1 h_S_) main_v37 main_c_11
  let main_v41 : (⟨S2048, .i32⟩ : BufTy).Contents (Elt F) := (iotaInDim S2048 32 0)
  let main_v42 : (⟨S1x2048, .i32⟩ : BufTy).Contents (Elt F) := (broadcastInDim S1x2048 ![1] bcast_S2048_S1x2048_1) main_v41
  let main_v43 : (⟨S4x1, .i32⟩ : BufTy).Contents (Elt F) := (broadcastInDim S4x1 ![0] bcast_S4_S4x1_0) main_v38
  let main_v44 : (⟨S4x2048, .i32⟩ : BufTy).Contents (Elt F) := (broadcastInDim S4x2048 ![0, 1] bcast_S1x2048_S4x2048_0_1) main_v42
  let main_v45 : (⟨S4x2048, .i32⟩ : BufTy).Contents (Elt F) := (broadcastInDim S4x2048 ![0, 1] bcast_S4x1_S4x2048_0_1) main_v43
  let main_v46 : (⟨S4x2048, .i1⟩ : BufTy).Contents (Elt F) := (cmpi .slt) main_v44 main_v45
  let main_call3_c : (⟨S_, .i32⟩ : BufTy).Contents (Elt F) := (constantI S_ 32 0#32)
  let main_call3_v0 : (⟨S4x2048, .i32⟩ : BufTy).Contents (Elt F) := (broadcastInDim S4x2048 ![] bcast_S_S4x2048) main_call3_c
  let main_call3_v1 : (⟨S4x2048, .i1⟩ : BufTy).Contents (Elt F) := (cmpi .slt) main_v36 main_call3_v0
  let main_call3_c_0 : (⟨S_, .i32⟩ : BufTy).Contents (Elt F) := (constantI S_ 32 2048#32)
  let main_call3_v2 : (⟨S4x2048, .i32⟩ : BufTy).Contents (Elt F) := (broadcastInDim S4x2048 ![] bcast_S_S4x2048) main_call3_c_0
  let main_call3_v3 : (⟨S4x2048, .i32⟩ : BufTy).Contents (Elt F) := addi main_v36 main_call3_v2
  let main_call3_v4 : (⟨S4x2048, .i32⟩ : BufTy).Contents (Elt F) := select main_call3_v1 main_call3_v3 main_v36
  let main_call3_v5 : (⟨S4x2048x1, .i32⟩ : BufTy).Contents (Elt F) := (shapeCast _ · shapeCasts_S4x2048_S4x2048x1) main_call3_v4
  let main_call3_c_1 : (⟨S1, .i32⟩ : BufTy).Contents (Elt F) := (constantI S1 32 2047#32)
  let main_call3_c_2 : (⟨S_, .i32⟩ : BufTy).Contents (Elt F) := (constantI S_ 32 0#32)
  let main_call3_v6 : (⟨S4x2048x1, .i32⟩ : BufTy).Contents (Elt F) := (broadcastInDim S4x2048x1 ![] bcast_S_S4x2048x1) main_call3_c_2
  let main_call3_v7 : (⟨S4x2048x1, .i1⟩ : BufTy).Contents (Elt F) := (cmpi .sge) main_call3_v5 main_call3_v6
  let main_call3_v8 : (⟨S1x1x1, .i32⟩ : BufTy).Contents (Elt F) := (broadcastInDim S1x1x1 ![2] bcast_S1_S1x1x1_2) main_call3_c_1
  let main_call3_v9 : (⟨S4x2048x1, .i32⟩ : BufTy).Contents (Elt F) := (broadcastInDim S4x2048x1 ![0, 1, 2] bcast_S1x1x1_S4x2048x1_0_1_2) main_call3_v8
  let main_call3_v10 : (⟨S4x2048x1, .i1⟩ : BufTy).Contents (Elt F) := (cmpi .sle) main_call3_v5 main_call3_v9
  let main_call3_v11 : (⟨S4x2048x1, .i1⟩ : BufTy).Contents (Elt F) := andi main_call3_v7 main_call3_v10
  let main_call3_c_3 : (⟨S_, .i1⟩ : BufTy).Contents (Elt F) := (constantI S_ 1 1#1)
  let main_call3_v12 : (⟨S4x2048, .i1⟩ : BufTy).Contents (Elt F) := (fun x v => Host.reduce IntOp.andi x v reducesTo_S4x2048x1_S4x2048_d2 h_S_) main_call3_v11 main_call3_c_3
  let main_call3_v13 : (⟨S4x2048, .f32⟩ : BufTy).Contents (Elt F) := (fun x i => Host.gather gather_S4x2048_S4x2048x1_S4x2048_n_1_0_0_1_2_11 x i) main_v31 main_call3_v5
  let main_call3_cst : (⟨S_, .f32⟩ : BufTy).Contents (Elt F) := (constant S_ .f32 0x7FC00000#32)
  let main_call3_v14 : (⟨S4x2048, .f32⟩ : BufTy).Contents (Elt F) := (broadcastInDim S4x2048 ![] bcast_S_S4x2048) main_call3_cst
  let main_v47 : (⟨S4x2048, .f32⟩ : BufTy).Contents (Elt F) := select main_call3_v12 main_call3_v13 main_call3_v14
  let main_v48 : (⟨S4x2048, .f32⟩ : BufTy).Contents (Elt F) := (uitofp .f32) main_v46
  let main_v49 : (⟨S4x2048, .f32⟩ : BufTy).Contents (Elt F) := mulf main_v47 main_v48
  let main_cst_12 : (⟨S_, .f32⟩ : BufTy).Contents (Elt F) := (constant S_ .f32 0x3F800000#32)
  let main_v50 : (⟨S4x2048, .f32⟩ : BufTy).Contents (Elt F) := (broadcastInDim S4x2048 ![] bcast_S_S4x2048) main_cst_12
  let main_v51 : (⟨S4x2048, .f32⟩ : BufTy).Contents (Elt F) := subf main_v50 main_v49
  let main_cst_13 : (⟨S_, .f32⟩ : BufTy).Contents (Elt F) := (constant S_ .f32 0x00000000#32)
  let main_cst_14 : (⟨S_, .f32⟩ : BufTy).Contents (Elt F) := (constant S_ .f32 0x3F800000#32)
  let main_call4_v0 : (⟨S_, .f32⟩ : BufTy).Contents (Elt F) := id main_cst_13
  let main_call4_v1 : (⟨S4x2048, .f32⟩ : BufTy).Contents (Elt F) := (broadcastInDim S4x2048 ![] bcast_S_S4x2048) main_call4_v0
  let main_call4_v2 : (⟨S4x2048, .f32⟩ : BufTy).Contents (Elt F) := maximumf main_call4_v1 main_v51
  let main_call4_v3 : (⟨S_, .f32⟩ : BufTy).Contents (Elt F) := id main_cst_14
  let main_call4_v4 : (⟨S4x2048, .f32⟩ : BufTy).Contents (Elt F) := (broadcastInDim S4x2048 ![] bcast_S_S4x2048) main_call4_v3
  let main_v52 : (⟨S4x2048, .f32⟩ : BufTy).Contents (Elt F) := minimumf main_call4_v4 main_call4_v2
  main_v52

end Cert.ReferenceIdeal.Stage

end
-- ==== Proof.RefStageC.lean ====
import proofs.«173479_g14800457302192_cont_week2b_463_2_alg».proof.Proof.Gen.ReferenceIdeal

set_option maxRecDepth 8192

noncomputable section

namespace Cert.ReferenceIdeal.Stage

open Cert.ReferenceIdeal Idealize.ShloMosaic Idealize.ShloMosaic.TcCoe Idealize.SL.Sem
open Facts₀

variable {F : FTy → Type} [FloatOps F]

/-- The decays broadcast over the width. -/
def fC0a (main_v52 : (⟨S4x2048, .f32⟩ : BufTy).Contents (Elt F)) : (⟨S4x2048x512, .f32⟩ : BufTy).Contents (Elt F) :=
  let main_v54 : (⟨S4x2048x1, .f32⟩ : BufTy).Contents (Elt F) := (broadcastInDim S4x2048x1 ![0, 1] bcast_S4x2048_S4x2048x1_0_1) main_v52
  let main_v55 : (⟨S4x2048x512, .f32⟩ : BufTy).Contents (Elt F) := (broadcastInDim S4x2048x512 ![0, 1, 2] bcast_S4x2048x1_S4x2048x512_0_1_2) main_v54
  main_v55

/-- The slots' inputs to the moving average, slot 0 also taking the zero initial state. -/
def fC0b (main_v52 : (⟨S4x2048, .f32⟩ : BufTy).Contents (Elt F)) (main_v40 : (⟨S4x2048x512, .f32⟩ : BufTy).Contents (Elt F)) : (⟨S4x2048x512, .f32⟩ : BufTy).Contents (Elt F) :=
  let main_cst_15 : (⟨S_, .f32⟩ : BufTy).Contents (Elt F) := (constant S_ .f32 0x00000000#32)
  let main_v53 : (⟨S4x512, .f32⟩ : BufTy).Contents (Elt F) := (broadcastInDim S4x512 ![] bcast_S_S4x512) main_cst_15
  let main_v54 : (⟨S4x2048x1, .f32⟩ : BufTy).Contents (Elt F) := (broadcastInDim S4x2048x1 ![0, 1] bcast_S4x2048_S4x2048x1_0_1) main_v52
  let main_v55 : (⟨S4x2048x512, .f32⟩ : BufTy).Contents (Elt F) := (broadcastInDim S4x2048x512 ![0, 1, 2] bcast_S4x2048x1_S4x2048x512_0_1_2) main_v54
  let main_cst_16 : (⟨S_, .f32⟩ : BufTy).Contents (Elt F) := (constant S_ .f32 0x3F800000#32)
  let main_v56 : (⟨S4x2048, .f32⟩ : BufTy).Contents (Elt F) := (broadcastInDim S4x2048 ![] bcast_S_S4x2048) main_cst_16
  let main_v57 : (⟨S4x2048, .f32⟩ : BufTy).Contents (Elt F) := subf main_v56 main_v52
  let main_v58 : (⟨S4x2048x1, .f32⟩ : BufTy).Contents (Elt F) := (broadcastInDim S4x2048x1 ![0, 1] bcast_S4x2048_S4x2048x1_0_1) main_v57
  let main_v59 : (⟨S4x2048x512, .f32⟩ : BufTy).Contents (Elt F) := (broadcastInDim S4x2048x512 ![0, 1, 2] bcast_S4x2048x1_S4x2048x512_0_1_2) main_v58
  let main_v60 : (⟨S4x2048x512, .f32⟩ : BufTy).Contents (Elt F) := mulf main_v59 main_v40
  let main_v61 : (⟨S4x1x512, .f32⟩ : BufTy).Contents (Elt F) := (extractStridedSlice S4x1x512 ![0, 0, 0] · slices_S4x2048x512_S4x1x512_0_0_0) main_v60
  let main_v62 : (⟨S4x1x512, .f32⟩ : BufTy).Contents (Elt F) := (extractStridedSlice S4x1x512 ![0, 0, 0] · slices_S4x2048x512_S4x1x512_0_0_0) main_v55
  let main_v63 : (⟨S4x1x512, .f32⟩ : BufTy).Contents (Elt F) := (broadcastInDim S4x1x512 ![0, 2] bcast_S4x512_S4x1x512_0_2) main_v53
  let main_v64 : (⟨S4x1x512, .f32⟩ : BufTy).Contents (Elt F) := mulf main_v62 main_v63
  let main_v65 : (⟨S4x1x512, .f32⟩ : BufTy).Contents (Elt F) := addf main_v61 main_v64
  let main_v66 : (⟨S4x2047x512, .f32⟩ : BufTy).Contents (Elt F) := (extractStridedSlice S4x2047x512 ![0, 1, 0] · slices_S4x2048x512_S4x2047x512_0_1_0) main_v60
  let main_v67 : (⟨S4x2048x512, .f32⟩ : BufTy).Contents (Elt F) := (fun a b => concatenate S4x2048x512 1 [⟨S4x1x512, a⟩, ⟨S4x2047x512, b⟩] concatenates_S4x1x512_S4x2047x512_S4x2048x512_d1) main_v65 main_v66
  main_v67

/-- Doubling step of the moving average at stride 1: the accumulated component. -/
def fC1b (main_v55 : (⟨S4x2048x512, .f32⟩ : BufTy).Contents (Elt F)) (main_v67 : (⟨S4x2048x512, .f32⟩ : BufTy).Contents (Elt F)) : (⟨S4x2048x512, .f32⟩ : BufTy).Contents (Elt F) :=
  let main_v68 : (⟨S4x1x512, .f32⟩ : BufTy).Contents (Elt F) := (extractStridedSlice S4x1x512 ![0, 0, 0] · slices_S4x2048x512_S4x1x512_0_0_0) main_v67
  let main_v69 : (⟨S4x2047x512, .f32⟩ : BufTy).Contents (Elt F) := (extractStridedSlice S4x2047x512 ![0, 1, 0] · slices_S4x2048x512_S4x2047x512_0_1_0) main_v55
  let main_v70 : (⟨S4x2047x512, .f32⟩ : BufTy).Contents (Elt F) := (extractStridedSlice S4x2047x512 ![0, 0, 0] · slices_S4x2048x512_S4x2047x512_0_0_0) main_v67
  let main_v71 : (⟨S4x2047x512, .f32⟩ : BufTy).Contents (Elt F) := mulf main_v69 main_v70
  let main_v72 : (⟨S4x2047x512, .f32⟩ : BufTy).Contents (Elt F) := (extractStridedSlice S4x2047x512 ![0, 1, 0] · slices_S4x2048x512_S4x2047x512_0_1_0) main_v67
  let main_v73 : (⟨S4x2047x512, .f32⟩ : BufTy).Contents (Elt F) := addf main_v71 main_v72
  let main_v74 : (⟨S4x2048x512, .f32⟩ : BufTy).Contents (Elt F) := (fun a b => concatenate S4x2048x512 1 [⟨S4x1x512, a⟩, ⟨S4x2047x512, b⟩] concatenates_S4x1x512_S4x2047x512_S4x2048x512_d1) main_v68 main_v73
  main_v74

/-- Doubling step of the moving average at stride 1: the decay component. -/
def fC1a (main_v55 : (⟨S4x2048x512, .f32⟩ : BufTy).Contents (Elt F)) : (⟨S4x2048x512, .f32⟩ : BufTy).Contents (Elt F) :=
  let main_v75 : (⟨S4x1x512, .f32⟩ : BufTy).Contents (Elt F) := (extractStridedSlice S4x1x512 ![0, 0, 0] · slices_S4x2048x512_S4x1x512_0_0_0) main_v55
  let main_v76 : (⟨S4x2047x512, .f32⟩ : BufTy).Contents (Elt F) := (extractStridedSlice S4x2047x512 ![0, 1, 0] · slices_S4x2048x512_S4x2047x512_0_1_0) main_v55
  let main_v77 : (⟨S4x2047x512, .f32⟩ : BufTy).Contents (Elt F) := (extractStridedSlice S4x2047x512 ![0, 0, 0] · slices_S4x2048x512_S4x2047x512_0_0_0) main_v55
  let main_v78 : (⟨S4x2047x512, .f32⟩ : BufTy).Contents (Elt F) := mulf main_v76 main_v77
  let main_v79 : (⟨S4x2048x512, .f32⟩ : BufTy).Contents (Elt F) := (fun a b => concatenate S4x2048x512 1 [⟨S4x1x512, a⟩, ⟨S4x2047x512, b⟩] concatenates_S4x1x512_S4x2047x512_S4x2048x512_d1) main_v75 main_v78
  main_v79

/-- Doubling step of the moving average at stride 2: the accumulated component. -/
def fC2b (main_v79 : (⟨S4x2048x512, .f32⟩ : BufTy).Contents (Elt F)) (main_v74 : (⟨S4x2048x512, .f32⟩ : BufTy).Contents (Elt F)) : (⟨S4x2048x512, .f32⟩ : BufTy).Contents (Elt F) :=
  let main_v80 : (⟨S4x2x512, .f32⟩ : BufTy).Contents (Elt F) := (extractStridedSlice S4x2x512 ![0, 0, 0] · slices_S4x2048x512_S4x2x512_0_0_0) main_v74
  let main_v81 : (⟨S4x2046x512, .f32⟩ : BufTy).Contents (Elt F) := (extractStridedSlice S4x2046x512 ![0, 2, 0] · slices_S4x2048x512_S4x2046x512_0_2_0) main_v79
  let main_v82 : (⟨S4x2046x512, .f32⟩ : BufTy).Contents (Elt F) := (extractStridedSlice S4x2046x512 ![0, 0, 0] · slices_S4x2048x512_S4x2046x512_0_0_0) main_v74
  let main_v83 : (⟨S4x2046x512, .f32⟩ : BufTy).Contents (Elt F) := mulf main_v81 main_v82
  let main_v84 : (⟨S4x2046x512, .f32⟩ : BufTy).Contents (Elt F) := (extractStridedSlice S4x2046x512 ![0, 2, 0] · slices_S4x2048x512_S4x2046x512_0_2_0) main_v74
  let main_v85 : (⟨S4x2046x512, .f32⟩ : BufTy).Contents (Elt F) := addf main_v83 main_v84
  let main_v86 : (⟨S4x2048x512, .f32⟩ : BufTy).Contents (Elt F) := (fun a b => concatenate S4x2048x512 1 [⟨S4x2x512, a⟩, ⟨S4x2046x512, b⟩] concatenates_S4x2x512_S4x2046x512_S4x2048x512_d1) main_v80 main_v85
  main_v86

/-- Doubling step of the moving average at stride 2: the decay component. -/
def fC2a (main_v79 : (⟨S4x2048x512, .f32⟩ : BufTy).Contents (Elt F)) : (⟨S4x2048x512, .f32⟩ : BufTy).Contents (Elt F) :=
  let main_v87 : (⟨S4x2x512, .f32⟩ : BufTy).Contents (Elt F) := (extractStridedSlice S4x2x512 ![0, 0, 0] · slices_S4x2048x512_S4x2x512_0_0_0) main_v79
  let main_v88 : (⟨S4x2046x512, .f32⟩ : BufTy).Contents (Elt F) := (extractStridedSlice S4x2046x512 ![0, 2, 0] · slices_S4x2048x512_S4x2046x512_0_2_0) main_v79
  let main_v89 : (⟨S4x2046x512, .f32⟩ : BufTy).Contents (Elt F) := (extractStridedSlice S4x2046x512 ![0, 0, 0] · slices_S4x2048x512_S4x2046x512_0_0_0) main_v79
  let main_v90 : (⟨S4x2046x512, .f32⟩ : BufTy).Contents (Elt F) := mulf main_v88 main_v89
  let main_v91 : (⟨S4x2048x512, .f32⟩ : BufTy).Contents (Elt F) := (fun a b => concatenate S4x2048x512 1 [⟨S4x2x512, a⟩, ⟨S4x2046x512, b⟩] concatenates_S4x2x512_S4x2046x512_S4x2048x512_d1) main_v87 main_v90
  main_v91

/-- Doubling step of the moving average at stride 4: the accumulated component. -/
def fC3b (main_v91 : (⟨S4x2048x512, .f32⟩ : BufTy).Contents (Elt F)) (main_v86 : (⟨S4x2048x512, .f32⟩ : BufTy).Contents (Elt F)) : (⟨S4x2048x512, .f32⟩ : BufTy).Contents (Elt F) :=
  let main_v92 : (⟨S4x4x512, .f32⟩ : BufTy).Contents (Elt F) := (extractStridedSlice S4x4x512 ![0, 0, 0] · slices_S4x2048x512_S4x4x512_0_0_0) main_v86
  let main_v93 : (⟨S4x2044x512, .f32⟩ : BufTy).Contents (Elt F) := (extractStridedSlice S4x2044x512 ![0, 4, 0] · slices_S4x2048x512_S4x2044x512_0_4_0) main_v91
  let main_v94 : (⟨S4x2044x512, .f32⟩ : BufTy).Contents (Elt F) := (extractStridedSlice S4x2044x512 ![0, 0, 0] · slices_S4x2048x512_S4x2044x512_0_0_0) main_v86
  let main_v95 : (⟨S4x2044x512, .f32⟩ : BufTy).Contents (Elt F) := mulf main_v93 main_v94
  let main_v96 : (⟨S4x2044x512, .f32⟩ : BufTy).Contents (Elt F) := (extractStridedSlice S4x2044x512 ![0, 4, 0] · slices_S4x2048x512_S4x2044x512_0_4_0) main_v86
  let main_v97 : (⟨S4x2044x512, .f32⟩ : BufTy).Contents (Elt F) := addf main_v95 main_v96
  let main_v98 : (⟨S4x2048x512, .f32⟩ : BufTy).Contents (Elt F) := (fun a b => concatenate S4x2048x512 1 [⟨S4x4x512, a⟩, ⟨S4x2044x512, b⟩] concatenates_S4x4x512_S4x2044x512_S4x2048x512_d1) main_v92 main_v97
  main_v98

/-- Doubling step of the moving average at stride 4: the decay component. -/
def fC3a (main_v91 : (⟨S4x2048x512, .f32⟩ : BufTy).Contents (Elt F)) : (⟨S4x2048x512, .f32⟩ : BufTy).Contents (Elt F) :=
  let main_v99 : (⟨S4x4x512, .f32⟩ : BufTy).Contents (Elt F) := (extractStridedSlice S4x4x512 ![0, 0, 0] · slices_S4x2048x512_S4x4x512_0_0_0) main_v91
  let main_v100 : (⟨S4x2044x512, .f32⟩ : BufTy).Contents (Elt F) := (extractStridedSlice S4x2044x512 ![0, 4, 0] · slices_S4x2048x512_S4x2044x512_0_4_0) main_v91
  let main_v101 : (⟨S4x2044x512, .f32⟩ : BufTy).Contents (Elt F) := (extractStridedSlice S4x2044x512 ![0, 0, 0] · slices_S4x2048x512_S4x2044x512_0_0_0) main_v91
  let main_v102 : (⟨S4x2044x512, .f32⟩ : BufTy).Contents (Elt F) := mulf main_v100 main_v101
  let main_v103 : (⟨S4x2048x512, .f32⟩ : BufTy).Contents (Elt F) := (fun a b => concatenate S4x2048x512 1 [⟨S4x4x512, a⟩, ⟨S4x2044x512, b⟩] concatenates_S4x4x512_S4x2044x512_S4x2048x512_d1) main_v99 main_v102
  main_v103

/-- Doubling step of the moving average at stride 8: the accumulated component. -/
def fC4b (main_v103 : (⟨S4x2048x512, .f32⟩ : BufTy).Contents (Elt F)) (main_v98 : (⟨S4x2048x512, .f32⟩ : BufTy).Contents (Elt F)) : (⟨S4x2048x512, .f32⟩ : BufTy).Contents (Elt F) :=
  let main_v104 : (⟨S4x8x512, .f32⟩ : BufTy).Contents (Elt F) := (extractStridedSlice S4x8x512 ![0, 0, 0] · slices_S4x2048x512_S4x8x512_0_0_0) main_v98
  let main_v105 : (⟨S4x2040x512, .f32⟩ : BufTy).Contents (Elt F) := (extractStridedSlice S4x2040x512 ![0, 8, 0] · slices_S4x2048x512_S4x2040x512_0_8_0) main_v103
  let main_v106 : (⟨S4x2040x512, .f32⟩ : BufTy).Contents (Elt F) := (extractStridedSlice S4x2040x512 ![0, 0, 0] · slices_S4x2048x512_S4x2040x512_0_0_0) main_v98
  let main_v107 : (⟨S4x2040x512, .f32⟩ : BufTy).Contents (Elt F) := mulf main_v105 main_v106
  let main_v108 : (⟨S4x2040x512, .f32⟩ : BufTy).Contents (Elt F) := (extractStridedSlice S4x2040x512 ![0, 8, 0] · slices_S4x2048x512_S4x2040x512_0_8_0) main_v98
  let main_v109 : (⟨S4x2040x512, .f32⟩ : BufTy).Contents (Elt F) := addf main_v107 main_v108
  let main_v110 : (⟨S4x2048x512, .f32⟩ : BufTy).Contents (Elt F) := (fun a b => concatenate S4x2048x512 1 [⟨S4x8x512, a⟩, ⟨S4x2040x512, b⟩] concatenates_S4x8x512_S4x2040x512_S4x2048x512_d1) main_v104 main_v109
  main_v110

/-- Doubling step of the moving average at stride 8: the decay component. -/
def fC4a (main_v103 : (⟨S4x2048x512, .f32⟩ : BufTy).Contents (Elt F)) : (⟨S4x2048x512, .f32⟩ : BufTy).Contents (Elt F) :=
  let main_v111 : (⟨S4x8x512, .f32⟩ : BufTy).Contents (Elt F) := (extractStridedSlice S4x8x512 ![0, 0, 0] · slices_S4x2048x512_S4x8x512_0_0_0) main_v103
  let main_v112 : (⟨S4x2040x512, .f32⟩ : BufTy).Contents (Elt F) := (extractStridedSlice S4x2040x512 ![0, 8, 0] · slices_S4x2048x512_S4x2040x512_0_8_0) main_v103
  let main_v113 : (⟨S4x2040x512, .f32⟩ : BufTy).Contents (Elt F) := (extractStridedSlice S4x2040x512 ![0, 0, 0] · slices_S4x2048x512_S4x2040x512_0_0_0) main_v103
  let main_v114 : (⟨S4x2040x512, .f32⟩ : BufTy).Contents (Elt F) := mulf main_v112 main_v113
  let main_v115 : (⟨S4x2048x512, .f32⟩ : BufTy).Contents (Elt F) := (fun a b => concatenate S4x2048x512 1 [⟨S4x8x512, a⟩, ⟨S4x2040x512, b⟩] concatenates_S4x8x512_S4x2040x512_S4x2048x512_d1) main_v111 main_v114
  main_v115

/-- Doubling step of the moving average at stride 16: the accumulated component. -/
def fC5b (main_v115 : (⟨S4x2048x512, .f32⟩ : BufTy).Contents (Elt F)) (main_v110 : (⟨S4x2048x512, .f32⟩ : BufTy).Contents (Elt F)) : (⟨S4x2048x512, .f32⟩ : BufTy).Contents (Elt F) :=
  let main_v116 : (⟨S4x16x512, .f32⟩ : BufTy).Contents (Elt F) := (extractStridedSlice S4x16x512 ![0, 0, 0] · slices_S4x2048x512_S4x16x512_0_0_0) main_v110
  let main_v117 : (⟨S4x2032x512, .f32⟩ : BufTy).Contents (Elt F) := (extractStridedSlice S4x2032x512 ![0, 16, 0] · slices_S4x2048x512_S4x2032x512_0_16_0) main_v115
  let main_v118 : (⟨S4x2032x512, .f32⟩ : BufTy).Contents (Elt F) := (extractStridedSlice S4x2032x512 ![0, 0, 0] · slices_S4x2048x512_S4x2032x512_0_0_0) main_v110
  let main_v119 : (⟨S4x2032x512, .f32⟩ : BufTy).Contents (Elt F) := mulf main_v117 main_v118
  let main_v120 : (⟨S4x2032x512, .f32⟩ : BufTy).Contents (Elt F) := (extractStridedSlice S4x2032x512 ![0, 16, 0] · slices_S4x2048x512_S4x2032x512_0_16_0) main_v110
  let main_v121 : (⟨S4x2032x512, .f32⟩ : BufTy).Contents (Elt F) := addf main_v119 main_v120
  let main_v122 : (⟨S4x2048x512, .f32⟩ : BufTy).Contents (Elt F) := (fun a b => concatenate S4x2048x512 1 [⟨S4x16x512, a⟩, ⟨S4x2032x512, b⟩] concatenates_S4x16x512_S4x2032x512_S4x2048x512_d1) main_v116 main_v121
  main_v122

/-- Doubling step of the moving average at stride 16: the decay component. -/
def fC5a (main_v115 : (⟨S4x2048x512, .f32⟩ : BufTy).Contents (Elt F)) : (⟨S4x2048x512, .f32⟩ : BufTy).Contents (Elt F) :=
  let main_v123 : (⟨S4x16x512, .f32⟩ : BufTy).Contents (Elt F) := (extractStridedSlice S4x16x512 ![0, 0, 0] · slices_S4x2048x512_S4x16x512_0_0_0) main_v115
  let main_v124 : (⟨S4x2032x512, .f32⟩ : BufTy).Contents (Elt F) := (extractStridedSlice S4x2032x512 ![0, 16, 0] · slices_S4x2048x512_S4x2032x512_0_16_0) main_v115
  let main_v125 : (⟨S4x2032x512, .f32⟩ : BufTy).Contents (Elt F) := (extractStridedSlice S4x2032x512 ![0, 0, 0] · slices_S4x2048x512_S4x2032x512_0_0_0) main_v115
  let main_v126 : (⟨S4x2032x512, .f32⟩ : BufTy).Contents (Elt F) := mulf main_v124 main_v125
  let main_v127 : (⟨S4x2048x512, .f32⟩ : BufTy).Contents (Elt F) := (fun a b => concatenate S4x2048x512 1 [⟨S4x16x512, a⟩, ⟨S4x2032x512, b⟩] concatenates_S4x16x512_S4x2032x512_S4x2048x512_d1) main_v123 main_v126
  main_v127

/-- Doubling step of the moving average at stride 32: the accumulated component. -/
def fC6b (main_v127 : (⟨S4x2048x512, .f32⟩ : BufTy).Contents (Elt F)) (main_v122 : (⟨S4x2048x512, .f32⟩ : BufTy).Contents (Elt F)) : (⟨S4x2048x512, .f32⟩ : BufTy).Contents (Elt F) :=
  let main_v128 : (⟨S4x32x512, .f32⟩ : BufTy).Contents (Elt F) := (extractStridedSlice S4x32x512 ![0, 0, 0] · slices_S4x2048x512_S4x32x512_0_0_0) main_v122
  let main_v129 : (⟨S4x2016x512, .f32⟩ : BufTy).Contents (Elt F) := (extractStridedSlice S4x2016x512 ![0, 32, 0] · slices_S4x2048x512_S4x2016x512_0_32_0) main_v127
  let main_v130 : (⟨S4x2016x512, .f32⟩ : BufTy).Contents (Elt F) := (extractStridedSlice S4x2016x512 ![0, 0, 0] · slices_S4x2048x512_S4x2016x512_0_0_0) main_v122
  let main_v131 : (⟨S4x2016x512, .f32⟩ : BufTy).Contents (Elt F) := mulf main_v129 main_v130
  let main_v132 : (⟨S4x2016x512, .f32⟩ : BufTy).Contents (Elt F) := (extractStridedSlice S4x2016x512 ![0, 32, 0] · slices_S4x2048x512_S4x2016x512_0_32_0) main_v122
  let main_v133 : (⟨S4x2016x512, .f32⟩ : BufTy).Contents (Elt F) := addf main_v131 main_v132
  let main_v134 : (⟨S4x2048x512, .f32⟩ : BufTy).Contents (Elt F) := (fun a b => concatenate S4x2048x512 1 [⟨S4x32x512, a⟩, ⟨S4x2016x512, b⟩] concatenates_S4x32x512_S4x2016x512_S4x2048x512_d1) main_v128 main_v133
  main_v134

/-- Doubling step of the moving average at stride 32: the decay component. -/
def fC6a (main_v127 : (⟨S4x2048x512, .f32⟩ : BufTy).Contents (Elt F)) : (⟨S4x2048x512, .f32⟩ : BufTy).Contents (Elt F) :=
  let main_v135 : (⟨S4x32x512, .f32⟩ : BufTy).Contents (Elt F) := (extractStridedSlice S4x32x512 ![0, 0, 0] · slices_S4x2048x512_S4x32x512_0_0_0) main_v127
  let main_v136 : (⟨S4x2016x512, .f32⟩ : BufTy).Contents (Elt F) := (extractStridedSlice S4x2016x512 ![0, 32, 0] · slices_S4x2048x512_S4x2016x512_0_32_0) main_v127
  let main_v137 : (⟨S4x2016x512, .f32⟩ : BufTy).Contents (Elt F) := (extractStridedSlice S4x2016x512 ![0, 0, 0] · slices_S4x2048x512_S4x2016x512_0_0_0) main_v127
  let main_v138 : (⟨S4x2016x512, .f32⟩ : BufTy).Contents (Elt F) := mulf main_v136 main_v137
  let main_v139 : (⟨S4x2048x512, .f32⟩ : BufTy).Contents (Elt F) := (fun a b => concatenate S4x2048x512 1 [⟨S4x32x512, a⟩, ⟨S4x2016x512, b⟩] concatenates_S4x32x512_S4x2016x512_S4x2048x512_d1) main_v135 main_v138
  main_v139

/-- Doubling step of the moving average at stride 64: the accumulated component. -/
def fC7b (main_v139 : (⟨S4x2048x512, .f32⟩ : BufTy).Contents (Elt F)) (main_v134 : (⟨S4x2048x512, .f32⟩ : BufTy).Contents (Elt F)) : (⟨S4x2048x512, .f32⟩ : BufTy).Contents (Elt F) :=
  let main_v140 : (⟨S4x64x512, .f32⟩ : BufTy).Contents (Elt F) := (extractStridedSlice S4x64x512 ![0, 0, 0] · slices_S4x2048x512_S4x64x512_0_0_0) main_v134
  let main_v141 : (⟨S4x1984x512, .f32⟩ : BufTy).Contents (Elt F) := (extractStridedSlice S4x1984x512 ![0, 64, 0] · slices_S4x2048x512_S4x1984x512_0_64_0) main_v139
  let main_v142 : (⟨S4x1984x512, .f32⟩ : BufTy).Contents (Elt F) := (extractStridedSlice S4x1984x512 ![0, 0, 0] · slices_S4x2048x512_S4x1984x512_0_0_0) main_v134
  let main_v143 : (⟨S4x1984x512, .f32⟩ : BufTy).Contents (Elt F) := mulf main_v141 main_v142
  let main_v144 : (⟨S4x1984x512, .f32⟩ : BufTy).Contents (Elt F) := (extractStridedSlice S4x1984x512 ![0, 64, 0] · slices_S4x2048x512_S4x1984x512_0_64_0) main_v134
  let main_v145 : (⟨S4x1984x512, .f32⟩ : BufTy).Contents (Elt F) := addf main_v143 main_v144
  let main_v146 : (⟨S4x2048x512, .f32⟩ : BufTy).Contents (Elt F) := (fun a b => concatenate S4x2048x512 1 [⟨S4x64x512, a⟩, ⟨S4x1984x512, b⟩] concatenates_S4x64x512_S4x1984x512_S4x2048x512_d1) main_v140 main_v145
  main_v146

/-- Doubling step of the moving average at stride 64: the decay component. -/
def fC7a (main_v139 : (⟨S4x2048x512, .f32⟩ : BufTy).Contents (Elt F)) : (⟨S4x2048x512, .f32⟩ : BufTy).Contents (Elt F) :=
  let main_v147 : (⟨S4x64x512, .f32⟩ : BufTy).Contents (Elt F) := (extractStridedSlice S4x64x512 ![0, 0, 0] · slices_S4x2048x512_S4x64x512_0_0_0) main_v139
  let main_v148 : (⟨S4x1984x512, .f32⟩ : BufTy).Contents (Elt F) := (extractStridedSlice S4x1984x512 ![0, 64, 0] · slices_S4x2048x512_S4x1984x512_0_64_0) main_v139
  let main_v149 : (⟨S4x1984x512, .f32⟩ : BufTy).Contents (Elt F) := (extractStridedSlice S4x1984x512 ![0, 0, 0] · slices_S4x2048x512_S4x1984x512_0_0_0) main_v139
  let main_v150 : (⟨S4x1984x512, .f32⟩ : BufTy).Contents (Elt F) := mulf main_v148 main_v149
  let main_v151 : (⟨S4x2048x512, .f32⟩ : BufTy).Contents (Elt F) := (fun a b => concatenate S4x2048x512 1 [⟨S4x64x512, a⟩, ⟨S4x1984x512, b⟩] concatenates_S4x64x512_S4x1984x512_S4x2048x512_d1) main_v147 main_v150
  main_v151

/-- Doubling step of the moving average at stride 128: the accumulated component. -/
def fC8b (main_v151 : (⟨S4x2048x512, .f32⟩ : BufTy).Contents (Elt F)) (main_v146 : (⟨S4x2048x512, .f32⟩ : BufTy).Contents (Elt F)) : (⟨S4x2048x512, .f32⟩ : BufTy).Contents (Elt F) :=
  let main_v152 : (⟨S4x128x512, .f32⟩ : BufTy).Contents (Elt F) := (extractStridedSlice S4x128x512 ![0, 0, 0] · slices_S4x2048x512_S4x128x512_0_0_0) main_v146
  let main_v153 : (⟨S4x1920x512, .f32⟩ : BufTy).Contents (Elt F) := (extractStridedSlice S4x1920x512 ![0, 128, 0] · slices_S4x2048x512_S4x1920x512_0_128_0) main_v151
  let main_v154 : (⟨S4x1920x512, .f32⟩ : BufTy).Contents (Elt F) := (extractStridedSlice S4x1920x512 ![0, 0, 0] · slices_S4x2048x512_S4x1920x512_0_0_0) main_v146
  let main_v155 : (⟨S4x1920x512, .f32⟩ : BufTy).Contents (Elt F) := mulf main_v153 main_v154
  let main_v156 : (⟨S4x1920x512, .f32⟩ : BufTy).Contents (Elt F) := (extractStridedSlice S4x1920x512 ![0, 128, 0] · slices_S4x2048x512_S4x1920x512_0_128_0) main_v146
  let main_v157 : (⟨S4x1920x512, .f32⟩ : BufTy).Contents (Elt F) := addf main_v155 main_v156
  let main_v158 : (⟨S4x2048x512, .f32⟩ : BufTy).Contents (Elt F) := (fun a b => concatenate S4x2048x512 1 [⟨S4x128x512, a⟩, ⟨S4x1920x512, b⟩] concatenates_S4x128x512_S4x1920x512_S4x2048x512_d1) main_v152 main_v157
  main_v158

/-- Doubling step of the moving average at stride 128: the decay component. -/
def fC8a (main_v151 : (⟨S4x2048x512, .f32⟩ : BufTy).Contents (Elt F)) : (⟨S4x2048x512, .f32⟩ : BufTy).Contents (Elt F) :=
  let main_v159 : (⟨S4x128x512, .f32⟩ : BufTy).Contents (Elt F) := (extractStridedSlice S4x128x512 ![0, 0, 0] · slices_S4x2048x512_S4x128x512_0_0_0) main_v151
  let main_v160 : (⟨S4x1920x512, .f32⟩ : BufTy).Contents (Elt F) := (extractStridedSlice S4x1920x512 ![0, 128, 0] · slices_S4x2048x512_S4x1920x512_0_128_0) main_v151
  let main_v161 : (⟨S4x1920x512, .f32⟩ : BufTy).Contents (Elt F) := (extractStridedSlice S4x1920x512 ![0, 0, 0] · slices_S4x2048x512_S4x1920x512_0_0_0) main_v151
  let main_v162 : (⟨S4x1920x512, .f32⟩ : BufTy).Contents (Elt F) := mulf main_v160 main_v161
  let main_v163 : (⟨S4x2048x512, .f32⟩ : BufTy).Contents (Elt F) := (fun a b => concatenate S4x2048x512 1 [⟨S4x128x512, a⟩, ⟨S4x1920x512, b⟩] concatenates_S4x128x512_S4x1920x512_S4x2048x512_d1) main_v159 main_v162
  main_v163

/-- Doubling step of the moving average at stride 256: the accumulated component. -/
def fC9b (main_v163 : (⟨S4x2048x512, .f32⟩ : BufTy).Contents (Elt F)) (main_v158 : (⟨S4x2048x512, .f32⟩ : BufTy).Contents (Elt F)) : (⟨S4x2048x512, .f32⟩ : BufTy).Contents (Elt F) :=
  let main_v164 : (⟨S4x256x512, .f32⟩ : BufTy).Contents (Elt F) := (extractStridedSlice S4x256x512 ![0, 0, 0] · slices_S4x2048x512_S4x256x512_0_0_0) main_v158
  let main_v165 : (⟨S4x1792x512, .f32⟩ : BufTy).Contents (Elt F) := (extractStridedSlice S4x1792x512 ![0, 256, 0] · slices_S4x2048x512_S4x1792x512_0_256_0) main_v163
  let main_v166 : (⟨S4x1792x512, .f32⟩ : BufTy).Contents (Elt F) := (extractStridedSlice S4x1792x512 ![0, 0, 0] · slices_S4x2048x512_S4x1792x512_0_0_0) main_v158
  let main_v167 : (⟨S4x1792x512, .f32⟩ : BufTy).Contents (Elt F) := mulf main_v165 main_v166
  let main_v168 : (⟨S4x1792x512, .f32⟩ : BufTy).Contents (Elt F) := (extractStridedSlice S4x1792x512 ![0, 256, 0] · slices_S4x2048x512_S4x1792x512_0_256_0) main_v158
  let main_v169 : (⟨S4x1792x512, .f32⟩ : BufTy).Contents (Elt F) := addf main_v167 main_v168
  let main_v170 : (⟨S4x2048x512, .f32⟩ : BufTy).Contents (Elt F) := (fun a b => concatenate S4x2048x512 1 [⟨S4x256x512, a⟩, ⟨S4x1792x512, b⟩] concatenates_S4x256x512_S4x1792x512_S4x2048x512_d1) main_v164 main_v169
  main_v170

/-- Doubling step of the moving average at stride 256: the decay component. -/
def fC9a (main_v163 : (⟨S4x2048x512, .f32⟩ : BufTy).Contents (Elt F)) : (⟨S4x2048x512, .f32⟩ : BufTy).Contents (Elt F) :=
  let main_v171 : (⟨S4x256x512, .f32⟩ : BufTy).Contents (Elt F) := (extractStridedSlice S4x256x512 ![0, 0, 0] · slices_S4x2048x512_S4x256x512_0_0_0) main_v163
  let main_v172 : (⟨S4x1792x512, .f32⟩ : BufTy).Contents (Elt F) := (extractStridedSlice S4x1792x512 ![0, 256, 0] · slices_S4x2048x512_S4x1792x512_0_256_0) main_v163
  let main_v173 : (⟨S4x1792x512, .f32⟩ : BufTy).Contents (Elt F) := (extractStridedSlice S4x1792x512 ![0, 0, 0] · slices_S4x2048x512_S4x1792x512_0_0_0) main_v163
  let main_v174 : (⟨S4x1792x512, .f32⟩ : BufTy).Contents (Elt F) := mulf main_v172 main_v173
  let main_v175 : (⟨S4x2048x512, .f32⟩ : BufTy).Contents (Elt F) := (fun a b => concatenate S4x2048x512 1 [⟨S4x256x512, a⟩, ⟨S4x1792x512, b⟩] concatenates_S4x256x512_S4x1792x512_S4x2048x512_d1) main_v171 main_v174
  main_v175

/-- Doubling step of the moving average at stride 512: the accumulated component. -/
def fC10b (main_v175 : (⟨S4x2048x512, .f32⟩ : BufTy).Contents (Elt F)) (main_v170 : (⟨S4x2048x512, .f32⟩ : BufTy).Contents (Elt F)) : (⟨S4x2048x512, .f32⟩ : BufTy).Contents (Elt F) :=
  let main_v176 : (⟨S4x512x512, .f32⟩ : BufTy).Contents (Elt F) := (extractStridedSlice S4x512x512 ![0, 0, 0] · slices_S4x2048x512_S4x512x512_0_0_0) main_v170
  let main_v177 : (⟨S4x1536x512, .f32⟩ : BufTy).Contents (Elt F) := (extractStridedSlice S4x1536x512 ![0, 512, 0] · slices_S4x2048x512_S4x1536x512_0_512_0) main_v175
  let main_v178 : (⟨S4x1536x512, .f32⟩ : BufTy).Contents (Elt F) := (extractStridedSlice S4x1536x512 ![0, 0, 0] · slices_S4x2048x512_S4x1536x512_0_0_0) main_v170
  let main_v179 : (⟨S4x1536x512, .f32⟩ : BufTy).Contents (Elt F) := mulf main_v177 main_v178
  let main_v180 : (⟨S4x1536x512, .f32⟩ : BufTy).Contents (Elt F) := (extractStridedSlice S4x1536x512 ![0, 512, 0] · slices_S4x2048x512_S4x1536x512_0_512_0) main_v170
  let main_v181 : (⟨S4x1536x512, .f32⟩ : BufTy).Contents (Elt F) := addf main_v179 main_v180
  let main_v182 : (⟨S4x2048x512, .f32⟩ : BufTy).Contents (Elt F) := (fun a b => concatenate S4x2048x512 1 [⟨S4x512x512, a⟩, ⟨S4x1536x512, b⟩] concatenates_S4x512x512_S4x1536x512_S4x2048x512_d1) main_v176 main_v181
  main_v182

/-- Doubling step of the moving average at stride 512: the decay component. -/
def fC10a (main_v175 : (⟨S4x2048x512, .f32⟩ : BufTy).Contents (Elt F)) : (⟨S4x2048x512, .f32⟩ : BufTy).Contents (Elt F) :=
  let main_v183 : (⟨S4x512x512, .f32⟩ : BufTy).Contents (Elt F) := (extractStridedSlice S4x512x512 ![0, 0, 0] · slices_S4x2048x512_S4x512x512_0_0_0) main_v175
  let main_v184 : (⟨S4x1536x512, .f32⟩ : BufTy).Contents (Elt F) := (extractStridedSlice S4x1536x512 ![0, 512, 0] · slices_S4x2048x512_S4x1536x512_0_512_0) main_v175
  let main_v185 : (⟨S4x1536x512, .f32⟩ : BufTy).Contents (Elt F) := (extractStridedSlice S4x1536x512 ![0, 0, 0] · slices_S4x2048x512_S4x1536x512_0_0_0) main_v175
  let main_v186 : (⟨S4x1536x512, .f32⟩ : BufTy).Contents (Elt F) := mulf main_v184 main_v185
  let main_v187 : (⟨S4x2048x512, .f32⟩ : BufTy).Contents (Elt F) := (fun a b => concatenate S4x2048x512 1 [⟨S4x512x512, a⟩, ⟨S4x1536x512, b⟩] concatenates_S4x512x512_S4x1536x512_S4x2048x512_d1) main_v183 main_v186
  main_v187

/-- Doubling step of the moving average at stride 1024: the accumulated component. -/
def fC11b (main_v187 : (⟨S4x2048x512, .f32⟩ : BufTy).Contents (Elt F)) (main_v182 : (⟨S4x2048x512, .f32⟩ : BufTy).Contents (Elt F)) : (⟨S4x2048x512, .f32⟩ : BufTy).Contents (Elt F) :=
  let main_v188 : (⟨S4x1024x512, .f32⟩ : BufTy).Contents (Elt F) := (extractStridedSlice S4x1024x512 ![0, 0, 0] · slices_S4x2048x512_S4x1024x512_0_0_0) main_v182
  let main_v189 : (⟨S4x1024x512, .f32⟩ : BufTy).Contents (Elt F) := (extractStridedSlice S4x1024x512 ![0, 1024, 0] · slices_S4x2048x512_S4x1024x512_0_1024_0) main_v187
  let main_v190 : (⟨S4x1024x512, .f32⟩ : BufTy).Contents (Elt F) := (extractStridedSlice S4x1024x512 ![0, 0, 0] · slices_S4x2048x512_S4x1024x512_0_0_0) main_v182
  let main_v191 : (⟨S4x1024x512, .f32⟩ : BufTy).Contents (Elt F) := mulf main_v189 main_v190
  let main_v192 : (⟨S4x1024x512, .f32⟩ : BufTy).Contents (Elt F) := (extractStridedSlice S4x1024x512 ![0, 1024, 0] · slices_S4x2048x512_S4x1024x512_0_1024_0) main_v182
  let main_v193 : (⟨S4x1024x512, .f32⟩ : BufTy).Contents (Elt F) := addf main_v191 main_v192
  let main_v194 : (⟨S4x2048x512, .f32⟩ : BufTy).Contents (Elt F) := (fun a b => concatenate S4x2048x512 1 [⟨S4x1024x512, a⟩, ⟨S4x1024x512, b⟩] concatenates_S4x1024x512_S4x1024x512_S4x2048x512_d1) main_v188 main_v193
  main_v194

end Cert.ReferenceIdeal.Stage

end
-- ==== Proof.RefStageD.lean ====
import proofs.«173479_g14800457302192_cont_week2b_463_2_alg».proof.Proof.Gen.ReferenceIdeal

set_option maxRecDepth 8192

noncomputable section

namespace Cert.ReferenceIdeal.Stage

open Cert.ReferenceIdeal Idealize.ShloMosaic Idealize.ShloMosaic.TcCoe Idealize.SL.Sem
open Facts₀

variable {F : FTy → Type} [FloatOps F]

/-- The moving average zeroed past the boundaries. -/
def fD203 (main_v194 : (⟨S4x2048x512, .f32⟩ : BufTy).Contents (Elt F)) (main_v46 : (⟨S4x2048, .i1⟩ : BufTy).Contents (Elt F)) : (⟨S4x2048x512, .f32⟩ : BufTy).Contents (Elt F) :=
  let main_v200 : (⟨S4x2048x1, .i1⟩ : BufTy).Contents (Elt F) := (broadcastInDim S4x2048x1 ![0, 1] bcast_S4x2048_S4x2048x1_0_1) main_v46
  let main_v201 : (⟨S4x2048x1, .f32⟩ : BufTy).Contents (Elt F) := (uitofp .f32) main_v200
  let main_v202 : (⟨S4x2048x512, .f32⟩ : BufTy).Contents (Elt F) := (broadcastInDim S4x2048x512 ![0, 1, 2] bcast_S4x2048x1_S4x2048x512_0_1_2) main_v201
  let main_v203 : (⟨S4x2048x512, .f32⟩ : BufTy).Contents (Elt F) := mulf main_v194 main_v202
  main_v203

/-- Each row's slot: the running count of boundaries minus one, clipped to [0, 2047]. -/
def fD208 (main_v33 : (⟨S4x2048, .i1⟩ : BufTy).Contents (Elt F)) : (⟨S4x2048, .i32⟩ : BufTy).Contents (Elt F) :=
  let main_v204 : (⟨S4x2048, .i32⟩ : BufTy).Contents (Elt F) := (extui 32 · natLt_1_32) main_v33
  let main_call5_call0_c : (⟨S_, .i32⟩ : BufTy).Contents (Elt F) := (constantI S_ 32 0#32)
  let main_call5_call0_v0 : (⟨S_, .i32⟩ : BufTy).Contents (Elt F) := (broadcastInDim S_ ![] bcast_S_S_) main_call5_call0_c
  let main_v205 : (⟨S4x2048, .i32⟩ : BufTy).Contents (Elt F) := (fun x v => Host.reduceWindow IntOp.addi ![1, 2048] ![1, 1] ![0, 2047] ![0, 0] x v reduceWindows_S4x2048_S4x2048_w1s1p0_0_w2048s1p2047_0 h_S_) main_v204 main_call5_call0_v0
  let main_c_17 : (⟨S_, .i32⟩ : BufTy).Contents (Elt F) := (constantI S_ 32 1#32)
  let main_v206 : (⟨S4x2048, .i32⟩ : BufTy).Contents (Elt F) := (broadcastInDim S4x2048 ![] bcast_S_S4x2048) main_c_17
  let main_v207 : (⟨S4x2048, .i32⟩ : BufTy).Contents (Elt F) := subi main_v205 main_v206
  let main_c_18 : (⟨S_, .i32⟩ : BufTy).Contents (Elt F) := (constantI S_ 32 0#32)
  let main_c_19 : (⟨S_, .i32⟩ : BufTy).Contents (Elt F) := (constantI S_ 32 2047#32)
  let main_call6_v0 : (⟨S_, .i32⟩ : BufTy).Contents (Elt F) := id main_c_18
  let main_call6_v1 : (⟨S4x2048, .i32⟩ : BufTy).Contents (Elt F) := (broadcastInDim S4x2048 ![] bcast_S_S4x2048) main_call6_v0
  let main_call6_v2 : (⟨S4x2048, .i32⟩ : BufTy).Contents (Elt F) := maxsi main_call6_v1 main_v207
  let main_call6_v3 : (⟨S_, .i32⟩ : BufTy).Contents (Elt F) := id main_c_19
  let main_call6_v4 : (⟨S4x2048, .i32⟩ : BufTy).Contents (Elt F) := (broadcastInDim S4x2048 ![] bcast_S_S4x2048) main_call6_v3
  let main_v208 : (⟨S4x2048, .i32⟩ : BufTy).Contents (Elt F) := minsi main_call6_v4 main_call6_v2
  main_v208

/-- Whether the running count minus one is nonnegative. -/
def fD210 (main_v33 : (⟨S4x2048, .i1⟩ : BufTy).Contents (Elt F)) : (⟨S4x2048, .i1⟩ : BufTy).Contents (Elt F) :=
  let main_v204 : (⟨S4x2048, .i32⟩ : BufTy).Contents (Elt F) := (extui 32 · natLt_1_32) main_v33
  let main_call5_call0_c : (⟨S_, .i32⟩ : BufTy).Contents (Elt F) := (constantI S_ 32 0#32)
  let main_call5_call0_v0 : (⟨S_, .i32⟩ : BufTy).Contents (Elt F) := (broadcastInDim S_ ![] bcast_S_S_) main_call5_call0_c
  let main_v205 : (⟨S4x2048, .i32⟩ : BufTy).Contents (Elt F) := (fun x v => Host.reduceWindow IntOp.addi ![1, 2048] ![1, 1] ![0, 2047] ![0, 0] x v reduceWindows_S4x2048_S4x2048_w1s1p0_0_w2048s1p2047_0 h_S_) main_v204 main_call5_call0_v0
  let main_c_17 : (⟨S_, .i32⟩ : BufTy).Contents (Elt F) := (constantI S_ 32 1#32)
  let main_v206 : (⟨S4x2048, .i32⟩ : BufTy).Contents (Elt F) := (broadcastInDim S4x2048 ![] bcast_S_S4x2048) main_c_17
  let main_v207 : (⟨S4x2048, .i32⟩ : BufTy).Contents (Elt F) := subi main_v205 main_v206
  let main_c_20 : (⟨S_, .i32⟩ : BufTy).Contents (Elt F) := (constantI S_ 32 0#32)
  let main_v209 : (⟨S4x2048, .i32⟩ : BufTy).Contents (Elt F) := (broadcastInDim S4x2048 ![] bcast_S_S4x2048) main_c_20
  let main_v210 : (⟨S4x2048, .i1⟩ : BufTy).Contents (Elt F) := (cmpi .sge) main_v207 main_v209
  main_v210

/-- The tail: the zeroed average gathered at each row's slot, zeroed where the slot is negative, times the straight-through coefficient, added to the rows. -/
def fD (main_v203 : (⟨S4x2048x512, .f32⟩ : BufTy).Contents (Elt F)) (main_v208 : (⟨S4x2048, .i32⟩ : BufTy).Contents (Elt F)) (main_v210 : (⟨S4x2048, .i1⟩ : BufTy).Contents (Elt F)) (main_v31 : (⟨S4x2048, .f32⟩ : BufTy).Contents (Elt F)) (main_arg0 : (⟨S4x2048x512, .f32⟩ : BufTy).Contents (Elt F)) : (⟨S4x2048x512, .f32⟩ : BufTy).Contents (Elt F) :=
  let main_v211 : (⟨S4x2048x1, .i32⟩ : BufTy).Contents (Elt F) := (broadcastInDim S4x2048x1 ![0, 1] bcast_S4x2048_S4x2048x1_0_1) main_v208
  let main_call7_c : (⟨S_, .i32⟩ : BufTy).Contents (Elt F) := (constantI S_ 32 0#32)
  let main_call7_v0 : (⟨S4x2048x1, .i32⟩ : BufTy).Contents (Elt F) := (broadcastInDim S4x2048x1 ![] bcast_S_S4x2048x1) main_call7_c
  let main_call7_v1 : (⟨S4x2048x1, .i1⟩ : BufTy).Contents (Elt F) := (cmpi .slt) main_v211 main_call7_v0
  let main_call7_c_0 : (⟨S_, .i32⟩ : BufTy).Contents (Elt F) := (constantI S_ 32 2048#32)
  let main_call7_v2 : (⟨S4x2048x1, .i32⟩ : BufTy).Contents (Elt F) := (broadcastInDim S4x2048x1 ![] bcast_S_S4x2048x1) main_call7_c_0
  let main_call7_v3 : (⟨S4x2048x1, .i32⟩ : BufTy).Contents (Elt F) := addi main_v211 main_call7_v2
  let main_call7_v4 : (⟨S4x2048x1, .i32⟩ : BufTy).Contents (Elt F) := select main_call7_v1 main_call7_v3 main_v211
  let main_call7_c_1 : (⟨S1, .i32⟩ : BufTy).Contents (Elt F) := (constantI S1 32 2047#32)
  let main_call7_c_2 : (⟨S_, .i32⟩ : BufTy).Contents (Elt F) := (constantI S_ 32 0#32)
  let main_call7_v5 : (⟨S4x2048x1, .i32⟩ : BufTy).Contents (Elt F) := (broadcastInDim S4x2048x1 ![] bcast_S_S4x2048x1) main_call7_c_2
  let main_call7_v6 : (⟨S4x2048x1, .i1⟩ : BufTy).Contents (Elt F) := (cmpi .sge) main_call7_v4 main_call7_v5
  let main_call7_v7 : (⟨S1x1x1, .i32⟩ : BufTy).Contents (Elt F) := (broadcastInDim S1x1x1 ![2] bcast_S1_S1x1x1_2) main_call7_c_1
  let main_call7_v8 : (⟨S4x2048x1, .i32⟩ : BufTy).Contents (Elt F) := (broadcastInDim S4x2048x1 ![0, 1, 2] bcast_S1x1x1_S4x2048x1_0_1_2) main_call7_v7
  let main_call7_v9 : (⟨S4x2048x1, .i1⟩ : BufTy).Contents (Elt F) := (cmpi .sle) main_call7_v4 main_call7_v8
  let main_call7_v10 : (⟨S4x2048x1, .i1⟩ : BufTy).Contents (Elt F) := andi main_call7_v6 main_call7_v9
  let main_call7_c_3 : (⟨S_, .i1⟩ : BufTy).Contents (Elt F) := (constantI S_ 1 1#1)
  let main_call7_v11 : (⟨S4x2048, .i1⟩ : BufTy).Contents (Elt F) := (fun x v => Host.reduce IntOp.andi x v reducesTo_S4x2048x1_S4x2048_d2 h_S_) main_call7_v10 main_call7_c_3
  let main_call7_v12 : (⟨S4x2048x512, .f32⟩ : BufTy).Contents (Elt F) := (fun x i => Host.gather gather_S4x2048x512_S4x2048x1_S4x2048x512_2_1_0_0_1_2_11512 x i) main_v203 main_call7_v4
  let main_call7_v13 : (⟨S4x2048x512, .i1⟩ : BufTy).Contents (Elt F) := (broadcastInDim S4x2048x512 ![0, 1] bcast_S4x2048_S4x2048x512_0_1) main_call7_v11
  let main_call7_cst : (⟨S_, .f32⟩ : BufTy).Contents (Elt F) := (constant S_ .f32 0x7FC00000#32)
  let main_call7_v14 : (⟨S4x2048x512, .f32⟩ : BufTy).Contents (Elt F) := (broadcastInDim S4x2048x512 ![] bcast_S_S4x2048x512) main_call7_cst
  let main_v212 : (⟨S4x2048x512, .f32⟩ : BufTy).Contents (Elt F) := select main_call7_v13 main_call7_v12 main_call7_v14
  let main_v213 : (⟨S4x2048x1, .i1⟩ : BufTy).Contents (Elt F) := (broadcastInDim S4x2048x1 ![0, 1] bcast_S4x2048_S4x2048x1_0_1) main_v210
  let main_v214 : (⟨S4x2048x1, .f32⟩ : BufTy).Contents (Elt F) := (uitofp .f32) main_v213
  let main_v215 : (⟨S4x2048x512, .f32⟩ : BufTy).Contents (Elt F) := (broadcastInDim S4x2048x512 ![0, 1, 2] bcast_S4x2048x1_S4x2048x512_0_1_2) main_v214
  let main_v216 : (⟨S4x2048x512, .f32⟩ : BufTy).Contents (Elt F) := mulf main_v212 main_v215
  let main_cst_21 : (⟨S_, .f32⟩ : BufTy).Contents (Elt F) := (constant S_ .f32 0x3F800000#32)
  let main_v217 : (⟨S4x2048, .f32⟩ : BufTy).Contents (Elt F) := (broadcastInDim S4x2048 ![] bcast_S_S4x2048) main_cst_21
  let main_v218 : (⟨S4x2048, .f32⟩ : BufTy).Contents (Elt F) := subf main_v217 main_v31
  let main_v219 : (⟨S4x2048, .f32⟩ : BufTy).Contents (Elt F) := maximumf main_v218 main_v31
  let main_cst_22 : (⟨S_, .f32⟩ : BufTy).Contents (Elt F) := (constant S_ .f32 0x3F800000#32)
  let main_v220 : (⟨S4x2048, .f32⟩ : BufTy).Contents (Elt F) := (broadcastInDim S4x2048 ![] bcast_S_S4x2048) main_cst_22
  let main_v221 : (⟨S4x2048, .f32⟩ : BufTy).Contents (Elt F) := subf main_v219 main_v219
  let main_v222 : (⟨S4x2048, .f32⟩ : BufTy).Contents (Elt F) := addf main_v220 main_v221
  let main_v223 : (⟨S4x2048x1, .f32⟩ : BufTy).Contents (Elt F) := (broadcastInDim S4x2048x1 ![0, 1] bcast_S4x2048_S4x2048x1_0_1) main_v222
  let main_v224 : (⟨S4x2048x512, .f32⟩ : BufTy).Contents (Elt F) := (broadcastInDim S4x2048x512 ![0, 1, 2] bcast_S4x2048x1_S4x2048x512_0_1_2) main_v223
  let main_v225 : (⟨S4x2048x512, .f32⟩ : BufTy).Contents (Elt F) := mulf main_v216 main_v224
  let main_v226 : (⟨S4x2048x512, .f32⟩ : BufTy).Contents (Elt F) := addf main_arg0 main_v225
  main_v226

end Cert.ReferenceIdeal.Stage

end
-- ==== Proof.RefStages.lean ====
import proofs.«173479_g14800457302192_cont_week2b_463_2_alg».proof.Proof.RefStageA
import proofs.«173479_g14800457302192_cont_week2b_463_2_alg».proof.Proof.RefStageB
import proofs.«173479_g14800457302192_cont_week2b_463_2_alg».proof.Proof.RefStageC
import proofs.«173479_g14800457302192_cont_week2b_463_2_alg».proof.Proof.RefStageD

set_option maxRecDepth 8192

noncomputable section

namespace Cert.ReferenceIdeal.Stage

open Cert.ReferenceIdeal Idealize.ShloMosaic Idealize.ShloMosaic.TcCoe Idealize.SL.Sem
open Facts₀

variable {F : FTy → Type} [FloatOps F]

/-- The reference's result array as the stages composed. -/
def ROut (x : (⟨S4x2048x512, .f32⟩ : BufTy).Contents (Elt F)) (wq wk : (⟨S512x512, .f32⟩ : BufTy).Contents (Elt F)) : (⟨S4x2048x512, .f32⟩ : BufTy).Contents (Elt F) :=
  let p := fA x wq wk
  let mk := fB33 p
  let o := fB36 p
  let dc := fB52 p o mk
  let a0 := fC0a dc
  let b0 := fC0b dc (fB40 x o)
  let b1 := fC1b a0 b0
  let a1 := fC1a a0
  let b2 := fC2b a1 b1
  let a2 := fC2a a1
  let b3 := fC3b a2 b2
  let a3 := fC3a a2
  let b4 := fC4b a3 b3
  let a4 := fC4a a3
  let b5 := fC5b a4 b4
  let a5 := fC5a a4
  let b6 := fC6b a5 b5
  let a6 := fC6a a5
  let b7 := fC7b a6 b6
  let a7 := fC7a a6
  let b8 := fC8b a7 b7
  let a8 := fC8a a7
  let b9 := fC9b a8 b8
  let a9 := fC9a a8
  let b10 := fC10b a9 b9
  let a10 := fC10a a9
  let b11 := fC11b a10 b10
  fD (fD203 b11 (fB46 mk)) (fD208 mk) (fD210 mk) p x

end Cert.ReferenceIdeal.Stage

end
-- ==== Proof.RefOps.lean ====
import proofs.«173479_g14800457302192_cont_week2b_463_2_alg».proof.Proof.Gen.ReferenceIdeal
import Idealize.ShloMosaic.Lib.StableHlo.Run

noncomputable section

namespace Cert.ReferenceIdeal.Run

open Cert.ReferenceIdeal Idealize.ShloMosaic Idealize.ShloMosaic.TcCoe Idealize.SL.Sem Idealize.ShloMosaic.StableHlo
open Facts₀

variable {F : FTy → Type} [FloatOps F]

/-- The operations of @main's window 0, in order. -/
abbrev part0 : List (HloOp τ sig (Elt F)) :=
  [ unary main_arg0 main_v0 ((extractStridedSlice S4x2047x512 ![0, 0, 0] · slices_S4x2048x512_S4x2047x512_0_0_0) : (⟨S4x2048x512, .f32⟩ : BufTy).Contents (Elt F) → (⟨S4x2047x512, .f32⟩ : BufTy).Contents (Elt F)),
    binary main_v0 main_arg1 main_v1 ((fun l r => Host.dotGeneral dot_S4x2047x512_S512x512_S4x2047x512_2_1_01_0_n_n none l r) : (⟨S4x2047x512, .f32⟩ : BufTy).Contents (Elt F) → (⟨S512x512, .f32⟩ : BufTy).Contents (Elt F) → (⟨S4x2047x512, .f32⟩ : BufTy).Contents (Elt F)),
    binary main_v1 main_v1 main_v2 (mulf : (⟨S4x2047x512, .f32⟩ : BufTy).Contents (Elt F) → (⟨S4x2047x512, .f32⟩ : BufTy).Contents (Elt F) → (⟨S4x2047x512, .f32⟩ : BufTy).Contents (Elt F)),
    nullary main_cst (constant S_ .f32 0x00000000#32),
    binary main_v2 main_cst main_v3 ((fun x v => Host.reduceAdd x v reducesTo_S4x2047x512_S4x2047_d2 h_S_) : (⟨S4x2047x512, .f32⟩ : BufTy).Contents (Elt F) → (⟨S_, .f32⟩ : BufTy).Contents (Elt F) → (⟨S4x2047, .f32⟩ : BufTy).Contents (Elt F)),
    unary main_v3 main_v4 (broadcastInDim S4x2047x1 ![0, 1] bcast_S4x2047_S4x2047x1_0_1 : (⟨S4x2047, .f32⟩ : BufTy).Contents (Elt F) → (⟨S4x2047x1, .f32⟩ : BufTy).Contents (Elt F)),
    unary main_v4 main_v5 (Host.sqrt : (⟨S4x2047x1, .f32⟩ : BufTy).Contents (Elt F) → (⟨S4x2047x1, .f32⟩ : BufTy).Contents (Elt F)),
    nullary main_cst_0 (constant S_ .f32 0x2B8CBCCC#32),
    unary main_cst_0 main_v6 (broadcastInDim S4x2047x1 ![] bcast_S_S4x2047x1 : (⟨S_, .f32⟩ : BufTy).Contents (Elt F) → (⟨S4x2047x1, .f32⟩ : BufTy).Contents (Elt F)),
    binary main_v5 main_v6 main_v7 (maximumf : (⟨S4x2047x1, .f32⟩ : BufTy).Contents (Elt F) → (⟨S4x2047x1, .f32⟩ : BufTy).Contents (Elt F) → (⟨S4x2047x1, .f32⟩ : BufTy).Contents (Elt F)),
    unary main_v7 main_v8 (broadcastInDim S4x2047x512 ![0, 1, 2] bcast_S4x2047x1_S4x2047x512_0_1_2 : (⟨S4x2047x1, .f32⟩ : BufTy).Contents (Elt F) → (⟨S4x2047x512, .f32⟩ : BufTy).Contents (Elt F)),
    binary main_v1 main_v8 main_v9 (Host.divf : (⟨S4x2047x512, .f32⟩ : BufTy).Contents (Elt F) → (⟨S4x2047x512, .f32⟩ : BufTy).Contents (Elt F) → (⟨S4x2047x512, .f32⟩ : BufTy).Contents (Elt F)),
    unary main_arg0 main_v10 ((extractStridedSlice S4x2047x512 ![0, 1, 0] · slices_S4x2048x512_S4x2047x512_0_1_0) : (⟨S4x2048x512, .f32⟩ : BufTy).Contents (Elt F) → (⟨S4x2047x512, .f32⟩ : BufTy).Contents (Elt F)),
    binary main_v10 main_arg2 main_v11 ((fun l r => Host.dotGeneral dot_S4x2047x512_S512x512_S4x2047x512_2_1_01_0_n_n none l r) : (⟨S4x2047x512, .f32⟩ : BufTy).Contents (Elt F) → (⟨S512x512, .f32⟩ : BufTy).Contents (Elt F) → (⟨S4x2047x512, .f32⟩ : BufTy).Contents (Elt F)),
    binary main_v11 main_v11 main_v12 (mulf : (⟨S4x2047x512, .f32⟩ : BufTy).Contents (Elt F) → (⟨S4x2047x512, .f32⟩ : BufTy).Contents (Elt F) → (⟨S4x2047x512, .f32⟩ : BufTy).Contents (Elt F)),
    nullary main_cst_1 (constant S_ .f32 0x00000000#32),
    binary main_v12 main_cst_1 main_v13 ((fun x v => Host.reduceAdd x v reducesTo_S4x2047x512_S4x2047_d2 h_S_) : (⟨S4x2047x512, .f32⟩ : BufTy).Contents (Elt F) → (⟨S_, .f32⟩ : BufTy).Contents (Elt F) → (⟨S4x2047, .f32⟩ : BufTy).Contents (Elt F)),
    unary main_v13 main_v14 (broadcastInDim S4x2047x1 ![0, 1] bcast_S4x2047_S4x2047x1_0_1 : (⟨S4x2047, .f32⟩ : BufTy).Contents (Elt F) → (⟨S4x2047x1, .f32⟩ : BufTy).Contents (Elt F)),
    unary main_v14 main_v15 (Host.sqrt : (⟨S4x2047x1, .f32⟩ : BufTy).Contents (Elt F) → (⟨S4x2047x1, .f32⟩ : BufTy).Contents (Elt F)),
    nullary main_cst_2 (constant S_ .f32 0x2B8CBCCC#32),
    unary main_cst_2 main_v16 (broadcastInDim S4x2047x1 ![] bcast_S_S4x2047x1 : (⟨S_, .f32⟩ : BufTy).Contents (Elt F) → (⟨S4x2047x1, .f32⟩ : BufTy).Contents (Elt F)),
    binary main_v15 main_v16 main_v17 (maximumf : (⟨S4x2047x1, .f32⟩ : BufTy).Contents (Elt F) → (⟨S4x2047x1, .f32⟩ : BufTy).Contents (Elt F) → (⟨S4x2047x1, .f32⟩ : BufTy).Contents (Elt F)),
    unary main_v17 main_v18 (broadcastInDim S4x2047x512 ![0, 1, 2] bcast_S4x2047x1_S4x2047x512_0_1_2 : (⟨S4x2047x1, .f32⟩ : BufTy).Contents (Elt F) → (⟨S4x2047x512, .f32⟩ : BufTy).Contents (Elt F)),
    binary main_v11 main_v18 main_v19 (Host.divf : (⟨S4x2047x512, .f32⟩ : BufTy).Contents (Elt F) → (⟨S4x2047x512, .f32⟩ : BufTy).Contents (Elt F) → (⟨S4x2047x512, .f32⟩ : BufTy).Contents (Elt F)),
    binary main_v9 main_v19 main_v20 (mulf : (⟨S4x2047x512, .f32⟩ : BufTy).Contents (Elt F) → (⟨S4x2047x512, .f32⟩ : BufTy).Contents (Elt F) → (⟨S4x2047x512, .f32⟩ : BufTy).Contents (Elt F)),
    nullary main_cst_3 (constant S_ .f32 0x00000000#32),
    binary main_v20 main_cst_3 main_v21 ((fun x v => Host.reduceAdd x v reducesTo_S4x2047x512_S4x2047_d2 h_S_) : (⟨S4x2047x512, .f32⟩ : BufTy).Contents (Elt F) → (⟨S_, .f32⟩ : BufTy).Contents (Elt F) → (⟨S4x2047, .f32⟩ : BufTy).Contents (Elt F)),
    nullary main_cst_4 (constant S_ .f32 0x3F800000#32),
    unary main_cst_4 main_v22 (broadcastInDim S4x1 ![] bcast_S_S4x1 : (⟨S_, .f32⟩ : BufTy).Contents (Elt F) → (⟨S4x1, .f32⟩ : BufTy).Contents (Elt F)),
    nullary main_cst_5 (constant S_ .f32 0x3F800000#32),
    unary main_cst_5 main_v23 (broadcastInDim S4x2047 ![] bcast_S_S4x2047 : (⟨S_, .f32⟩ : BufTy).Contents (Elt F) → (⟨S4x2047, .f32⟩ : BufTy).Contents (Elt F)),
    binary main_v23 main_v21 main_v24 (subf : (⟨S4x2047, .f32⟩ : BufTy).Contents (Elt F) → (⟨S4x2047, .f32⟩ : BufTy).Contents (Elt F) → (⟨S4x2047, .f32⟩ : BufTy).Contents (Elt F)),
    nullary main_cst_6 (constant S_ .f32 0x40000000#32),
    unary main_cst_6 main_v25 (broadcastInDim S4x2047 ![] bcast_S_S4x2047 : (⟨S_, .f32⟩ : BufTy).Contents (Elt F) → (⟨S4x2047, .f32⟩ : BufTy).Contents (Elt F)),
    binary main_v24 main_v25 main_v26 (Host.divf : (⟨S4x2047, .f32⟩ : BufTy).Contents (Elt F) → (⟨S4x2047, .f32⟩ : BufTy).Contents (Elt F) → (⟨S4x2047, .f32⟩ : BufTy).Contents (Elt F)),
    nullary main_cst_7 (constant S_ .f32 0x00000000#32),
    nullary main_cst_8 (constant S_ .f32 0x3F800000#32),
    TRef.unary (.of main_cst_7) main_call0.v0 id,
    TRef.unary main_call0.v0 main_call0.v1 (broadcastInDim S4x2047 ![] bcast_S_S4x2047),
    TRef.binary main_call0.v1 (.of main_v26) main_call0.v2 maximumf,
    TRef.unary (.of main_cst_8) main_call0.v3 id,
    TRef.unary main_call0.v3 main_call0.v4 (broadcastInDim S4x2047 ![] bcast_S_S4x2047),
    TRef.binary main_call0.v4 main_call0.v2 main_call0.v5 minimumf,
    binary main_v22 main_v27 main_v28 ((fun a b => concatenate S4x2048 1 [⟨S4x1, a⟩, ⟨S4x2047, b⟩] concatenates_S4x1_S4x2047_S4x2048_d1) : (⟨S4x1, .f32⟩ : BufTy).Contents (Elt F) → (⟨S4x2047, .f32⟩ : BufTy).Contents (Elt F) → (⟨S4x2048, .f32⟩ : BufTy).Contents (Elt F)),
    nullary main_c (constantI S_ 32 0#32),
    unary main_c main_v29 (broadcastInDim S1 ![] bcast_S_S1 : (⟨S_, .i32⟩ : BufTy).Contents (Elt F) → (⟨S1, .i32⟩ : BufTy).Contents (Elt F)),
    nullary main_cst_9 (constant S_ .f32 0x3F800000#32),
    unary main_cst_9 main_v30 (broadcastInDim S4 ![] bcast_S_S4 : (⟨S_, .f32⟩ : BufTy).Contents (Elt F) → (⟨S4, .f32⟩ : BufTy).Contents (Elt F)),
    ternary main_v28 main_v29 main_v30 main_v31 ((fun x i u => Host.scatter scatter_S4x2048_S1_S4_0_1_1_0 (fun _ b => b) x i u) : (⟨S4x2048, .f32⟩ : BufTy).Contents (Elt F) → (⟨S1, .i32⟩ : BufTy).Contents (Elt F) → (⟨S4, .f32⟩ : BufTy).Contents (Elt F) → (⟨S4x2048, .f32⟩ : BufTy).Contents (Elt F)),
    nullary main_cst_10 (constant S_ .f32 0x3F000000#32),
    unary main_cst_10 main_v32 (broadcastInDim S4x2048 ![] bcast_S_S4x2048 : (⟨S_, .f32⟩ : BufTy).Contents (Elt F) → (⟨S4x2048, .f32⟩ : BufTy).Contents (Elt F)),
    binary main_v31 main_v32 main_v33 (cmpf .ogt : (⟨S4x2048, .f32⟩ : BufTy).Contents (Elt F) → (⟨S4x2048, .f32⟩ : BufTy).Contents (Elt F) → (⟨S4x2048, .i1⟩ : BufTy).Contents (Elt F)),
    unary main_v33 main_v34 (noti : (⟨S4x2048, .i1⟩ : BufTy).Contents (Elt F) → (⟨S4x2048, .i1⟩ : BufTy).Contents (Elt F)),
    unary main_v34 main_v35 ((extui 32 · natLt_1_32) : (⟨S4x2048, .i1⟩ : BufTy).Contents (Elt F) → (⟨S4x2048, .i32⟩ : BufTy).Contents (Elt F)),
    TRef.nullary main_call1.v0 (iotaInDim S4x2048 32 1),
    TRef.binary (.of main_v35) main_call1.v0 main_call1.v1_0 (fun x y => (Host.sort2 S4x2048 1 comparator_i32_i32_d1 x y).1),
    TRef.binary (.of main_v35) main_call1.v0 main_call1.v1_1 (fun x y => (Host.sort2 S4x2048 1 comparator_i32_i32_d1 x y).2),
    unary main_v33 main_v37 ((extui 32 · natLt_1_32) : (⟨S4x2048, .i1⟩ : BufTy).Contents (Elt F) → (⟨S4x2048, .i32⟩ : BufTy).Contents (Elt F)),
    nullary main_c_11 (constantI S_ 32 0#32),
    binary main_v37 main_c_11 main_v38 ((fun x v => Host.reduce IntOp.addi x v reducesTo_S4x2048_S4_d1 h_S_) : (⟨S4x2048, .i32⟩ : BufTy).Contents (Elt F) → (⟨S_, .i32⟩ : BufTy).Contents (Elt F) → (⟨S4, .i32⟩ : BufTy).Contents (Elt F)),
    unary main_v36 main_v39 (broadcastInDim S4x2048x1 ![0, 1] bcast_S4x2048_S4x2048x1_0_1 : (⟨S4x2048, .i32⟩ : BufTy).Contents (Elt F) → (⟨S4x2048x1, .i32⟩ : BufTy).Contents (Elt F)),
    TRef.nullary main_call2.c (constantI S_ 32 0#32),
    TRef.unary main_call2.c main_call2.v0 (broadcastInDim S4x2048x1 ![] bcast_S_S4x2048x1),
    TRef.binary (.of main_v39) main_call2.v0 main_call2.v1 (cmpi .slt),
    TRef.nullary main_call2.c_0 (constantI S_ 32 2048#32),
    TRef.unary main_call2.c_0 main_call2.v2 (broadcastInDim S4x2048x1 ![] bcast_S_S4x2048x1),
    TRef.binary (.of main_v39) main_call2.v2 main_call2.v3 addi,
    TRef.ternary main_call2.v1 main_call2.v3 (.of main_v39) main_call2.v4 select,
    TRef.nullary main_call2.c_1 (constantI S1 32 2047#32),
    TRef.nullary main_call2.c_2 (constantI S_ 32 0#32),
    TRef.unary main_call2.c_2 main_call2.v5 (broadcastInDim S4x2048x1 ![] bcast_S_S4x2048x1),
    TRef.binary main_call2.v4 main_call2.v5 main_call2.v6 (cmpi .sge),
    TRef.unary main_call2.c_1 main_call2.v7 (broadcastInDim S1x1x1 ![2] bcast_S1_S1x1x1_2),
    TRef.unary main_call2.v7 main_call2.v8 (broadcastInDim S4x2048x1 ![0, 1, 2] bcast_S1x1x1_S4x2048x1_0_1_2),
    TRef.binary main_call2.v4 main_call2.v8 main_call2.v9 (cmpi .sle),
    TRef.binary main_call2.v6 main_call2.v9 main_call2.v10 andi,
    TRef.nullary main_call2.c_3 (constantI S_ 1 1#1),
    TRef.binary main_call2.v10 main_call2.c_3 main_call2.v11 (fun x v => Host.reduce IntOp.andi x v reducesTo_S4x2048x1_S4x2048_d2 h_S_),
    TRef.binary (.of main_arg0) main_call2.v4 main_call2.v12 (fun x i => Host.gather gather_S4x2048x512_S4x2048x1_S4x2048x512_2_1_0_0_1_2_11512 x i),
    TRef.unary main_call2.v11 main_call2.v13 (broadcastInDim S4x2048x512 ![0, 1] bcast_S4x2048_S4x2048x512_0_1),
    TRef.nullary main_call2.cst (constant S_ .f32 0x7FC00000#32),
    TRef.unary main_call2.cst main_call2.v14 (broadcastInDim S4x2048x512 ![] bcast_S_S4x2048x512),
    TRef.ternary main_call2.v13 main_call2.v12 main_call2.v14 main_call2.v15 select,
    nullary main_v41 (iotaInDim S2048 32 0),
    unary main_v41 main_v42 (broadcastInDim S1x2048 ![1] bcast_S2048_S1x2048_1 : (⟨S2048, .i32⟩ : BufTy).Contents (Elt F) → (⟨S1x2048, .i32⟩ : BufTy).Contents (Elt F)),
    unary main_v38 main_v43 (broadcastInDim S4x1 ![0] bcast_S4_S4x1_0 : (⟨S4, .i32⟩ : BufTy).Contents (Elt F) → (⟨S4x1, .i32⟩ : BufTy).Contents (Elt F)),
    unary main_v42 main_v44 (broadcastInDim S4x2048 ![0, 1] bcast_S1x2048_S4x2048_0_1 : (⟨S1x2048, .i32⟩ : BufTy).Contents (Elt F) → (⟨S4x2048, .i32⟩ : BufTy).Contents (Elt F)),
    unary main_v43 main_v45 (broadcastInDim S4x2048 ![0, 1] bcast_S4x1_S4x2048_0_1 : (⟨S4x1, .i32⟩ : BufTy).Contents (Elt F) → (⟨S4x2048, .i32⟩ : BufTy).Contents (Elt F)) ]

/-- The operations of @main's window 1, in order. -/
abbrev part1 : List (HloOp τ sig (Elt F)) :=
  [ binary main_v44 main_v45 main_v46 (cmpi .slt : (⟨S4x2048, .i32⟩ : BufTy).Contents (Elt F) → (⟨S4x2048, .i32⟩ : BufTy).Contents (Elt F) → (⟨S4x2048, .i1⟩ : BufTy).Contents (Elt F)),
    TRef.nullary main_call3.c (constantI S_ 32 0#32),
    TRef.unary main_call3.c main_call3.v0 (broadcastInDim S4x2048 ![] bcast_S_S4x2048),
    TRef.binary (.of main_v36) main_call3.v0 main_call3.v1 (cmpi .slt),
    TRef.nullary main_call3.c_0 (constantI S_ 32 2048#32),
    TRef.unary main_call3.c_0 main_call3.v2 (broadcastInDim S4x2048 ![] bcast_S_S4x2048),
    TRef.binary (.of main_v36) main_call3.v2 main_call3.v3 addi,
    TRef.ternary main_call3.v1 main_call3.v3 (.of main_v36) main_call3.v4 select,
    TRef.reshape main_call3.v4 main_call3.v5 rfl shapeCasts_S4x2048_S4x2048x1,
    TRef.nullary main_call3.c_1 (constantI S1 32 2047#32),
    TRef.nullary main_call3.c_2 (constantI S_ 32 0#32),
    TRef.unary main_call3.c_2 main_call3.v6 (broadcastInDim S4x2048x1 ![] bcast_S_S4x2048x1),
    TRef.binary main_call3.v5 main_call3.v6 main_call3.v7 (cmpi .sge),
    TRef.unary main_call3.c_1 main_call3.v8 (broadcastInDim S1x1x1 ![2] bcast_S1_S1x1x1_2),
    TRef.unary main_call3.v8 main_call3.v9 (broadcastInDim S4x2048x1 ![0, 1, 2] bcast_S1x1x1_S4x2048x1_0_1_2),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S4x2048x1_S4x2048_d2 h_S_),
    TRef.binary (.of main_v31) main_call3.v5 main_call3.v13 (fun x i => Host.gather gather_S4x2048_S4x2048x1_S4x2048_n_1_0_0_1_2_11 x i),
    TRef.nullary main_call3.cst (constant S_ .f32 0x7FC00000#32),
    TRef.unary main_call3.cst main_call3.v14 (broadcastInDim S4x2048 ![] bcast_S_S4x2048),
    TRef.ternary main_call3.v12 main_call3.v13 main_call3.v14 main_call3.v15 select,
    unary main_v46 main_v48 (uitofp .f32 : (⟨S4x2048, .i1⟩ : BufTy).Contents (Elt F) → (⟨S4x2048, .f32⟩ : BufTy).Contents (Elt F)),
    binary main_v47 main_v48 main_v49 (mulf : (⟨S4x2048, .f32⟩ : BufTy).Contents (Elt F) → (⟨S4x2048, .f32⟩ : BufTy).Contents (Elt F) → (⟨S4x2048, .f32⟩ : BufTy).Contents (Elt F)),
    nullary main_cst_12 (constant S_ .f32 0x3F800000#32),
    unary main_cst_12 main_v50 (broadcastInDim S4x2048 ![] bcast_S_S4x2048 : (⟨S_, .f32⟩ : BufTy).Contents (Elt F) → (⟨S4x2048, .f32⟩ : BufTy).Contents (Elt F)),
    binary main_v50 main_v49 main_v51 (subf : (⟨S4x2048, .f32⟩ : BufTy).Contents (Elt F) → (⟨S4x2048, .f32⟩ : BufTy).Contents (Elt F) → (⟨S4x2048, .f32⟩ : BufTy).Contents (Elt F)),
    nullary main_cst_13 (constant S_ .f32 0x00000000#32),
    nullary main_cst_14 (constant S_ .f32 0x3F800000#32),
    TRef.unary (.of main_cst_13) main_call4.v0 id,
    TRef.unary main_call4.v0 main_call4.v1 (broadcastInDim S4x2048 ![] bcast_S_S4x2048),
    TRef.binary main_call4.v1 (.of main_v51) main_call4.v2 maximumf,
    TRef.unary (.of main_cst_14) main_call4.v3 id,
    TRef.unary main_call4.v3 main_call4.v4 (broadcastInDim S4x2048 ![] bcast_S_S4x2048),
    TRef.binary main_call4.v4 main_call4.v2 main_call4.v5 minimumf,
    nullary main_cst_15 (constant S_ .f32 0x00000000#32),
    unary main_cst_15 main_v53 (broadcastInDim S4x512 ![] bcast_S_S4x512 : (⟨S_, .f32⟩ : BufTy).Contents (Elt F) → (⟨S4x512, .f32⟩ : BufTy).Contents (Elt F)),
    unary main_v52 main_v54 (broadcastInDim S4x2048x1 ![0, 1] bcast_S4x2048_S4x2048x1_0_1 : (⟨S4x2048, .f32⟩ : BufTy).Contents (Elt F) → (⟨S4x2048x1, .f32⟩ : BufTy).Contents (Elt F)),
    unary main_v54 main_v55 (broadcastInDim S4x2048x512 ![0, 1, 2] bcast_S4x2048x1_S4x2048x512_0_1_2 : (⟨S4x2048x1, .f32⟩ : BufTy).Contents (Elt F) → (⟨S4x2048x512, .f32⟩ : BufTy).Contents (Elt F)),
    nullary main_cst_16 (constant S_ .f32 0x3F800000#32),
    unary main_cst_16 main_v56 (broadcastInDim S4x2048 ![] bcast_S_S4x2048 : (⟨S_, .f32⟩ : BufTy).Contents (Elt F) → (⟨S4x2048, .f32⟩ : BufTy).Contents (Elt F)),
    binary main_v56 main_v52 main_v57 (subf : (⟨S4x2048, .f32⟩ : BufTy).Contents (Elt F) → (⟨S4x2048, .f32⟩ : BufTy).Contents (Elt F) → (⟨S4x2048, .f32⟩ : BufTy).Contents (Elt F)),
    unary main_v57 main_v58 (broadcastInDim S4x2048x1 ![0, 1] bcast_S4x2048_S4x2048x1_0_1 : (⟨S4x2048, .f32⟩ : BufTy).Contents (Elt F) → (⟨S4x2048x1, .f32⟩ : BufTy).Contents (Elt F)),
    unary main_v58 main_v59 (broadcastInDim S4x2048x512 ![0, 1, 2] bcast_S4x2048x1_S4x2048x512_0_1_2 : (⟨S4x2048x1, .f32⟩ : BufTy).Contents (Elt F) → (⟨S4x2048x512, .f32⟩ : BufTy).Contents (Elt F)),
    binary main_v59 main_v40 main_v60 (mulf : (⟨S4x2048x512, .f32⟩ : BufTy).Contents (Elt F) → (⟨S4x2048x512, .f32⟩ : BufTy).Contents (Elt F) → (⟨S4x2048x512, .f32⟩ : BufTy).Contents (Elt F)),
    unary main_v60 main_v61 ((extractStridedSlice S4x1x512 ![0, 0, 0] · slices_S4x2048x512_S4x1x512_0_0_0) : (⟨S4x2048x512, .f32⟩ : BufTy).Contents (Elt F) → (⟨S4x1x512, .f32⟩ : BufTy).Contents (Elt F)),
    unary main_v55 main_v62 ((extractStridedSlice S4x1x512 ![0, 0, 0] · slices_S4x2048x512_S4x1x512_0_0_0) : (⟨S4x2048x512, .f32⟩ : BufTy).Contents (Elt F) → (⟨S4x1x512, .f32⟩ : BufTy).Contents (Elt F)),
    unary main_v53 main_v63 (broadcastInDim S4x1x512 ![0, 2] bcast_S4x512_S4x1x512_0_2 : (⟨S4x512, .f32⟩ : BufTy).Contents (Elt F) → (⟨S4x1x512, .f32⟩ : BufTy).Contents (Elt F)),
    binary main_v62 main_v63 main_v64 (mulf : (⟨S4x1x512, .f32⟩ : BufTy).Contents (Elt F) → (⟨S4x1x512, .f32⟩ : BufTy).Contents (Elt F) → (⟨S4x1x512, .f32⟩ : BufTy).Contents (Elt F)),
    binary main_v61 main_v64 main_v65 (addf : (⟨S4x1x512, .f32⟩ : BufTy).Contents (Elt F) → (⟨S4x1x512, .f32⟩ : BufTy).Contents (Elt F) → (⟨S4x1x512, .f32⟩ : BufTy).Contents (Elt F)),
    unary main_v60 main_v66 ((extractStridedSlice S4x2047x512 ![0, 1, 0] · slices_S4x2048x512_S4x2047x512_0_1_0) : (⟨S4x2048x512, .f32⟩ : BufTy).Contents (Elt F) → (⟨S4x2047x512, .f32⟩ : BufTy).Contents (Elt F)),
    binary main_v65 main_v66 main_v67 ((fun a b => concatenate S4x2048x512 1 [⟨S4x1x512, a⟩, ⟨S4x2047x512, b⟩] concatenates_S4x1x512_S4x2047x512_S4x2048x512_d1) : (⟨S4x1x512, .f32⟩ : BufTy).Contents (Elt F) → (⟨S4x2047x512, .f32⟩ : BufTy).Contents (Elt F) → (⟨S4x2048x512, .f32⟩ : BufTy).Contents (Elt F)),
    unary main_v67 main_v68 ((extractStridedSlice S4x1x512 ![0, 0, 0] · slices_S4x2048x512_S4x1x512_0_0_0) : (⟨S4x2048x512, .f32⟩ : BufTy).Contents (Elt F) → (⟨S4x1x512, .f32⟩ : BufTy).Contents (Elt F)),
    unary main_v55 main_v69 ((extractStridedSlice S4x2047x512 ![0, 1, 0] · slices_S4x2048x512_S4x2047x512_0_1_0) : (⟨S4x2048x512, .f32⟩ : BufTy).Contents (Elt F) → (⟨S4x2047x512, .f32⟩ : BufTy).Contents (Elt F)),
    unary main_v67 main_v70 ((extractStridedSlice S4x2047x512 ![0, 0, 0] · slices_S4x2048x512_S4x2047x512_0_0_0) : (⟨S4x2048x512, .f32⟩ : BufTy).Contents (Elt F) → (⟨S4x2047x512, .f32⟩ : BufTy).Contents (Elt F)),
    binary main_v69 main_v70 main_v71 (mulf : (⟨S4x2047x512, .f32⟩ : BufTy).Contents (Elt F) → (⟨S4x2047x512, .f32⟩ : BufTy).Contents (Elt F) → (⟨S4x2047x512, .f32⟩ : BufTy).Contents (Elt F)),
    unary main_v67 main_v72 ((extractStridedSlice S4x2047x512 ![0, 1, 0] · slices_S4x2048x512_S4x2047x512_0_1_0) : (⟨S4x2048x512, .f32⟩ : BufTy).Contents (Elt F) → (⟨S4x2047x512, .f32⟩ : BufTy).Contents (Elt F)),
    binary main_v71 main_v72 main_v73 (addf : (⟨S4x2047x512, .f32⟩ : BufTy).Contents (Elt F) → (⟨S4x2047x512, .f32⟩ : BufTy).Contents (Elt F) → (⟨S4x2047x512, .f32⟩ : BufTy).Contents (Elt F)),
    binary main_v68 main_v73 main_v74 ((fun a b => concatenate S4x2048x512 1 [⟨S4x1x512, a⟩, ⟨S4x2047x512, b⟩] concatenates_S4x1x512_S4x2047x512_S4x2048x512_d1) : (⟨S4x1x512, .f32⟩ : BufTy).Contents (Elt F) → (⟨S4x2047x512, .f32⟩ : BufTy).Contents (Elt F) → (⟨S4x2048x512, .f32⟩ : BufTy).Contents (Elt F)),
    unary main_v55 main_v75 ((extractStridedSlice S4x1x512 ![0, 0, 0] · slices_S4x2048x512_S4x1x512_0_0_0) : (⟨S4x2048x512, .f32⟩ : BufTy).Contents (Elt F) → (⟨S4x1x512, .f32⟩ : BufTy).Contents (Elt F)),
    unary main_v55 main_v76 ((extractStridedSlice S4x2047x512 ![0, 1, 0] · slices_S4x2048x512_S4x2047x512_0_1_0) : (⟨S4x2048x512, .f32⟩ : BufTy).Contents (Elt F) → (⟨S4x2047x512, .f32⟩ : BufTy).Contents (Elt F)),
    unary main_v55 main_v77 ((extractStridedSlice S4x2047x512 ![0, 0, 0] · slices_S4x2048x512_S4x2047x512_0_0_0) : (⟨S4x2048x512, .f32⟩ : BufTy).Contents (Elt F) → (⟨S4x2047x512, .f32⟩ : BufTy).Contents (Elt F)),
    binary main_v76 main_v77 main_v78 (mulf : (⟨S4x2047x512, .f32⟩ : BufTy).Contents (Elt F) → (⟨S4x2047x512, .f32⟩ : BufTy).Contents (Elt F) → (⟨S4x2047x512, .f32⟩ : BufTy).Contents (Elt F)),
    binary main_v75 main_v78 main_v79 ((fun a b => concatenate S4x2048x512 1 [⟨S4x1x512, a⟩, ⟨S4x2047x512, b⟩] concatenates_S4x1x512_S4x2047x512_S4x2048x512_d1) : (⟨S4x1x512, .f32⟩ : BufTy).Contents (Elt F) → (⟨S4x2047x512, .f32⟩ : BufTy).Contents (Elt F) → (⟨S4x2048x512, .f32⟩ : BufTy).Contents (Elt F)),
    unary main_v74 main_v80 ((extractStridedSlice S4x2x512 ![0, 0, 0] · slices_S4x2048x512_S4x2x512_0_0_0) : (⟨S4x2048x512, .f32⟩ : BufTy).Contents (Elt F) → (⟨S4x2x512, .f32⟩ : BufTy).Contents (Elt F)),
    unary main_v79 main_v81 ((extractStridedSlice S4x2046x512 ![0, 2, 0] · slices_S4x2048x512_S4x2046x512_0_2_0) : (⟨S4x2048x512, .f32⟩ : BufTy).Contents (Elt F) → (⟨S4x2046x512, .f32⟩ : BufTy).Contents (Elt F)),
    unary main_v74 main_v82 ((extractStridedSlice S4x2046x512 ![0, 0, 0] · slices_S4x2048x512_S4x2046x512_0_0_0) : (⟨S4x2048x512, .f32⟩ : BufTy).Contents (Elt F) → (⟨S4x2046x512, .f32⟩ : BufTy).Contents (Elt F)),
    binary main_v81 main_v82 main_v83 (mulf : (⟨S4x2046x512, .f32⟩ : BufTy).Contents (Elt F) → (⟨S4x2046x512, .f32⟩ : BufTy).Contents (Elt F) → (⟨S4x2046x512, .f32⟩ : BufTy).Contents (Elt F)),
    unary main_v74 main_v84 ((extractStridedSlice S4x2046x512 ![0, 2, 0] · slices_S4x2048x512_S4x2046x512_0_2_0) : (⟨S4x2048x512, .f32⟩ : BufTy).Contents (Elt F) → (⟨S4x2046x512, .f32⟩ : BufTy).Contents (Elt F)),
    binary main_v83 main_v84 main_v85 (addf : (⟨S4x2046x512, .f32⟩ : BufTy).Contents (Elt F) → (⟨S4x2046x512, .f32⟩ : BufTy).Contents (Elt F) → (⟨S4x2046x512, .f32⟩ : BufTy).Contents (Elt F)),
    binary main_v80 main_v85 main_v86 ((fun a b => concatenate S4x2048x512 1 [⟨S4x2x512, a⟩, ⟨S4x2046x512, b⟩] concatenates_S4x2x512_S4x2046x512_S4x2048x512_d1) : (⟨S4x2x512, .f32⟩ : BufTy).Contents (Elt F) → (⟨S4x2046x512, .f32⟩ : BufTy).Contents (Elt F) → (⟨S4x2048x512, .f32⟩ : BufTy).Contents (Elt F)),
    unary main_v79 main_v87 ((extractStridedSlice S4x2x512 ![0, 0, 0] · slices_S4x2048x512_S4x2x512_0_0_0) : (⟨S4x2048x512, .f32⟩ : BufTy).Contents (Elt F) → (⟨S4x2x512, .f32⟩ : BufTy).Contents (Elt F)),
    unary main_v79 main_v88 ((extractStridedSlice S4x2046x512 ![0, 2, 0] · slices_S4x2048x512_S4x2046x512_0_2_0) : (⟨S4x2048x512, .f32⟩ : BufTy).Contents (Elt F) → (⟨S4x2046x512, .f32⟩ : BufTy).Contents (Elt F)),
    unary main_v79 main_v89 ((extractStridedSlice S4x2046x512 ![0, 0, 0] · slices_S4x2048x512_S4x2046x512_0_0_0) : (⟨S4x2048x512, .f32⟩ : BufTy).Contents (Elt F) → (⟨S4x2046x512, .f32⟩ : BufTy).Contents (Elt F)),
    binary main_v88 main_v89 main_v90 (mulf : (⟨S4x2046x512, .f32⟩ : BufTy).Contents (Elt F) → (⟨S4x2046x512, .f32⟩ : BufTy).Contents (Elt F) → (⟨S4x2046x512, .f32⟩ : BufTy).Contents (Elt F)),
    binary main_v87 main_v90 main_v91 ((fun a b => concatenate S4x2048x512 1 [⟨S4x2x512, a⟩, ⟨S4x2046x512, b⟩] concatenates_S4x2x512_S4x2046x512_S4x2048x512_d1) : (⟨S4x2x512, .f32⟩ : BufTy).Contents (Elt F) → (⟨S4x2046x512, .f32⟩ : BufTy).Contents (Elt F) → (⟨S4x2048x512, .f32⟩ : BufTy).Contents (Elt F)),
    unary main_v86 main_v92 ((extractStridedSlice S4x4x512 ![0, 0, 0] · slices_S4x2048x512_S4x4x512_0_0_0) : (⟨S4x2048x512, .f32⟩ : BufTy).Contents (Elt F) → (⟨S4x4x512, .f32⟩ : BufTy).Contents (Elt F)),
    unary main_v91 main_v93 ((extractStridedSlice S4x2044x512 ![0, 4, 0] · slices_S4x2048x512_S4x2044x512_0_4_0) : (⟨S4x2048x512, .f32⟩ : BufTy).Contents (Elt F) → (⟨S4x2044x512, .f32⟩ : BufTy).Contents (Elt F)),
    unary main_v86 main_v94 ((extractStridedSlice S4x2044x512 ![0, 0, 0] · slices_S4x2048x512_S4x2044x512_0_0_0) : (⟨S4x2048x512, .f32⟩ : BufTy).Contents (Elt F) → (⟨S4x2044x512, .f32⟩ : BufTy).Contents (Elt F)),
    binary main_v93 main_v94 main_v95 (mulf : (⟨S4x2044x512, .f32⟩ : BufTy).Contents (Elt F) → (⟨S4x2044x512, .f32⟩ : BufTy).Contents (Elt F) → (⟨S4x2044x512, .f32⟩ : BufTy).Contents (Elt F)),
    unary main_v86 main_v96 ((extractStridedSlice S4x2044x512 ![0, 4, 0] · slices_S4x2048x512_S4x2044x512_0_4_0) : (⟨S4x2048x512, .f32⟩ : BufTy).Contents (Elt F) → (⟨S4x2044x512, .f32⟩ : BufTy).Contents (Elt F)),
    binary main_v95 main_v96 main_v97 (addf : (⟨S4x2044x512, .f32⟩ : BufTy).Contents (Elt F) → (⟨S4x2044x512, .f32⟩ : BufTy).Contents (Elt F) → (⟨S4x2044x512, .f32⟩ : BufTy).Contents (Elt F)),
    binary main_v92 main_v97 main_v98 ((fun a b => concatenate S4x2048x512 1 [⟨S4x4x512, a⟩, ⟨S4x2044x512, b⟩] concatenates_S4x4x512_S4x2044x512_S4x2048x512_d1) : (⟨S4x4x512, .f32⟩ : BufTy).Contents (Elt F) → (⟨S4x2044x512, .f32⟩ : BufTy).Contents (Elt F) → (⟨S4x2048x512, .f32⟩ : BufTy).Contents (Elt F)),
    unary main_v91 main_v99 ((extractStridedSlice S4x4x512 ![0, 0, 0] · slices_S4x2048x512_S4x4x512_0_0_0) : (⟨S4x2048x512, .f32⟩ : BufTy).Contents (Elt F) → (⟨S4x4x512, .f32⟩ : BufTy).Contents (Elt F)),
    unary main_v91 main_v100 ((extractStridedSlice S4x2044x512 ![0, 4, 0] · slices_S4x2048x512_S4x2044x512_0_4_0) : (⟨S4x2048x512, .f32⟩ : BufTy).Contents (Elt F) → (⟨S4x2044x512, .f32⟩ : BufTy).Contents (Elt F)) ]

/-- The operations of @main's window 2, in order. -/
abbrev part2 : List (HloOp τ sig (Elt F)) :=
  [ unary main_v91 main_v101 ((extractStridedSlice S4x2044x512 ![0, 0, 0] · slices_S4x2048x512_S4x2044x512_0_0_0) : (⟨S4x2048x512, .f32⟩ : BufTy).Contents (Elt F) → (⟨S4x2044x512, .f32⟩ : BufTy).Contents (Elt F)),
    binary main_v100 main_v101 main_v102 (mulf : (⟨S4x2044x512, .f32⟩ : BufTy).Contents (Elt F) → (⟨S4x2044x512, .f32⟩ : BufTy).Contents (Elt F) → (⟨S4x2044x512, .f32⟩ : BufTy).Contents (Elt F)),
    binary main_v99 main_v102 main_v103 ((fun a b => concatenate S4x2048x512 1 [⟨S4x4x512, a⟩, ⟨S4x2044x512, b⟩] concatenates_S4x4x512_S4x2044x512_S4x2048x512_d1) : (⟨S4x4x512, .f32⟩ : BufTy).Contents (Elt F) → (⟨S4x2044x512, .f32⟩ : BufTy).Contents (Elt F) → (⟨S4x2048x512, .f32⟩ : BufTy).Contents (Elt F)),
    unary main_v98 main_v104 ((extractStridedSlice S4x8x512 ![0, 0, 0] · slices_S4x2048x512_S4x8x512_0_0_0) : (⟨S4x2048x512, .f32⟩ : BufTy).Contents (Elt F) → (⟨S4x8x512, .f32⟩ : BufTy).Contents (Elt F)),
    unary main_v103 main_v105 ((extractStridedSlice S4x2040x512 ![0, 8, 0] · slices_S4x2048x512_S4x2040x512_0_8_0) : (⟨S4x2048x512, .f32⟩ : BufTy).Contents (Elt F) → (⟨S4x2040x512, .f32⟩ : BufTy).Contents (Elt F)),
    unary main_v98 main_v106 ((extractStridedSlice S4x2040x512 ![0, 0, 0] · slices_S4x2048x512_S4x2040x512_0_0_0) : (⟨S4x2048x512, .f32⟩ : BufTy).Contents (Elt F) → (⟨S4x2040x512, .f32⟩ : BufTy).Contents (Elt F)),
    binary main_v105 main_v106 main_v107 (mulf : (⟨S4x2040x512, .f32⟩ : BufTy).Contents (Elt F) → (⟨S4x2040x512, .f32⟩ : BufTy).Contents (Elt F) → (⟨S4x2040x512, .f32⟩ : BufTy).Contents (Elt F)),
    unary main_v98 main_v108 ((extractStridedSlice S4x2040x512 ![0, 8, 0] · slices_S4x2048x512_S4x2040x512_0_8_0) : (⟨S4x2048x512, .f32⟩ : BufTy).Contents (Elt F) → (⟨S4x2040x512, .f32⟩ : BufTy).Contents (Elt F)),
    binary main_v107 main_v108 main_v109 (addf : (⟨S4x2040x512, .f32⟩ : BufTy).Contents (Elt F) → (⟨S4x2040x512, .f32⟩ : BufTy).Contents (Elt F) → (⟨S4x2040x512, .f32⟩ : BufTy).Contents (Elt F)),
    binary main_v104 main_v109 main_v110 ((fun a b => concatenate S4x2048x512 1 [⟨S4x8x512, a⟩, ⟨S4x2040x512, b⟩] concatenates_S4x8x512_S4x2040x512_S4x2048x512_d1) : (⟨S4x8x512, .f32⟩ : BufTy).Contents (Elt F) → (⟨S4x2040x512, .f32⟩ : BufTy).Contents (Elt F) → (⟨S4x2048x512, .f32⟩ : BufTy).Contents (Elt F)),
    unary main_v103 main_v111 ((extractStridedSlice S4x8x512 ![0, 0, 0] · slices_S4x2048x512_S4x8x512_0_0_0) : (⟨S4x2048x512, .f32⟩ : BufTy).Contents (Elt F) → (⟨S4x8x512, .f32⟩ : BufTy).Contents (Elt F)),
    unary main_v103 main_v112 ((extractStridedSlice S4x2040x512 ![0, 8, 0] · slices_S4x2048x512_S4x2040x512_0_8_0) : (⟨S4x2048x512, .f32⟩ : BufTy).Contents (Elt F) → (⟨S4x2040x512, .f32⟩ : BufTy).Contents (Elt F)),
    unary main_v103 main_v113 ((extractStridedSlice S4x2040x512 ![0, 0, 0] · slices_S4x2048x512_S4x2040x512_0_0_0) : (⟨S4x2048x512, .f32⟩ : BufTy).Contents (Elt F) → (⟨S4x2040x512, .f32⟩ : BufTy).Contents (Elt F)),
    binary main_v112 main_v113 main_v114 (mulf : (⟨S4x2040x512, .f32⟩ : BufTy).Contents (Elt F) → (⟨S4x2040x512, .f32⟩ : BufTy).Contents (Elt F) → (⟨S4x2040x512, .f32⟩ : BufTy).Contents (Elt F)),
    binary main_v111 main_v114 main_v115 ((fun a b => concatenate S4x2048x512 1 [⟨S4x8x512, a⟩, ⟨S4x2040x512, b⟩] concatenates_S4x8x512_S4x2040x512_S4x2048x512_d1) : (⟨S4x8x512, .f32⟩ : BufTy).Contents (Elt F) → (⟨S4x2040x512, .f32⟩ : BufTy).Contents (Elt F) → (⟨S4x2048x512, .f32⟩ : BufTy).Contents (Elt F)),
    unary main_v110 main_v116 ((extractStridedSlice S4x16x512 ![0, 0, 0] · slices_S4x2048x512_S4x16x512_0_0_0) : (⟨S4x2048x512, .f32⟩ : BufTy).Contents (Elt F) → (⟨S4x16x512, .f32⟩ : BufTy).Contents (Elt F)),
    unary main_v115 main_v117 ((extractStridedSlice S4x2032x512 ![0, 16, 0] · slices_S4x2048x512_S4x2032x512_0_16_0) : (⟨S4x2048x512, .f32⟩ : BufTy).Contents (Elt F) → (⟨S4x2032x512, .f32⟩ : BufTy).Contents (Elt F)),
    unary main_v110 main_v118 ((extractStridedSlice S4x2032x512 ![0, 0, 0] · slices_S4x2048x512_S4x2032x512_0_0_0) : (⟨S4x2048x512, .f32⟩ : BufTy).Contents (Elt F) → (⟨S4x2032x512, .f32⟩ : BufTy).Contents (Elt F)),
    binary main_v117 main_v118 main_v119 (mulf : (⟨S4x2032x512, .f32⟩ : BufTy).Contents (Elt F) → (⟨S4x2032x512, .f32⟩ : BufTy).Contents (Elt F) → (⟨S4x2032x512, .f32⟩ : BufTy).Contents (Elt F)),
    unary main_v110 main_v120 ((extractStridedSlice S4x2032x512 ![0, 16, 0] · slices_S4x2048x512_S4x2032x512_0_16_0) : (⟨S4x2048x512, .f32⟩ : BufTy).Contents (Elt F) → (⟨S4x2032x512, .f32⟩ : BufTy).Contents (Elt F)),
    binary main_v119 main_v120 main_v121 (addf : (⟨S4x2032x512, .f32⟩ : BufTy).Contents (Elt F) → (⟨S4x2032x512, .f32⟩ : BufTy).Contents (Elt F) → (⟨S4x2032x512, .f32⟩ : BufTy).Contents (Elt F)),
    binary main_v116 main_v121 main_v122 ((fun a b => concatenate S4x2048x512 1 [⟨S4x16x512, a⟩, ⟨S4x2032x512, b⟩] concatenates_S4x16x512_S4x2032x512_S4x2048x512_d1) : (⟨S4x16x512, .f32⟩ : BufTy).Contents (Elt F) → (⟨S4x2032x512, .f32⟩ : BufTy).Contents (Elt F) → (⟨S4x2048x512, .f32⟩ : BufTy).Contents (Elt F)),
    unary main_v115 main_v123 ((extractStridedSlice S4x16x512 ![0, 0, 0] · slices_S4x2048x512_S4x16x512_0_0_0) : (⟨S4x2048x512, .f32⟩ : BufTy).Contents (Elt F) → (⟨S4x16x512, .f32⟩ : BufTy).Contents (Elt F)),
    unary main_v115 main_v124 ((extractStridedSlice S4x2032x512 ![0, 16, 0] · slices_S4x2048x512_S4x2032x512_0_16_0) : (⟨S4x2048x512, .f32⟩ : BufTy).Contents (Elt F) → (⟨S4x2032x512, .f32⟩ : BufTy).Contents (Elt F)),
    unary main_v115 main_v125 ((extractStridedSlice S4x2032x512 ![0, 0, 0] · slices_S4x2048x512_S4x2032x512_0_0_0) : (⟨S4x2048x512, .f32⟩ : BufTy).Contents (Elt F) → (⟨S4x2032x512, .f32⟩ : BufTy).Contents (Elt F)),
    binary main_v124 main_v125 main_v126 (mulf : (⟨S4x2032x512, .f32⟩ : BufTy).Contents (Elt F) → (⟨S4x2032x512, .f32⟩ : BufTy).Contents (Elt F) → (⟨S4x2032x512, .f32⟩ : BufTy).Contents (Elt F)),
    binary main_v123 main_v126 main_v127 ((fun a b => concatenate S4x2048x512 1 [⟨S4x16x512, a⟩, ⟨S4x2032x512, b⟩] concatenates_S4x16x512_S4x2032x512_S4x2048x512_d1) : (⟨S4x16x512, .f32⟩ : BufTy).Contents (Elt F) → (⟨S4x2032x512, .f32⟩ : BufTy).Contents (Elt F) → (⟨S4x2048x512, .f32⟩ : BufTy).Contents (Elt F)),
    unary main_v122 main_v128 ((extractStridedSlice S4x32x512 ![0, 0, 0] · slices_S4x2048x512_S4x32x512_0_0_0) : (⟨S4x2048x512, .f32⟩ : BufTy).Contents (Elt F) → (⟨S4x32x512, .f32⟩ : BufTy).Contents (Elt F)),
    unary main_v127 main_v129 ((extractStridedSlice S4x2016x512 ![0, 32, 0] · slices_S4x2048x512_S4x2016x512_0_32_0) : (⟨S4x2048x512, .f32⟩ : BufTy).Contents (Elt F) → (⟨S4x2016x512, .f32⟩ : BufTy).Contents (Elt F)),
    unary main_v122 main_v130 ((extractStridedSlice S4x2016x512 ![0, 0, 0] · slices_S4x2048x512_S4x2016x512_0_0_0) : (⟨S4x2048x512, .f32⟩ : BufTy).Contents (Elt F) → (⟨S4x2016x512, .f32⟩ : BufTy).Contents (Elt F)),
    binary main_v129 main_v130 main_v131 (mulf : (⟨S4x2016x512, .f32⟩ : BufTy).Contents (Elt F) → (⟨S4x2016x512, .f32⟩ : BufTy).Contents (Elt F) → (⟨S4x2016x512, .f32⟩ : BufTy).Contents (Elt F)),
    unary main_v122 main_v132 ((extractStridedSlice S4x2016x512 ![0, 32, 0] · slices_S4x2048x512_S4x2016x512_0_32_0) : (⟨S4x2048x512, .f32⟩ : BufTy).Contents (Elt F) → (⟨S4x2016x512, .f32⟩ : BufTy).Contents (Elt F)),
    binary main_v131 main_v132 main_v133 (addf : (⟨S4x2016x512, .f32⟩ : BufTy).Contents (Elt F) → (⟨S4x2016x512, .f32⟩ : BufTy).Contents (Elt F) → (⟨S4x2016x512, .f32⟩ : BufTy).Contents (Elt F)),
    binary main_v128 main_v133 main_v134 ((fun a b => concatenate S4x2048x512 1 [⟨S4x32x512, a⟩, ⟨S4x2016x512, b⟩] concatenates_S4x32x512_S4x2016x512_S4x2048x512_d1) : (⟨S4x32x512, .f32⟩ : BufTy).Contents (Elt F) → (⟨S4x2016x512, .f32⟩ : BufTy).Contents (Elt F) → (⟨S4x2048x512, .f32⟩ : BufTy).Contents (Elt F)),
    unary main_v127 main_v135 ((extractStridedSlice S4x32x512 ![0, 0, 0] · slices_S4x2048x512_S4x32x512_0_0_0) : (⟨S4x2048x512, .f32⟩ : BufTy).Contents (Elt F) → (⟨S4x32x512, .f32⟩ : BufTy).Contents (Elt F)),
    unary main_v127 main_v136 ((extractStridedSlice S4x2016x512 ![0, 32, 0] · slices_S4x2048x512_S4x2016x512_0_32_0) : (⟨S4x2048x512, .f32⟩ : BufTy).Contents (Elt F) → (⟨S4x2016x512, .f32⟩ : BufTy).Contents (Elt F)),
    unary main_v127 main_v137 ((extractStridedSlice S4x2016x512 ![0, 0, 0] · slices_S4x2048x512_S4x2016x512_0_0_0) : (⟨S4x2048x512, .f32⟩ : BufTy).Contents (Elt F) → (⟨S4x2016x512, .f32⟩ : BufTy).Contents (Elt F)),
    binary main_v136 main_v137 main_v138 (mulf : (⟨S4x2016x512, .f32⟩ : BufTy).Contents (Elt F) → (⟨S4x2016x512, .f32⟩ : BufTy).Contents (Elt F) → (⟨S4x2016x512, .f32⟩ : BufTy).Contents (Elt F)),
    binary main_v135 main_v138 main_v139 ((fun a b => concatenate S4x2048x512 1 [⟨S4x32x512, a⟩, ⟨S4x2016x512, b⟩] concatenates_S4x32x512_S4x2016x512_S4x2048x512_d1) : (⟨S4x32x512, .f32⟩ : BufTy).Contents (Elt F) → (⟨S4x2016x512, .f32⟩ : BufTy).Contents (Elt F) → (⟨S4x2048x512, .f32⟩ : BufTy).Contents (Elt F)),
    unary main_v134 main_v140 ((extractStridedSlice S4x64x512 ![0, 0, 0] · slices_S4x2048x512_S4x64x512_0_0_0) : (⟨S4x2048x512, .f32⟩ : BufTy).Contents (Elt F) → (⟨S4x64x512, .f32⟩ : BufTy).Contents (Elt F)),
    unary main_v139 main_v141 ((extractStridedSlice S4x1984x512 ![0, 64, 0] · slices_S4x2048x512_S4x1984x512_0_64_0) : (⟨S4x2048x512, .f32⟩ : BufTy).Contents (Elt F) → (⟨S4x1984x512, .f32⟩ : BufTy).Contents (Elt F)),
    unary main_v134 main_v142 ((extractStridedSlice S4x1984x512 ![0, 0, 0] · slices_S4x2048x512_S4x1984x512_0_0_0) : (⟨S4x2048x512, .f32⟩ : BufTy).Contents (Elt F) → (⟨S4x1984x512, .f32⟩ : BufTy).Contents (Elt F)),
    binary main_v141 main_v142 main_v143 (mulf : (⟨S4x1984x512, .f32⟩ : BufTy).Contents (Elt F) → (⟨S4x1984x512, .f32⟩ : BufTy).Contents (Elt F) → (⟨S4x1984x512, .f32⟩ : BufTy).Contents (Elt F)),
    unary main_v134 main_v144 ((extractStridedSlice S4x1984x512 ![0, 64, 0] · slices_S4x2048x512_S4x1984x512_0_64_0) : (⟨S4x2048x512, .f32⟩ : BufTy).Contents (Elt F) → (⟨S4x1984x512, .f32⟩ : BufTy).Contents (Elt F)),
    binary main_v143 main_v144 main_v145 (addf : (⟨S4x1984x512, .f32⟩ : BufTy).Contents (Elt F) → (⟨S4x1984x512, .f32⟩ : BufTy).Contents (Elt F) → (⟨S4x1984x512, .f32⟩ : BufTy).Contents (Elt F)),
    binary main_v140 main_v145 main_v146 ((fun a b => concatenate S4x2048x512 1 [⟨S4x64x512, a⟩, ⟨S4x1984x512, b⟩] concatenates_S4x64x512_S4x1984x512_S4x2048x512_d1) : (⟨S4x64x512, .f32⟩ : BufTy).Contents (Elt F) → (⟨S4x1984x512, .f32⟩ : BufTy).Contents (Elt F) → (⟨S4x2048x512, .f32⟩ : BufTy).Contents (Elt F)),
    unary main_v139 main_v147 ((extractStridedSlice S4x64x512 ![0, 0, 0] · slices_S4x2048x512_S4x64x512_0_0_0) : (⟨S4x2048x512, .f32⟩ : BufTy).Contents (Elt F) → (⟨S4x64x512, .f32⟩ : BufTy).Contents (Elt F)),
    unary main_v139 main_v148 ((extractStridedSlice S4x1984x512 ![0, 64, 0] · slices_S4x2048x512_S4x1984x512_0_64_0) : (⟨S4x2048x512, .f32⟩ : BufTy).Contents (Elt F) → (⟨S4x1984x512, .f32⟩ : BufTy).Contents (Elt F)),
    unary main_v139 main_v149 ((extractStridedSlice S4x1984x512 ![0, 0, 0] · slices_S4x2048x512_S4x1984x512_0_0_0) : (⟨S4x2048x512, .f32⟩ : BufTy).Contents (Elt F) → (⟨S4x1984x512, .f32⟩ : BufTy).Contents (Elt F)),
    binary main_v148 main_v149 main_v150 (mulf : (⟨S4x1984x512, .f32⟩ : BufTy).Contents (Elt F) → (⟨S4x1984x512, .f32⟩ : BufTy).Contents (Elt F) → (⟨S4x1984x512, .f32⟩ : BufTy).Contents (Elt F)),
    binary main_v147 main_v150 main_v151 ((fun a b => concatenate S4x2048x512 1 [⟨S4x64x512, a⟩, ⟨S4x1984x512, b⟩] concatenates_S4x64x512_S4x1984x512_S4x2048x512_d1) : (⟨S4x64x512, .f32⟩ : BufTy).Contents (Elt F) → (⟨S4x1984x512, .f32⟩ : BufTy).Contents (Elt F) → (⟨S4x2048x512, .f32⟩ : BufTy).Contents (Elt F)),
    unary main_v146 main_v152 ((extractStridedSlice S4x128x512 ![0, 0, 0] · slices_S4x2048x512_S4x128x512_0_0_0) : (⟨S4x2048x512, .f32⟩ : BufTy).Contents (Elt F) → (⟨S4x128x512, .f32⟩ : BufTy).Contents (Elt F)),
    unary main_v151 main_v153 ((extractStridedSlice S4x1920x512 ![0, 128, 0] · slices_S4x2048x512_S4x1920x512_0_128_0) : (⟨S4x2048x512, .f32⟩ : BufTy).Contents (Elt F) → (⟨S4x1920x512, .f32⟩ : BufTy).Contents (Elt F)),
    unary main_v146 main_v154 ((extractStridedSlice S4x1920x512 ![0, 0, 0] · slices_S4x2048x512_S4x1920x512_0_0_0) : (⟨S4x2048x512, .f32⟩ : BufTy).Contents (Elt F) → (⟨S4x1920x512, .f32⟩ : BufTy).Contents (Elt F)),
    binary main_v153 main_v154 main_v155 (mulf : (⟨S4x1920x512, .f32⟩ : BufTy).Contents (Elt F) → (⟨S4x1920x512, .f32⟩ : BufTy).Contents (Elt F) → (⟨S4x1920x512, .f32⟩ : BufTy).Contents (Elt F)),
    unary main_v146 main_v156 ((extractStridedSlice S4x1920x512 ![0, 128, 0] · slices_S4x2048x512_S4x1920x512_0_128_0) : (⟨S4x2048x512, .f32⟩ : BufTy).Contents (Elt F) → (⟨S4x1920x512, .f32⟩ : BufTy).Contents (Elt F)),
    binary main_v155 main_v156 main_v157 (addf : (⟨S4x1920x512, .f32⟩ : BufTy).Contents (Elt F) → (⟨S4x1920x512, .f32⟩ : BufTy).Contents (Elt F) → (⟨S4x1920x512, .f32⟩ : BufTy).Contents (Elt F)),
    binary main_v152 main_v157 main_v158 ((fun a b => concatenate S4x2048x512 1 [⟨S4x128x512, a⟩, ⟨S4x1920x512, b⟩] concatenates_S4x128x512_S4x1920x512_S4x2048x512_d1) : (⟨S4x128x512, .f32⟩ : BufTy).Contents (Elt F) → (⟨S4x1920x512, .f32⟩ : BufTy).Contents (Elt F) → (⟨S4x2048x512, .f32⟩ : BufTy).Contents (Elt F)),
    unary main_v151 main_v159 ((extractStridedSlice S4x128x512 ![0, 0, 0] · slices_S4x2048x512_S4x128x512_0_0_0) : (⟨S4x2048x512, .f32⟩ : BufTy).Contents (Elt F) → (⟨S4x128x512, .f32⟩ : BufTy).Contents (Elt F)),
    unary main_v151 main_v160 ((extractStridedSlice S4x1920x512 ![0, 128, 0] · slices_S4x2048x512_S4x1920x512_0_128_0) : (⟨S4x2048x512, .f32⟩ : BufTy).Contents (Elt F) → (⟨S4x1920x512, .f32⟩ : BufTy).Contents (Elt F)) ]

/-- The operations of @main's window 3, in order. -/
abbrev part3 : List (HloOp τ sig (Elt F)) :=
  [ unary main_v151 main_v161 ((extractStridedSlice S4x1920x512 ![0, 0, 0] · slices_S4x2048x512_S4x1920x512_0_0_0) : (⟨S4x2048x512, .f32⟩ : BufTy).Contents (Elt F) → (⟨S4x1920x512, .f32⟩ : BufTy).Contents (Elt F)),
    binary main_v160 main_v161 main_v162 (mulf : (⟨S4x1920x512, .f32⟩ : BufTy).Contents (Elt F) → (⟨S4x1920x512, .f32⟩ : BufTy).Contents (Elt F) → (⟨S4x1920x512, .f32⟩ : BufTy).Contents (Elt F)),
    binary main_v159 main_v162 main_v163 ((fun a b => concatenate S4x2048x512 1 [⟨S4x128x512, a⟩, ⟨S4x1920x512, b⟩] concatenates_S4x128x512_S4x1920x512_S4x2048x512_d1) : (⟨S4x128x512, .f32⟩ : BufTy).Contents (Elt F) → (⟨S4x1920x512, .f32⟩ : BufTy).Contents (Elt F) → (⟨S4x2048x512, .f32⟩ : BufTy).Contents (Elt F)),
    unary main_v158 main_v164 ((extractStridedSlice S4x256x512 ![0, 0, 0] · slices_S4x2048x512_S4x256x512_0_0_0) : (⟨S4x2048x512, .f32⟩ : BufTy).Contents (Elt F) → (⟨S4x256x512, .f32⟩ : BufTy).Contents (Elt F)),
    unary main_v163 main_v165 ((extractStridedSlice S4x1792x512 ![0, 256, 0] · slices_S4x2048x512_S4x1792x512_0_256_0) : (⟨S4x2048x512, .f32⟩ : BufTy).Contents (Elt F) → (⟨S4x1792x512, .f32⟩ : BufTy).Contents (Elt F)),
    unary main_v158 main_v166 ((extractStridedSlice S4x1792x512 ![0, 0, 0] · slices_S4x2048x512_S4x1792x512_0_0_0) : (⟨S4x2048x512, .f32⟩ : BufTy).Contents (Elt F) → (⟨S4x1792x512, .f32⟩ : BufTy).Contents (Elt F)),
    binary main_v165 main_v166 main_v167 (mulf : (⟨S4x1792x512, .f32⟩ : BufTy).Contents (Elt F) → (⟨S4x1792x512, .f32⟩ : BufTy).Contents (Elt F) → (⟨S4x1792x512, .f32⟩ : BufTy).Contents (Elt F)),
    unary main_v158 main_v168 ((extractStridedSlice S4x1792x512 ![0, 256, 0] · slices_S4x2048x512_S4x1792x512_0_256_0) : (⟨S4x2048x512, .f32⟩ : BufTy).Contents (Elt F) → (⟨S4x1792x512, .f32⟩ : BufTy).Contents (Elt F)),
    binary main_v167 main_v168 main_v169 (addf : (⟨S4x1792x512, .f32⟩ : BufTy).Contents (Elt F) → (⟨S4x1792x512, .f32⟩ : BufTy).Contents (Elt F) → (⟨S4x1792x512, .f32⟩ : BufTy).Contents (Elt F)),
    binary main_v164 main_v169 main_v170 ((fun a b => concatenate S4x2048x512 1 [⟨S4x256x512, a⟩, ⟨S4x1792x512, b⟩] concatenates_S4x256x512_S4x1792x512_S4x2048x512_d1) : (⟨S4x256x512, .f32⟩ : BufTy).Contents (Elt F) → (⟨S4x1792x512, .f32⟩ : BufTy).Contents (Elt F) → (⟨S4x2048x512, .f32⟩ : BufTy).Contents (Elt F)),
    unary main_v163 main_v171 ((extractStridedSlice S4x256x512 ![0, 0, 0] · slices_S4x2048x512_S4x256x512_0_0_0) : (⟨S4x2048x512, .f32⟩ : BufTy).Contents (Elt F) → (⟨S4x256x512, .f32⟩ : BufTy).Contents (Elt F)),
    unary main_v163 main_v172 ((extractStridedSlice S4x1792x512 ![0, 256, 0] · slices_S4x2048x512_S4x1792x512_0_256_0) : (⟨S4x2048x512, .f32⟩ : BufTy).Contents (Elt F) → (⟨S4x1792x512, .f32⟩ : BufTy).Contents (Elt F)),
    unary main_v163 main_v173 ((extractStridedSlice S4x1792x512 ![0, 0, 0] · slices_S4x2048x512_S4x1792x512_0_0_0) : (⟨S4x2048x512, .f32⟩ : BufTy).Contents (Elt F) → (⟨S4x1792x512, .f32⟩ : BufTy).Contents (Elt F)),
    binary main_v172 main_v173 main_v174 (mulf : (⟨S4x1792x512, .f32⟩ : BufTy).Contents (Elt F) → (⟨S4x1792x512, .f32⟩ : BufTy).Contents (Elt F) → (⟨S4x1792x512, .f32⟩ : BufTy).Contents (Elt F)),
    binary main_v171 main_v174 main_v175 ((fun a b => concatenate S4x2048x512 1 [⟨S4x256x512, a⟩, ⟨S4x1792x512, b⟩] concatenates_S4x256x512_S4x1792x512_S4x2048x512_d1) : (⟨S4x256x512, .f32⟩ : BufTy).Contents (Elt F) → (⟨S4x1792x512, .f32⟩ : BufTy).Contents (Elt F) → (⟨S4x2048x512, .f32⟩ : BufTy).Contents (Elt F)),
    unary main_v170 main_v176 ((extractStridedSlice S4x512x512 ![0, 0, 0] · slices_S4x2048x512_S4x512x512_0_0_0) : (⟨S4x2048x512, .f32⟩ : BufTy).Contents (Elt F) → (⟨S4x512x512, .f32⟩ : BufTy).Contents (Elt F)),
    unary main_v175 main_v177 ((extractStridedSlice S4x1536x512 ![0, 512, 0] · slices_S4x2048x512_S4x1536x512_0_512_0) : (⟨S4x2048x512, .f32⟩ : BufTy).Contents (Elt F) → (⟨S4x1536x512, .f32⟩ : BufTy).Contents (Elt F)),
    unary main_v170 main_v178 ((extractStridedSlice S4x1536x512 ![0, 0, 0] · slices_S4x2048x512_S4x1536x512_0_0_0) : (⟨S4x2048x512, .f32⟩ : BufTy).Contents (Elt F) → (⟨S4x1536x512, .f32⟩ : BufTy).Contents (Elt F)),
    binary main_v177 main_v178 main_v179 (mulf : (⟨S4x1536x512, .f32⟩ : BufTy).Contents (Elt F) → (⟨S4x1536x512, .f32⟩ : BufTy).Contents (Elt F) → (⟨S4x1536x512, .f32⟩ : BufTy).Contents (Elt F)),
    unary main_v170 main_v180 ((extractStridedSlice S4x1536x512 ![0, 512, 0] · slices_S4x2048x512_S4x1536x512_0_512_0) : (⟨S4x2048x512, .f32⟩ : BufTy).Contents (Elt F) → (⟨S4x1536x512, .f32⟩ : BufTy).Contents (Elt F)),
    binary main_v179 main_v180 main_v181 (addf : (⟨S4x1536x512, .f32⟩ : BufTy).Contents (Elt F) → (⟨S4x1536x512, .f32⟩ : BufTy).Contents (Elt F) → (⟨S4x1536x512, .f32⟩ : BufTy).Contents (Elt F)),
    binary main_v176 main_v181 main_v182 ((fun a b => concatenate S4x2048x512 1 [⟨S4x512x512, a⟩, ⟨S4x1536x512, b⟩] concatenates_S4x512x512_S4x1536x512_S4x2048x512_d1) : (⟨S4x512x512, .f32⟩ : BufTy).Contents (Elt F) → (⟨S4x1536x512, .f32⟩ : BufTy).Contents (Elt F) → (⟨S4x2048x512, .f32⟩ : BufTy).Contents (Elt F)),
    unary main_v175 main_v183 ((extractStridedSlice S4x512x512 ![0, 0, 0] · slices_S4x2048x512_S4x512x512_0_0_0) : (⟨S4x2048x512, .f32⟩ : BufTy).Contents (Elt F) → (⟨S4x512x512, .f32⟩ : BufTy).Contents (Elt F)),
    unary main_v175 main_v184 ((extractStridedSlice S4x1536x512 ![0, 512, 0] · slices_S4x2048x512_S4x1536x512_0_512_0) : (⟨S4x2048x512, .f32⟩ : BufTy).Contents (Elt F) → (⟨S4x1536x512, .f32⟩ : BufTy).Contents (Elt F)),
    unary main_v175 main_v185 ((extractStridedSlice S4x1536x512 ![0, 0, 0] · slices_S4x2048x512_S4x1536x512_0_0_0) : (⟨S4x2048x512, .f32⟩ : BufTy).Contents (Elt F) → (⟨S4x1536x512, .f32⟩ : BufTy).Contents (Elt F)),
    binary main_v184 main_v185 main_v186 (mulf : (⟨S4x1536x512, .f32⟩ : BufTy).Contents (Elt F) → (⟨S4x1536x512, .f32⟩ : BufTy).Contents (Elt F) → (⟨S4x1536x512, .f32⟩ : BufTy).Contents (Elt F)),
    binary main_v183 main_v186 main_v187 ((fun a b => concatenate S4x2048x512 1 [⟨S4x512x512, a⟩, ⟨S4x1536x512, b⟩] concatenates_S4x512x512_S4x1536x512_S4x2048x512_d1) : (⟨S4x512x512, .f32⟩ : BufTy).Contents (Elt F) → (⟨S4x1536x512, .f32⟩ : BufTy).Contents (Elt F) → (⟨S4x2048x512, .f32⟩ : BufTy).Contents (Elt F)),
    unary main_v182 main_v188 ((extractStridedSlice S4x1024x512 ![0, 0, 0] · slices_S4x2048x512_S4x1024x512_0_0_0) : (⟨S4x2048x512, .f32⟩ : BufTy).Contents (Elt F) → (⟨S4x1024x512, .f32⟩ : BufTy).Contents (Elt F)),
    unary main_v187 main_v189 ((extractStridedSlice S4x1024x512 ![0, 1024, 0] · slices_S4x2048x512_S4x1024x512_0_1024_0) : (⟨S4x2048x512, .f32⟩ : BufTy).Contents (Elt F) → (⟨S4x1024x512, .f32⟩ : BufTy).Contents (Elt F)),
    unary main_v182 main_v190 ((extractStridedSlice S4x1024x512 ![0, 0, 0] · slices_S4x2048x512_S4x1024x512_0_0_0) : (⟨S4x2048x512, .f32⟩ : BufTy).Contents (Elt F) → (⟨S4x1024x512, .f32⟩ : BufTy).Contents (Elt F)),
    binary main_v189 main_v190 main_v191 (mulf : (⟨S4x1024x512, .f32⟩ : BufTy).Contents (Elt F) → (⟨S4x1024x512, .f32⟩ : BufTy).Contents (Elt F) → (⟨S4x1024x512, .f32⟩ : BufTy).Contents (Elt F)),
    unary main_v182 main_v192 ((extractStridedSlice S4x1024x512 ![0, 1024, 0] · slices_S4x2048x512_S4x1024x512_0_1024_0) : (⟨S4x2048x512, .f32⟩ : BufTy).Contents (Elt F) → (⟨S4x1024x512, .f32⟩ : BufTy).Contents (Elt F)),
    binary main_v191 main_v192 main_v193 (addf : (⟨S4x1024x512, .f32⟩ : BufTy).Contents (Elt F) → (⟨S4x1024x512, .f32⟩ : BufTy).Contents (Elt F) → (⟨S4x1024x512, .f32⟩ : BufTy).Contents (Elt F)),
    binary main_v188 main_v193 main_v194 ((fun a b => concatenate S4x2048x512 1 [⟨S4x1024x512, a⟩, ⟨S4x1024x512, b⟩] concatenates_S4x1024x512_S4x1024x512_S4x2048x512_d1) : (⟨S4x1024x512, .f32⟩ : BufTy).Contents (Elt F) → (⟨S4x1024x512, .f32⟩ : BufTy).Contents (Elt F) → (⟨S4x2048x512, .f32⟩ : BufTy).Contents (Elt F)),
    unary main_v187 main_v195 ((extractStridedSlice S4x1024x512 ![0, 0, 0] · slices_S4x2048x512_S4x1024x512_0_0_0) : (⟨S4x2048x512, .f32⟩ : BufTy).Contents (Elt F) → (⟨S4x1024x512, .f32⟩ : BufTy).Contents (Elt F)),
    unary main_v187 main_v196 ((extractStridedSlice S4x1024x512 ![0, 1024, 0] · slices_S4x2048x512_S4x1024x512_0_1024_0) : (⟨S4x2048x512, .f32⟩ : BufTy).Contents (Elt F) → (⟨S4x1024x512, .f32⟩ : BufTy).Contents (Elt F)),
    unary main_v187 main_v197 ((extractStridedSlice S4x1024x512 ![0, 0, 0] · slices_S4x2048x512_S4x1024x512_0_0_0) : (⟨S4x2048x512, .f32⟩ : BufTy).Contents (Elt F) → (⟨S4x1024x512, .f32⟩ : BufTy).Contents (Elt F)),
    binary main_v196 main_v197 main_v198 (mulf : (⟨S4x1024x512, .f32⟩ : BufTy).Contents (Elt F) → (⟨S4x1024x512, .f32⟩ : BufTy).Contents (Elt F) → (⟨S4x1024x512, .f32⟩ : BufTy).Contents (Elt F)),
    binary main_v195 main_v198 main_v199 ((fun a b => concatenate S4x2048x512 1 [⟨S4x1024x512, a⟩, ⟨S4x1024x512, b⟩] concatenates_S4x1024x512_S4x1024x512_S4x2048x512_d1) : (⟨S4x1024x512, .f32⟩ : BufTy).Contents (Elt F) → (⟨S4x1024x512, .f32⟩ : BufTy).Contents (Elt F) → (⟨S4x2048x512, .f32⟩ : BufTy).Contents (Elt F)),
    unary main_v46 main_v200 (broadcastInDim S4x2048x1 ![0, 1] bcast_S4x2048_S4x2048x1_0_1 : (⟨S4x2048, .i1⟩ : BufTy).Contents (Elt F) → (⟨S4x2048x1, .i1⟩ : BufTy).Contents (Elt F)),
    unary main_v200 main_v201 (uitofp .f32 : (⟨S4x2048x1, .i1⟩ : BufTy).Contents (Elt F) → (⟨S4x2048x1, .f32⟩ : BufTy).Contents (Elt F)),
    unary main_v201 main_v202 (broadcastInDim S4x2048x512 ![0, 1, 2] bcast_S4x2048x1_S4x2048x512_0_1_2 : (⟨S4x2048x1, .f32⟩ : BufTy).Contents (Elt F) → (⟨S4x2048x512, .f32⟩ : BufTy).Contents (Elt F)),
    binary main_v194 main_v202 main_v203 (mulf : (⟨S4x2048x512, .f32⟩ : BufTy).Contents (Elt F) → (⟨S4x2048x512, .f32⟩ : BufTy).Contents (Elt F) → (⟨S4x2048x512, .f32⟩ : BufTy).Contents (Elt F)),
    unary main_v33 main_v204 ((extui 32 · natLt_1_32) : (⟨S4x2048, .i1⟩ : BufTy).Contents (Elt F) → (⟨S4x2048, .i32⟩ : BufTy).Contents (Elt F)),
    TRef.nullary main_call5.call0.c (constantI S_ 32 0#32),
    TRef.unary main_call5.call0.c main_call5.call0.v0 (broadcastInDim S_ ![] bcast_S_S_),
    TRef.binary (.of main_v204) main_call5.call0.v0 main_call5.call0.v1 (fun x v => Host.reduceWindow IntOp.addi ![1, 2048] ![1, 1] ![0, 2047] ![0, 0] x v reduceWindows_S4x2048_S4x2048_w1s1p0_0_w2048s1p2047_0 h_S_),
    nullary main_c_17 (constantI S_ 32 1#32),
    unary main_c_17 main_v206 (broadcastInDim S4x2048 ![] bcast_S_S4x2048 : (⟨S_, .i32⟩ : BufTy).Contents (Elt F) → (⟨S4x2048, .i32⟩ : BufTy).Contents (Elt F)),
    binary main_v205 main_v206 main_v207 (subi : (⟨S4x2048, .i32⟩ : BufTy).Contents (Elt F) → (⟨S4x2048, .i32⟩ : BufTy).Contents (Elt F) → (⟨S4x2048, .i32⟩ : BufTy).Contents (Elt F)),
    nullary main_c_18 (constantI S_ 32 0#32),
    nullary main_c_19 (constantI S_ 32 2047#32),
    TRef.unary (.of main_c_18) main_call6.v0 id,
    TRef.unary main_call6.v0 main_call6.v1 (broadcastInDim S4x2048 ![] bcast_S_S4x2048),
    TRef.binary main_call6.v1 (.of main_v207) main_call6.v2 maxsi,
    TRef.unary (.of main_c_19) main_call6.v3 id,
    TRef.unary main_call6.v3 main_call6.v4 (broadcastInDim S4x2048 ![] bcast_S_S4x2048),
    TRef.binary main_call6.v4 main_call6.v2 main_call6.v5 minsi,
    nullary main_c_20 (constantI S_ 32 0#32),
    unary main_c_20 main_v209 (broadcastInDim S4x2048 ![] bcast_S_S4x2048 : (⟨S_, .i32⟩ : BufTy).Contents (Elt F) → (⟨S4x2048, .i32⟩ : BufTy).Contents (Elt F)),
    binary main_v207 main_v209 main_v210 (cmpi .sge : (⟨S4x2048, .i32⟩ : BufTy).Contents (Elt F) → (⟨S4x2048, .i32⟩ : BufTy).Contents (Elt F) → (⟨S4x2048, .i1⟩ : BufTy).Contents (Elt F)),
    unary main_v208 main_v211 (broadcastInDim S4x2048x1 ![0, 1] bcast_S4x2048_S4x2048x1_0_1 : (⟨S4x2048, .i32⟩ : BufTy).Contents (Elt F) → (⟨S4x2048x1, .i32⟩ : BufTy).Contents (Elt F)),
    TRef.nullary main_call7.c (constantI S_ 32 0#32),
    TRef.unary main_call7.c main_call7.v0 (broadcastInDim S4x2048x1 ![] bcast_S_S4x2048x1),
    TRef.binary (.of main_v211) main_call7.v0 main_call7.v1 (cmpi .slt),
    TRef.nullary main_call7.c_0 (constantI S_ 32 2048#32),
    TRef.unary main_call7.c_0 main_call7.v2 (broadcastInDim S4x2048x1 ![] bcast_S_S4x2048x1),
    TRef.binary (.of main_v211) main_call7.v2 main_call7.v3 addi,
    TRef.ternary main_call7.v1 main_call7.v3 (.of main_v211) main_call7.v4 select,
    TRef.nullary main_call7.c_1 (constantI S1 32 2047#32),
    TRef.nullary main_call7.c_2 (constantI S_ 32 0#32),
    TRef.unary main_call7.c_2 main_call7.v5 (broadcastInDim S4x2048x1 ![] bcast_S_S4x2048x1),
    TRef.binary main_call7.v4 main_call7.v5 main_call7.v6 (cmpi .sge),
    TRef.unary main_call7.c_1 main_call7.v7 (broadcastInDim S1x1x1 ![2] bcast_S1_S1x1x1_2),
    TRef.unary main_call7.v7 main_call7.v8 (broadcastInDim S4x2048x1 ![0, 1, 2] bcast_S1x1x1_S4x2048x1_0_1_2),
    TRef.binary main_call7.v4 main_call7.v8 main_call7.v9 (cmpi .sle),
    TRef.binary main_call7.v6 main_call7.v9 main_call7.v10 andi,
    TRef.nullary main_call7.c_3 (constantI S_ 1 1#1),
    TRef.binary main_call7.v10 main_call7.c_3 main_call7.v11 (fun x v => Host.reduce IntOp.andi x v reducesTo_S4x2048x1_S4x2048_d2 h_S_),
    TRef.binary (.of main_v203) main_call7.v4 main_call7.v12 (fun x i => Host.gather gather_S4x2048x512_S4x2048x1_S4x2048x512_2_1_0_0_1_2_11512 x i),
    TRef.unary main_call7.v11 main_call7.v13 (broadcastInDim S4x2048x512 ![0, 1] bcast_S4x2048_S4x2048x512_0_1),
    TRef.nullary main_call7.cst (constant S_ .f32 0x7FC00000#32),
    TRef.unary main_call7.cst main_call7.v14 (broadcastInDim S4x2048x512 ![] bcast_S_S4x2048x512),
    TRef.ternary main_call7.v13 main_call7.v12 main_call7.v14 main_call7.v15 select,
    unary main_v210 main_v213 (broadcastInDim S4x2048x1 ![0, 1] bcast_S4x2048_S4x2048x1_0_1 : (⟨S4x2048, .i1⟩ : BufTy).Contents (Elt F) → (⟨S4x2048x1, .i1⟩ : BufTy).Contents (Elt F)),
    unary main_v213 main_v214 (uitofp .f32 : (⟨S4x2048x1, .i1⟩ : BufTy).Contents (Elt F) → (⟨S4x2048x1, .f32⟩ : BufTy).Contents (Elt F)),
    unary main_v214 main_v215 (broadcastInDim S4x2048x512 ![0, 1, 2] bcast_S4x2048x1_S4x2048x512_0_1_2 : (⟨S4x2048x1, .f32⟩ : BufTy).Contents (Elt F) → (⟨S4x2048x512, .f32⟩ : BufTy).Contents (Elt F)),
    binary main_v212 main_v215 main_v216 (mulf : (⟨S4x2048x512, .f32⟩ : BufTy).Contents (Elt F) → (⟨S4x2048x512, .f32⟩ : BufTy).Contents (Elt F) → (⟨S4x2048x512, .f32⟩ : BufTy).Contents (Elt F)) ]

/-- The operations of @main's window 4, in order. -/
abbrev part4 : List (HloOp τ sig (Elt F)) :=
  [ nullary main_cst_21 (constant S_ .f32 0x3F800000#32),
    unary main_cst_21 main_v217 (broadcastInDim S4x2048 ![] bcast_S_S4x2048 : (⟨S_, .f32⟩ : BufTy).Contents (Elt F) → (⟨S4x2048, .f32⟩ : BufTy).Contents (Elt F)),
    binary main_v217 main_v31 main_v218 (subf : (⟨S4x2048, .f32⟩ : BufTy).Contents (Elt F) → (⟨S4x2048, .f32⟩ : BufTy).Contents (Elt F) → (⟨S4x2048, .f32⟩ : BufTy).Contents (Elt F)),
    binary main_v218 main_v31 main_v219 (maximumf : (⟨S4x2048, .f32⟩ : BufTy).Contents (Elt F) → (⟨S4x2048, .f32⟩ : BufTy).Contents (Elt F) → (⟨S4x2048, .f32⟩ : BufTy).Contents (Elt F)),
    nullary main_cst_22 (constant S_ .f32 0x3F800000#32),
    unary main_cst_22 main_v220 (broadcastInDim S4x2048 ![] bcast_S_S4x2048 : (⟨S_, .f32⟩ : BufTy).Contents (Elt F) → (⟨S4x2048, .f32⟩ : BufTy).Contents (Elt F)),
    binary main_v219 main_v219 main_v221 (subf : (⟨S4x2048, .f32⟩ : BufTy).Contents (Elt F) → (⟨S4x2048, .f32⟩ : BufTy).Contents (Elt F) → (⟨S4x2048, .f32⟩ : BufTy).Contents (Elt F)),
    binary main_v220 main_v221 main_v222 (addf : (⟨S4x2048, .f32⟩ : BufTy).Contents (Elt F) → (⟨S4x2048, .f32⟩ : BufTy).Contents (Elt F) → (⟨S4x2048, .f32⟩ : BufTy).Contents (Elt F)),
    unary main_v222 main_v223 (broadcastInDim S4x2048x1 ![0, 1] bcast_S4x2048_S4x2048x1_0_1 : (⟨S4x2048, .f32⟩ : BufTy).Contents (Elt F) → (⟨S4x2048x1, .f32⟩ : BufTy).Contents (Elt F)),
    unary main_v223 main_v224 (broadcastInDim S4x2048x512 ![0, 1, 2] bcast_S4x2048x1_S4x2048x512_0_1_2 : (⟨S4x2048x1, .f32⟩ : BufTy).Contents (Elt F) → (⟨S4x2048x512, .f32⟩ : BufTy).Contents (Elt F)),
    binary main_v216 main_v224 main_v225 (mulf : (⟨S4x2048x512, .f32⟩ : BufTy).Contents (Elt F) → (⟨S4x2048x512, .f32⟩ : BufTy).Contents (Elt F) → (⟨S4x2048x512, .f32⟩ : BufTy).Contents (Elt F)),
    binary main_arg0 main_v225 main_v226 (addf : (⟨S4x2048x512, .f32⟩ : BufTy).Contents (Elt F) → (⟨S4x2048x512, .f32⟩ : BufTy).Contents (Elt F) → (⟨S4x2048x512, .f32⟩ : BufTy).Contents (Elt F)) ]

/-- The operations of stage A, in order. -/
abbrev opsA : List (HloOp τ sig (Elt F)) :=
  [ unary main_arg0 main_v0 ((extractStridedSlice S4x2047x512 ![0, 0, 0] · slices_S4x2048x512_S4x2047x512_0_0_0) : (⟨S4x2048x512, .f32⟩ : BufTy).Contents (Elt F) → (⟨S4x2047x512, .f32⟩ : BufTy).Contents (Elt F)),
    binary main_v0 main_arg1 main_v1 ((fun l r => Host.dotGeneral dot_S4x2047x512_S512x512_S4x2047x512_2_1_01_0_n_n none l r) : (⟨S4x2047x512, .f32⟩ : BufTy).Contents (Elt F) → (⟨S512x512, .f32⟩ : BufTy).Contents (Elt F) → (⟨S4x2047x512, .f32⟩ : BufTy).Contents (Elt F)),
    binary main_v1 main_v1 main_v2 (mulf : (⟨S4x2047x512, .f32⟩ : BufTy).Contents (Elt F) → (⟨S4x2047x512, .f32⟩ : BufTy).Contents (Elt F) → (⟨S4x2047x512, .f32⟩ : BufTy).Contents (Elt F)),
    nullary main_cst (constant S_ .f32 0x00000000#32),
    binary main_v2 main_cst main_v3 ((fun x v => Host.reduceAdd x v reducesTo_S4x2047x512_S4x2047_d2 h_S_) : (⟨S4x2047x512, .f32⟩ : BufTy).Contents (Elt F) → (⟨S_, .f32⟩ : BufTy).Contents (Elt F) → (⟨S4x2047, .f32⟩ : BufTy).Contents (Elt F)),
    unary main_v3 main_v4 (broadcastInDim S4x2047x1 ![0, 1] bcast_S4x2047_S4x2047x1_0_1 : (⟨S4x2047, .f32⟩ : BufTy).Contents (Elt F) → (⟨S4x2047x1, .f32⟩ : BufTy).Contents (Elt F)),
    unary main_v4 main_v5 (Host.sqrt : (⟨S4x2047x1, .f32⟩ : BufTy).Contents (Elt F) → (⟨S4x2047x1, .f32⟩ : BufTy).Contents (Elt F)),
    nullary main_cst_0 (constant S_ .f32 0x2B8CBCCC#32),
    unary main_cst_0 main_v6 (broadcastInDim S4x2047x1 ![] bcast_S_S4x2047x1 : (⟨S_, .f32⟩ : BufTy).Contents (Elt F) → (⟨S4x2047x1, .f32⟩ : BufTy).Contents (Elt F)),
    binary main_v5 main_v6 main_v7 (maximumf : (⟨S4x2047x1, .f32⟩ : BufTy).Contents (Elt F) → (⟨S4x2047x1, .f32⟩ : BufTy).Contents (Elt F) → (⟨S4x2047x1, .f32⟩ : BufTy).Contents (Elt F)),
    unary main_v7 main_v8 (broadcastInDim S4x2047x512 ![0, 1, 2] bcast_S4x2047x1_S4x2047x512_0_1_2 : (⟨S4x2047x1, .f32⟩ : BufTy).Contents (Elt F) → (⟨S4x2047x512, .f32⟩ : BufTy).Contents (Elt F)),
    binary main_v1 main_v8 main_v9 (Host.divf : (⟨S4x2047x512, .f32⟩ : BufTy).Contents (Elt F) → (⟨S4x2047x512, .f32⟩ : BufTy).Contents (Elt F) → (⟨S4x2047x512, .f32⟩ : BufTy).Contents (Elt F)),
    unary main_arg0 main_v10 ((extractStridedSlice S4x2047x512 ![0, 1, 0] · slices_S4x2048x512_S4x2047x512_0_1_0) : (⟨S4x2048x512, .f32⟩ : BufTy).Contents (Elt F) → (⟨S4x2047x512, .f32⟩ : BufTy).Contents (Elt F)),
    binary main_v10 main_arg2 main_v11 ((fun l r => Host.dotGeneral dot_S4x2047x512_S512x512_S4x2047x512_2_1_01_0_n_n none l r) : (⟨S4x2047x512, .f32⟩ : BufTy).Contents (Elt F) → (⟨S512x512, .f32⟩ : BufTy).Contents (Elt F) → (⟨S4x2047x512, .f32⟩ : BufTy).Contents (Elt F)),
    binary main_v11 main_v11 main_v12 (mulf : (⟨S4x2047x512, .f32⟩ : BufTy).Contents (Elt F) → (⟨S4x2047x512, .f32⟩ : BufTy).Contents (Elt F) → (⟨S4x2047x512, .f32⟩ : BufTy).Contents (Elt F)),
    nullary main_cst_1 (constant S_ .f32 0x00000000#32),
    binary main_v12 main_cst_1 main_v13 ((fun x v => Host.reduceAdd x v reducesTo_S4x2047x512_S4x2047_d2 h_S_) : (⟨S4x2047x512, .f32⟩ : BufTy).Contents (Elt F) → (⟨S_, .f32⟩ : BufTy).Contents (Elt F) → (⟨S4x2047, .f32⟩ : BufTy).Contents (Elt F)),
    unary main_v13 main_v14 (broadcastInDim S4x2047x1 ![0, 1] bcast_S4x2047_S4x2047x1_0_1 : (⟨S4x2047, .f32⟩ : BufTy).Contents (Elt F) → (⟨S4x2047x1, .f32⟩ : BufTy).Contents (Elt F)),
    unary main_v14 main_v15 (Host.sqrt : (⟨S4x2047x1, .f32⟩ : BufTy).Contents (Elt F) → (⟨S4x2047x1, .f32⟩ : BufTy).Contents (Elt F)),
    nullary main_cst_2 (constant S_ .f32 0x2B8CBCCC#32),
    unary main_cst_2 main_v16 (broadcastInDim S4x2047x1 ![] bcast_S_S4x2047x1 : (⟨S_, .f32⟩ : BufTy).Contents (Elt F) → (⟨S4x2047x1, .f32⟩ : BufTy).Contents (Elt F)),
    binary main_v15 main_v16 main_v17 (maximumf : (⟨S4x2047x1, .f32⟩ : BufTy).Contents (Elt F) → (⟨S4x2047x1, .f32⟩ : BufTy).Contents (Elt F) → (⟨S4x2047x1, .f32⟩ : BufTy).Contents (Elt F)),
    unary main_v17 main_v18 (broadcastInDim S4x2047x512 ![0, 1, 2] bcast_S4x2047x1_S4x2047x512_0_1_2 : (⟨S4x2047x1, .f32⟩ : BufTy).Contents (Elt F) → (⟨S4x2047x512, .f32⟩ : BufTy).Contents (Elt F)),
    binary main_v11 main_v18 main_v19 (Host.divf : (⟨S4x2047x512, .f32⟩ : BufTy).Contents (Elt F) → (⟨S4x2047x512, .f32⟩ : BufTy).Contents (Elt F) → (⟨S4x2047x512, .f32⟩ : BufTy).Contents (Elt F)),
    binary main_v9 main_v19 main_v20 (mulf : (⟨S4x2047x512, .f32⟩ : BufTy).Contents (Elt F) → (⟨S4x2047x512, .f32⟩ : BufTy).Contents (Elt F) → (⟨S4x2047x512, .f32⟩ : BufTy).Contents (Elt F)),
    nullary main_cst_3 (constant S_ .f32 0x00000000#32),
    binary main_v20 main_cst_3 main_v21 ((fun x v => Host.reduceAdd x v reducesTo_S4x2047x512_S4x2047_d2 h_S_) : (⟨S4x2047x512, .f32⟩ : BufTy).Contents (Elt F) → (⟨S_, .f32⟩ : BufTy).Contents (Elt F) → (⟨S4x2047, .f32⟩ : BufTy).Contents (Elt F)),
    nullary main_cst_4 (constant S_ .f32 0x3F800000#32),
    unary main_cst_4 main_v22 (broadcastInDim S4x1 ![] bcast_S_S4x1 : (⟨S_, .f32⟩ : BufTy).Contents (Elt F) → (⟨S4x1, .f32⟩ : BufTy).Contents (Elt F)),
    nullary main_cst_5 (constant S_ .f32 0x3F800000#32),
    unary main_cst_5 main_v23 (broadcastInDim S4x2047 ![] bcast_S_S4x2047 : (⟨S_, .f32⟩ : BufTy).Contents (Elt F) → (⟨S4x2047, .f32⟩ : BufTy).Contents (Elt F)),
    binary main_v23 main_v21 main_v24 (subf : (⟨S4x2047, .f32⟩ : BufTy).Contents (Elt F) → (⟨S4x2047, .f32⟩ : BufTy).Contents (Elt F) → (⟨S4x2047, .f32⟩ : BufTy).Contents (Elt F)),
    nullary main_cst_6 (constant S_ .f32 0x40000000#32),
    unary main_cst_6 main_v25 (broadcastInDim S4x2047 ![] bcast_S_S4x2047 : (⟨S_, .f32⟩ : BufTy).Contents (Elt F) → (⟨S4x2047, .f32⟩ : BufTy).Contents (Elt F)),
    binary main_v24 main_v25 main_v26 (Host.divf : (⟨S4x2047, .f32⟩ : BufTy).Contents (Elt F) → (⟨S4x2047, .f32⟩ : BufTy).Contents (Elt F) → (⟨S4x2047, .f32⟩ : BufTy).Contents (Elt F)),
    nullary main_cst_7 (constant S_ .f32 0x00000000#32),
    nullary main_cst_8 (constant S_ .f32 0x3F800000#32),
    TRef.unary (.of main_cst_7) main_call0.v0 id,
    TRef.unary main_call0.v0 main_call0.v1 (broadcastInDim S4x2047 ![] bcast_S_S4x2047),
    TRef.binary main_call0.v1 (.of main_v26) main_call0.v2 maximumf,
    TRef.unary (.of main_cst_8) main_call0.v3 id,
    TRef.unary main_call0.v3 main_call0.v4 (broadcastInDim S4x2047 ![] bcast_S_S4x2047),
    TRef.binary main_call0.v4 main_call0.v2 main_call0.v5 minimumf,
    binary main_v22 main_v27 main_v28 ((fun a b => concatenate S4x2048 1 [⟨S4x1, a⟩, ⟨S4x2047, b⟩] concatenates_S4x1_S4x2047_S4x2048_d1) : (⟨S4x1, .f32⟩ : BufTy).Contents (Elt F) → (⟨S4x2047, .f32⟩ : BufTy).Contents (Elt F) → (⟨S4x2048, .f32⟩ : BufTy).Contents (Elt F)),
    nullary main_c (constantI S_ 32 0#32),
    unary main_c main_v29 (broadcastInDim S1 ![] bcast_S_S1 : (⟨S_, .i32⟩ : BufTy).Contents (Elt F) → (⟨S1, .i32⟩ : BufTy).Contents (Elt F)),
    nullary main_cst_9 (constant S_ .f32 0x3F800000#32),
    unary main_cst_9 main_v30 (broadcastInDim S4 ![] bcast_S_S4 : (⟨S_, .f32⟩ : BufTy).Contents (Elt F) → (⟨S4, .f32⟩ : BufTy).Contents (Elt F)),
    ternary main_v28 main_v29 main_v30 main_v31 ((fun x i u => Host.scatter scatter_S4x2048_S1_S4_0_1_1_0 (fun _ b => b) x i u) : (⟨S4x2048, .f32⟩ : BufTy).Contents (Elt F) → (⟨S1, .i32⟩ : BufTy).Contents (Elt F) → (⟨S4, .f32⟩ : BufTy).Contents (Elt F) → (⟨S4x2048, .f32⟩ : BufTy).Contents (Elt F)) ]

/-- The operations of stage B1, in order. -/
abbrev opsB1 : List (HloOp τ sig (Elt F)) :=
  [ nullary main_cst_10 (constant S_ .f32 0x3F000000#32),
    unary main_cst_10 main_v32 (broadcastInDim S4x2048 ![] bcast_S_S4x2048 : (⟨S_, .f32⟩ : BufTy).Contents (Elt F) → (⟨S4x2048, .f32⟩ : BufTy).Contents (Elt F)),
    binary main_v31 main_v32 main_v33 (cmpf .ogt : (⟨S4x2048, .f32⟩ : BufTy).Contents (Elt F) → (⟨S4x2048, .f32⟩ : BufTy).Contents (Elt F) → (⟨S4x2048, .i1⟩ : BufTy).Contents (Elt F)),
    unary main_v33 main_v34 (noti : (⟨S4x2048, .i1⟩ : BufTy).Contents (Elt F) → (⟨S4x2048, .i1⟩ : BufTy).Contents (Elt F)),
    unary main_v34 main_v35 ((extui 32 · natLt_1_32) : (⟨S4x2048, .i1⟩ : BufTy).Contents (Elt F) → (⟨S4x2048, .i32⟩ : BufTy).Contents (Elt F)),
    TRef.nullary main_call1.v0 (iotaInDim S4x2048 32 1),
    TRef.binary (.of main_v35) main_call1.v0 main_call1.v1_0 (fun x y => (Host.sort2 S4x2048 1 comparator_i32_i32_d1 x y).1),
    TRef.binary (.of main_v35) main_call1.v0 main_call1.v1_1 (fun x y => (Host.sort2 S4x2048 1 comparator_i32_i32_d1 x y).2) ]

/-- The operations of stage B2, in order. -/
abbrev opsB2 : List (HloOp τ sig (Elt F)) :=
  [ unary main_v33 main_v37 ((extui 32 · natLt_1_32) : (⟨S4x2048, .i1⟩ : BufTy).Contents (Elt F) → (⟨S4x2048, .i32⟩ : BufTy).Contents (Elt F)),
    nullary main_c_11 (constantI S_ 32 0#32),
    binary main_v37 main_c_11 main_v38 ((fun x v => Host.reduce IntOp.addi x v reducesTo_S4x2048_S4_d1 h_S_) : (⟨S4x2048, .i32⟩ : BufTy).Contents (Elt F) → (⟨S_, .i32⟩ : BufTy).Contents (Elt F) → (⟨S4, .i32⟩ : BufTy).Contents (Elt F)),
    unary main_v36 main_v39 (broadcastInDim S4x2048x1 ![0, 1] bcast_S4x2048_S4x2048x1_0_1 : (⟨S4x2048, .i32⟩ : BufTy).Contents (Elt F) → (⟨S4x2048x1, .i32⟩ : BufTy).Contents (Elt F)),
    TRef.nullary main_call2.c (constantI S_ 32 0#32),
    TRef.unary main_call2.c main_call2.v0 (broadcastInDim S4x2048x1 ![] bcast_S_S4x2048x1),
    TRef.binary (.of main_v39) main_call2.v0 main_call2.v1 (cmpi .slt),
    TRef.nullary main_call2.c_0 (constantI S_ 32 2048#32),
    TRef.unary main_call2.c_0 main_call2.v2 (broadcastInDim S4x2048x1 ![] bcast_S_S4x2048x1),
    TRef.binary (.of main_v39) main_call2.v2 main_call2.v3 addi,
    TRef.ternary main_call2.v1 main_call2.v3 (.of main_v39) main_call2.v4 select,
    TRef.nullary main_call2.c_1 (constantI S1 32 2047#32),
    TRef.nullary main_call2.c_2 (constantI S_ 32 0#32),
    TRef.unary main_call2.c_2 main_call2.v5 (broadcastInDim S4x2048x1 ![] bcast_S_S4x2048x1),
    TRef.binary main_call2.v4 main_call2.v5 main_call2.v6 (cmpi .sge),
    TRef.unary main_call2.c_1 main_call2.v7 (broadcastInDim S1x1x1 ![2] bcast_S1_S1x1x1_2),
    TRef.unary main_call2.v7 main_call2.v8 (broadcastInDim S4x2048x1 ![0, 1, 2] bcast_S1x1x1_S4x2048x1_0_1_2),
    TRef.binary main_call2.v4 main_call2.v8 main_call2.v9 (cmpi .sle),
    TRef.binary main_call2.v6 main_call2.v9 main_call2.v10 andi,
    TRef.nullary main_call2.c_3 (constantI S_ 1 1#1),
    TRef.binary main_call2.v10 main_call2.c_3 main_call2.v11 (fun x v => Host.reduce IntOp.andi x v reducesTo_S4x2048x1_S4x2048_d2 h_S_),
    TRef.binary (.of main_arg0) main_call2.v4 main_call2.v12 (fun x i => Host.gather gather_S4x2048x512_S4x2048x1_S4x2048x512_2_1_0_0_1_2_11512 x i),
    TRef.unary main_call2.v11 main_call2.v13 (broadcastInDim S4x2048x512 ![0, 1] bcast_S4x2048_S4x2048x512_0_1),
    TRef.nullary main_call2.cst (constant S_ .f32 0x7FC00000#32),
    TRef.unary main_call2.cst main_call2.v14 (broadcastInDim S4x2048x512 ![] bcast_S_S4x2048x512),
    TRef.ternary main_call2.v13 main_call2.v12 main_call2.v14 main_call2.v15 select,
    nullary main_v41 (iotaInDim S2048 32 0),
    unary main_v41 main_v42 (broadcastInDim S1x2048 ![1] bcast_S2048_S1x2048_1 : (⟨S2048, .i32⟩ : BufTy).Contents (Elt F) → (⟨S1x2048, .i32⟩ : BufTy).Contents (Elt F)),
    unary main_v38 main_v43 (broadcastInDim S4x1 ![0] bcast_S4_S4x1_0 : (⟨S4, .i32⟩ : BufTy).Contents (Elt F) → (⟨S4x1, .i32⟩ : BufTy).Contents (Elt F)),
    unary main_v42 main_v44 (broadcastInDim S4x2048 ![0, 1] bcast_S1x2048_S4x2048_0_1 : (⟨S1x2048, .i32⟩ : BufTy).Contents (Elt F) → (⟨S4x2048, .i32⟩ : BufTy).Contents (Elt F)),
    unary main_v43 main_v45 (broadcastInDim S4x2048 ![0, 1] bcast_S4x1_S4x2048_0_1 : (⟨S4x1, .i32⟩ : BufTy).Contents (Elt F) → (⟨S4x2048, .i32⟩ : BufTy).Contents (Elt F)),
    binary main_v44 main_v45 main_v46 (cmpi .slt : (⟨S4x2048, .i32⟩ : BufTy).Contents (Elt F) → (⟨S4x2048, .i32⟩ : BufTy).Contents (Elt F) → (⟨S4x2048, .i1⟩ : BufTy).Contents (Elt F)),
    TRef.nullary main_call3.c (constantI S_ 32 0#32),
    TRef.unary main_call3.c main_call3.v0 (broadcastInDim S4x2048 ![] bcast_S_S4x2048),
    TRef.binary (.of main_v36) main_call3.v0 main_call3.v1 (cmpi .slt),
    TRef.nullary main_call3.c_0 (constantI S_ 32 2048#32),
    TRef.unary main_call3.c_0 main_call3.v2 (broadcastInDim S4x2048 ![] bcast_S_S4x2048),
    TRef.binary (.of main_v36) main_call3.v2 main_call3.v3 addi,
    TRef.ternary main_call3.v1 main_call3.v3 (.of main_v36) main_call3.v4 select,
    TRef.reshape main_call3.v4 main_call3.v5 rfl shapeCasts_S4x2048_S4x2048x1,
    TRef.nullary main_call3.c_1 (constantI S1 32 2047#32),
    TRef.nullary main_call3.c_2 (constantI S_ 32 0#32),
    TRef.unary main_call3.c_2 main_call3.v6 (broadcastInDim S4x2048x1 ![] bcast_S_S4x2048x1),
    TRef.binary main_call3.v5 main_call3.v6 main_call3.v7 (cmpi .sge),
    TRef.unary main_call3.c_1 main_call3.v8 (broadcastInDim S1x1x1 ![2] bcast_S1_S1x1x1_2),
    TRef.unary main_call3.v8 main_call3.v9 (broadcastInDim S4x2048x1 ![0, 1, 2] bcast_S1x1x1_S4x2048x1_0_1_2),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S4x2048x1_S4x2048_d2 h_S_),
    TRef.binary (.of main_v31) main_call3.v5 main_call3.v13 (fun x i => Host.gather gather_S4x2048_S4x2048x1_S4x2048_n_1_0_0_1_2_11 x i),
    TRef.nullary main_call3.cst (constant S_ .f32 0x7FC00000#32),
    TRef.unary main_call3.cst main_call3.v14 (broadcastInDim S4x2048 ![] bcast_S_S4x2048),
    TRef.ternary main_call3.v12 main_call3.v13 main_call3.v14 main_call3.v15 select,
    unary main_v46 main_v48 (uitofp .f32 : (⟨S4x2048, .i1⟩ : BufTy).Contents (Elt F) → (⟨S4x2048, .f32⟩ : BufTy).Contents (Elt F)),
    binary main_v47 main_v48 main_v49 (mulf : (⟨S4x2048, .f32⟩ : BufTy).Contents (Elt F) → (⟨S4x2048, .f32⟩ : BufTy).Contents (Elt F) → (⟨S4x2048, .f32⟩ : BufTy).Contents (Elt F)),
    nullary main_cst_12 (constant S_ .f32 0x3F800000#32),
    unary main_cst_12 main_v50 (broadcastInDim S4x2048 ![] bcast_S_S4x2048 : (⟨S_, .f32⟩ : BufTy).Contents (Elt F) → (⟨S4x2048, .f32⟩ : BufTy).Contents (Elt F)),
    binary main_v50 main_v49 main_v51 (subf : (⟨S4x2048, .f32⟩ : BufTy).Contents (Elt F) → (⟨S4x2048, .f32⟩ : BufTy).Contents (Elt F) → (⟨S4x2048, .f32⟩ : BufTy).Contents (Elt F)),
    nullary main_cst_13 (constant S_ .f32 0x00000000#32),
    nullary main_cst_14 (constant S_ .f32 0x3F800000#32),
    TRef.unary (.of main_cst_13) main_call4.v0 id,
    TRef.unary main_call4.v0 main_call4.v1 (broadcastInDim S4x2048 ![] bcast_S_S4x2048),
    TRef.binary main_call4.v1 (.of main_v51) main_call4.v2 maximumf,
    TRef.unary (.of main_cst_14) main_call4.v3 id,
    TRef.unary main_call4.v3 main_call4.v4 (broadcastInDim S4x2048 ![] bcast_S_S4x2048),
    TRef.binary main_call4.v4 main_call4.v2 main_call4.v5 minimumf ]

/-- The operations of stage C0, in order. -/
abbrev opsC0 : List (HloOp τ sig (Elt F)) :=
  [ nullary main_cst_15 (constant S_ .f32 0x00000000#32),
    unary main_cst_15 main_v53 (broadcastInDim S4x512 ![] bcast_S_S4x512 : (⟨S_, .f32⟩ : BufTy).Contents (Elt F) → (⟨S4x512, .f32⟩ : BufTy).Contents (Elt F)),
    unary main_v52 main_v54 (broadcastInDim S4x2048x1 ![0, 1] bcast_S4x2048_S4x2048x1_0_1 : (⟨S4x2048, .f32⟩ : BufTy).Contents (Elt F) → (⟨S4x2048x1, .f32⟩ : BufTy).Contents (Elt F)),
    unary main_v54 main_v55 (broadcastInDim S4x2048x512 ![0, 1, 2] bcast_S4x2048x1_S4x2048x512_0_1_2 : (⟨S4x2048x1, .f32⟩ : BufTy).Contents (Elt F) → (⟨S4x2048x512, .f32⟩ : BufTy).Contents (Elt F)),
    nullary main_cst_16 (constant S_ .f32 0x3F800000#32),
    unary main_cst_16 main_v56 (broadcastInDim S4x2048 ![] bcast_S_S4x2048 : (⟨S_, .f32⟩ : BufTy).Contents (Elt F) → (⟨S4x2048, .f32⟩ : BufTy).Contents (Elt F)),
    binary main_v56 main_v52 main_v57 (subf : (⟨S4x2048, .f32⟩ : BufTy).Contents (Elt F) → (⟨S4x2048, .f32⟩ : BufTy).Contents (Elt F) → (⟨S4x2048, .f32⟩ : BufTy).Contents (Elt F)),
    unary main_v57 main_v58 (broadcastInDim S4x2048x1 ![0, 1] bcast_S4x2048_S4x2048x1_0_1 : (⟨S4x2048, .f32⟩ : BufTy).Contents (Elt F) → (⟨S4x2048x1, .f32⟩ : BufTy).Contents (Elt F)),
    unary main_v58 main_v59 (broadcastInDim S4x2048x512 ![0, 1, 2] bcast_S4x2048x1_S4x2048x512_0_1_2 : (⟨S4x2048x1, .f32⟩ : BufTy).Contents (Elt F) → (⟨S4x2048x512, .f32⟩ : BufTy).Contents (Elt F)),
    binary main_v59 main_v40 main_v60 (mulf : (⟨S4x2048x512, .f32⟩ : BufTy).Contents (Elt F) → (⟨S4x2048x512, .f32⟩ : BufTy).Contents (Elt F) → (⟨S4x2048x512, .f32⟩ : BufTy).Contents (Elt F)),
    unary main_v60 main_v61 ((extractStridedSlice S4x1x512 ![0, 0, 0] · slices_S4x2048x512_S4x1x512_0_0_0) : (⟨S4x2048x512, .f32⟩ : BufTy).Contents (Elt F) → (⟨S4x1x512, .f32⟩ : BufTy).Contents (Elt F)),
    unary main_v55 main_v62 ((extractStridedSlice S4x1x512 ![0, 0, 0] · slices_S4x2048x512_S4x1x512_0_0_0) : (⟨S4x2048x512, .f32⟩ : BufTy).Contents (Elt F) → (⟨S4x1x512, .f32⟩ : BufTy).Contents (Elt F)),
    unary main_v53 main_v63 (broadcastInDim S4x1x512 ![0, 2] bcast_S4x512_S4x1x512_0_2 : (⟨S4x512, .f32⟩ : BufTy).Contents (Elt F) → (⟨S4x1x512, .f32⟩ : BufTy).Contents (Elt F)),
    binary main_v62 main_v63 main_v64 (mulf : (⟨S4x1x512, .f32⟩ : BufTy).Contents (Elt F) → (⟨S4x1x512, .f32⟩ : BufTy).Contents (Elt F) → (⟨S4x1x512, .f32⟩ : BufTy).Contents (Elt F)),
    binary main_v61 main_v64 main_v65 (addf : (⟨S4x1x512, .f32⟩ : BufTy).Contents (Elt F) → (⟨S4x1x512, .f32⟩ : BufTy).Contents (Elt F) → (⟨S4x1x512, .f32⟩ : BufTy).Contents (Elt F)),
    unary main_v60 main_v66 ((extractStridedSlice S4x2047x512 ![0, 1, 0] · slices_S4x2048x512_S4x2047x512_0_1_0) : (⟨S4x2048x512, .f32⟩ : BufTy).Contents (Elt F) → (⟨S4x2047x512, .f32⟩ : BufTy).Contents (Elt F)),
    binary main_v65 main_v66 main_v67 ((fun a b => concatenate S4x2048x512 1 [⟨S4x1x512, a⟩, ⟨S4x2047x512, b⟩] concatenates_S4x1x512_S4x2047x512_S4x2048x512_d1) : (⟨S4x1x512, .f32⟩ : BufTy).Contents (Elt F) → (⟨S4x2047x512, .f32⟩ : BufTy).Contents (Elt F) → (⟨S4x2048x512, .f32⟩ : BufTy).Contents (Elt F)) ]

/-- The operations of stage C1, in order. -/
abbrev opsC1 : List (HloOp τ sig (Elt F)) :=
  [ unary main_v67 main_v68 ((extractStridedSlice S4x1x512 ![0, 0, 0] · slices_S4x2048x512_S4x1x512_0_0_0) : (⟨S4x2048x512, .f32⟩ : BufTy).Contents (Elt F) → (⟨S4x1x512, .f32⟩ : BufTy).Contents (Elt F)),
    unary main_v55 main_v69 ((extractStridedSlice S4x2047x512 ![0, 1, 0] · slices_S4x2048x512_S4x2047x512_0_1_0) : (⟨S4x2048x512, .f32⟩ : BufTy).Contents (Elt F) → (⟨S4x2047x512, .f32⟩ : BufTy).Contents (Elt F)),
    unary main_v67 main_v70 ((extractStridedSlice S4x2047x512 ![0, 0, 0] · slices_S4x2048x512_S4x2047x512_0_0_0) : (⟨S4x2048x512, .f32⟩ : BufTy).Contents (Elt F) → (⟨S4x2047x512, .f32⟩ : BufTy).Contents (Elt F)),
    binary main_v69 main_v70 main_v71 (mulf : (⟨S4x2047x512, .f32⟩ : BufTy).Contents (Elt F) → (⟨S4x2047x512, .f32⟩ : BufTy).Contents (Elt F) → (⟨S4x2047x512, .f32⟩ : BufTy).Contents (Elt F)),
    unary main_v67 main_v72 ((extractStridedSlice S4x2047x512 ![0, 1, 0] · slices_S4x2048x512_S4x2047x512_0_1_0) : (⟨S4x2048x512, .f32⟩ : BufTy).Contents (Elt F) → (⟨S4x2047x512, .f32⟩ : BufTy).Contents (Elt F)),
    binary main_v71 main_v72 main_v73 (addf : (⟨S4x2047x512, .f32⟩ : BufTy).Contents (Elt F) → (⟨S4x2047x512, .f32⟩ : BufTy).Contents (Elt F) → (⟨S4x2047x512, .f32⟩ : BufTy).Contents (Elt F)),
    binary main_v68 main_v73 main_v74 ((fun a b => concatenate S4x2048x512 1 [⟨S4x1x512, a⟩, ⟨S4x2047x512, b⟩] concatenates_S4x1x512_S4x2047x512_S4x2048x512_d1) : (⟨S4x1x512, .f32⟩ : BufTy).Contents (Elt F) → (⟨S4x2047x512, .f32⟩ : BufTy).Contents (Elt F) → (⟨S4x2048x512, .f32⟩ : BufTy).Contents (Elt F)),
    unary main_v55 main_v75 ((extractStridedSlice S4x1x512 ![0, 0, 0] · slices_S4x2048x512_S4x1x512_0_0_0) : (⟨S4x2048x512, .f32⟩ : BufTy).Contents (Elt F) → (⟨S4x1x512, .f32⟩ : BufTy).Contents (Elt F)),
    unary main_v55 main_v76 ((extractStridedSlice S4x2047x512 ![0, 1, 0] · slices_S4x2048x512_S4x2047x512_0_1_0) : (⟨S4x2048x512, .f32⟩ : BufTy).Contents (Elt F) → (⟨S4x2047x512, .f32⟩ : BufTy).Contents (Elt F)),
    unary main_v55 main_v77 ((extractStridedSlice S4x2047x512 ![0, 0, 0] · slices_S4x2048x512_S4x2047x512_0_0_0) : (⟨S4x2048x512, .f32⟩ : BufTy).Contents (Elt F) → (⟨S4x2047x512, .f32⟩ : BufTy).Contents (Elt F)),
    binary main_v76 main_v77 main_v78 (mulf : (⟨S4x2047x512, .f32⟩ : BufTy).Contents (Elt F) → (⟨S4x2047x512, .f32⟩ : BufTy).Contents (Elt F) → (⟨S4x2047x512, .f32⟩ : BufTy).Contents (Elt F)),
    binary main_v75 main_v78 main_v79 ((fun a b => concatenate S4x2048x512 1 [⟨S4x1x512, a⟩, ⟨S4x2047x512, b⟩] concatenates_S4x1x512_S4x2047x512_S4x2048x512_d1) : (⟨S4x1x512, .f32⟩ : BufTy).Contents (Elt F) → (⟨S4x2047x512, .f32⟩ : BufTy).Contents (Elt F) → (⟨S4x2048x512, .f32⟩ : BufTy).Contents (Elt F)) ]

/-- The operations of stage C2, in order. -/
abbrev opsC2 : List (HloOp τ sig (Elt F)) :=
  [ unary main_v74 main_v80 ((extractStridedSlice S4x2x512 ![0, 0, 0] · slices_S4x2048x512_S4x2x512_0_0_0) : (⟨S4x2048x512, .f32⟩ : BufTy).Contents (Elt F) → (⟨S4x2x512, .f32⟩ : BufTy).Contents (Elt F)),
    unary main_v79 main_v81 ((extractStridedSlice S4x2046x512 ![0, 2, 0] · slices_S4x2048x512_S4x2046x512_0_2_0) : (⟨S4x2048x512, .f32⟩ : BufTy).Contents (Elt F) → (⟨S4x2046x512, .f32⟩ : BufTy).Contents (Elt F)),
    unary main_v74 main_v82 ((extractStridedSlice S4x2046x512 ![0, 0, 0] · slices_S4x2048x512_S4x2046x512_0_0_0) : (⟨S4x2048x512, .f32⟩ : BufTy).Contents (Elt F) → (⟨S4x2046x512, .f32⟩ : BufTy).Contents (Elt F)),
    binary main_v81 main_v82 main_v83 (mulf : (⟨S4x2046x512, .f32⟩ : BufTy).Contents (Elt F) → (⟨S4x2046x512, .f32⟩ : BufTy).Contents (Elt F) → (⟨S4x2046x512, .f32⟩ : BufTy).Contents (Elt F)),
    unary main_v74 main_v84 ((extractStridedSlice S4x2046x512 ![0, 2, 0] · slices_S4x2048x512_S4x2046x512_0_2_0) : (⟨S4x2048x512, .f32⟩ : BufTy).Contents (Elt F) → (⟨S4x2046x512, .f32⟩ : BufTy).Contents (Elt F)),
    binary main_v83 main_v84 main_v85 (addf : (⟨S4x2046x512, .f32⟩ : BufTy).Contents (Elt F) → (⟨S4x2046x512, .f32⟩ : BufTy).Contents (Elt F) → (⟨S4x2046x512, .f32⟩ : BufTy).Contents (Elt F)),
    binary main_v80 main_v85 main_v86 ((fun a b => concatenate S4x2048x512 1 [⟨S4x2x512, a⟩, ⟨S4x2046x512, b⟩] concatenates_S4x2x512_S4x2046x512_S4x2048x512_d1) : (⟨S4x2x512, .f32⟩ : BufTy).Contents (Elt F) → (⟨S4x2046x512, .f32⟩ : BufTy).Contents (Elt F) → (⟨S4x2048x512, .f32⟩ : BufTy).Contents (Elt F)),
    unary main_v79 main_v87 ((extractStridedSlice S4x2x512 ![0, 0, 0] · slices_S4x2048x512_S4x2x512_0_0_0) : (⟨S4x2048x512, .f32⟩ : BufTy).Contents (Elt F) → (⟨S4x2x512, .f32⟩ : BufTy).Contents (Elt F)),
    unary main_v79 main_v88 ((extractStridedSlice S4x2046x512 ![0, 2, 0] · slices_S4x2048x512_S4x2046x512_0_2_0) : (⟨S4x2048x512, .f32⟩ : BufTy).Contents (Elt F) → (⟨S4x2046x512, .f32⟩ : BufTy).Contents (Elt F)),
    unary main_v79 main_v89 ((extractStridedSlice S4x2046x512 ![0, 0, 0] · slices_S4x2048x512_S4x2046x512_0_0_0) : (⟨S4x2048x512, .f32⟩ : BufTy).Contents (Elt F) → (⟨S4x2046x512, .f32⟩ : BufTy).Contents (Elt F)),
    binary main_v88 main_v89 main_v90 (mulf : (⟨S4x2046x512, .f32⟩ : BufTy).Contents (Elt F) → (⟨S4x2046x512, .f32⟩ : BufTy).Contents (Elt F) → (⟨S4x2046x512, .f32⟩ : BufTy).Contents (Elt F)),
    binary main_v87 main_v90 main_v91 ((fun a b => concatenate S4x2048x512 1 [⟨S4x2x512, a⟩, ⟨S4x2046x512, b⟩] concatenates_S4x2x512_S4x2046x512_S4x2048x512_d1) : (⟨S4x2x512, .f32⟩ : BufTy).Contents (Elt F) → (⟨S4x2046x512, .f32⟩ : BufTy).Contents (Elt F) → (⟨S4x2048x512, .f32⟩ : BufTy).Contents (Elt F)) ]

/-- The operations of stage C3, in order. -/
abbrev opsC3 : List (HloOp τ sig (Elt F)) :=
  [ unary main_v86 main_v92 ((extractStridedSlice S4x4x512 ![0, 0, 0] · slices_S4x2048x512_S4x4x512_0_0_0) : (⟨S4x2048x512, .f32⟩ : BufTy).Contents (Elt F) → (⟨S4x4x512, .f32⟩ : BufTy).Contents (Elt F)),
    unary main_v91 main_v93 ((extractStridedSlice S4x2044x512 ![0, 4, 0] · slices_S4x2048x512_S4x2044x512_0_4_0) : (⟨S4x2048x512, .f32⟩ : BufTy).Contents (Elt F) → (⟨S4x2044x512, .f32⟩ : BufTy).Contents (Elt F)),
    unary main_v86 main_v94 ((extractStridedSlice S4x2044x512 ![0, 0, 0] · slices_S4x2048x512_S4x2044x512_0_0_0) : (⟨S4x2048x512, .f32⟩ : BufTy).Contents (Elt F) → (⟨S4x2044x512, .f32⟩ : BufTy).Contents (Elt F)),
    binary main_v93 main_v94 main_v95 (mulf : (⟨S4x2044x512, .f32⟩ : BufTy).Contents (Elt F) → (⟨S4x2044x512, .f32⟩ : BufTy).Contents (Elt F) → (⟨S4x2044x512, .f32⟩ : BufTy).Contents (Elt F)),
    unary main_v86 main_v96 ((extractStridedSlice S4x2044x512 ![0, 4, 0] · slices_S4x2048x512_S4x2044x512_0_4_0) : (⟨S4x2048x512, .f32⟩ : BufTy).Contents (Elt F) → (⟨S4x2044x512, .f32⟩ : BufTy).Contents (Elt F)),
    binary main_v95 main_v96 main_v97 (addf : (⟨S4x2044x512, .f32⟩ : BufTy).Contents (Elt F) → (⟨S4x2044x512, .f32⟩ : BufTy).Contents (Elt F) → (⟨S4x2044x512, .f32⟩ : BufTy).Contents (Elt F)),
    binary main_v92 main_v97 main_v98 ((fun a b => concatenate S4x2048x512 1 [⟨S4x4x512, a⟩, ⟨S4x2044x512, b⟩] concatenates_S4x4x512_S4x2044x512_S4x2048x512_d1) : (⟨S4x4x512, .f32⟩ : BufTy).Contents (Elt F) → (⟨S4x2044x512, .f32⟩ : BufTy).Contents (Elt F) → (⟨S4x2048x512, .f32⟩ : BufTy).Contents (Elt F)),
    unary main_v91 main_v99 ((extractStridedSlice S4x4x512 ![0, 0, 0] · slices_S4x2048x512_S4x4x512_0_0_0) : (⟨S4x2048x512, .f32⟩ : BufTy).Contents (Elt F) → (⟨S4x4x512, .f32⟩ : BufTy).Contents (Elt F)),
    unary main_v91 main_v100 ((extractStridedSlice S4x2044x512 ![0, 4, 0] · slices_S4x2048x512_S4x2044x512_0_4_0) : (⟨S4x2048x512, .f32⟩ : BufTy).Contents (Elt F) → (⟨S4x2044x512, .f32⟩ : BufTy).Contents (Elt F)),
    unary main_v91 main_v101 ((extractStridedSlice S4x2044x512 ![0, 0, 0] · slices_S4x2048x512_S4x2044x512_0_0_0) : (⟨S4x2048x512, .f32⟩ : BufTy).Contents (Elt F) → (⟨S4x2044x512, .f32⟩ : BufTy).Contents (Elt F)),
    binary main_v100 main_v101 main_v102 (mulf : (⟨S4x2044x512, .f32⟩ : BufTy).Contents (Elt F) → (⟨S4x2044x512, .f32⟩ : BufTy).Contents (Elt F) → (⟨S4x2044x512, .f32⟩ : BufTy).Contents (Elt F)),
    binary main_v99 main_v102 main_v103 ((fun a b => concatenate S4x2048x512 1 [⟨S4x4x512, a⟩, ⟨S4x2044x512, b⟩] concatenates_S4x4x512_S4x2044x512_S4x2048x512_d1) : (⟨S4x4x512, .f32⟩ : BufTy).Contents (Elt F) → (⟨S4x2044x512, .f32⟩ : BufTy).Contents (Elt F) → (⟨S4x2048x512, .f32⟩ : BufTy).Contents (Elt F)) ]

/-- The operations of stage C4, in order. -/
abbrev opsC4 : List (HloOp τ sig (Elt F)) :=
  [ unary main_v98 main_v104 ((extractStridedSlice S4x8x512 ![0, 0, 0] · slices_S4x2048x512_S4x8x512_0_0_0) : (⟨S4x2048x512, .f32⟩ : BufTy).Contents (Elt F) → (⟨S4x8x512, .f32⟩ : BufTy).Contents (Elt F)),
    unary main_v103 main_v105 ((extractStridedSlice S4x2040x512 ![0, 8, 0] · slices_S4x2048x512_S4x2040x512_0_8_0) : (⟨S4x2048x512, .f32⟩ : BufTy).Contents (Elt F) → (⟨S4x2040x512, .f32⟩ : BufTy).Contents (Elt F)),
    unary main_v98 main_v106 ((extractStridedSlice S4x2040x512 ![0, 0, 0] · slices_S4x2048x512_S4x2040x512_0_0_0) : (⟨S4x2048x512, .f32⟩ : BufTy).Contents (Elt F) → (⟨S4x2040x512, .f32⟩ : BufTy).Contents (Elt F)),
    binary main_v105 main_v106 main_v107 (mulf : (⟨S4x2040x512, .f32⟩ : BufTy).Contents (Elt F) → (⟨S4x2040x512, .f32⟩ : BufTy).Contents (Elt F) → (⟨S4x2040x512, .f32⟩ : BufTy).Contents (Elt F)),
    unary main_v98 main_v108 ((extractStridedSlice S4x2040x512 ![0, 8, 0] · slices_S4x2048x512_S4x2040x512_0_8_0) : (⟨S4x2048x512, .f32⟩ : BufTy).Contents (Elt F) → (⟨S4x2040x512, .f32⟩ : BufTy).Contents (Elt F)),
    binary main_v107 main_v108 main_v109 (addf : (⟨S4x2040x512, .f32⟩ : BufTy).Contents (Elt F) → (⟨S4x2040x512, .f32⟩ : BufTy).Contents (Elt F) → (⟨S4x2040x512, .f32⟩ : BufTy).Contents (Elt F)),
    binary main_v104 main_v109 main_v110 ((fun a b => concatenate S4x2048x512 1 [⟨S4x8x512, a⟩, ⟨S4x2040x512, b⟩] concatenates_S4x8x512_S4x2040x512_S4x2048x512_d1) : (⟨S4x8x512, .f32⟩ : BufTy).Contents (Elt F) → (⟨S4x2040x512, .f32⟩ : BufTy).Contents (Elt F) → (⟨S4x2048x512, .f32⟩ : BufTy).Contents (Elt F)),
    unary main_v103 main_v111 ((extractStridedSlice S4x8x512 ![0, 0, 0] · slices_S4x2048x512_S4x8x512_0_0_0) : (⟨S4x2048x512, .f32⟩ : BufTy).Contents (Elt F) → (⟨S4x8x512, .f32⟩ : BufTy).Contents (Elt F)),
    unary main_v103 main_v112 ((extractStridedSlice S4x2040x512 ![0, 8, 0] · slices_S4x2048x512_S4x2040x512_0_8_0) : (⟨S4x2048x512, .f32⟩ : BufTy).Contents (Elt F) → (⟨S4x2040x512, .f32⟩ : BufTy).Contents (Elt F)),
    unary main_v103 main_v113 ((extractStridedSlice S4x2040x512 ![0, 0, 0] · slices_S4x2048x512_S4x2040x512_0_0_0) : (⟨S4x2048x512, .f32⟩ : BufTy).Contents (Elt F) → (⟨S4x2040x512, .f32⟩ : BufTy).Contents (Elt F)),
    binary main_v112 main_v113 main_v114 (mulf : (⟨S4x2040x512, .f32⟩ : BufTy).Contents (Elt F) → (⟨S4x2040x512, .f32⟩ : BufTy).Contents (Elt F) → (⟨S4x2040x512, .f32⟩ : BufTy).Contents (Elt F)),
    binary main_v111 main_v114 main_v115 ((fun a b => concatenate S4x2048x512 1 [⟨S4x8x512, a⟩, ⟨S4x2040x512, b⟩] concatenates_S4x8x512_S4x2040x512_S4x2048x512_d1) : (⟨S4x8x512, .f32⟩ : BufTy).Contents (Elt F) → (⟨S4x2040x512, .f32⟩ : BufTy).Contents (Elt F) → (⟨S4x2048x512, .f32⟩ : BufTy).Contents (Elt F)) ]

/-- The operations of stage C5, in order. -/
abbrev opsC5 : List (HloOp τ sig (Elt F)) :=
  [ unary main_v110 main_v116 ((extractStridedSlice S4x16x512 ![0, 0, 0] · slices_S4x2048x512_S4x16x512_0_0_0) : (⟨S4x2048x512, .f32⟩ : BufTy).Contents (Elt F) → (⟨S4x16x512, .f32⟩ : BufTy).Contents (Elt F)),
    unary main_v115 main_v117 ((extractStridedSlice S4x2032x512 ![0, 16, 0] · slices_S4x2048x512_S4x2032x512_0_16_0) : (⟨S4x2048x512, .f32⟩ : BufTy).Contents (Elt F) → (⟨S4x2032x512, .f32⟩ : BufTy).Contents (Elt F)),
    unary main_v110 main_v118 ((extractStridedSlice S4x2032x512 ![0, 0, 0] · slices_S4x2048x512_S4x2032x512_0_0_0) : (⟨S4x2048x512, .f32⟩ : BufTy).Contents (Elt F) → (⟨S4x2032x512, .f32⟩ : BufTy).Contents (Elt F)),
    binary main_v117 main_v118 main_v119 (mulf : (⟨S4x2032x512, .f32⟩ : BufTy).Contents (Elt F) → (⟨S4x2032x512, .f32⟩ : BufTy).Contents (Elt F) → (⟨S4x2032x512, .f32⟩ : BufTy).Contents (Elt F)),
    unary main_v110 main_v120 ((extractStridedSlice S4x2032x512 ![0, 16, 0] · slices_S4x2048x512_S4x2032x512_0_16_0) : (⟨S4x2048x512, .f32⟩ : BufTy).Contents (Elt F) → (⟨S4x2032x512, .f32⟩ : BufTy).Contents (Elt F)),
    binary main_v119 main_v120 main_v121 (addf : (⟨S4x2032x512, .f32⟩ : BufTy).Contents (Elt F) → (⟨S4x2032x512, .f32⟩ : BufTy).Contents (Elt F) → (⟨S4x2032x512, .f32⟩ : BufTy).Contents (Elt F)),
    binary main_v116 main_v121 main_v122 ((fun a b => concatenate S4x2048x512 1 [⟨S4x16x512, a⟩, ⟨S4x2032x512, b⟩] concatenates_S4x16x512_S4x2032x512_S4x2048x512_d1) : (⟨S4x16x512, .f32⟩ : BufTy).Contents (Elt F) → (⟨S4x2032x512, .f32⟩ : BufTy).Contents (Elt F) → (⟨S4x2048x512, .f32⟩ : BufTy).Contents (Elt F)),
    unary main_v115 main_v123 ((extractStridedSlice S4x16x512 ![0, 0, 0] · slices_S4x2048x512_S4x16x512_0_0_0) : (⟨S4x2048x512, .f32⟩ : BufTy).Contents (Elt F) → (⟨S4x16x512, .f32⟩ : BufTy).Contents (Elt F)),
    unary main_v115 main_v124 ((extractStridedSlice S4x2032x512 ![0, 16, 0] · slices_S4x2048x512_S4x2032x512_0_16_0) : (⟨S4x2048x512, .f32⟩ : BufTy).Contents (Elt F) → (⟨S4x2032x512, .f32⟩ : BufTy).Contents (Elt F)),
    unary main_v115 main_v125 ((extractStridedSlice S4x2032x512 ![0, 0, 0] · slices_S4x2048x512_S4x2032x512_0_0_0) : (⟨S4x2048x512, .f32⟩ : BufTy).Contents (Elt F) → (⟨S4x2032x512, .f32⟩ : BufTy).Contents (Elt F)),
    binary main_v124 main_v125 main_v126 (mulf : (⟨S4x2032x512, .f32⟩ : BufTy).Contents (Elt F) → (⟨S4x2032x512, .f32⟩ : BufTy).Contents (Elt F) → (⟨S4x2032x512, .f32⟩ : BufTy).Contents (Elt F)),
    binary main_v123 main_v126 main_v127 ((fun a b => concatenate S4x2048x512 1 [⟨S4x16x512, a⟩, ⟨S4x2032x512, b⟩] concatenates_S4x16x512_S4x2032x512_S4x2048x512_d1) : (⟨S4x16x512, .f32⟩ : BufTy).Contents (Elt F) → (⟨S4x2032x512, .f32⟩ : BufTy).Contents (Elt F) → (⟨S4x2048x512, .f32⟩ : BufTy).Contents (Elt F)) ]

/-- The operations of stage C6, in order. -/
abbrev opsC6 : List (HloOp τ sig (Elt F)) :=
  [ unary main_v122 main_v128 ((extractStridedSlice S4x32x512 ![0, 0, 0] · slices_S4x2048x512_S4x32x512_0_0_0) : (⟨S4x2048x512, .f32⟩ : BufTy).Contents (Elt F) → (⟨S4x32x512, .f32⟩ : BufTy).Contents (Elt F)),
    unary main_v127 main_v129 ((extractStridedSlice S4x2016x512 ![0, 32, 0] · slices_S4x2048x512_S4x2016x512_0_32_0) : (⟨S4x2048x512, .f32⟩ : BufTy).Contents (Elt F) → (⟨S4x2016x512, .f32⟩ : BufTy).Contents (Elt F)),
    unary main_v122 main_v130 ((extractStridedSlice S4x2016x512 ![0, 0, 0] · slices_S4x2048x512_S4x2016x512_0_0_0) : (⟨S4x2048x512, .f32⟩ : BufTy).Contents (Elt F) → (⟨S4x2016x512, .f32⟩ : BufTy).Contents (Elt F)),
    binary main_v129 main_v130 main_v131 (mulf : (⟨S4x2016x512, .f32⟩ : BufTy).Contents (Elt F) → (⟨S4x2016x512, .f32⟩ : BufTy).Contents (Elt F) → (⟨S4x2016x512, .f32⟩ : BufTy).Contents (Elt F)),
    unary main_v122 main_v132 ((extractStridedSlice S4x2016x512 ![0, 32, 0] · slices_S4x2048x512_S4x2016x512_0_32_0) : (⟨S4x2048x512, .f32⟩ : BufTy).Contents (Elt F) → (⟨S4x2016x512, .f32⟩ : BufTy).Contents (Elt F)),
    binary main_v131 main_v132 main_v133 (addf : (⟨S4x2016x512, .f32⟩ : BufTy).Contents (Elt F) → (⟨S4x2016x512, .f32⟩ : BufTy).Contents (Elt F) → (⟨S4x2016x512, .f32⟩ : BufTy).Contents (Elt F)),
    binary main_v128 main_v133 main_v134 ((fun a b => concatenate S4x2048x512 1 [⟨S4x32x512, a⟩, ⟨S4x2016x512, b⟩] concatenates_S4x32x512_S4x2016x512_S4x2048x512_d1) : (⟨S4x32x512, .f32⟩ : BufTy).Contents (Elt F) → (⟨S4x2016x512, .f32⟩ : BufTy).Contents (Elt F) → (⟨S4x2048x512, .f32⟩ : BufTy).Contents (Elt F)),
    unary main_v127 main_v135 ((extractStridedSlice S4x32x512 ![0, 0, 0] · slices_S4x2048x512_S4x32x512_0_0_0) : (⟨S4x2048x512, .f32⟩ : BufTy).Contents (Elt F) → (⟨S4x32x512, .f32⟩ : BufTy).Contents (Elt F)),
    unary main_v127 main_v136 ((extractStridedSlice S4x2016x512 ![0, 32, 0] · slices_S4x2048x512_S4x2016x512_0_32_0) : (⟨S4x2048x512, .f32⟩ : BufTy).Contents (Elt F) → (⟨S4x2016x512, .f32⟩ : BufTy).Contents (Elt F)),
    unary main_v127 main_v137 ((extractStridedSlice S4x2016x512 ![0, 0, 0] · slices_S4x2048x512_S4x2016x512_0_0_0) : (⟨S4x2048x512, .f32⟩ : BufTy).Contents (Elt F) → (⟨S4x2016x512, .f32⟩ : BufTy).Contents (Elt F)),
    binary main_v136 main_v137 main_v138 (mulf : (⟨S4x2016x512, .f32⟩ : BufTy).Contents (Elt F) → (⟨S4x2016x512, .f32⟩ : BufTy).Contents (Elt F) → (⟨S4x2016x512, .f32⟩ : BufTy).Contents (Elt F)),
    binary main_v135 main_v138 main_v139 ((fun a b => concatenate S4x2048x512 1 [⟨S4x32x512, a⟩, ⟨S4x2016x512, b⟩] concatenates_S4x32x512_S4x2016x512_S4x2048x512_d1) : (⟨S4x32x512, .f32⟩ : BufTy).Contents (Elt F) → (⟨S4x2016x512, .f32⟩ : BufTy).Contents (Elt F) → (⟨S4x2048x512, .f32⟩ : BufTy).Contents (Elt F)) ]

/-- The operations of stage C7, in order. -/
abbrev opsC7 : List (HloOp τ sig (Elt F)) :=
  [ unary main_v134 main_v140 ((extractStridedSlice S4x64x512 ![0, 0, 0] · slices_S4x2048x512_S4x64x512_0_0_0) : (⟨S4x2048x512, .f32⟩ : BufTy).Contents (Elt F) → (⟨S4x64x512, .f32⟩ : BufTy).Contents (Elt F)),
    unary main_v139 main_v141 ((extractStridedSlice S4x1984x512 ![0, 64, 0] · slices_S4x2048x512_S4x1984x512_0_64_0) : (⟨S4x2048x512, .f32⟩ : BufTy).Contents (Elt F) → (⟨S4x1984x512, .f32⟩ : BufTy).Contents (Elt F)),
    unary main_v134 main_v142 ((extractStridedSlice S4x1984x512 ![0, 0, 0] · slices_S4x2048x512_S4x1984x512_0_0_0) : (⟨S4x2048x512, .f32⟩ : BufTy).Contents (Elt F) → (⟨S4x1984x512, .f32⟩ : BufTy).Contents (Elt F)),
    binary main_v141 main_v142 main_v143 (mulf : (⟨S4x1984x512, .f32⟩ : BufTy).Contents (Elt F) → (⟨S4x1984x512, .f32⟩ : BufTy).Contents (Elt F) → (⟨S4x1984x512, .f32⟩ : BufTy).Contents (Elt F)),
    unary main_v134 main_v144 ((extractStridedSlice S4x1984x512 ![0, 64, 0] · slices_S4x2048x512_S4x1984x512_0_64_0) : (⟨S4x2048x512, .f32⟩ : BufTy).Contents (Elt F) → (⟨S4x1984x512, .f32⟩ : BufTy).Contents (Elt F)),
    binary main_v143 main_v144 main_v145 (addf : (⟨S4x1984x512, .f32⟩ : BufTy).Contents (Elt F) → (⟨S4x1984x512, .f32⟩ : BufTy).Contents (Elt F) → (⟨S4x1984x512, .f32⟩ : BufTy).Contents (Elt F)),
    binary main_v140 main_v145 main_v146 ((fun a b => concatenate S4x2048x512 1 [⟨S4x64x512, a⟩, ⟨S4x1984x512, b⟩] concatenates_S4x64x512_S4x1984x512_S4x2048x512_d1) : (⟨S4x64x512, .f32⟩ : BufTy).Contents (Elt F) → (⟨S4x1984x512, .f32⟩ : BufTy).Contents (Elt F) → (⟨S4x2048x512, .f32⟩ : BufTy).Contents (Elt F)),
    unary main_v139 main_v147 ((extractStridedSlice S4x64x512 ![0, 0, 0] · slices_S4x2048x512_S4x64x512_0_0_0) : (⟨S4x2048x512, .f32⟩ : BufTy).Contents (Elt F) → (⟨S4x64x512, .f32⟩ : BufTy).Contents (Elt F)),
    unary main_v139 main_v148 ((extractStridedSlice S4x1984x512 ![0, 64, 0] · slices_S4x2048x512_S4x1984x512_0_64_0) : (⟨S4x2048x512, .f32⟩ : BufTy).Contents (Elt F) → (⟨S4x1984x512, .f32⟩ : BufTy).Contents (Elt F)),
    unary main_v139 main_v149 ((extractStridedSlice S4x1984x512 ![0, 0, 0] · slices_S4x2048x512_S4x1984x512_0_0_0) : (⟨S4x2048x512, .f32⟩ : BufTy).Contents (Elt F) → (⟨S4x1984x512, .f32⟩ : BufTy).Contents (Elt F)),
    binary main_v148 main_v149 main_v150 (mulf : (⟨S4x1984x512, .f32⟩ : BufTy).Contents (Elt F) → (⟨S4x1984x512, .f32⟩ : BufTy).Contents (Elt F) → (⟨S4x1984x512, .f32⟩ : BufTy).Contents (Elt F)),
    binary main_v147 main_v150 main_v151 ((fun a b => concatenate S4x2048x512 1 [⟨S4x64x512, a⟩, ⟨S4x1984x512, b⟩] concatenates_S4x64x512_S4x1984x512_S4x2048x512_d1) : (⟨S4x64x512, .f32⟩ : BufTy).Contents (Elt F) → (⟨S4x1984x512, .f32⟩ : BufTy).Contents (Elt F) → (⟨S4x2048x512, .f32⟩ : BufTy).Contents (Elt F)) ]

/-- The operations of stage C8, in order. -/
abbrev opsC8 : List (HloOp τ sig (Elt F)) :=
  [ unary main_v146 main_v152 ((extractStridedSlice S4x128x512 ![0, 0, 0] · slices_S4x2048x512_S4x128x512_0_0_0) : (⟨S4x2048x512, .f32⟩ : BufTy).Contents (Elt F) → (⟨S4x128x512, .f32⟩ : BufTy).Contents (Elt F)),
    unary main_v151 main_v153 ((extractStridedSlice S4x1920x512 ![0, 128, 0] · slices_S4x2048x512_S4x1920x512_0_128_0) : (⟨S4x2048x512, .f32⟩ : BufTy).Contents (Elt F) → (⟨S4x1920x512, .f32⟩ : BufTy).Contents (Elt F)),
    unary main_v146 main_v154 ((extractStridedSlice S4x1920x512 ![0, 0, 0] · slices_S4x2048x512_S4x1920x512_0_0_0) : (⟨S4x2048x512, .f32⟩ : BufTy).Contents (Elt F) → (⟨S4x1920x512, .f32⟩ : BufTy).Contents (Elt F)),
    binary main_v153 main_v154 main_v155 (mulf : (⟨S4x1920x512, .f32⟩ : BufTy).Contents (Elt F) → (⟨S4x1920x512, .f32⟩ : BufTy).Contents (Elt F) → (⟨S4x1920x512, .f32⟩ : BufTy).Contents (Elt F)),
    unary main_v146 main_v156 ((extractStridedSlice S4x1920x512 ![0, 128, 0] · slices_S4x2048x512_S4x1920x512_0_128_0) : (⟨S4x2048x512, .f32⟩ : BufTy).Contents (Elt F) → (⟨S4x1920x512, .f32⟩ : BufTy).Contents (Elt F)),
    binary main_v155 main_v156 main_v157 (addf : (⟨S4x1920x512, .f32⟩ : BufTy).Contents (Elt F) → (⟨S4x1920x512, .f32⟩ : BufTy).Contents (Elt F) → (⟨S4x1920x512, .f32⟩ : BufTy).Contents (Elt F)),
    binary main_v152 main_v157 main_v158 ((fun a b => concatenate S4x2048x512 1 [⟨S4x128x512, a⟩, ⟨S4x1920x512, b⟩] concatenates_S4x128x512_S4x1920x512_S4x2048x512_d1) : (⟨S4x128x512, .f32⟩ : BufTy).Contents (Elt F) → (⟨S4x1920x512, .f32⟩ : BufTy).Contents (Elt F) → (⟨S4x2048x512, .f32⟩ : BufTy).Contents (Elt F)),
    unary main_v151 main_v159 ((extractStridedSlice S4x128x512 ![0, 0, 0] · slices_S4x2048x512_S4x128x512_0_0_0) : (⟨S4x2048x512, .f32⟩ : BufTy).Contents (Elt F) → (⟨S4x128x512, .f32⟩ : BufTy).Contents (Elt F)),
    unary main_v151 main_v160 ((extractStridedSlice S4x1920x512 ![0, 128, 0] · slices_S4x2048x512_S4x1920x512_0_128_0) : (⟨S4x2048x512, .f32⟩ : BufTy).Contents (Elt F) → (⟨S4x1920x512, .f32⟩ : BufTy).Contents (Elt F)),
    unary main_v151 main_v161 ((extractStridedSlice S4x1920x512 ![0, 0, 0] · slices_S4x2048x512_S4x1920x512_0_0_0) : (⟨S4x2048x512, .f32⟩ : BufTy).Contents (Elt F) → (⟨S4x1920x512, .f32⟩ : BufTy).Contents (Elt F)),
    binary main_v160 main_v161 main_v162 (mulf : (⟨S4x1920x512, .f32⟩ : BufTy).Contents (Elt F) → (⟨S4x1920x512, .f32⟩ : BufTy).Contents (Elt F) → (⟨S4x1920x512, .f32⟩ : BufTy).Contents (Elt F)),
    binary main_v159 main_v162 main_v163 ((fun a b => concatenate S4x2048x512 1 [⟨S4x128x512, a⟩, ⟨S4x1920x512, b⟩] concatenates_S4x128x512_S4x1920x512_S4x2048x512_d1) : (⟨S4x128x512, .f32⟩ : BufTy).Contents (Elt F) → (⟨S4x1920x512, .f32⟩ : BufTy).Contents (Elt F) → (⟨S4x2048x512, .f32⟩ : BufTy).Contents (Elt F)) ]

/-- The operations of stage C9, in order. -/
abbrev opsC9 : List (HloOp τ sig (Elt F)) :=
  [ unary main_v158 main_v164 ((extractStridedSlice S4x256x512 ![0, 0, 0] · slices_S4x2048x512_S4x256x512_0_0_0) : (⟨S4x2048x512, .f32⟩ : BufTy).Contents (Elt F) → (⟨S4x256x512, .f32⟩ : BufTy).Contents (Elt F)),
    unary main_v163 main_v165 ((extractStridedSlice S4x1792x512 ![0, 256, 0] · slices_S4x2048x512_S4x1792x512_0_256_0) : (⟨S4x2048x512, .f32⟩ : BufTy).Contents (Elt F) → (⟨S4x1792x512, .f32⟩ : BufTy).Contents (Elt F)),
    unary main_v158 main_v166 ((extractStridedSlice S4x1792x512 ![0, 0, 0] · slices_S4x2048x512_S4x1792x512_0_0_0) : (⟨S4x2048x512, .f32⟩ : BufTy).Contents (Elt F) → (⟨S4x1792x512, .f32⟩ : BufTy).Contents (Elt F)),
    binary main_v165 main_v166 main_v167 (mulf : (⟨S4x1792x512, .f32⟩ : BufTy).Contents (Elt F) → (⟨S4x1792x512, .f32⟩ : BufTy).Contents (Elt F) → (⟨S4x1792x512, .f32⟩ : BufTy).Contents (Elt F)),
    unary main_v158 main_v168 ((extractStridedSlice S4x1792x512 ![0, 256, 0] · slices_S4x2048x512_S4x1792x512_0_256_0) : (⟨S4x2048x512, .f32⟩ : BufTy).Contents (Elt F) → (⟨S4x1792x512, .f32⟩ : BufTy).Contents (Elt F)),
    binary main_v167 main_v168 main_v169 (addf : (⟨S4x1792x512, .f32⟩ : BufTy).Contents (Elt F) → (⟨S4x1792x512, .f32⟩ : BufTy).Contents (Elt F) → (⟨S4x1792x512, .f32⟩ : BufTy).Contents (Elt F)),
    binary main_v164 main_v169 main_v170 ((fun a b => concatenate S4x2048x512 1 [⟨S4x256x512, a⟩, ⟨S4x1792x512, b⟩] concatenates_S4x256x512_S4x1792x512_S4x2048x512_d1) : (⟨S4x256x512, .f32⟩ : BufTy).Contents (Elt F) → (⟨S4x1792x512, .f32⟩ : BufTy).Contents (Elt F) → (⟨S4x2048x512, .f32⟩ : BufTy).Contents (Elt F)),
    unary main_v163 main_v171 ((extractStridedSlice S4x256x512 ![0, 0, 0] · slices_S4x2048x512_S4x256x512_0_0_0) : (⟨S4x2048x512, .f32⟩ : BufTy).Contents (Elt F) → (⟨S4x256x512, .f32⟩ : BufTy).Contents (Elt F)),
    unary main_v163 main_v172 ((extractStridedSlice S4x1792x512 ![0, 256, 0] · slices_S4x2048x512_S4x1792x512_0_256_0) : (⟨S4x2048x512, .f32⟩ : BufTy).Contents (Elt F) → (⟨S4x1792x512, .f32⟩ : BufTy).Contents (Elt F)),
    unary main_v163 main_v173 ((extractStridedSlice S4x1792x512 ![0, 0, 0] · slices_S4x2048x512_S4x1792x512_0_0_0) : (⟨S4x2048x512, .f32⟩ : BufTy).Contents (Elt F) → (⟨S4x1792x512, .f32⟩ : BufTy).Contents (Elt F)),
    binary main_v172 main_v173 main_v174 (mulf : (⟨S4x1792x512, .f32⟩ : BufTy).Contents (Elt F) → (⟨S4x1792x512, .f32⟩ : BufTy).Contents (Elt F) → (⟨S4x1792x512, .f32⟩ : BufTy).Contents (Elt F)),
    binary main_v171 main_v174 main_v175 ((fun a b => concatenate S4x2048x512 1 [⟨S4x256x512, a⟩, ⟨S4x1792x512, b⟩] concatenates_S4x256x512_S4x1792x512_S4x2048x512_d1) : (⟨S4x256x512, .f32⟩ : BufTy).Contents (Elt F) → (⟨S4x1792x512, .f32⟩ : BufTy).Contents (Elt F) → (⟨S4x2048x512, .f32⟩ : BufTy).Contents (Elt F)) ]

/-- The operations of stage C10, in order. -/
abbrev opsC10 : List (HloOp τ sig (Elt F)) :=
  [ unary main_v170 main_v176 ((extractStridedSlice S4x512x512 ![0, 0, 0] · slices_S4x2048x512_S4x512x512_0_0_0) : (⟨S4x2048x512, .f32⟩ : BufTy).Contents (Elt F) → (⟨S4x512x512, .f32⟩ : BufTy).Contents (Elt F)),
    unary main_v175 main_v177 ((extractStridedSlice S4x1536x512 ![0, 512, 0] · slices_S4x2048x512_S4x1536x512_0_512_0) : (⟨S4x2048x512, .f32⟩ : BufTy).Contents (Elt F) → (⟨S4x1536x512, .f32⟩ : BufTy).Contents (Elt F)),
    unary main_v170 main_v178 ((extractStridedSlice S4x1536x512 ![0, 0, 0] · slices_S4x2048x512_S4x1536x512_0_0_0) : (⟨S4x2048x512, .f32⟩ : BufTy).Contents (Elt F) → (⟨S4x1536x512, .f32⟩ : BufTy).Contents (Elt F)),
    binary main_v177 main_v178 main_v179 (mulf : (⟨S4x1536x512, .f32⟩ : BufTy).Contents (Elt F) → (⟨S4x1536x512, .f32⟩ : BufTy).Contents (Elt F) → (⟨S4x1536x512, .f32⟩ : BufTy).Contents (Elt F)),
    unary main_v170 main_v180 ((extractStridedSlice S4x1536x512 ![0, 512, 0] · slices_S4x2048x512_S4x1536x512_0_512_0) : (⟨S4x2048x512, .f32⟩ : BufTy).Contents (Elt F) → (⟨S4x1536x512, .f32⟩ : BufTy).Contents (Elt F)),
    binary main_v179 main_v180 main_v181 (addf : (⟨S4x1536x512, .f32⟩ : BufTy).Contents (Elt F) → (⟨S4x1536x512, .f32⟩ : BufTy).Contents (Elt F) → (⟨S4x1536x512, .f32⟩ : BufTy).Contents (Elt F)),
    binary main_v176 main_v181 main_v182 ((fun a b => concatenate S4x2048x512 1 [⟨S4x512x512, a⟩, ⟨S4x1536x512, b⟩] concatenates_S4x512x512_S4x1536x512_S4x2048x512_d1) : (⟨S4x512x512, .f32⟩ : BufTy).Contents (Elt F) → (⟨S4x1536x512, .f32⟩ : BufTy).Contents (Elt F) → (⟨S4x2048x512, .f32⟩ : BufTy).Contents (Elt F)),
    unary main_v175 main_v183 ((extractStridedSlice S4x512x512 ![0, 0, 0] · slices_S4x2048x512_S4x512x512_0_0_0) : (⟨S4x2048x512, .f32⟩ : BufTy).Contents (Elt F) → (⟨S4x512x512, .f32⟩ : BufTy).Contents (Elt F)),
    unary main_v175 main_v184 ((extractStridedSlice S4x1536x512 ![0, 512, 0] · slices_S4x2048x512_S4x1536x512_0_512_0) : (⟨S4x2048x512, .f32⟩ : BufTy).Contents (Elt F) → (⟨S4x1536x512, .f32⟩ : BufTy).Contents (Elt F)),
    unary main_v175 main_v185 ((extractStridedSlice S4x1536x512 ![0, 0, 0] · slices_S4x2048x512_S4x1536x512_0_0_0) : (⟨S4x2048x512, .f32⟩ : BufTy).Contents (Elt F) → (⟨S4x1536x512, .f32⟩ : BufTy).Contents (Elt F)),
    binary main_v184 main_v185 main_v186 (mulf : (⟨S4x1536x512, .f32⟩ : BufTy).Contents (Elt F) → (⟨S4x1536x512, .f32⟩ : BufTy).Contents (Elt F) → (⟨S4x1536x512, .f32⟩ : BufTy).Contents (Elt F)),
    binary main_v183 main_v186 main_v187 ((fun a b => concatenate S4x2048x512 1 [⟨S4x512x512, a⟩, ⟨S4x1536x512, b⟩] concatenates_S4x512x512_S4x1536x512_S4x2048x512_d1) : (⟨S4x512x512, .f32⟩ : BufTy).Contents (Elt F) → (⟨S4x1536x512, .f32⟩ : BufTy).Contents (Elt F) → (⟨S4x2048x512, .f32⟩ : BufTy).Contents (Elt F)) ]

/-- The operations of stage C11, in order. -/
abbrev opsC11 : List (HloOp τ sig (Elt F)) :=
  [ unary main_v182 main_v188 ((extractStridedSlice S4x1024x512 ![0, 0, 0] · slices_S4x2048x512_S4x1024x512_0_0_0) : (⟨S4x2048x512, .f32⟩ : BufTy).Contents (Elt F) → (⟨S4x1024x512, .f32⟩ : BufTy).Contents (Elt F)),
    unary main_v187 main_v189 ((extractStridedSlice S4x1024x512 ![0, 1024, 0] · slices_S4x2048x512_S4x1024x512_0_1024_0) : (⟨S4x2048x512, .f32⟩ : BufTy).Contents (Elt F) → (⟨S4x1024x512, .f32⟩ : BufTy).Contents (Elt F)),
    unary main_v182 main_v190 ((extractStridedSlice S4x1024x512 ![0, 0, 0] · slices_S4x2048x512_S4x1024x512_0_0_0) : (⟨S4x2048x512, .f32⟩ : BufTy).Contents (Elt F) → (⟨S4x1024x512, .f32⟩ : BufTy).Contents (Elt F)),
    binary main_v189 main_v190 main_v191 (mulf : (⟨S4x1024x512, .f32⟩ : BufTy).Contents (Elt F) → (⟨S4x1024x512, .f32⟩ : BufTy).Contents (Elt F) → (⟨S4x1024x512, .f32⟩ : BufTy).Contents (Elt F)),
    unary main_v182 main_v192 ((extractStridedSlice S4x1024x512 ![0, 1024, 0] · slices_S4x2048x512_S4x1024x512_0_1024_0) : (⟨S4x2048x512, .f32⟩ : BufTy).Contents (Elt F) → (⟨S4x1024x512, .f32⟩ : BufTy).Contents (Elt F)),
    binary main_v191 main_v192 main_v193 (addf : (⟨S4x1024x512, .f32⟩ : BufTy).Contents (Elt F) → (⟨S4x1024x512, .f32⟩ : BufTy).Contents (Elt F) → (⟨S4x1024x512, .f32⟩ : BufTy).Contents (Elt F)),
    binary main_v188 main_v193 main_v194 ((fun a b => concatenate S4x2048x512 1 [⟨S4x1024x512, a⟩, ⟨S4x1024x512, b⟩] concatenates_S4x1024x512_S4x1024x512_S4x2048x512_d1) : (⟨S4x1024x512, .f32⟩ : BufTy).Contents (Elt F) → (⟨S4x1024x512, .f32⟩ : BufTy).Contents (Elt F) → (⟨S4x2048x512, .f32⟩ : BufTy).Contents (Elt F)),
    unary main_v187 main_v195 ((extractStridedSlice S4x1024x512 ![0, 0, 0] · slices_S4x2048x512_S4x1024x512_0_0_0) : (⟨S4x2048x512, .f32⟩ : BufTy).Contents (Elt F) → (⟨S4x1024x512, .f32⟩ : BufTy).Contents (Elt F)),
    unary main_v187 main_v196 ((extractStridedSlice S4x1024x512 ![0, 1024, 0] · slices_S4x2048x512_S4x1024x512_0_1024_0) : (⟨S4x2048x512, .f32⟩ : BufTy).Contents (Elt F) → (⟨S4x1024x512, .f32⟩ : BufTy).Contents (Elt F)),
    unary main_v187 main_v197 ((extractStridedSlice S4x1024x512 ![0, 0, 0] · slices_S4x2048x512_S4x1024x512_0_0_0) : (⟨S4x2048x512, .f32⟩ : BufTy).Contents (Elt F) → (⟨S4x1024x512, .f32⟩ : BufTy).Contents (Elt F)),
    binary main_v196 main_v197 main_v198 (mulf : (⟨S4x1024x512, .f32⟩ : BufTy).Contents (Elt F) → (⟨S4x1024x512, .f32⟩ : BufTy).Contents (Elt F) → (⟨S4x1024x512, .f32⟩ : BufTy).Contents (Elt F)),
    binary main_v195 main_v198 main_v199 ((fun a b => concatenate S4x2048x512 1 [⟨S4x1024x512, a⟩, ⟨S4x1024x512, b⟩] concatenates_S4x1024x512_S4x1024x512_S4x2048x512_d1) : (⟨S4x1024x512, .f32⟩ : BufTy).Contents (Elt F) → (⟨S4x1024x512, .f32⟩ : BufTy).Contents (Elt F) → (⟨S4x2048x512, .f32⟩ : BufTy).Contents (Elt F)) ]

/-- The operations of stage D1, in order. -/
abbrev opsD1 : List (HloOp τ sig (Elt F)) :=
  [ unary main_v46 main_v200 (broadcastInDim S4x2048x1 ![0, 1] bcast_S4x2048_S4x2048x1_0_1 : (⟨S4x2048, .i1⟩ : BufTy).Contents (Elt F) → (⟨S4x2048x1, .i1⟩ : BufTy).Contents (Elt F)),
    unary main_v200 main_v201 (uitofp .f32 : (⟨S4x2048x1, .i1⟩ : BufTy).Contents (Elt F) → (⟨S4x2048x1, .f32⟩ : BufTy).Contents (Elt F)),
    unary main_v201 main_v202 (broadcastInDim S4x2048x512 ![0, 1, 2] bcast_S4x2048x1_S4x2048x512_0_1_2 : (⟨S4x2048x1, .f32⟩ : BufTy).Contents (Elt F) → (⟨S4x2048x512, .f32⟩ : BufTy).Contents (Elt F)),
    binary main_v194 main_v202 main_v203 (mulf : (⟨S4x2048x512, .f32⟩ : BufTy).Contents (Elt F) → (⟨S4x2048x512, .f32⟩ : BufTy).Contents (Elt F) → (⟨S4x2048x512, .f32⟩ : BufTy).Contents (Elt F)),
    unary main_v33 main_v204 ((extui 32 · natLt_1_32) : (⟨S4x2048, .i1⟩ : BufTy).Contents (Elt F) → (⟨S4x2048, .i32⟩ : BufTy).Contents (Elt F)),
    TRef.nullary main_call5.call0.c (constantI S_ 32 0#32),
    TRef.unary main_call5.call0.c main_call5.call0.v0 (broadcastInDim S_ ![] bcast_S_S_),
    TRef.binary (.of main_v204) main_call5.call0.v0 main_call5.call0.v1 (fun x v => Host.reduceWindow IntOp.addi ![1, 2048] ![1, 1] ![0, 2047] ![0, 0] x v reduceWindows_S4x2048_S4x2048_w1s1p0_0_w2048s1p2047_0 h_S_),
    nullary main_c_17 (constantI S_ 32 1#32),
    unary main_c_17 main_v206 (broadcastInDim S4x2048 ![] bcast_S_S4x2048 : (⟨S_, .i32⟩ : BufTy).Contents (Elt F) → (⟨S4x2048, .i32⟩ : BufTy).Contents (Elt F)),
    binary main_v205 main_v206 main_v207 (subi : (⟨S4x2048, .i32⟩ : BufTy).Contents (Elt F) → (⟨S4x2048, .i32⟩ : BufTy).Contents (Elt F) → (⟨S4x2048, .i32⟩ : BufTy).Contents (Elt F)),
    nullary main_c_18 (constantI S_ 32 0#32),
    nullary main_c_19 (constantI S_ 32 2047#32),
    TRef.unary (.of main_c_18) main_call6.v0 id,
    TRef.unary main_call6.v0 main_call6.v1 (broadcastInDim S4x2048 ![] bcast_S_S4x2048),
    TRef.binary main_call6.v1 (.of main_v207) main_call6.v2 maxsi,
    TRef.unary (.of main_c_19) main_call6.v3 id,
    TRef.unary main_call6.v3 main_call6.v4 (broadcastInDim S4x2048 ![] bcast_S_S4x2048),
    TRef.binary main_call6.v4 main_call6.v2 main_call6.v5 minsi,
    nullary main_c_20 (constantI S_ 32 0#32),
    unary main_c_20 main_v209 (broadcastInDim S4x2048 ![] bcast_S_S4x2048 : (⟨S_, .i32⟩ : BufTy).Contents (Elt F) → (⟨S4x2048, .i32⟩ : BufTy).Contents (Elt F)),
    binary main_v207 main_v209 main_v210 (cmpi .sge : (⟨S4x2048, .i32⟩ : BufTy).Contents (Elt F) → (⟨S4x2048, .i32⟩ : BufTy).Contents (Elt F) → (⟨S4x2048, .i1⟩ : BufTy).Contents (Elt F)) ]

/-- The operations of stage D2, in order. -/
abbrev opsD2 : List (HloOp τ sig (Elt F)) :=
  [ unary main_v208 main_v211 (broadcastInDim S4x2048x1 ![0, 1] bcast_S4x2048_S4x2048x1_0_1 : (⟨S4x2048, .i32⟩ : BufTy).Contents (Elt F) → (⟨S4x2048x1, .i32⟩ : BufTy).Contents (Elt F)),
    TRef.nullary main_call7.c (constantI S_ 32 0#32),
    TRef.unary main_call7.c main_call7.v0 (broadcastInDim S4x2048x1 ![] bcast_S_S4x2048x1),
    TRef.binary (.of main_v211) main_call7.v0 main_call7.v1 (cmpi .slt),
    TRef.nullary main_call7.c_0 (constantI S_ 32 2048#32),
    TRef.unary main_call7.c_0 main_call7.v2 (broadcastInDim S4x2048x1 ![] bcast_S_S4x2048x1),
    TRef.binary (.of main_v211) main_call7.v2 main_call7.v3 addi,
    TRef.ternary main_call7.v1 main_call7.v3 (.of main_v211) main_call7.v4 select,
    TRef.nullary main_call7.c_1 (constantI S1 32 2047#32),
    TRef.nullary main_call7.c_2 (constantI S_ 32 0#32),
    TRef.unary main_call7.c_2 main_call7.v5 (broadcastInDim S4x2048x1 ![] bcast_S_S4x2048x1),
    TRef.binary main_call7.v4 main_call7.v5 main_call7.v6 (cmpi .sge),
    TRef.unary main_call7.c_1 main_call7.v7 (broadcastInDim S1x1x1 ![2] bcast_S1_S1x1x1_2),
    TRef.unary main_call7.v7 main_call7.v8 (broadcastInDim S4x2048x1 ![0, 1, 2] bcast_S1x1x1_S4x2048x1_0_1_2),
    TRef.binary main_call7.v4 main_call7.v8 main_call7.v9 (cmpi .sle),
    TRef.binary main_call7.v6 main_call7.v9 main_call7.v10 andi,
    TRef.nullary main_call7.c_3 (constantI S_ 1 1#1),
    TRef.binary main_call7.v10 main_call7.c_3 main_call7.v11 (fun x v => Host.reduce IntOp.andi x v reducesTo_S4x2048x1_S4x2048_d2 h_S_),
    TRef.binary (.of main_v203) main_call7.v4 main_call7.v12 (fun x i => Host.gather gather_S4x2048x512_S4x2048x1_S4x2048x512_2_1_0_0_1_2_11512 x i),
    TRef.unary main_call7.v11 main_call7.v13 (broadcastInDim S4x2048x512 ![0, 1] bcast_S4x2048_S4x2048x512_0_1),
    TRef.nullary main_call7.cst (constant S_ .f32 0x7FC00000#32),
    TRef.unary main_call7.cst main_call7.v14 (broadcastInDim S4x2048x512 ![] bcast_S_S4x2048x512),
    TRef.ternary main_call7.v13 main_call7.v12 main_call7.v14 main_call7.v15 select,
    unary main_v210 main_v213 (broadcastInDim S4x2048x1 ![0, 1] bcast_S4x2048_S4x2048x1_0_1 : (⟨S4x2048, .i1⟩ : BufTy).Contents (Elt F) → (⟨S4x2048x1, .i1⟩ : BufTy).Contents (Elt F)),
    unary main_v213 main_v214 (uitofp .f32 : (⟨S4x2048x1, .i1⟩ : BufTy).Contents (Elt F) → (⟨S4x2048x1, .f32⟩ : BufTy).Contents (Elt F)),
    unary main_v214 main_v215 (broadcastInDim S4x2048x512 ![0, 1, 2] bcast_S4x2048x1_S4x2048x512_0_1_2 : (⟨S4x2048x1, .f32⟩ : BufTy).Contents (Elt F) → (⟨S4x2048x512, .f32⟩ : BufTy).Contents (Elt F)),
    binary main_v212 main_v215 main_v216 (mulf : (⟨S4x2048x512, .f32⟩ : BufTy).Contents (Elt F) → (⟨S4x2048x512, .f32⟩ : BufTy).Contents (Elt F) → (⟨S4x2048x512, .f32⟩ : BufTy).Contents (Elt F)),
    nullary main_cst_21 (constant S_ .f32 0x3F800000#32),
    unary main_cst_21 main_v217 (broadcastInDim S4x2048 ![] bcast_S_S4x2048 : (⟨S_, .f32⟩ : BufTy).Contents (Elt F) → (⟨S4x2048, .f32⟩ : BufTy).Contents (Elt F)),
    binary main_v217 main_v31 main_v218 (subf : (⟨S4x2048, .f32⟩ : BufTy).Contents (Elt F) → (⟨S4x2048, .f32⟩ : BufTy).Contents (Elt F) → (⟨S4x2048, .f32⟩ : BufTy).Contents (Elt F)),
    binary main_v218 main_v31 main_v219 (maximumf : (⟨S4x2048, .f32⟩ : BufTy).Contents (Elt F) → (⟨S4x2048, .f32⟩ : BufTy).Contents (Elt F) → (⟨S4x2048, .f32⟩ : BufTy).Contents (Elt F)),
    nullary main_cst_22 (constant S_ .f32 0x3F800000#32),
    unary main_cst_22 main_v220 (broadcastInDim S4x2048 ![] bcast_S_S4x2048 : (⟨S_, .f32⟩ : BufTy).Contents (Elt F) → (⟨S4x2048, .f32⟩ : BufTy).Contents (Elt F)),
    binary main_v219 main_v219 main_v221 (subf : (⟨S4x2048, .f32⟩ : BufTy).Contents (Elt F) → (⟨S4x2048, .f32⟩ : BufTy).Contents (Elt F) → (⟨S4x2048, .f32⟩ : BufTy).Contents (Elt F)),
    binary main_v220 main_v221 main_v222 (addf : (⟨S4x2048, .f32⟩ : BufTy).Contents (Elt F) → (⟨S4x2048, .f32⟩ : BufTy).Contents (Elt F) → (⟨S4x2048, .f32⟩ : BufTy).Contents (Elt F)),
    unary main_v222 main_v223 (broadcastInDim S4x2048x1 ![0, 1] bcast_S4x2048_S4x2048x1_0_1 : (⟨S4x2048, .f32⟩ : BufTy).Contents (Elt F) → (⟨S4x2048x1, .f32⟩ : BufTy).Contents (Elt F)),
    unary main_v223 main_v224 (broadcastInDim S4x2048x512 ![0, 1, 2] bcast_S4x2048x1_S4x2048x512_0_1_2 : (⟨S4x2048x1, .f32⟩ : BufTy).Contents (Elt F) → (⟨S4x2048x512, .f32⟩ : BufTy).Contents (Elt F)),
    binary main_v216 main_v224 main_v225 (mulf : (⟨S4x2048x512, .f32⟩ : BufTy).Contents (Elt F) → (⟨S4x2048x512, .f32⟩ : BufTy).Contents (Elt F) → (⟨S4x2048x512, .f32⟩ : BufTy).Contents (Elt F)),
    binary main_arg0 main_v225 main_v226 (addf : (⟨S4x2048x512, .f32⟩ : BufTy).Contents (Elt F) → (⟨S4x2048x512, .f32⟩ : BufTy).Contents (Elt F) → (⟨S4x2048x512, .f32⟩ : BufTy).Contents (Elt F)) ]

set_option maxRecDepth 16384 in
set_option maxHeartbeats 4000000 in
theorem part0_eq (c : Dev nD) : main_part0 (F := F) c = seq part0 := by
  simp only [main_part0, fn_clip.body, fn_argsort.body, fn_take_along_axis.body, fn_take_along_axis_0.body, fn_clip_1.body, fn_cumsum_2.body, fn_cumsum.body, fn_clip_3.body, fn_take_along_axis_4.body, seq, bind_assoc, pure_bind] <;> rfl

set_option maxRecDepth 16384 in
set_option maxHeartbeats 4000000 in
theorem part1_eq (c : Dev nD) : main_part1 (F := F) c = seq part1 := by
  simp only [main_part1, fn_clip.body, fn_argsort.body, fn_take_along_axis.body, fn_take_along_axis_0.body, fn_clip_1.body, fn_cumsum_2.body, fn_cumsum.body, fn_clip_3.body, fn_take_along_axis_4.body, seq, bind_assoc, pure_bind] <;> rfl

set_option maxRecDepth 16384 in
set_option maxHeartbeats 4000000 in
theorem part2_eq (c : Dev nD) : main_part2 (F := F) c = seq part2 := by
  simp only [main_part2, fn_clip.body, fn_argsort.body, fn_take_along_axis.body, fn_take_along_axis_0.body, fn_clip_1.body, fn_cumsum_2.body, fn_cumsum.body, fn_clip_3.body, fn_take_along_axis_4.body, seq, bind_assoc, pure_bind] <;> rfl

set_option maxRecDepth 16384 in
set_option maxHeartbeats 4000000 in
theorem part3_eq (c : Dev nD) : main_part3 (F := F) c = seq part3 := by
  simp only [main_part3, fn_clip.body, fn_argsort.body, fn_take_along_axis.body, fn_take_along_axis_0.body, fn_clip_1.body, fn_cumsum_2.body, fn_cumsum.body, fn_clip_3.body, fn_take_along_axis_4.body, seq, bind_assoc, pure_bind] <;> rfl

set_option maxRecDepth 16384 in
set_option maxHeartbeats 4000000 in
theorem part4_eq (c : Dev nD) : main_part4 (F := F) c = seq part4 := by
  simp only [main_part4, fn_clip.body, fn_argsort.body, fn_take_along_axis.body, fn_take_along_axis_0.body, fn_clip_1.body, fn_cumsum_2.body, fn_cumsum.body, fn_clip_3.body, fn_take_along_axis_4.body, seq, bind_assoc, pure_bind] <;> rfl

/-- All of @main's operations. -/
abbrev ops : List (HloOp τ sig (Elt F)) := part0 ++ part1 ++ part2 ++ part3 ++ part4

theorem main_eq (c : Dev nD) : main (F := F) c = seq ops := by
  simp only [main, part0_eq, part1_eq, part2_eq, part3_eq, part4_eq, seq_append, bind_assoc]

set_option maxRecDepth 65536 in
set_option maxHeartbeats 8000000 in
/-- The same operations grouped by stage. -/
theorem ops_eq : (ops : List (HloOp τ sig (Elt F))) = opsA ++ opsB1 ++ opsB2 ++ opsC0 ++ opsC1 ++ opsC2 ++ opsC3 ++ opsC4 ++ opsC5 ++ opsC6 ++ opsC7 ++ opsC8 ++ opsC9 ++ opsC10 ++ opsC11 ++ opsD1 ++ opsD2 := by
  simp only [ops, part0, part1, part2, part3, part4, opsA, opsB1, opsB2, opsC0, opsC1, opsC2, opsC3, opsC4, opsC5, opsC6, opsC7, opsC8, opsC9, opsC10, opsC11, opsD1, opsD2, List.cons_append, List.nil_append, List.append_assoc]

theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
theorem part0_sub : (part0 : List (HloOp τ sig (Elt F))).Forall fun op => op.bufs ⊆ tcRefs τ sig :=
  ⟨unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., nullary_bufs_sub .., unary_bufs_sub .., nullary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., binary_bufs_sub .., nullary_bufs_sub .., unary_bufs_sub .., nullary_bufs_sub .., unary_bufs_sub .., ternary_bufs_sub .., nullary_bufs_sub .., unary_bufs_sub .., binary_bufs_sub .., unary_bufs_sub .., unary_bufs_sub .., nullary_bufs_sub .., binary_bufs_sub .., binary_bufs_sub .., unary_bufs_sub .., nullary_bufs_sub .., binary_bufs_sub .., unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., unary_bufs_sub .., unary_bufs_sub .., unary_bufs_sub ..⟩

set_option maxRecDepth 16384 in
theorem part1_sub : (part1 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., unary_bufs_sub .., unary_bufs_sub .., nullary_bufs_sub .., unary_bufs_sub .., binary_bufs_sub .., unary_bufs_sub .., unary_bufs_sub .., binary_bufs_sub .., unary_bufs_sub .., unary_bufs_sub .., unary_bufs_sub .., binary_bufs_sub .., binary_bufs_sub .., unary_bufs_sub .., binary_bufs_sub .., unary_bufs_sub .., unary_bufs_sub .., unary_bufs_sub .., binary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., unary_bufs_sub .., binary_bufs_sub .., binary_bufs_sub .., unary_bufs_sub .., unary_bufs_sub ..⟩

set_option maxRecDepth 16384 in
theorem part2_sub : (part2 : List (HloOp τ sig (Elt F))).Forall fun op => op.bufs ⊆ tcRefs τ sig :=
  ⟨unary_bufs_sub .., binary_bufs_sub .., binary_bufs_sub .., unary_bufs_sub .., unary_bufs_sub .., unary_bufs_sub .., binary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., unary_bufs_sub .., binary_bufs_sub .., binary_bufs_sub .., unary_bufs_sub .., unary_bufs_sub ..⟩

set_option maxRecDepth 16384 in
theorem part3_sub : (part3 : List (HloOp τ sig (Elt F))).Forall fun op => op.bufs ⊆ tcRefs τ sig :=
  ⟨unary_bufs_sub .., binary_bufs_sub .., binary_bufs_sub .., unary_bufs_sub .., unary_bufs_sub .., unary_bufs_sub .., binary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., unary_bufs_sub .., binary_bufs_sub .., binary_bufs_sub .., unary_bufs_sub .., unary_bufs_sub .., unary_bufs_sub .., binary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., unary_bufs_sub .., binary_bufs_sub ..⟩

set_option maxRecDepth 16384 in
theorem part4_sub : (part4 : List (HloOp τ sig (Elt F))).Forall fun op => op.bufs ⊆ tcRefs τ sig :=
  ⟨nullary_bufs_sub .., unary_bufs_sub .., binary_bufs_sub .., binary_bufs_sub .., nullary_bufs_sub .., unary_bufs_sub .., binary_bufs_sub .., binary_bufs_sub .., unary_bufs_sub .., unary_bufs_sub .., binary_bufs_sub .., binary_bufs_sub ..⟩

set_option maxRecDepth 65536 in
theorem ops_sub : (ops : List (HloOp τ sig (Elt F))).Forall fun op => op.bufs ⊆ tcRefs τ sig := by
  simp only [ops, List.forall_append]
  exact ⟨⟨⟨⟨part0_sub, part1_sub⟩, part2_sub⟩, part3_sub⟩, part4_sub⟩

theorem after_append (l₁ l₂ : List (HloOp τ sig (Elt F))) (V : Valuation τ sig (Elt F)) : after (l₁ ++ l₂) V = after l₂ (after l₁ V) := by
  induction l₁ generalizing V with
  | nil => rfl
  | cons op l ih => exact ih _

end Cert.ReferenceIdeal.Run

end
-- ==== Proof.RefWinA.lean ====
import proofs.«173479_g14800457302192_cont_week2b_463_2_alg».proof.Proof.RefOps
import proofs.«173479_g14800457302192_cont_week2b_463_2_alg».proof.Proof.RefStageA

noncomputable section

namespace Cert.ReferenceIdeal.Run

open Cert.ReferenceIdeal Idealize.ShloMosaic Idealize.ShloMosaic.TcCoe Idealize.SL.Sem Idealize.ShloMosaic.StableHlo
open Facts₀
open Cert.ReferenceIdeal.Stage

variable {F : FTy → Type} [FloatOps F]

attribute [local irreducible] Host.reduce Host.reduceAdd Host.reduceWindow Host.gather Host.scatter Host.sort2 in
set_option maxRecDepth 16384 in
set_option maxHeartbeats 4000000 in
theorem fA_eq (V : Valuation τ sig (Elt F)) :
    after opsA V (main_v31 : DevRef τ sig) = fA (V (main_arg0 : DevRef τ sig)) (V (main_arg1 : DevRef τ sig)) (V (main_arg2 : DevRef τ sig)) := by
  simp only [after_cons, after_nil]
  rfl

set_option maxRecDepth 16384 in
set_option maxHeartbeats 4000000 in
theorem keepA_main_arg0 (V : Valuation τ sig (Elt F)) : after opsA V (main_arg0 : DevRef τ sig) = V (main_arg0 : DevRef τ sig) := by
  simp only [after_cons, after_nil]
  rfl

set_option maxRecDepth 16384 in
set_option maxHeartbeats 4000000 in
theorem keepA_main_arg1 (V : Valuation τ sig (Elt F)) : after opsA V (main_arg1 : DevRef τ sig) = V (main_arg1 : DevRef τ sig) := by
  simp only [after_cons, after_nil]
  rfl

set_option maxRecDepth 16384 in
set_option maxHeartbeats 4000000 in
theorem keepA_main_arg2 (V : Valuation τ sig (Elt F)) : after opsA V (main_arg2 : DevRef τ sig) = V (main_arg2 : DevRef τ sig) := by
  simp only [after_cons, after_nil]
  rfl

end Cert.ReferenceIdeal.Run

end
-- ==== Proof.RefWinB.lean ====
import proofs.«173479_g14800457302192_cont_week2b_463_2_alg».proof.Proof.RefOps
import proofs.«173479_g14800457302192_cont_week2b_463_2_alg».proof.Proof.RefStageB

noncomputable section

namespace Cert.ReferenceIdeal.Run

open Cert.ReferenceIdeal Idealize.ShloMosaic Idealize.ShloMosaic.TcCoe Idealize.SL.Sem Idealize.ShloMosaic.StableHlo
open Facts₀
open Cert.ReferenceIdeal.Stage

variable {F : FTy → Type} [FloatOps F]

attribute [local irreducible] Host.reduce Host.reduceAdd Host.reduceWindow Host.gather Host.scatter Host.sort2 in
set_option maxRecDepth 16384 in
set_option maxHeartbeats 4000000 in
theorem fB33_eq (V : Valuation τ sig (Elt F)) :
    after opsB1 V (main_v33 : DevRef τ sig) = fB33 (V (main_v31 : DevRef τ sig)) := by
  simp only [after_cons, after_nil]
  rfl

attribute [local irreducible] Host.reduce Host.reduceAdd Host.reduceWindow Host.gather Host.scatter Host.sort2 in
set_option maxRecDepth 16384 in
set_option maxHeartbeats 4000000 in
theorem fB36_eq (V : Valuation τ sig (Elt F)) :
    after opsB1 V (main_v36 : DevRef τ sig) = fB36 (V (main_v31 : DevRef τ sig)) := by
  simp only [after_cons, after_nil]
  rfl

set_option maxRecDepth 16384 in
set_option maxHeartbeats 4000000 in
theorem keepB1_main_v31 (V : Valuation τ sig (Elt F)) : after opsB1 V (main_v31 : DevRef τ sig) = V (main_v31 : DevRef τ sig) := by
  simp only [after_cons, after_nil]
  rfl

set_option maxRecDepth 16384 in
set_option maxHeartbeats 4000000 in
theorem keepB1_main_arg0 (V : Valuation τ sig (Elt F)) : after opsB1 V (main_arg0 : DevRef τ sig) = V (main_arg0 : DevRef τ sig) := by
  simp only [after_cons, after_nil]
  rfl

set_option maxRecDepth 16384 in
set_option maxHeartbeats 4000000 in
theorem keepB1_main_arg1 (V : Valuation τ sig (Elt F)) : after opsB1 V (main_arg1 : DevRef τ sig) = V (main_arg1 : DevRef τ sig) := by
  simp only [after_cons, after_nil]
  rfl

set_option maxRecDepth 16384 in
set_option maxHeartbeats 4000000 in
theorem keepB1_main_arg2 (V : Valuation τ sig (Elt F)) : after opsB1 V (main_arg2 : DevRef τ sig) = V (main_arg2 : DevRef τ sig) := by
  simp only [after_cons, after_nil]
  rfl

attribute [local irreducible] Host.reduce Host.reduceAdd Host.reduceWindow Host.gather Host.scatter Host.sort2 in
set_option maxRecDepth 16384 in
set_option maxHeartbeats 4000000 in
theorem fB40_eq (V : Valuation τ sig (Elt F)) :
    after opsB2 V (main_v40 : DevRef τ sig) = fB40 (V (main_arg0 : DevRef τ sig)) (V (main_v36 : DevRef τ sig)) := by
  simp only [after_cons, after_nil]
  rfl

attribute [local irreducible] Host.reduce Host.reduceAdd Host.reduceWindow Host.gather Host.scatter Host.sort2 in
set_option maxRecDepth 16384 in
set_option maxHeartbeats 4000000 in
theorem fB46_eq (V : Valuation τ sig (Elt F)) :
    after opsB2 V (main_v46 : DevRef τ sig) = fB46 (V (main_v33 : DevRef τ sig)) := by
  simp only [after_cons, after_nil]
  rfl

attribute [local irreducible] Host.reduce Host.reduceAdd Host.reduceWindow Host.gather Host.scatter Host.sort2 in
set_option maxRecDepth 16384 in
set_option maxHeartbeats 4000000 in
theorem fB52_eq (V : Valuation τ sig (Elt F)) :
    after opsB2 V (main_v52 : DevRef τ sig) = fB52 (V (main_v31 : DevRef τ sig)) (V (main_v36 : DevRef τ sig)) (V (main_v33 : DevRef τ sig)) := by
  simp only [after_cons, after_nil]
  rfl

set_option maxRecDepth 16384 in
set_option maxHeartbeats 4000000 in
theorem keepB2_main_v31 (V : Valuation τ sig (Elt F)) : after opsB2 V (main_v31 : DevRef τ sig) = V (main_v31 : DevRef τ sig) := by
  simp only [after_cons, after_nil]
  rfl

set_option maxRecDepth 16384 in
set_option maxHeartbeats 4000000 in
theorem keepB2_main_v33 (V : Valuation τ sig (Elt F)) : after opsB2 V (main_v33 : DevRef τ sig) = V (main_v33 : DevRef τ sig) := by
  simp only [after_cons, after_nil]
  rfl

set_option maxRecDepth 16384 in
set_option maxHeartbeats 4000000 in
theorem keepB2_main_arg0 (V : Valuation τ sig (Elt F)) : after opsB2 V (main_arg0 : DevRef τ sig) = V (main_arg0 : DevRef τ sig) := by
  simp only [after_cons, after_nil]
  rfl

set_option maxRecDepth 16384 in
set_option maxHeartbeats 4000000 in
theorem keepB2_main_arg1 (V : Valuation τ sig (Elt F)) : after opsB2 V (main_arg1 : DevRef τ sig) = V (main_arg1 : DevRef τ sig) := by
  simp only [after_cons, after_nil]
  rfl

set_option maxRecDepth 16384 in
set_option maxHeartbeats 4000000 in
theorem keepB2_main_arg2 (V : Valuation τ sig (Elt F)) : after opsB2 V (main_arg2 : DevRef τ sig) = V (main_arg2 : DevRef τ sig) := by
  simp only [after_cons, after_nil]
  rfl

end Cert.ReferenceIdeal.Run

end
-- ==== Proof.RefWinC.lean ====
import proofs.«173479_g14800457302192_cont_week2b_463_2_alg».proof.Proof.RefOps
import proofs.«173479_g14800457302192_cont_week2b_463_2_alg».proof.Proof.RefStageC

noncomputable section

namespace Cert.ReferenceIdeal.Run

open Cert.ReferenceIdeal Idealize.ShloMosaic Idealize.ShloMosaic.TcCoe Idealize.SL.Sem Idealize.ShloMosaic.StableHlo
open Facts₀
open Cert.ReferenceIdeal.Stage

variable {F : FTy → Type} [FloatOps F]

attribute [local irreducible] Host.reduce Host.reduceAdd Host.reduceWindow Host.gather Host.scatter Host.sort2 in
set_option maxRecDepth 16384 in
set_option maxHeartbeats 4000000 in
theorem fC0a_eq (V : Valuation τ sig (Elt F)) :
    after opsC0 V (main_v55 : DevRef τ sig) = fC0a (V (main_v52 : DevRef τ sig)) := by
  simp only [after_cons, after_nil]
  rfl

attribute [local irreducible] Host.reduce Host.reduceAdd Host.reduceWindow Host.gather Host.scatter Host.sort2 in
set_option maxRecDepth 16384 in
set_option maxHeartbeats 4000000 in
theorem fC0b_eq (V : Valuation τ sig (Elt F)) :
    after opsC0 V (main_v67 : DevRef τ sig) = fC0b (V (main_v52 : DevRef τ sig)) (V (main_v40 : DevRef τ sig)) := by
  simp only [after_cons, after_nil]
  rfl

set_option maxRecDepth 16384 in
set_option maxHeartbeats 4000000 in
theorem keepC0_main_v31 (V : Valuation τ sig (Elt F)) : after opsC0 V (main_v31 : DevRef τ sig) = V (main_v31 : DevRef τ sig) := by
  simp only [after_cons, after_nil]
  rfl

set_option maxRecDepth 16384 in
set_option maxHeartbeats 4000000 in
theorem keepC0_main_v33 (V : Valuation τ sig (Elt F)) : after opsC0 V (main_v33 : DevRef τ sig) = V (main_v33 : DevRef τ sig) := by
  simp only [after_cons, after_nil]
  rfl

set_option maxRecDepth 16384 in
set_option maxHeartbeats 4000000 in
theorem keepC0_main_v46 (V : Valuation τ sig (Elt F)) : after opsC0 V (main_v46 : DevRef τ sig) = V (main_v46 : DevRef τ sig) := by
  simp only [after_cons, after_nil]
  rfl

set_option maxRecDepth 16384 in
set_option maxHeartbeats 4000000 in
theorem keepC0_main_arg0 (V : Valuation τ sig (Elt F)) : after opsC0 V (main_arg0 : DevRef τ sig) = V (main_arg0 : DevRef τ sig) := by
  simp only [after_cons, after_nil]
  rfl

set_option maxRecDepth 16384 in
set_option maxHeartbeats 4000000 in
theorem keepC0_main_arg1 (V : Valuation τ sig (Elt F)) : after opsC0 V (main_arg1 : DevRef τ sig) = V (main_arg1 : DevRef τ sig) := by
  simp only [after_cons, after_nil]
  rfl

set_option maxRecDepth 16384 in
set_option maxHeartbeats 4000000 in
theorem keepC0_main_arg2 (V : Valuation τ sig (Elt F)) : after opsC0 V (main_arg2 : DevRef τ sig) = V (main_arg2 : DevRef τ sig) := by
  simp only [after_cons, after_nil]
  rfl

attribute [local irreducible] Host.reduce Host.reduceAdd Host.reduceWindow Host.gather Host.scatter Host.sort2 in
set_option maxRecDepth 16384 in
set_option maxHeartbeats 4000000 in
theorem fC1b_eq (V : Valuation τ sig (Elt F)) :
    after opsC1 V (main_v74 : DevRef τ sig) = fC1b (V (main_v55 : DevRef τ sig)) (V (main_v67 : DevRef τ sig)) := by
  simp only [after_cons, after_nil]
  rfl

attribute [local irreducible] Host.reduce Host.reduceAdd Host.reduceWindow Host.gather Host.scatter Host.sort2 in
set_option maxRecDepth 16384 in
set_option maxHeartbeats 4000000 in
theorem fC1a_eq (V : Valuation τ sig (Elt F)) :
    after opsC1 V (main_v79 : DevRef τ sig) = fC1a (V (main_v55 : DevRef τ sig)) := by
  simp only [after_cons, after_nil]
  rfl

set_option maxRecDepth 16384 in
set_option maxHeartbeats 4000000 in
theorem keepC1_main_v31 (V : Valuation τ sig (Elt F)) : after opsC1 V (main_v31 : DevRef τ sig) = V (main_v31 : DevRef τ sig) := by
  simp only [after_cons, after_nil]
  rfl

set_option maxRecDepth 16384 in
set_option maxHeartbeats 4000000 in
theorem keepC1_main_v33 (V : Valuation τ sig (Elt F)) : after opsC1 V (main_v33 : DevRef τ sig) = V (main_v33 : DevRef τ sig) := by
  simp only [after_cons, after_nil]
  rfl

set_option maxRecDepth 16384 in
set_option maxHeartbeats 4000000 in
theorem keepC1_main_v46 (V : Valuation τ sig (Elt F)) : after opsC1 V (main_v46 : DevRef τ sig) = V (main_v46 : DevRef τ sig) := by
  simp only [after_cons, after_nil]
  rfl

set_option maxRecDepth 16384 in
set_option maxHeartbeats 4000000 in
theorem keepC1_main_arg0 (V : Valuation τ sig (Elt F)) : after opsC1 V (main_arg0 : DevRef τ sig) = V (main_arg0 : DevRef τ sig) := by
  simp only [after_cons, after_nil]
  rfl

set_option maxRecDepth 16384 in
set_option maxHeartbeats 4000000 in
theorem keepC1_main_arg1 (V : Valuation τ sig (Elt F)) : after opsC1 V (main_arg1 : DevRef τ sig) = V (main_arg1 : DevRef τ sig) := by
  simp only [after_cons, after_nil]
  rfl

set_option maxRecDepth 16384 in
set_option maxHeartbeats 4000000 in
theorem keepC1_main_arg2 (V : Valuation τ sig (Elt F)) : after opsC1 V (main_arg2 : DevRef τ sig) = V (main_arg2 : DevRef τ sig) := by
  simp only [after_cons, after_nil]
  rfl

attribute [local irreducible] Host.reduce Host.reduceAdd Host.reduceWindow Host.gather Host.scatter Host.sort2 in
set_option maxRecDepth 16384 in
set_option maxHeartbeats 4000000 in
theorem fC2b_eq (V : Valuation τ sig (Elt F)) :
    after opsC2 V (main_v86 : DevRef τ sig) = fC2b (V (main_v79 : DevRef τ sig)) (V (main_v74 : DevRef τ sig)) := by
  simp only [after_cons, after_nil]
  rfl

attribute [local irreducible] Host.reduce Host.reduceAdd Host.reduceWindow Host.gather Host.scatter Host.sort2 in
set_option maxRecDepth 16384 in
set_option maxHeartbeats 4000000 in
theorem fC2a_eq (V : Valuation τ sig (Elt F)) :
    after opsC2 V (main_v91 : DevRef τ sig) = fC2a (V (main_v79 : DevRef τ sig)) := by
  simp only [after_cons, after_nil]
  rfl

set_option maxRecDepth 16384 in
set_option maxHeartbeats 4000000 in
theorem keepC2_main_v31 (V : Valuation τ sig (Elt F)) : after opsC2 V (main_v31 : DevRef τ sig) = V (main_v31 : DevRef τ sig) := by
  simp only [after_cons, after_nil]
  rfl

set_option maxRecDepth 16384 in
set_option maxHeartbeats 4000000 in
theorem keepC2_main_v33 (V : Valuation τ sig (Elt F)) : after opsC2 V (main_v33 : DevRef τ sig) = V (main_v33 : DevRef τ sig) := by
  simp only [after_cons, after_nil]
  rfl

set_option maxRecDepth 16384 in
set_option maxHeartbeats 4000000 in
theorem keepC2_main_v46 (V : Valuation τ sig (Elt F)) : after opsC2 V (main_v46 : DevRef τ sig) = V (main_v46 : DevRef τ sig) := by
  simp only [after_cons, after_nil]
  rfl

set_option maxRecDepth 16384 in
set_option maxHeartbeats 4000000 in
theorem keepC2_main_arg0 (V : Valuation τ sig (Elt F)) : after opsC2 V (main_arg0 : DevRef τ sig) = V (main_arg0 : DevRef τ sig) := by
  simp only [after_cons, after_nil]
  rfl

set_option maxRecDepth 16384 in
set_option maxHeartbeats 4000000 in
theorem keepC2_main_arg1 (V : Valuation τ sig (Elt F)) : after opsC2 V (main_arg1 : DevRef τ sig) = V (main_arg1 : DevRef τ sig) := by
  simp only [after_cons, after_nil]
  rfl

set_option maxRecDepth 16384 in
set_option maxHeartbeats 4000000 in
theorem keepC2_main_arg2 (V : Valuation τ sig (Elt F)) : after opsC2 V (main_arg2 : DevRef τ sig) = V (main_arg2 : DevRef τ sig) := by
  simp only [after_cons, after_nil]
  rfl

attribute [local irreducible] Host.reduce Host.reduceAdd Host.reduceWindow Host.gather Host.scatter Host.sort2 in
set_option maxRecDepth 16384 in
set_option maxHeartbeats 4000000 in
theorem fC3b_eq (V : Valuation τ sig (Elt F)) :
    after opsC3 V (main_v98 : DevRef τ sig) = fC3b (V (main_v91 : DevRef τ sig)) (V (main_v86 : DevRef τ sig)) := by
  simp only [after_cons, after_nil]
  rfl

attribute [local irreducible] Host.reduce Host.reduceAdd Host.reduceWindow Host.gather Host.scatter Host.sort2 in
set_option maxRecDepth 16384 in
set_option maxHeartbeats 4000000 in
theorem fC3a_eq (V : Valuation τ sig (Elt F)) :
    after opsC3 V (main_v103 : DevRef τ sig) = fC3a (V (main_v91 : DevRef τ sig)) := by
  simp only [after_cons, after_nil]
  rfl

set_option maxRecDepth 16384 in
set_option maxHeartbeats 4000000 in
theorem keepC3_main_v31 (V : Valuation τ sig (Elt F)) : after opsC3 V (main_v31 : DevRef τ sig) = V (main_v31 : DevRef τ sig) := by
  simp only [after_cons, after_nil]
  rfl

set_option maxRecDepth 16384 in
set_option maxHeartbeats 4000000 in
theorem keepC3_main_v33 (V : Valuation τ sig (Elt F)) : after opsC3 V (main_v33 : DevRef τ sig) = V (main_v33 : DevRef τ sig) := by
  simp only [after_cons, after_nil]
  rfl

set_option maxRecDepth 16384 in
set_option maxHeartbeats 4000000 in
theorem keepC3_main_v46 (V : Valuation τ sig (Elt F)) : after opsC3 V (main_v46 : DevRef τ sig) = V (main_v46 : DevRef τ sig) := by
  simp only [after_cons, after_nil]
  rfl

set_option maxRecDepth 16384 in
set_option maxHeartbeats 4000000 in
theorem keepC3_main_arg0 (V : Valuation τ sig (Elt F)) : after opsC3 V (main_arg0 : DevRef τ sig) = V (main_arg0 : DevRef τ sig) := by
  simp only [after_cons, after_nil]
  rfl

set_option maxRecDepth 16384 in
set_option maxHeartbeats 4000000 in
theorem keepC3_main_arg1 (V : Valuation τ sig (Elt F)) : after opsC3 V (main_arg1 : DevRef τ sig) = V (main_arg1 : DevRef τ sig) := by
  simp only [after_cons, after_nil]
  rfl

set_option maxRecDepth 16384 in
set_option maxHeartbeats 4000000 in
theorem keepC3_main_arg2 (V : Valuation τ sig (Elt F)) : after opsC3 V (main_arg2 : DevRef τ sig) = V (main_arg2 : DevRef τ sig) := by
  simp only [after_cons, after_nil]
  rfl

attribute [local irreducible] Host.reduce Host.reduceAdd Host.reduceWindow Host.gather Host.scatter Host.sort2 in
set_option maxRecDepth 16384 in
set_option maxHeartbeats 4000000 in
theorem fC4b_eq (V : Valuation τ sig (Elt F)) :
    after opsC4 V (main_v110 : DevRef τ sig) = fC4b (V (main_v103 : DevRef τ sig)) (V (main_v98 : DevRef τ sig)) := by
  simp only [after_cons, after_nil]
  rfl

attribute [local irreducible] Host.reduce Host.reduceAdd Host.reduceWindow Host.gather Host.scatter Host.sort2 in
set_option maxRecDepth 16384 in
set_option maxHeartbeats 4000000 in
theorem fC4a_eq (V : Valuation τ sig (Elt F)) :
    after opsC4 V (main_v115 : DevRef τ sig) = fC4a (V (main_v103 : DevRef τ sig)) := by
  simp only [after_cons, after_nil]
  rfl

set_option maxRecDepth 16384 in
set_option maxHeartbeats 4000000 in
theorem keepC4_main_v31 (V : Valuation τ sig (Elt F)) : after opsC4 V (main_v31 : DevRef τ sig) = V (main_v31 : DevRef τ sig) := by
  simp only [after_cons, after_nil]
  rfl

set_option maxRecDepth 16384 in
set_option maxHeartbeats 4000000 in
theorem keepC4_main_v33 (V : Valuation τ sig (Elt F)) : after opsC4 V (main_v33 : DevRef τ sig) = V (main_v33 : DevRef τ sig) := by
  simp only [after_cons, after_nil]
  rfl

set_option maxRecDepth 16384 in
set_option maxHeartbeats 4000000 in
theorem keepC4_main_v46 (V : Valuation τ sig (Elt F)) : after opsC4 V (main_v46 : DevRef τ sig) = V (main_v46 : DevRef τ sig) := by
  simp only [after_cons, after_nil]
  rfl

set_option maxRecDepth 16384 in
set_option maxHeartbeats 4000000 in
theorem keepC4_main_arg0 (V : Valuation τ sig (Elt F)) : after opsC4 V (main_arg0 : DevRef τ sig) = V (main_arg0 : DevRef τ sig) := by
  simp only [after_cons, after_nil]
  rfl

set_option maxRecDepth 16384 in
set_option maxHeartbeats 4000000 in
theorem keepC4_main_arg1 (V : Valuation τ sig (Elt F)) : after opsC4 V (main_arg1 : DevRef τ sig) = V (main_arg1 : DevRef τ sig) := by
  simp only [after_cons, after_nil]
  rfl

set_option maxRecDepth 16384 in
set_option maxHeartbeats 4000000 in
theorem keepC4_main_arg2 (V : Valuation τ sig (Elt F)) : after opsC4 V (main_arg2 : DevRef τ sig) = V (main_arg2 : DevRef τ sig) := by
  simp only [after_cons, after_nil]
  rfl

attribute [local irreducible] Host.reduce Host.reduceAdd Host.reduceWindow Host.gather Host.scatter Host.sort2 in
set_option maxRecDepth 16384 in
set_option maxHeartbeats 4000000 in
theorem fC5b_eq (V : Valuation τ sig (Elt F)) :
    after opsC5 V (main_v122 : DevRef τ sig) = fC5b (V (main_v115 : DevRef τ sig)) (V (main_v110 : DevRef τ sig)) := by
  simp only [after_cons, after_nil]
  rfl

attribute [local irreducible] Host.reduce Host.reduceAdd Host.reduceWindow Host.gather Host.scatter Host.sort2 in
set_option maxRecDepth 16384 in
set_option maxHeartbeats 4000000 in
theorem fC5a_eq (V : Valuation τ sig (Elt F)) :
    after opsC5 V (main_v127 : DevRef τ sig) = fC5a (V (main_v115 : DevRef τ sig)) := by
  simp only [after_cons, after_nil]
  rfl

set_option maxRecDepth 16384 in
set_option maxHeartbeats 4000000 in
theorem keepC5_main_v31 (V : Valuation τ sig (Elt F)) : after opsC5 V (main_v31 : DevRef τ sig) = V (main_v31 : DevRef τ sig) := by
  simp only [after_cons, after_nil]
  rfl

set_option maxRecDepth 16384 in
set_option maxHeartbeats 4000000 in
theorem keepC5_main_v33 (V : Valuation τ sig (Elt F)) : after opsC5 V (main_v33 : DevRef τ sig) = V (main_v33 : DevRef τ sig) := by
  simp only [after_cons, after_nil]
  rfl

set_option maxRecDepth 16384 in
set_option maxHeartbeats 4000000 in
theorem keepC5_main_v46 (V : Valuation τ sig (Elt F)) : after opsC5 V (main_v46 : DevRef τ sig) = V (main_v46 : DevRef τ sig) := by
  simp only [after_cons, after_nil]
  rfl

set_option maxRecDepth 16384 in
set_option maxHeartbeats 4000000 in
theorem keepC5_main_arg0 (V : Valuation τ sig (Elt F)) : after opsC5 V (main_arg0 : DevRef τ sig) = V (main_arg0 : DevRef τ sig) := by
  simp only [after_cons, after_nil]
  rfl

set_option maxRecDepth 16384 in
set_option maxHeartbeats 4000000 in
theorem keepC5_main_arg1 (V : Valuation τ sig (Elt F)) : after opsC5 V (main_arg1 : DevRef τ sig) = V (main_arg1 : DevRef τ sig) := by
  simp only [after_cons, after_nil]
  rfl

set_option maxRecDepth 16384 in
set_option maxHeartbeats 4000000 in
theorem keepC5_main_arg2 (V : Valuation τ sig (Elt F)) : after opsC5 V (main_arg2 : DevRef τ sig) = V (main_arg2 : DevRef τ sig) := by
  simp only [after_cons, after_nil]
  rfl

attribute [local irreducible] Host.reduce Host.reduceAdd Host.reduceWindow Host.gather Host.scatter Host.sort2 in
set_option maxRecDepth 16384 in
set_option maxHeartbeats 4000000 in
theorem fC6b_eq (V : Valuation τ sig (Elt F)) :
    after opsC6 V (main_v134 : DevRef τ sig) = fC6b (V (main_v127 : DevRef τ sig)) (V (main_v122 : DevRef τ sig)) := by
  simp only [after_cons, after_nil]
  rfl

attribute [local irreducible] Host.reduce Host.reduceAdd Host.reduceWindow Host.gather Host.scatter Host.sort2 in
set_option maxRecDepth 16384 in
set_option maxHeartbeats 4000000 in
theorem fC6a_eq (V : Valuation τ sig (Elt F)) :
    after opsC6 V (main_v139 : DevRef τ sig) = fC6a (V (main_v127 : DevRef τ sig)) := by
  simp only [after_cons, after_nil]
  rfl

set_option maxRecDepth 16384 in
set_option maxHeartbeats 4000000 in
theorem keepC6_main_v31 (V : Valuation τ sig (Elt F)) : after opsC6 V (main_v31 : DevRef τ sig) = V (main_v31 : DevRef τ sig) := by
  simp only [after_cons, after_nil]
  rfl

set_option maxRecDepth 16384 in
set_option maxHeartbeats 4000000 in
theorem keepC6_main_v33 (V : Valuation τ sig (Elt F)) : after opsC6 V (main_v33 : DevRef τ sig) = V (main_v33 : DevRef τ sig) := by
  simp only [after_cons, after_nil]
  rfl

set_option maxRecDepth 16384 in
set_option maxHeartbeats 4000000 in
theorem keepC6_main_v46 (V : Valuation τ sig (Elt F)) : after opsC6 V (main_v46 : DevRef τ sig) = V (main_v46 : DevRef τ sig) := by
  simp only [after_cons, after_nil]
  rfl

set_option maxRecDepth 16384 in
set_option maxHeartbeats 4000000 in
theorem keepC6_main_arg0 (V : Valuation τ sig (Elt F)) : after opsC6 V (main_arg0 : DevRef τ sig) = V (main_arg0 : DevRef τ sig) := by
  simp only [after_cons, after_nil]
  rfl

set_option maxRecDepth 16384 in
set_option maxHeartbeats 4000000 in
theorem keepC6_main_arg1 (V : Valuation τ sig (Elt F)) : after opsC6 V (main_arg1 : DevRef τ sig) = V (main_arg1 : DevRef τ sig) := by
  simp only [after_cons, after_nil]
  rfl

set_option maxRecDepth 16384 in
set_option maxHeartbeats 4000000 in
theorem keepC6_main_arg2 (V : Valuation τ sig (Elt F)) : after opsC6 V (main_arg2 : DevRef τ sig) = V (main_arg2 : DevRef τ sig) := by
  simp only [after_cons, after_nil]
  rfl

attribute [local irreducible] Host.reduce Host.reduceAdd Host.reduceWindow Host.gather Host.scatter Host.sort2 in
set_option maxRecDepth 16384 in
set_option maxHeartbeats 4000000 in
theorem fC7b_eq (V : Valuation τ sig (Elt F)) :
    after opsC7 V (main_v146 : DevRef τ sig) = fC7b (V (main_v139 : DevRef τ sig)) (V (main_v134 : DevRef τ sig)) := by
  simp only [after_cons, after_nil]
  rfl

attribute [local irreducible] Host.reduce Host.reduceAdd Host.reduceWindow Host.gather Host.scatter Host.sort2 in
set_option maxRecDepth 16384 in
set_option maxHeartbeats 4000000 in
theorem fC7a_eq (V : Valuation τ sig (Elt F)) :
    after opsC7 V (main_v151 : DevRef τ sig) = fC7a (V (main_v139 : DevRef τ sig)) := by
  simp only [after_cons, after_nil]
  rfl

set_option maxRecDepth 16384 in
set_option maxHeartbeats 4000000 in
theorem keepC7_main_v31 (V : Valuation τ sig (Elt F)) : after opsC7 V (main_v31 : DevRef τ sig) = V (main_v31 : DevRef τ sig) := by
  simp only [after_cons, after_nil]
  rfl

set_option maxRecDepth 16384 in
set_option maxHeartbeats 4000000 in
theorem keepC7_main_v33 (V : Valuation τ sig (Elt F)) : after opsC7 V (main_v33 : DevRef τ sig) = V (main_v33 : DevRef τ sig) := by
  simp only [after_cons, after_nil]
  rfl

set_option maxRecDepth 16384 in
set_option maxHeartbeats 4000000 in
theorem keepC7_main_v46 (V : Valuation τ sig (Elt F)) : after opsC7 V (main_v46 : DevRef τ sig) = V (main_v46 : DevRef τ sig) := by
  simp only [after_cons, after_nil]
  rfl

set_option maxRecDepth 16384 in
set_option maxHeartbeats 4000000 in
theorem keepC7_main_arg0 (V : Valuation τ sig (Elt F)) : after opsC7 V (main_arg0 : DevRef τ sig) = V (main_arg0 : DevRef τ sig) := by
  simp only [after_cons, after_nil]
  rfl

set_option maxRecDepth 16384 in
set_option maxHeartbeats 4000000 in
theorem keepC7_main_arg1 (V : Valuation τ sig (Elt F)) : after opsC7 V (main_arg1 : DevRef τ sig) = V (main_arg1 : DevRef τ sig) := by
  simp only [after_cons, after_nil]
  rfl

set_option maxRecDepth 16384 in
set_option maxHeartbeats 4000000 in
theorem keepC7_main_arg2 (V : Valuation τ sig (Elt F)) : after opsC7 V (main_arg2 : DevRef τ sig) = V (main_arg2 : DevRef τ sig) := by
  simp only [after_cons, after_nil]
  rfl

attribute [local irreducible] Host.reduce Host.reduceAdd Host.reduceWindow Host.gather Host.scatter Host.sort2 in
set_option maxRecDepth 16384 in
set_option maxHeartbeats 4000000 in
theorem fC8b_eq (V : Valuation τ sig (Elt F)) :
    after opsC8 V (main_v158 : DevRef τ sig) = fC8b (V (main_v151 : DevRef τ sig)) (V (main_v146 : DevRef τ sig)) := by
  simp only [after_cons, after_nil]
  rfl

attribute [local irreducible] Host.reduce Host.reduceAdd Host.reduceWindow Host.gather Host.scatter Host.sort2 in
set_option maxRecDepth 16384 in
set_option maxHeartbeats 4000000 in
theorem fC8a_eq (V : Valuation τ sig (Elt F)) :
    after opsC8 V (main_v163 : DevRef τ sig) = fC8a (V (main_v151 : DevRef τ sig)) := by
  simp only [after_cons, after_nil]
  rfl

set_option maxRecDepth 16384 in
set_option maxHeartbeats 4000000 in
theorem keepC8_main_v31 (V : Valuation τ sig (Elt F)) : after opsC8 V (main_v31 : DevRef τ sig) = V (main_v31 : DevRef τ sig) := by
  simp only [after_cons, after_nil]
  rfl

set_option maxRecDepth 16384 in
set_option maxHeartbeats 4000000 in
theorem keepC8_main_v33 (V : Valuation τ sig (Elt F)) : after opsC8 V (main_v33 : DevRef τ sig) = V (main_v33 : DevRef τ sig) := by
  simp only [after_cons, after_nil]
  rfl

set_option maxRecDepth 16384 in
set_option maxHeartbeats 4000000 in
theorem keepC8_main_v46 (V : Valuation τ sig (Elt F)) : after opsC8 V (main_v46 : DevRef τ sig) = V (main_v46 : DevRef τ sig) := by
  simp only [after_cons, after_nil]
  rfl

set_option maxRecDepth 16384 in
set_option maxHeartbeats 4000000 in
theorem keepC8_main_arg0 (V : Valuation τ sig (Elt F)) : after opsC8 V (main_arg0 : DevRef τ sig) = V (main_arg0 : DevRef τ sig) := by
  simp only [after_cons, after_nil]
  rfl

set_option maxRecDepth 16384 in
set_option maxHeartbeats 4000000 in
theorem keepC8_main_arg1 (V : Valuation τ sig (Elt F)) : after opsC8 V (main_arg1 : DevRef τ sig) = V (main_arg1 : DevRef τ sig) := by
  simp only [after_cons, after_nil]
  rfl

set_option maxRecDepth 16384 in
set_option maxHeartbeats 4000000 in
theorem keepC8_main_arg2 (V : Valuation τ sig (Elt F)) : after opsC8 V (main_arg2 : DevRef τ sig) = V (main_arg2 : DevRef τ sig) := by
  simp only [after_cons, after_nil]
  rfl

attribute [local irreducible] Host.reduce Host.reduceAdd Host.reduceWindow Host.gather Host.scatter Host.sort2 in
set_option maxRecDepth 16384 in
set_option maxHeartbeats 4000000 in
theorem fC9b_eq (V : Valuation τ sig (Elt F)) :
    after opsC9 V (main_v170 : DevRef τ sig) = fC9b (V (main_v163 : DevRef τ sig)) (V (main_v158 : DevRef τ sig)) := by
  simp only [after_cons, after_nil]
  rfl

attribute [local irreducible] Host.reduce Host.reduceAdd Host.reduceWindow Host.gather Host.scatter Host.sort2 in
set_option maxRecDepth 16384 in
set_option maxHeartbeats 4000000 in
theorem fC9a_eq (V : Valuation τ sig (Elt F)) :
    after opsC9 V (main_v175 : DevRef τ sig) = fC9a (V (main_v163 : DevRef τ sig)) := by
  simp only [after_cons, after_nil]
  rfl

set_option maxRecDepth 16384 in
set_option maxHeartbeats 4000000 in
theorem keepC9_main_v31 (V : Valuation τ sig (Elt F)) : after opsC9 V (main_v31 : DevRef τ sig) = V (main_v31 : DevRef τ sig) := by
  simp only [after_cons, after_nil]
  rfl

set_option maxRecDepth 16384 in
set_option maxHeartbeats 4000000 in
theorem keepC9_main_v33 (V : Valuation τ sig (Elt F)) : after opsC9 V (main_v33 : DevRef τ sig) = V (main_v33 : DevRef τ sig) := by
  simp only [after_cons, after_nil]
  rfl

set_option maxRecDepth 16384 in
set_option maxHeartbeats 4000000 in
theorem keepC9_main_v46 (V : Valuation τ sig (Elt F)) : after opsC9 V (main_v46 : DevRef τ sig) = V (main_v46 : DevRef τ sig) := by
  simp only [after_cons, after_nil]
  rfl

set_option maxRecDepth 16384 in
set_option maxHeartbeats 4000000 in
theorem keepC9_main_arg0 (V : Valuation τ sig (Elt F)) : after opsC9 V (main_arg0 : DevRef τ sig) = V (main_arg0 : DevRef τ sig) := by
  simp only [after_cons, after_nil]
  rfl

set_option maxRecDepth 16384 in
set_option maxHeartbeats 4000000 in
theorem keepC9_main_arg1 (V : Valuation τ sig (Elt F)) : after opsC9 V (main_arg1 : DevRef τ sig) = V (main_arg1 : DevRef τ sig) := by
  simp only [after_cons, after_nil]
  rfl

set_option maxRecDepth 16384 in
set_option maxHeartbeats 4000000 in
theorem keepC9_main_arg2 (V : Valuation τ sig (Elt F)) : after opsC9 V (main_arg2 : DevRef τ sig) = V (main_arg2 : DevRef τ sig) := by
  simp only [after_cons, after_nil]
  rfl

attribute [local irreducible] Host.reduce Host.reduceAdd Host.reduceWindow Host.gather Host.scatter Host.sort2 in
set_option maxRecDepth 16384 in
set_option maxHeartbeats 4000000 in
theorem fC10b_eq (V : Valuation τ sig (Elt F)) :
    after opsC10 V (main_v182 : DevRef τ sig) = fC10b (V (main_v175 : DevRef τ sig)) (V (main_v170 : DevRef τ sig)) := by
  simp only [after_cons, after_nil]
  rfl

attribute [local irreducible] Host.reduce Host.reduceAdd Host.reduceWindow Host.gather Host.scatter Host.sort2 in
set_option maxRecDepth 16384 in
set_option maxHeartbeats 4000000 in
theorem fC10a_eq (V : Valuation τ sig (Elt F)) :
    after opsC10 V (main_v187 : DevRef τ sig) = fC10a (V (main_v175 : DevRef τ sig)) := by
  simp only [after_cons, after_nil]
  rfl

set_option maxRecDepth 16384 in
set_option maxHeartbeats 4000000 in
theorem keepC10_main_v31 (V : Valuation τ sig (Elt F)) : after opsC10 V (main_v31 : DevRef τ sig) = V (main_v31 : DevRef τ sig) := by
  simp only [after_cons, after_nil]
  rfl

set_option maxRecDepth 16384 in
set_option maxHeartbeats 4000000 in
theorem keepC10_main_v33 (V : Valuation τ sig (Elt F)) : after opsC10 V (main_v33 : DevRef τ sig) = V (main_v33 : DevRef τ sig) := by
  simp only [after_cons, after_nil]
  rfl

set_option maxRecDepth 16384 in
set_option maxHeartbeats 4000000 in
theorem keepC10_main_v46 (V : Valuation τ sig (Elt F)) : after opsC10 V (main_v46 : DevRef τ sig) = V (main_v46 : DevRef τ sig) := by
  simp only [after_cons, after_nil]
  rfl

set_option maxRecDepth 16384 in
set_option maxHeartbeats 4000000 in
theorem keepC10_main_arg0 (V : Valuation τ sig (Elt F)) : after opsC10 V (main_arg0 : DevRef τ sig) = V (main_arg0 : DevRef τ sig) := by
  simp only [after_cons, after_nil]
  rfl

set_option maxRecDepth 16384 in
set_option maxHeartbeats 4000000 in
theorem keepC10_main_arg1 (V : Valuation τ sig (Elt F)) : after opsC10 V (main_arg1 : DevRef τ sig) = V (main_arg1 : DevRef τ sig) := by
  simp only [after_cons, after_nil]
  rfl

set_option maxRecDepth 16384 in
set_option maxHeartbeats 4000000 in
theorem keepC10_main_arg2 (V : Valuation τ sig (Elt F)) : after opsC10 V (main_arg2 : DevRef τ sig) = V (main_arg2 : DevRef τ sig) := by
  simp only [after_cons, after_nil]
  rfl

attribute [local irreducible] Host.reduce Host.reduceAdd Host.reduceWindow Host.gather Host.scatter Host.sort2 in
set_option maxRecDepth 16384 in
set_option maxHeartbeats 4000000 in
theorem fC11b_eq (V : Valuation τ sig (Elt F)) :
    after opsC11 V (main_v194 : DevRef τ sig) = fC11b (V (main_v187 : DevRef τ sig)) (V (main_v182 : DevRef τ sig)) := by
  simp only [after_cons, after_nil]
  rfl

set_option maxRecDepth 16384 in
set_option maxHeartbeats 4000000 in
theorem keepC11_main_v31 (V : Valuation τ sig (Elt F)) : after opsC11 V (main_v31 : DevRef τ sig) = V (main_v31 : DevRef τ sig) := by
  simp only [after_cons, after_nil]
  rfl

set_option maxRecDepth 16384 in
set_option maxHeartbeats 4000000 in
theorem keepC11_main_v33 (V : Valuation τ sig (Elt F)) : after opsC11 V (main_v33 : DevRef τ sig) = V (main_v33 : DevRef τ sig) := by
  simp only [after_cons, after_nil]
  rfl

set_option maxRecDepth 16384 in
set_option maxHeartbeats 4000000 in
theorem keepC11_main_v46 (V : Valuation τ sig (Elt F)) : after opsC11 V (main_v46 : DevRef τ sig) = V (main_v46 : DevRef τ sig) := by
  simp only [after_cons, after_nil]
  rfl

set_option maxRecDepth 16384 in
set_option maxHeartbeats 4000000 in
theorem keepC11_main_arg0 (V : Valuation τ sig (Elt F)) : after opsC11 V (main_arg0 : DevRef τ sig) = V (main_arg0 : DevRef τ sig) := by
  simp only [after_cons, after_nil]
  rfl

set_option maxRecDepth 16384 in
set_option maxHeartbeats 4000000 in
theorem keepC11_main_arg1 (V : Valuation τ sig (Elt F)) : after opsC11 V (main_arg1 : DevRef τ sig) = V (main_arg1 : DevRef τ sig) := by
  simp only [after_cons, after_nil]
  rfl

set_option maxRecDepth 16384 in
set_option maxHeartbeats 4000000 in
theorem keepC11_main_arg2 (V : Valuation τ sig (Elt F)) : after opsC11 V (main_arg2 : DevRef τ sig) = V (main_arg2 : DevRef τ sig) := by
  simp only [after_cons, after_nil]
  rfl

end Cert.ReferenceIdeal.Run

end
-- ==== Proof.RefWinD.lean ====
import proofs.«173479_g14800457302192_cont_week2b_463_2_alg».proof.Proof.RefOps
import proofs.«173479_g14800457302192_cont_week2b_463_2_alg».proof.Proof.RefStageD

noncomputable section

namespace Cert.ReferenceIdeal.Run

open Cert.ReferenceIdeal Idealize.ShloMosaic Idealize.ShloMosaic.TcCoe Idealize.SL.Sem Idealize.ShloMosaic.StableHlo
open Facts₀
open Cert.ReferenceIdeal.Stage

variable {F : FTy → Type} [FloatOps F]

attribute [local irreducible] Host.reduce Host.reduceAdd Host.reduceWindow Host.gather Host.scatter Host.sort2 in
set_option maxRecDepth 16384 in
set_option maxHeartbeats 4000000 in
theorem fD203_eq (V : Valuation τ sig (Elt F)) :
    after opsD1 V (main_v203 : DevRef τ sig) = fD203 (V (main_v194 : DevRef τ sig)) (V (main_v46 : DevRef τ sig)) := by
  simp only [after_cons, after_nil]
  rfl

attribute [local irreducible] Host.reduce Host.reduceAdd Host.reduceWindow Host.gather Host.scatter Host.sort2 in
set_option maxRecDepth 16384 in
set_option maxHeartbeats 4000000 in
theorem fD208_eq (V : Valuation τ sig (Elt F)) :
    after opsD1 V (main_v208 : DevRef τ sig) = fD208 (V (main_v33 : DevRef τ sig)) := by
  simp only [after_cons, after_nil]
  rfl

attribute [local irreducible] Host.reduce Host.reduceAdd Host.reduceWindow Host.gather Host.scatter Host.sort2 in
set_option maxRecDepth 16384 in
set_option maxHeartbeats 4000000 in
theorem fD210_eq (V : Valuation τ sig (Elt F)) :
    after opsD1 V (main_v210 : DevRef τ sig) = fD210 (V (main_v33 : DevRef τ sig)) := by
  simp only [after_cons, after_nil]
  rfl

set_option maxRecDepth 16384 in
set_option maxHeartbeats 4000000 in
theorem keepD1_main_v31 (V : Valuation τ sig (Elt F)) : after opsD1 V (main_v31 : DevRef τ sig) = V (main_v31 : DevRef τ sig) := by
  simp only [after_cons, after_nil]
  rfl

set_option maxRecDepth 16384 in
set_option maxHeartbeats 4000000 in
theorem keepD1_main_arg0 (V : Valuation τ sig (Elt F)) : after opsD1 V (main_arg0 : DevRef τ sig) = V (main_arg0 : DevRef τ sig) := by
  simp only [after_cons, after_nil]
  rfl

set_option maxRecDepth 16384 in
set_option maxHeartbeats 4000000 in
theorem keepD1_main_arg1 (V : Valuation τ sig (Elt F)) : after opsD1 V (main_arg1 : DevRef τ sig) = V (main_arg1 : DevRef τ sig) := by
  simp only [after_cons, after_nil]
  rfl

set_option maxRecDepth 16384 in
set_option maxHeartbeats 4000000 in
theorem keepD1_main_arg2 (V : Valuation τ sig (Elt F)) : after opsD1 V (main_arg2 : DevRef τ sig) = V (main_arg2 : DevRef τ sig) := by
  simp only [after_cons, after_nil]
  rfl

attribute [local irreducible] Host.reduce Host.reduceAdd Host.reduceWindow Host.gather Host.scatter Host.sort2 in
set_option maxRecDepth 16384 in
set_option maxHeartbeats 4000000 in
theorem fD_eq (V : Valuation τ sig (Elt F)) :
    after opsD2 V (main_v226 : DevRef τ sig) = fD (V (main_v203 : DevRef τ sig)) (V (main_v208 : DevRef τ sig)) (V (main_v210 : DevRef τ sig)) (V (main_v31 : DevRef τ sig)) (V (main_arg0 : DevRef τ sig)) := by
  simp only [after_cons, after_nil]
  rfl

set_option maxRecDepth 16384 in
set_option maxHeartbeats 4000000 in
theorem keepD2_main_arg0 (V : Valuation τ sig (Elt F)) : after opsD2 V (main_arg0 : DevRef τ sig) = V (main_arg0 : DevRef τ sig) := by
  simp only [after_cons, after_nil]
  rfl

set_option maxRecDepth 16384 in
set_option maxHeartbeats 4000000 in
theorem keepD2_main_arg1 (V : Valuation τ sig (Elt F)) : after opsD2 V (main_arg1 : DevRef τ sig) = V (main_arg1 : DevRef τ sig) := by
  simp only [after_cons, after_nil]
  rfl

set_option maxRecDepth 16384 in
set_option maxHeartbeats 4000000 in
theorem keepD2_main_arg2 (V : Valuation τ sig (Elt F)) : after opsD2 V (main_arg2 : DevRef τ sig) = V (main_arg2 : DevRef τ sig) := by
  simp only [after_cons, after_nil]
  rfl

end Cert.ReferenceIdeal.Run

end
-- ==== Proof.RefRun.lean ====
import proofs.«173479_g14800457302192_cont_week2b_463_2_alg».proof.Proof.RefStages
import proofs.«173479_g14800457302192_cont_week2b_463_2_alg».proof.Proof.RefWinA
import proofs.«173479_g14800457302192_cont_week2b_463_2_alg».proof.Proof.RefWinB
import proofs.«173479_g14800457302192_cont_week2b_463_2_alg».proof.Proof.RefWinC
import proofs.«173479_g14800457302192_cont_week2b_463_2_alg».proof.Proof.RefWinD

noncomputable section

namespace Cert.ReferenceIdeal.Run

open Cert.ReferenceIdeal Idealize.ShloMosaic Idealize.ShloMosaic.TcCoe Idealize.SL.Sem Idealize.ShloMosaic.StableHlo
open Facts₀
open Cert.ReferenceIdeal.Stage

variable {F : FTy → Type} [FloatOps F]

set_option maxHeartbeats 4000000 in
/-- The whole fold at the result buffer is the stages' composition. -/
theorem out_eq (V : Valuation τ sig (Elt F)) :
    after ops V (main_v226 : DevRef τ sig) = ROut (V (main_arg0 : DevRef τ sig)) (V (main_arg1 : DevRef τ sig)) (V (main_arg2 : DevRef τ sig)) := by
  rw [ops_eq]
  simp only [after_append]
  rw [fD_eq]
  rw [fD203_eq, fD208_eq, fD210_eq, keepD1_main_arg0, keepD1_main_v31]
  rw [fC11b_eq, keepC11_main_arg0, keepC11_main_v31, keepC11_main_v33, keepC11_main_v46]
  rw [fC10b_eq, fC10a_eq, keepC10_main_arg0, keepC10_main_v31, keepC10_main_v33, keepC10_main_v46]
  rw [fC9b_eq, fC9a_eq, keepC9_main_arg0, keepC9_main_v31, keepC9_main_v33, keepC9_main_v46]
  rw [fC8b_eq, fC8a_eq, keepC8_main_arg0, keepC8_main_v31, keepC8_main_v33, keepC8_main_v46]
  rw [fC7b_eq, fC7a_eq, keepC7_main_arg0, keepC7_main_v31, keepC7_main_v33, keepC7_main_v46]
  rw [fC6b_eq, fC6a_eq, keepC6_main_arg0, keepC6_main_v31, keepC6_main_v33, keepC6_main_v46]
  rw [fC5b_eq, fC5a_eq, keepC5_main_arg0, keepC5_main_v31, keepC5_main_v33, keepC5_main_v46]
  rw [fC4b_eq, fC4a_eq, keepC4_main_arg0, keepC4_main_v31, keepC4_main_v33, keepC4_main_v46]
  rw [fC3b_eq, fC3a_eq, keepC3_main_arg0, keepC3_main_v31, keepC3_main_v33, keepC3_main_v46]
  rw [fC2b_eq, fC2a_eq, keepC2_main_arg0, keepC2_main_v31, keepC2_main_v33, keepC2_main_v46]
  rw [fC1b_eq, fC1a_eq, keepC1_main_arg0, keepC1_main_v31, keepC1_main_v33, keepC1_main_v46]
  rw [fC0a_eq, fC0b_eq, keepC0_main_arg0, keepC0_main_v31, keepC0_main_v33, keepC0_main_v46]
  rw [fB40_eq, fB46_eq, fB52_eq, keepB2_main_arg0, keepB2_main_v31, keepB2_main_v33]
  rw [fB33_eq, fB36_eq, keepB1_main_arg0, keepB1_main_v31]
  rw [fA_eq, keepA_main_arg0]
  simp only [ROut] <;> rfl

theorem main_arg0_eq (V : Valuation τ sig (Elt F)) : after ops V (main_arg0 : DevRef τ sig) = V (main_arg0 : DevRef τ sig) := by
  rw [ops_eq]
  simp only [after_append]
  rw [keepD2_main_arg0]
  rw [keepD1_main_arg0]
  rw [keepC11_main_arg0]
  rw [keepC10_main_arg0]
  rw [keepC9_main_arg0]
  rw [keepC8_main_arg0]
  rw [keepC7_main_arg0]
  rw [keepC6_main_arg0]
  rw [keepC5_main_arg0]
  rw [keepC4_main_arg0]
  rw [keepC3_main_arg0]
  rw [keepC2_main_arg0]
  rw [keepC1_main_arg0]
  rw [keepC0_main_arg0]
  rw [keepB2_main_arg0]
  rw [keepB1_main_arg0]
  rw [keepA_main_arg0]

theorem main_arg1_eq (V : Valuation τ sig (Elt F)) : after ops V (main_arg1 : DevRef τ sig) = V (main_arg1 : DevRef τ sig) := by
  rw [ops_eq]
  simp only [after_append]
  rw [keepD2_main_arg1]
  rw [keepD1_main_arg1]
  rw [keepC11_main_arg1]
  rw [keepC10_main_arg1]
  rw [keepC9_main_arg1]
  rw [keepC8_main_arg1]
  rw [keepC7_main_arg1]
  rw [keepC6_main_arg1]
  rw [keepC5_main_arg1]
  rw [keepC4_main_arg1]
  rw [keepC3_main_arg1]
  rw [keepC2_main_arg1]
  rw [keepC1_main_arg1]
  rw [keepC0_main_arg1]
  rw [keepB2_main_arg1]
  rw [keepB1_main_arg1]
  rw [keepA_main_arg1]

theorem main_arg2_eq (V : Valuation τ sig (Elt F)) : after ops V (main_arg2 : DevRef τ sig) = V (main_arg2 : DevRef τ sig) := by
  rw [ops_eq]
  simp only [after_append]
  rw [keepD2_main_arg2]
  rw [keepD1_main_arg2]
  rw [keepC11_main_arg2]
  rw [keepC10_main_arg2]
  rw [keepC9_main_arg2]
  rw [keepC8_main_arg2]
  rw [keepC7_main_arg2]
  rw [keepC6_main_arg2]
  rw [keepC5_main_arg2]
  rw [keepC4_main_arg2]
  rw [keepC3_main_arg2]
  rw [keepC2_main_arg2]
  rw [keepC1_main_arg2]
  rw [keepC0_main_arg2]
  rw [keepB2_main_arg2]
  rw [keepB1_main_arg2]
  rw [keepA_main_arg2]

/-- Every weakly fair execution of the reference's program ends with the result array at the stages' composition
    of the argument arrays, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v226) = ROut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v226).trans (out_eq _), (h c main_arg0).trans (main_arg0_eq _), (h c main_arg1).trans (main_arg1_eq _), (h c main_arg2).trans (main_arg2_eq _)⟩)
    (run_seq scopedRefs_eq scopedSems_eq defs main (fun _ => ops) main_eq (fun _ => ops_sub) m ρ)

end Cert.ReferenceIdeal.Run

end
-- ==== Proof.Arr.lean ====
/-
  Integer and truth-valued tables as arrays: a table of natural numbers as 32-bit words, a table of propositions
  as one-bit words (1 where it holds).
-/
import Idealize.ShloMosaic.PureOps.Ideal

noncomputable section

namespace Cert.Spec

open Idealize.ShloMosaic

/-- A table of natural numbers as an array of 32-bit words. -/
def natArr (n0 n1 : ℕ) (O : ℕ → ℕ → ℕ) : (⟨2, ![n0, n1]⟩ : Shape).Idx → BitVec 32 :=
  fun i => BitVec.ofNat 32 (O (i 0).val (i 1).val)

open Classical in
/-- A table of propositions as an array of bits: 1 where the proposition holds. -/
def propArr (n0 n1 : ℕ) (G : ℕ → ℕ → Prop) : (⟨2, ![n0, n1]⟩ : Shape).Idx → BitVec 1 :=
  fun i => if G (i 0).val (i 1).val then 1#1 else 0#1

end Cert.Spec

end
-- ==== Proof.RefA.lean ====
/-
  The reference's router over real inputs: the two projections by the host's matrix products, each row normalized by
  its clamped norm, the inner product of consecutive rows' normalized projections, the clipped half-complement, a leading
  one; normalizing first and dividing the inner product by the two norms are the same real number.

  Every intermediate array is the embedding of a real table: the slices, the products with the weight matrices
  (a sum over the contracted coordinate), the squares, the sums over the width, the square roots of nonnegative sums,
  the clamps, the quotients by nonzero norms, the complement halved and clipped. The leading column of ones is put
  before the 2047 columns; writing ones into a column that already holds ones changes nothing.
-/
import proofs.«173479_g14800457302192_cont_week2b_463_2_alg».proof.Proof.RefStageA
import proofs.«173479_g14800457302192_cont_week2b_463_2_alg».proof.Proof.Spec
import proofs.«173479_g14800457302192_cont_week2b_463_2_alg».proof.Proof.Arr
import proofs.«173479_g14800457302192_cont_week2b_463_2_alg».proof.Proof.Consts
import Idealize.ShloMosaic.Lib.ValueIdx
import Idealize.ShloMosaic.Lib.Pipeline.Value
import Idealize.ShloMosaic.PureOps.Ideal.Laws

noncomputable section

namespace Cert.ReferenceIdeal.Read

open Cert.ReferenceIdeal Cert.ReferenceIdeal.Stage Idealize.ShloMosaic Idealize.ShloMosaic.TcCoe Idealize.SL.Sem
open Cert.Spec Cert.Consts
open Idealize.ShloMosaic.ValueIdx
open Facts₀

namespace RouterTables

/-- The coercion of a finite sum of reals is the sum of the coercions. -/
theorem coe_finset_sum {ι : Type} (s : Finset ι) (g : ι → ℝ) :
    ((∑ i ∈ s, g i : ℝ) : EReal) = ∑ i ∈ s, ((g i : ℝ) : EReal) := by
  classical
  refine Finset.induction_on s (by simp) (fun a s ha ih => ?_)
  rw [Finset.sum_insert ha, Finset.sum_insert ha, EReal.coe_add, ih]

theorem coe_sum_range (n : ℕ) (f : ℕ → ℝ) :
    (∑ k : Fin n, ((f k.val : ℝ) : EReal)) = ((∑ k ∈ Finset.range n, f k : ℝ) : EReal) := by
  rw [Finset.sum_range, coe_finset_sum]

theorem slice0_emb (X : ℕ → ℕ → ℕ → ℝ) :
    (extractStridedSlice S4x2047x512 ![0, 0, 0] (emb3 4 2048 512 X : FVec Ideal S4x2048x512 .f32) slices_S4x2048x512_S4x2047x512_0_0_0
      : FVec Ideal S4x2047x512 .f32) = emb3 4 2047 512 X := by
  funext j
  obtain ⟨b, l, e, rfl⟩ : ∃ b l e, j = ix3 b l e := ⟨_, _, _, eq_ix3 j⟩
  unfold extractStridedSlice emb3
  simp

theorem slice1_emb (X : ℕ → ℕ → ℕ → ℝ) :
    (extractStridedSlice S4x2047x512 ![0, 1, 0] (emb3 4 2048 512 X : FVec Ideal S4x2048x512 .f32) slices_S4x2048x512_S4x2047x512_0_1_0
      : FVec Ideal S4x2047x512 .f32) = emb3 4 2047 512 (fun b l d => X b (l + 1) d) := by
  funext j
  obtain ⟨b, l, e, rfl⟩ : ∃ b l e, j = ix3 b l e := ⟨_, _, _, eq_ix3 j⟩
  unfold extractStridedSlice emb3
  simp [add_comm]

/-- The contraction record of the two projections. -/
abbrev DD : DotDims S4x2047x512 S512x512 S4x2047x512 := dot_S4x2047x512_S512x512_S4x2047x512_2_1_01_0_n_n

theorem DD_lhs0 (j : S4x2047x512.Idx) (k : DD.contr.Idx) : (DD.lhsIdx j k 0).val = (j 0).val := by
  simp [DotDims.lhsIdx, DD, dot_S4x2047x512_S512x512_S4x2047x512_2_1_01_0_n_n]; rfl
theorem DD_lhs1 (j : S4x2047x512.Idx) (k : DD.contr.Idx) : (DD.lhsIdx j k 1).val = (j 1).val := by
  simp [DotDims.lhsIdx, DD, dot_S4x2047x512_S512x512_S4x2047x512_2_1_01_0_n_n]; rfl
theorem DD_lhs2 (j : S4x2047x512.Idx) (k : DD.contr.Idx) : (DD.lhsIdx j k 2).val = (k ⟨0, by decide⟩).val :=
  DotDims.lhsIdx_val_of_single DD (cl := 2) rfl j k
theorem DD_rhs0 (j : S4x2047x512.Idx) (k : DD.contr.Idx) : (DD.rhsIdx j k 0).val = (j 2).val := by
  simp [DotDims.rhsIdx, DD, dot_S4x2047x512_S512x512_S4x2047x512_2_1_01_0_n_n]; rfl
theorem DD_rhs1 (j : S4x2047x512.Idx) (k : DD.contr.Idx) : (DD.rhsIdx j k 1).val = (k ⟨0, by decide⟩).val :=
  DotDims.rhsIdx_val_of_single DD (cr := 1) rfl j k

theorem dot_emb (A : ℕ → ℕ → ℕ → ℝ) (W : ℕ → ℕ → ℝ) :
    (Host.dotGeneral (F := Ideal) (φ₁ := .f32) (φ₂ := .f32) dot_S4x2047x512_S512x512_S4x2047x512_2_1_01_0_n_n none
        (emb3 4 2047 512 A : FVec Ideal S4x2047x512 .f32) (emb2 512 512 W : FVec Ideal S512x512 .f32)
      : FVec Ideal S4x2047x512 .f32)
      = emb3 4 2047 512 (fun b l e => ∑ d ∈ Finset.range 512, A b l d * W e d) := by
  funext j
  show FloatOps.dotGeneral DD none _ _ _ j = _
  rw [Ideal.dotGeneral_apply, ← Equiv.sum_comp (contrEquiv1 DD 512 rfl rfl).symm]
  have hk : ∀ c : Fin 512, (((contrEquiv1 DD 512 rfl rfl).symm c) ⟨0, by decide⟩ : ℕ) = c.val :=
    fun c => contrEquiv1_symm_val DD 512 rfl rfl c
  unfold emb3 emb2
  simp only [DD_lhs0, DD_lhs1, DD_lhs2, DD_rhs0, DD_rhs1, hk, ← EReal.coe_mul]
  exact coe_sum_range 512 (fun d => A (j 0).val (j 1).val d * W (j 2).val d)

/-! Pointwise operations on embedded real tables. -/

theorem mul_emb3 (n0 n1 n2 : ℕ) (A B : ℕ → ℕ → ℕ → ℝ) :
    (mulf (emb3 n0 n1 n2 A : FVec Ideal ⟨3, ![n0, n1, n2]⟩ .f32) (emb3 n0 n1 n2 B) : FVec Ideal ⟨3, ![n0, n1, n2]⟩ .f32)
      = emb3 n0 n1 n2 (fun b l e => A b l e * B b l e) := by
  funext j; show _ * _ = _; unfold emb3; rw [← EReal.coe_mul]

theorem max_emb3 (n0 n1 n2 : ℕ) (A B : ℕ → ℕ → ℕ → ℝ) :
    (maximumf (emb3 n0 n1 n2 A : FVec Ideal ⟨3, ![n0, n1, n2]⟩ .f32) (emb3 n0 n1 n2 B) : FVec Ideal ⟨3, ![n0, n1, n2]⟩ .f32)
      = emb3 n0 n1 n2 (fun b l e => max (A b l e) (B b l e)) := by
  funext j; show max _ _ = _; unfold emb3; exact (EReal.coe_strictMono.monotone.map_max).symm

theorem sqrt_emb3 (n0 n1 n2 : ℕ) (R : ℕ → ℕ → ℕ → ℝ) (h : ∀ b l c, 0 ≤ R b l c) :
    (Host.sqrt (emb3 n0 n1 n2 R : FVec Ideal ⟨3, ![n0, n1, n2]⟩ .f32) : FVec Ideal ⟨3, ![n0, n1, n2]⟩ .f32)
      = emb3 n0 n1 n2 (fun b l c => Real.sqrt (R b l c)) := by
  funext j; unfold Host.sqrt emb3
  rw [Ideal.hostUnary_sqrt_def, Ideal.sqrt_coe, if_neg (not_lt.2 (h _ _ _))]

theorem div_emb3 (n0 n1 n2 : ℕ) (A B : ℕ → ℕ → ℕ → ℝ) (hB : ∀ b l c, B b l c ≠ 0) :
    (Host.divf (emb3 n0 n1 n2 A : FVec Ideal ⟨3, ![n0, n1, n2]⟩ .f32) (emb3 n0 n1 n2 B) : FVec Ideal ⟨3, ![n0, n1, n2]⟩ .f32)
      = emb3 n0 n1 n2 (fun b l c => A b l c / B b l c) := by
  funext j; show Ideal.div _ _ = _; unfold emb3
  rw [Ideal.div_coe (hB _ _ _), ← EReal.coe_mul, mul_one_div]

theorem sub_emb2 (n0 n1 : ℕ) (A B : ℕ → ℕ → ℝ) :
    (subf (emb2 n0 n1 A : FVec Ideal ⟨2, ![n0, n1]⟩ .f32) (emb2 n0 n1 B) : FVec Ideal ⟨2, ![n0, n1]⟩ .f32)
      = emb2 n0 n1 (fun b l => A b l - B b l) := by
  funext j; show _ - _ = _; unfold emb2; rw [← EReal.coe_sub]

theorem div_emb2 (n0 n1 : ℕ) (A B : ℕ → ℕ → ℝ) (hB : ∀ b l, B b l ≠ 0) :
    (Host.divf (emb2 n0 n1 A : FVec Ideal ⟨2, ![n0, n1]⟩ .f32) (emb2 n0 n1 B) : FVec Ideal ⟨2, ![n0, n1]⟩ .f32)
      = emb2 n0 n1 (fun b l => A b l * (1 / B b l)) := by
  funext j; show Ideal.div _ _ = _; unfold emb2
  rw [Ideal.div_coe (hB _ _), ← EReal.coe_mul]

theorem max_emb2 (n0 n1 : ℕ) (A B : ℕ → ℕ → ℝ) :
    (maximumf (emb2 n0 n1 A : FVec Ideal ⟨2, ![n0, n1]⟩ .f32) (emb2 n0 n1 B) : FVec Ideal ⟨2, ![n0, n1]⟩ .f32)
      = emb2 n0 n1 (fun b l => max (A b l) (B b l)) := by
  funext j; show max _ _ = _; unfold emb2; exact (EReal.coe_strictMono.monotone.map_max).symm

theorem min_emb2 (n0 n1 : ℕ) (A B : ℕ → ℕ → ℝ) :
    (minimumf (emb2 n0 n1 A : FVec Ideal ⟨2, ![n0, n1]⟩ .f32) (emb2 n0 n1 B) : FVec Ideal ⟨2, ![n0, n1]⟩ .f32)
      = emb2 n0 n1 (fun b l => min (A b l) (B b l)) := by
  funext j; show min _ _ = _; unfold emb2; exact (EReal.coe_strictMono.monotone.map_min).symm

/-! The sum over the width, and the layout operations, on embedded tables. -/

theorem reduce_emb (A : ℕ → ℕ → ℕ → ℝ) :
    (Host.reduceAdd (emb3 4 2047 512 A : FVec Ideal S4x2047x512 .f32) (constant (F := Ideal) S_ .f32 0x00000000#32)
        reducesTo_S4x2047x512_S4x2047_d2 h_S_ : FVec Ideal S4x2047 .f32)
      = emb2 4 2047 (fun b l => ∑ e ∈ Finset.range 512, A b l e) := by
  funext j
  have hR : S4x2047x512.Reduces [2] S4x2047 := by decide
  show Ideal.hostReduceAdd reducesTo_S4x2047x512_S4x2047_d2 _ (Ideal.ofBits .f32 0x00000000#32) j = _
  rw [Ideal.hostReduceAdd_single (a := 2) reducesTo_S4x2047x512_S4x2047_d2 hR, ofBits_zero, EReal.coe_zero, zero_add]
  exact coe_sum_range 512 (fun e => A (j 0).val (j 1).val e)

theorem bcast_col_emb (R : ℕ → ℕ → ℝ) :
    (broadcastInDim S4x2047x1 ![0, 1] bcast_S4x2047_S4x2047x1_0_1 (emb2 4 2047 R : FVec Ideal S4x2047 .f32)
      : FVec Ideal S4x2047x1 .f32) = emb3 4 2047 1 (fun b l _ => R b l) := by
  funext j
  unfold broadcastInDim emb2 emb3
  simp

theorem bcast_width_emb (R : ℕ → ℕ → ℕ → ℝ) :
    (broadcastInDim S4x2047x512 ![0, 1, 2] bcast_S4x2047x1_S4x2047x512_0_1_2 (emb3 4 2047 1 R : FVec Ideal S4x2047x1 .f32)
      : FVec Ideal S4x2047x512 .f32) = emb3 4 2047 512 (fun b l _ => R b l 0) := by
  funext j
  unfold broadcastInDim emb3
  simp

theorem bcast_const (t : Shape) (h : S_.BroadcastsInDim t ![]) (w : BitVec 32) :
    (broadcastInDim t ![] h (constant (F := Ideal) S_ .f32 w) : FVec Ideal t .f32) = fun _ => Ideal.ofBits .f32 w := by
  funext j; rfl

/-! The constants, broadcast. -/

theorem eps_col_emb :
    (broadcastInDim S4x2047x1 ![] bcast_S_S4x2047x1 (constant (F := Ideal) S_ .f32 0x2B8CBCCC#32) : FVec Ideal S4x2047x1 .f32)
      = emb3 4 2047 1 (fun _ _ _ => epsR) := by
  funext j; exact ofBits_eps

theorem const_emb2 (w : BitVec 32) (c : ℝ) (hw : Ideal.ofBits .f32 w = ((c : ℝ) : EReal)) :
    (broadcastInDim S4x2047 ![] bcast_S_S4x2047 (constant (F := Ideal) S_ .f32 w) : FVec Ideal S4x2047 .f32)
      = emb2 4 2047 (fun _ _ => c) := by
  funext j; exact hw

theorem one_S4x1 :
    (broadcastInDim S4x1 ![] bcast_S_S4x1 (constant (F := Ideal) S_ .f32 0x3F800000#32) : FVec Ideal S4x1 .f32)
      = fun _ => ((1 : ℝ) : EReal) := by
  funext j; exact ofBits_one

theorem one_S4 :
    (broadcastInDim S4 ![] bcast_S_S4 (constant (F := Ideal) S_ .f32 0x3F800000#32) : FVec Ideal S4 .f32)
      = fun _ => ((1 : ℝ) : EReal) := by
  funext j; exact ofBits_one

/-! A column of a constant before the columns of a table. -/

theorem concat_emb (c : ℝ) (R : ℕ → ℕ → ℝ) :
    (concatenate S4x2048 1 [⟨S4x1, (fun _ => ((c : ℝ) : EReal) : FVec Ideal S4x1 .f32)⟩,
        ⟨S4x2047, (emb2 4 2047 R : FVec Ideal S4x2047 .f32)⟩] concatenates_S4x1_S4x2047_S4x2048_d1 : FVec Ideal S4x2048 .f32)
      = emb2 4 2048 (fun b l => if l = 0 then c else R b (l - 1)) := by
  funext j
  have hj0 : (j 0).val < 4 := idx2_lt0 j
  have hj1 : (j 1).val < 2048 := idx2_lt1 j
  by_cases h0 : (j 1).val = 0
  · rw [concatenate_pair_apply_left (t := S4x2048) (s₁ := S4x1) (s₂ := S4x2047) (1 : Fin 2) _ _ concatenates_S4x1_S4x2047_S4x2048_d1 j rfl
      (ix2 (⟨(j 0).val, hj0⟩ : Fin 4) (⟨0, by decide⟩ : Fin 1))
      (fun b => match b with | ⟨0, _⟩ => rfl | ⟨1, _⟩ => h0.symm)]
    unfold emb2; exact congrArg Real.toEReal (if_pos h0).symm
  · rw [concatenate_pair_apply_right (t := S4x2048) (s₁ := S4x1) (s₂ := S4x2047) (1 : Fin 2) _ _ concatenates_S4x1_S4x2047_S4x2048_d1 j rfl rfl
      (ix2 (⟨(j 0).val, hj0⟩ : Fin 4) (⟨(j 1).val - 1, by omega⟩ : Fin 2047))
      (fun b => match b with | ⟨0, _⟩ => fun _ => rfl | ⟨1, _⟩ => fun hb => absurd rfl hb)
      (by show (j 1).val - 1 + 1 = (j 1).val; omega)]
    unfold emb2; exact congrArg Real.toEReal (if_neg h0).symm

/-! A projection's rows divided by their clamped norms. -/

theorem normalize_emb (P : ℕ → ℕ → ℕ → ℝ) :
    (Host.divf (emb3 4 2047 512 P : FVec Ideal S4x2047x512 .f32)
      (broadcastInDim S4x2047x512 ![0, 1, 2] bcast_S4x2047x1_S4x2047x512_0_1_2
        (maximumf
          (Host.sqrt (broadcastInDim S4x2047x1 ![0, 1] bcast_S4x2047_S4x2047x1_0_1
            (Host.reduceAdd (mulf (emb3 4 2047 512 P : FVec Ideal S4x2047x512 .f32) (emb3 4 2047 512 P))
              (constant (F := Ideal) S_ .f32 0x00000000#32) reducesTo_S4x2047x512_S4x2047_d2 h_S_)))
          (broadcastInDim S4x2047x1 ![] bcast_S_S4x2047x1 (constant (F := Ideal) S_ .f32 0x2B8CBCCC#32))))
      : FVec Ideal S4x2047x512 .f32)
      = emb3 4 2047 512 (fun b l e => P b l e / nrm epsR (P b l)) := by
  rw [mul_emb3, reduce_emb, bcast_col_emb,
    sqrt_emb3 4 2047 1 (fun b l _ => ∑ e ∈ Finset.range 512, P b l e * P b l e)
      (fun b l _ => Finset.sum_nonneg fun e _ => mul_self_nonneg _),
    eps_col_emb, max_emb3, bcast_width_emb,
    div_emb3 4 2047 512 P (fun b l _ => max (Real.sqrt (∑ e ∈ Finset.range 512, P b l e * P b l e)) epsR)
      (fun b l _ => (lt_of_lt_of_le epsR_pos (le_max_right _ _)).ne')]
  rfl

/-! The scatter of ones at column 0 of a table whose column 0 is one already. -/

/-- A left fold whose step fixes the start stays there. -/
theorem foldl_fixed {α β : Type} (f : α → β → α) (x : α) (h : ∀ n, f x n = x) (L : List β) : L.foldl f x = x := by
  induction L with
  | nil => rfl
  | cons n L ih => rw [List.foldl_cons, h, ih]

/-- The scatter's record. -/
abbrev SC : ScatterDims S4x2048 S1 S4 := scatter_S4x2048_S1_S4_0_1_1_0

/-- The scatter's one start index: the column 0. -/
abbrev idx0 : IVec S1 32 := broadcastInDim S1 ![] bcast_S_S1 (constantI S_ 32 0#32)

/-- Every update of the scatter lands in column 0. -/
theorem SC_col (j : S4.Idx) (i : S4x2048.Idx) (h : SC.resultIdx? j idx0 = some i) : (i 1).val = 0 := by
  unfold ScatterDims.resultIdx? at h
  split at h
  · injection h with h
    subst h
    show (SC.start j idx0 1 + SC.window j 1).toNat = 0
    have h1 : SC.start j idx0 1 = 0 := by
      unfold ScatterDims.start
      rw [dif_pos (show (1 : Fin 2) ∈ SC.scatterDimsToOperandDims from List.mem_singleton.mpr rfl)]
      rfl
    have h2 : SC.window j 1 = 0 := by
      unfold ScatterDims.window
      rw [dif_neg (show ¬ (1 : Fin 2) ∈ SC.sKept by decide)]
    rw [h1, h2]; rfl
  · cases h

theorem scatter_col0 (x : FVec Ideal S4x2048 .f32) (hx : ∀ i : S4x2048.Idx, (i 1).val = 0 → x i = ((1 : ℝ) : EReal)) :
    (Host.scatter scatter_S4x2048_S1_S4_0_1_1_0 (fun _ b => b) x
        (broadcastInDim S1 ![] bcast_S_S1 (constantI S_ 32 0#32) : IVec S1 32)
        (fun _ => ((1 : ℝ) : EReal) : FVec Ideal S4 .f32) : FVec Ideal S4x2048 .f32) = x := by
  unfold Host.scatter
  refine foldl_fixed _ x (fun n => ?_) _
  dsimp only
  split
  · next i hres =>
    funext i'
    by_cases hi : i' = i
    · rw [if_pos hi, hi, hx i (SC_col _ i hres)]
    · rw [if_neg hi]
  · rfl

/-! The router. -/

/-- The inner product of two rows divided by their norms, before or after the sum. -/
theorem sum_div_mul_div (q k : ℕ → ℝ) (a c : ℝ) :
    ∑ e ∈ Finset.range 512, q e / a * (k e / c) = (∑ e ∈ Finset.range 512, q e * k e) / (a * c) := by
  rw [Finset.sum_div]
  exact Finset.sum_congr rfl fun e _ => div_mul_div_comm _ _ _ _

end RouterTables

open RouterTables

/-- The router's value on real tables is the table of `prob`. -/
theorem fA_emb (X : ℕ → ℕ → ℕ → ℝ) (Wq Wk : ℕ → ℕ → ℝ) :
    fA (F := Ideal) (emb3 4 2048 512 X) (emb2 512 512 Wq) (emb2 512 512 Wk)
      = (emb2 4 2048 fun b l => prob epsR (X b) Wq Wk l : FVec Ideal S4x2048 .f32) := by
  unfold fA
  dsimp only [id]
  rw [slice0_emb, slice1_emb, dot_emb, dot_emb, normalize_emb, normalize_emb, mul_emb3, reduce_emb,
    const_emb2 _ 1 ofBits_one, const_emb2 _ 2 ofBits_two, const_emb2 _ 0 ofBits_zero,
    sub_emb2, div_emb2 _ _ _ _ (fun _ _ => two_ne_zero), max_emb2, min_emb2, one_S4x1, concat_emb, one_S4,
    scatter_col0]
  · refine congrArg (emb2 4 2048) (funext fun b => funext fun l => ?_)
    by_cases hl : l = 0
    · simp only [prob, if_pos hl]
    · simp only [prob, if_neg hl]
      rw [sum_div_mul_div (fun e => ∑ d ∈ Finset.range 512, X b (l - 1) d * Wq e d)
        (fun e => ∑ d ∈ Finset.range 512, X b (l - 1 + 1) d * Wk e d)]
      rfl
  · intro i hi
    unfold emb2
    exact congrArg Real.toEReal (if_pos hi)

end Cert.ReferenceIdeal.Read

end
-- ==== Proof.RefB1.lean ====
/-
  The boundary mask and the sort order over a real table of probabilities: the mask compares with one half; the
  sort key is the mask's complement as a word, the comparator compares keys only, so the order is the stable order by
  `keyOf`.
-/
import proofs.«173479_g14800457302192_cont_week2b_463_2_alg».proof.Proof.RefStageB
import proofs.«173479_g14800457302192_cont_week2b_463_2_alg».proof.Proof.Spec
import proofs.«173479_g14800457302192_cont_week2b_463_2_alg».proof.Proof.Arr
import proofs.«173479_g14800457302192_cont_week2b_463_2_alg».proof.Proof.Consts
import Idealize.ShloMosaic.Lib.ValueIdx

noncomputable section

namespace Cert.ReferenceIdeal.Read

open Cert.ReferenceIdeal Cert.ReferenceIdeal.Stage Idealize.ShloMosaic Idealize.ShloMosaic.TcCoe Idealize.SL.Sem
open Cert.Spec Cert.Consts
open Idealize.ShloMosaic.ValueIdx

/-- The mask of a real table: probability above one half. -/
theorem fB33_emb (P : ℕ → ℕ → ℝ) :
    fB33 (F := Ideal) (emb2 4 2048 P) = (propArr 4 2048 fun b l => 1 / 2 < P b l : IVec S4x2048 1) := by
  funext i
  show Ideal.cmp .ogt (emb2 4 2048 P i) (Ideal.ofBits .f32 0x3F000000#32) = _
  rw [ofBits_half]
  unfold Ideal.cmp emb2 propArr
  simp only [EReal.coe_lt_coe_iff]
  by_cases h : 1 / 2 < P (i 0).val (i 1).val
  · simp only [h, decide_true, if_true]; rfl
  · simp only [h, decide_false, if_false]; rfl

/-- The sort key takes two values. -/
private theorem keyOf_cases (P : ℕ → ℝ) (l : ℕ) : keyOf P l = 0 ∨ keyOf P l = 1 := by
  unfold keyOf
  split
  · exact Or.inl rfl
  · exact Or.inr rfl

/-- The key word of row `k` of sequence `b`: the complement of the mask bit, widened to 32 bits. -/
private theorem key_at (P : ℕ → ℕ → ℝ) (h32 : 1 < 32) (b : Fin 4) (k : Fin 2048) :
    (extui 32 (noti (fB33 (F := Ideal) (emb2 4 2048 P))) h32 : IVec S4x2048 32) (ix2 b k)
      = BitVec.ofNat 32 (keyOf (P b.val) k.val) := by
  show (~~~ (fB33 (F := Ideal) (emb2 4 2048 P) (ix2 b k))).setWidth 32 = _
  rw [fB33_emb]
  unfold propArr keyOf
  show (~~~ (if 1 / 2 < P b.val k.val then 1#1 else 0#1)).setWidth 32 = _
  by_cases h : 1 / 2 < P b.val k.val
  · simp only [h, if_true]; decide
  · simp only [h, if_false]; decide

/-- Moving along axis 1 of a rank-2 index replaces the second coordinate. -/
private theorem along_ix2 (b : Fin 4) (j : Fin 2048) (h : 1 < S4x2048.rank) (k : Fin (S4x2048.size ⟨1, h⟩)) :
    Shape.Idx.along (s := S4x2048) (ix2 b j) ⟨1, h⟩ k = ix2 b k := by
  funext a
  match a with
  | ⟨0, _⟩ => rfl
  | ⟨1, _⟩ => rfl

/-- The second result of a two-operand sort along axis 1, read at a point: the second operand at the position the
    stable sort of the fiber puts there. -/
private theorem sort2_snd_apply {α β : Type} (cmp : α × β → α × β → BitVec 1) (x : S4x2048.Idx → α) (y : S4x2048.Idx → β)
    (b : Fin 4) (j : Fin 2048) :
    (Host.sort2 S4x2048 1 cmp x y).2 (ix2 b j) =
      y (ix2 b (sortedFrom (fun k k' : Fin 2048 => cmp (x (ix2 b k), y (ix2 b k)) (x (ix2 b k'), y (ix2 b k')) == 1#1) j)) := by
  unfold Host.sort2
  rw [dif_pos (Nat.one_lt_two : 1 < S4x2048.rank)]
  simp only [along_ix2]
  rfl

/-- The sort order of a real table: slot `j` of sequence `b` holds row `ordOf (P b) j`. -/
theorem fB36_emb (P : ℕ → ℕ → ℝ) :
    fB36 (F := Ideal) (emb2 4 2048 P) = (natArr 4 2048 fun b j => ordOf (P b) j : IVec S4x2048 32) := by
  funext i
  obtain ⟨b, j, rfl⟩ : ∃ (b : Fin 4) (j : Fin 2048), i = ix2 b j := ⟨i 0, i 1, eq_ix2 i⟩
  show (Host.sort2 S4x2048 1 comparator_i32_i32_d1
      (extui 32 (noti (fB33 (F := Ideal) (emb2 4 2048 P))) (by decide) : IVec S4x2048 32) (iotaInDim S4x2048 32 1)).2 (ix2 b j) = _
  rw [sort2_snd_apply]
  -- the comparator reads the keys only, and on the two key words it is the order of the keys
  have hR : ∀ h32 : 1 < 32, (fun k k' : Fin 2048 =>
      comparator_i32_i32_d1
        ((extui 32 (noti (fB33 (F := Ideal) (emb2 4 2048 P))) h32 : IVec S4x2048 32) (ix2 b k), iotaInDim S4x2048 32 1 (ix2 b k))
        ((extui 32 (noti (fB33 (F := Ideal) (emb2 4 2048 P))) h32 : IVec S4x2048 32) (ix2 b k'), iotaInDim S4x2048 32 1 (ix2 b k')) == 1#1)
      = fun k k' : Fin 2048 => decide (keyOf (P b.val) k.val < keyOf (P b.val) k'.val) := by
    intro h32
    funext k k'
    show (IntOp.cmpi .slt ((extui 32 (noti (fB33 (F := Ideal) (emb2 4 2048 P))) h32 : IVec S4x2048 32) (ix2 b k))
      ((extui 32 (noti (fB33 (F := Ideal) (emb2 4 2048 P))) h32 : IVec S4x2048 32) (ix2 b k')) == 1#1) = _
    rw [key_at, key_at]
    rcases keyOf_cases (P b.val) k.val with h | h <;> rcases keyOf_cases (P b.val) k'.val with h' | h' <;>
      rw [h, h'] <;> decide
  rw [hR]
  -- the carried operand is the position itself
  show BitVec.ofNat 32 (sortedFrom (fun k k' : Fin 2048 => decide (keyOf (P b.val) k.val < keyOf (P b.val) k'.val)) j).val
    = BitVec.ofNat 32 (ordOf (P b.val) j.val)
  unfold ordOf
  rw [dif_pos j.isLt]

end Cert.ReferenceIdeal.Read

end
-- ==== Proof.RefCount.lean ====
/-
  The counts of boundaries as words: the row sum of the mask is the number of boundaries, the windowed running sum
  is the number of boundaries up to each row; no sum exceeds 2048, so the 32-bit words are the natural numbers.
-/
import proofs.«173479_g14800457302192_cont_week2b_463_2_alg».proof.Proof.RefStageB
import proofs.«173479_g14800457302192_cont_week2b_463_2_alg».proof.Proof.RefStageD
import proofs.«173479_g14800457302192_cont_week2b_463_2_alg».proof.Proof.Spec
import proofs.«173479_g14800457302192_cont_week2b_463_2_alg».proof.Proof.Arr
import proofs.«173479_g14800457302192_cont_week2b_463_2_alg».proof.Proof.Consts
import Idealize.ShloMosaic.Lib.StableHlo.Predicate
import Idealize.ShloMosaic.Lib.ValueIdx

noncomputable section

namespace Cert.ReferenceIdeal.Read

open Cert.ReferenceIdeal Cert.ReferenceIdeal.Stage Idealize.ShloMosaic Idealize.ShloMosaic.TcCoe Idealize.SL.Sem
open Cert.Spec Cert.Consts
open Idealize.ShloMosaic.StableHlo.Predicate
open Facts₀

namespace Count

/-! ## One-bit and 32-bit tables from their entries -/

/-- A one-bit word that is 1 exactly when `p` holds is the indicator of `p`. -/
theorem bit_eq_ite (x : BitVec 1) (p : Prop) {d : Decidable p} (h : x = 1#1 ↔ p) : x = @ite _ p d 1#1 0#1 := by
  by_cases hp : p
  · rw [if_pos hp]; exact h.2 hp
  · rw [if_neg hp]; exact ValueIdx.eq_zero_of_ne_one (fun e => hp (h.1 e))

/-- An entry of a table of propositions is 1 exactly when the proposition at its coordinates holds. -/
theorem propArr_eq_one (G : ℕ → ℕ → Prop) (i : S4x2048.Idx) (u v : ℕ) (hu : (i 0).val = u) (hv : (i 1).val = v) :
    propArr 4 2048 G i = 1#1 ↔ G u v := by
  subst hu hv
  unfold propArr
  by_cases h : G (i 0).val (i 1).val
  · rw [if_pos h]; exact iff_of_true rfl h
  · rw [if_neg h]; exact iff_of_false (by decide) h

/-- A one-bit array whose entry (b, j) is 1 exactly when `G b j` holds is the table of `G`. -/
theorem eq_propArr (x : IVec S4x2048 1) (G : ℕ → ℕ → Prop)
    (h : ∀ (b : Fin 4) (j : Fin 2048), x (ij b j) = 1#1 ↔ G b.val j.val) : x = propArr 4 2048 G := by
  funext i
  obtain ⟨b, j, rfl⟩ : ∃ (b : Fin 4) (j : Fin 2048), i = ij b j := ⟨i 0, i 1, (ij_eta i).symm⟩
  unfold propArr
  exact bit_eq_ite _ _ (h b j)

/-- A 32-bit array whose entry (b, j) is the word of `O b j` is the table of `O`. -/
theorem eq_natArr (x : IVec S4x2048 32) (O : ℕ → ℕ → ℕ)
    (h : ∀ (b : Fin 4) (j : Fin 2048), x (ij b j) = BitVec.ofNat 32 (O b.val j.val)) : x = natArr 4 2048 O := by
  funext i
  obtain ⟨b, j, rfl⟩ : ∃ (b : Fin 4) (j : Fin 2048), i = ij b j := ⟨i 0, i 1, (ij_eta i).symm⟩
  exact h b j

/-! ## Words below 2³¹ compare, step down and clip as natural numbers -/

theorem slt_small (a b : ℕ) (ha : a < 2 ^ 31) (hb : b < 2 ^ 31) :
    (BitVec.ofNat 32 a).slt (BitVec.ofNat 32 b) = true ↔ a < b :=
  (ofBool_eq_one_iff _).symm.trans (slt_ofNat_iff a b ha hb)

/-- The signed "less than" of a slot index and a count. -/
theorem word_slt (j c : ℕ) (hj : j < 2048) (hc : c ≤ 2048) :
    IntOp.cmpi .slt (BitVec.ofNat 32 j) (BitVec.ofNat 32 c) = 1#1 ↔ j < c := by
  unfold IntOp.cmpi
  exact slt_ofNat_iff j c (by omega) (by omega)

/-- A count minus one is nonnegative as a signed word exactly when the count is at least one. -/
theorem word_sge_pred (c : ℕ) (hc : c ≤ 2048) :
    IntOp.cmpi .sge (IntOp.subi (BitVec.ofNat 32 c) 1#32) 0#32 = 1#1 ↔ 1 ≤ c := by
  rcases Nat.eq_zero_or_pos c with rfl | hpos
  · exact iff_of_false (by decide) (by omega)
  · have e : IntOp.subi (BitVec.ofNat 32 c) 1#32 = BitVec.ofNat 32 (c - 1) := sub_one_ofNat c hpos (by omega)
    rw [e]
    unfold IntOp.cmpi
    exact (sle_ofNat_iff 0 (c - 1) (by omega) (by omega)).trans ⟨fun _ => hpos, fun _ => Nat.zero_le _⟩

/-- A count minus one, clipped below at 0 and above at 2047 as signed words, is the natural `min (c − 1) 2047`. -/
theorem word_clip (c : ℕ) (hc : c ≤ 2048) :
    IntOp.minsi 2047#32 (IntOp.maxsi 0#32 (IntOp.subi (BitVec.ofNat 32 c) 1#32)) = BitVec.ofNat 32 (min (c - 1) 2047) := by
  have hmin : min (c - 1) 2047 = c - 1 := by omega
  rw [hmin]
  rcases Nat.eq_zero_or_pos c with rfl | hpos
  · decide
  · have e : IntOp.subi (BitVec.ofNat 32 c) 1#32 = BitVec.ofNat 32 (c - 1) := sub_one_ofNat c hpos (by omega)
    have h1 : ¬ ((BitVec.ofNat 32 (c - 1)).slt (BitVec.ofNat 32 0) = true) := by
      rw [slt_small _ _ (by omega) (by omega)]; omega
    have h2 : ¬ ((BitVec.ofNat 32 2047).slt (BitVec.ofNat 32 (c - 1)) = true) := by
      rw [slt_small _ _ (by omega) (by omega)]; omega
    rw [e]
    unfold IntOp.maxsi
    rw [if_neg h1]
    unfold IntOp.minsi
    rw [if_neg h2]

/-! ## The count of a sequence's boundaries -/

/-- The mask summed along a row, as a word, is the number of boundaries of the sequence. -/
theorem toNat_count (P : ℕ → ℕ → ℝ) (h : S4x2048.ReducesTo [1] S4) (hu : 0 < S_.numel) (b : Fin 4) :
    (Host.reduce IntOp.addi (extui 32 (propArr 4 2048 fun b l => 1 / 2 < P b l) natLt_1_32) (constantI S_ 32 0#32) h hu
        (Shape.Idx.ofFin b)).toNat = nBnd (P b.val) := by
  rw [toNat_reduce_count_cols (by norm_num) _ natLt_1_32 h hu]
  unfold nBnd
  refine Finset.card_bij (fun q _ => q.val) ?_ ?_ ?_
  · intro q hq
    rw [Finset.mem_filter] at hq
    rw [Finset.mem_filter, Finset.mem_range]
    exact ⟨q.isLt, (propArr_eq_one _ _ _ _ rfl rfl).1 hq.2⟩
  · intro q _ q' _ e
    exact Fin.ext e
  · intro l hl
    rw [Finset.mem_filter, Finset.mem_range] at hl
    exact ⟨⟨l, hl.1⟩, Finset.mem_filter.2 ⟨Finset.mem_univ _, (propArr_eq_one _ _ _ _ rfl rfl).2 hl.2⟩, rfl⟩

theorem nBnd_le (P : ℕ → ℝ) : nBnd P ≤ 2048 := by
  unfold nBnd
  exact (Finset.card_filter_le _ _).trans (by rw [Finset.card_range])

theorem cntUpTo_le (P : ℕ → ℝ) (l : ℕ) : cntUpTo P l ≤ l + 1 := by
  unfold cntUpTo
  exact (Finset.card_filter_le _ _).trans (by rw [Finset.card_range])

/-! ## The running count: a window of 2048 rows ending at each row, the rows before row 0 padding -/

/-- A left fold of word addition whose natural sum stays below 2³² is that sum. -/
theorem toNat_foldl_addi {ι : Type} (g : ι → BitVec 32) (L : List ι) (a : BitVec 32)
    (h : a.toNat + (L.map fun n => (g n).toNat).sum < 2 ^ 32) :
    (L.foldl (fun r n => IntOp.addi r (g n)) a).toNat = a.toNat + (L.map fun n => (g n).toNat).sum := by
  induction L generalizing a with
  | nil => simp
  | cons n L ih =>
    rw [List.map_cons, List.sum_cons] at h
    rw [List.foldl_cons, List.map_cons, List.sum_cons]
    have e : (IntOp.addi a (g n)).toNat = a.toNat + (g n).toNat := by
      show (a + g n).toNat = _
      rw [BitVec.toNat_add]
      exact Nat.mod_eq_of_lt (by omega)
    rw [ih _ (by rw [e]; omega), e]
    omega

/-- The same with each summand's value named. -/
theorem toNat_foldl_addi_of {ι : Type} (g : ι → BitVec 32) (c : ι → ℕ) (L : List ι) (a : BitVec 32)
    (hg : ∀ n, (g n).toNat = c n) (h : a.toNat + (L.map c).sum < 2 ^ 32) :
    (L.foldl (fun r n => IntOp.addi r (g n)) a).toNat = a.toNat + (L.map c).sum := by
  have e : (fun n => (g n).toNat) = c := funext hg
  subst e
  exact toNat_foldl_addi g L a h

/-- The window: one sequence, 2048 rows. -/
abbrev Wsh : Shape := ⟨2, ![1, 2048]⟩

theorem Wsh_numel : Wsh.numel = 2048 := by decide

/-- The window's position number `n` is sequence offset 0, row offset `n`. -/
theorem Wsh_coord (n : Fin Wsh.numel) : (Wsh.rowMajor.symm n 0).val = 0 ∧ (Wsh.rowMajor.symm n 1).val = n.val := by
  have h := Shape.rowMajor_val_two (Wsh.rowMajor.symm n)
  rw [Equiv.apply_symm_apply] at h
  have h0 : (Wsh.rowMajor.symm n 0).val < 1 := (Wsh.rowMajor.symm n 0).isLt
  have e : (![1, 2048] : Fin 2 → ℕ) 1 = 2048 := rfl
  rw [e] at h
  omega

open Classical in
/-- What window position `n` of entry (b, l) adds to the running count: 1 exactly when the position is a row of the
    sequence (`2047 ≤ l + n`: not padding) and that row, `l + n − 2047`, is a boundary. -/
def winTerm (G : ℕ → ℕ → Prop) (b : Fin 4) (l : Fin 2048) (n : Fin Wsh.numel) : ℕ :=
  if 2047 ≤ l.val + n.val ∧ G b.val (l.val + n.val - 2047) then 1 else 0

/-- The window positions that add 1 are as many as the boundaries among rows 0 … l. -/
theorem sum_winTerm (P : ℕ → ℕ → ℝ) (b : Fin 4) (l : Fin 2048) :
    ((List.finRange Wsh.numel).map (winTerm (fun b l => 1 / 2 < P b l) b l)).sum = cntUpTo (P b.val) l.val := by
  classical
  rw [← Fin.sum_univ_def]
  unfold winTerm
  rw [← Finset.card_filter]
  unfold cntUpTo
  refine Finset.card_bij (fun n _ => l.val + n.val - 2047) ?_ ?_ ?_
  · intro n hn
    rw [Finset.mem_filter] at hn
    have hlt : n.val < 2048 := Wsh_numel ▸ n.isLt
    rw [Finset.mem_filter, Finset.mem_range]
    exact ⟨by omega, hn.2.2⟩
  · intro n hn n' hn' e
    rw [Finset.mem_filter] at hn hn'
    apply Fin.ext
    have := hn.2.1
    have := hn'.2.1
    omega
  · intro l' hl'
    rw [Finset.mem_filter, Finset.mem_range] at hl'
    have hl := l.isLt
    refine ⟨⟨l' + 2047 - l.val, by rw [Wsh_numel]; omega⟩, ?_, ?_⟩
    · rw [Finset.mem_filter]
      refine ⟨Finset.mem_univ _, ?_, ?_⟩
      · show 2047 ≤ l.val + (l' + 2047 - l.val)
        omega
      · have e : l.val + (l' + 2047 - l.val) - 2047 = l' := by omega
        show 1 / 2 < P b.val (l.val + (l' + 2047 - l.val) - 2047)
        rw [e]
        exact hl'.2
    · show l.val + (l' + 2047 - l.val) - 2047 = l'
      omega

/-- The windowed sum of the mask at (b, l), as a word, is the number of boundaries among rows 0 … l. -/
theorem toNat_cumsum (P : ℕ → ℕ → ℝ) (hb : S_.BroadcastsInDim S_ (![] : Fin 0 → Fin S_.rank))
    (h : S4x2048.ReduceWindows (![1, 2048] : Fin 2 → Nat) ![1, 1] ![0, 2047] ![0, 0] S4x2048) (hu : 0 < S_.numel)
    (b : Fin 4) (l : Fin 2048) :
    (Host.reduceWindow IntOp.addi ![1, 2048] ![1, 1] ![0, 2047] ![0, 0]
        (extui 32 (propArr 4 2048 fun b l => 1 / 2 < P b l) natLt_1_32)
        (broadcastInDim S_ ![] hb (constantI S_ 32 0#32)) h hu (ij b l)).toNat = cntUpTo (P b.val) l.val := by
  have hs := sum_winTerm P b l
  have hle := cntUpTo_le (P b.val) l.val
  have hl := l.isLt
  unfold Host.reduceWindow
  simp only []
  have hv : broadcastInDim S_ ![] hb (constantI S_ 32 0#32) (Shape.Idx.first hu) = 0#32 := rfl
  rw [hv]
  refine (toNat_foldl_addi_of _ (winTerm (fun b l => 1 / 2 < P b l) b l) _ _ ?_ ?_).trans ?_
  · intro n
    obtain ⟨c0, c1⟩ := Wsh_coord n
    have hn : n.val < 2048 := Wsh_numel ▸ n.isLt
    have hbl := b.isLt
    unfold winTerm
    split
    · rename_i hin
      have h1 : 2047 ≤ l.val * 1 + (Wsh.rowMajor.symm n 1).val := (hin 1).1
      have h1' : 2047 ≤ l.val + n.val := by omega
      have key : propArr 4 2048 (fun b l => 1 / 2 < P b l) (fun a => ⟨_, (hin a).2⟩) = 1#1
          ↔ 1 / 2 < P b.val (l.val + n.val - 2047) :=
        propArr_eq_one _ _ _ _
          (by show b.val * 1 + (Wsh.rowMajor.symm n 0).val - 0 = b.val; omega)
          (by show l.val * 1 + (Wsh.rowMajor.symm n 1).val - 2047 = l.val + n.val - 2047; omega)
      rw [ValueIdx.extui_apply, toNat_setWidth_bit]
      by_cases hG : 1 / 2 < P b.val (l.val + n.val - 2047)
      · exact (if_pos (key.2 hG)).trans (if_pos ⟨h1', hG⟩).symm
      · exact (if_neg (fun e => hG (key.1 e))).trans (if_neg (fun e => hG e.2)).symm
    · rename_i hin
      refine (if_neg ?_).symm
      rintro ⟨h2, -⟩
      apply hin
      refine Fin.forall_fin_two.2 ⟨?_, ?_⟩
      · show 0 ≤ b.val * 1 + (Wsh.rowMajor.symm n 0).val ∧ b.val * 1 + (Wsh.rowMajor.symm n 0).val - 0 < 4
        omega
      · show 2047 ≤ l.val * 1 + (Wsh.rowMajor.symm n 1).val ∧ l.val * 1 + (Wsh.rowMajor.symm n 1).val - 2047 < 2048
        omega
  · rw [hs]
    show 0 + _ < _
    omega
  · rw [hs]
    show 0 + _ = _
    omega

/-- The windowed sum of the mask at (b, l) is the word of the running count. -/
theorem cumsum_word (P : ℕ → ℕ → ℝ) (hb : S_.BroadcastsInDim S_ (![] : Fin 0 → Fin S_.rank))
    (h : S4x2048.ReduceWindows (![1, 2048] : Fin 2 → Nat) ![1, 1] ![0, 2047] ![0, 0] S4x2048) (hu : 0 < S_.numel)
    (b : Fin 4) (l : Fin 2048) :
    Host.reduceWindow IntOp.addi ![1, 2048] ![1, 1] ![0, 2047] ![0, 0]
        (extui 32 (propArr 4 2048 fun b l => 1 / 2 < P b l) natLt_1_32)
        (broadcastInDim S_ ![] hb (constantI S_ 32 0#32)) h hu (ij b l) = BitVec.ofNat 32 (cntUpTo (P b.val) l.val) := by
  apply BitVec.eq_of_toNat_eq
  rw [toNat_cumsum, BitVec.toNat_ofNat]
  have hle := cntUpTo_le (P b.val) l.val
  have hl := l.isLt
  omega

end Count

open Count

/-- Which slots hold a boundary: slot index below the number of boundaries of the sequence. -/
theorem fB46_emb (P : ℕ → ℕ → ℝ) :
    fB46 (F := Ideal) (propArr 4 2048 fun b l => 1 / 2 < P b l)
      = (propArr 4 2048 fun b j => j < nBnd (P b) : IVec S4x2048 1) := by
  refine eq_propArr _ _ fun b j => ?_
  show IntOp.cmpi .slt
      (broadcastInDim S4x2048 ![0, 1] Facts₀.bcast_S1x2048_S4x2048_0_1
        (broadcastInDim S1x2048 ![1] Facts₀.bcast_S2048_S1x2048_1 (iotaInDim S2048 32 0)) (ij b j))
      (broadcastInDim S4x2048 ![0, 1] Facts₀.bcast_S4x1_S4x2048_0_1
        (broadcastInDim S4x1 ![0] Facts₀.bcast_S4_S4x1_0
          (Host.reduce IntOp.addi (extui 32 (propArr 4 2048 fun b l => 1 / 2 < P b l) Facts₀.natLt_1_32) (constantI S_ 32 0#32)
            Facts₀.reducesTo_S4x2048_S4_d1 Facts₀.h_S_)) (ij b j)) = 1#1 ↔ _
  rw [bcast_cols, bcast_rows, iota_apply]
  have hc := toNat_count P Facts₀.reducesTo_S4x2048_S4_d1 Facts₀.h_S_ b
  have hw : Host.reduce IntOp.addi (extui 32 (propArr 4 2048 fun b l => 1 / 2 < P b l) Facts₀.natLt_1_32) (constantI S_ 32 0#32)
      Facts₀.reducesTo_S4x2048_S4_d1 Facts₀.h_S_ (Shape.Idx.ofFin b) = BitVec.ofNat 32 (nBnd (P b.val)) := by
    apply BitVec.eq_of_toNat_eq
    rw [hc, BitVec.toNat_ofNat]
    have := nBnd_le (P b.val)
    omega
  rw [hw]
  exact word_slt j.val _ j.isLt (nBnd_le _)

/-- Each row's slot: the running count of boundaries minus one, clipped to [0, 2047]. -/
theorem fD208_emb (P : ℕ → ℕ → ℝ) :
    fD208 (F := Ideal) (propArr 4 2048 fun b l => 1 / 2 < P b l)
      = (natArr 4 2048 fun b l => min (cntUpTo (P b) l - 1) 2047 : IVec S4x2048 32) := by
  refine eq_natArr _ _ fun b l => ?_
  show IntOp.minsi 2047#32 (IntOp.maxsi 0#32 (IntOp.subi
      (Host.reduceWindow IntOp.addi ![1, 2048] ![1, 1] ![0, 2047] ![0, 0]
        (extui 32 (propArr 4 2048 fun b l => 1 / 2 < P b l) natLt_1_32)
        (broadcastInDim S_ ![] bcast_S_S_ (constantI S_ 32 0#32))
        reduceWindows_S4x2048_S4x2048_w1s1p0_0_w2048s1p2047_0 h_S_ (ij b l)) 1#32)) = _
  rw [cumsum_word]
  have hle := cntUpTo_le (P b.val) l.val
  have hl := l.isLt
  exact word_clip _ (by omega)

/-- Whether the running count minus one is nonnegative: at least one boundary up to the row. -/
theorem fD210_emb (P : ℕ → ℕ → ℝ) :
    fD210 (F := Ideal) (propArr 4 2048 fun b l => 1 / 2 < P b l)
      = (propArr 4 2048 fun b l => 1 ≤ cntUpTo (P b) l : IVec S4x2048 1) := by
  refine eq_propArr _ _ fun b l => ?_
  show IntOp.cmpi .sge (IntOp.subi
      (Host.reduceWindow IntOp.addi ![1, 2048] ![1, 1] ![0, 2047] ![0, 0]
        (extui 32 (propArr 4 2048 fun b l => 1 / 2 < P b l) natLt_1_32)
        (broadcastInDim S_ ![] bcast_S_S_ (constantI S_ 32 0#32))
        reduceWindows_S4x2048_S4x2048_w1s1p0_0_w2048s1p2047_0 h_S_ (ij b l)) 1#32) 0#32 = 1#1 ↔ _
  rw [cumsum_word]
  have hle := cntUpTo_le (P b.val) l.val
  have hl := l.isLt
  exact word_sge_pred _ (by omega)

end Cert.ReferenceIdeal.Read

end
-- ==== Proof.RefB2.lean ====
/-
  The gathers over real tables: with every order entry a row index below 2048 the bounds test of the gather passes
  and the gathered entry is the table's at that row; the slots' decays are one minus the gathered probability, zeroed
  past the boundaries, clipped to [0, 1].
-/
import proofs.«173479_g14800457302192_cont_week2b_463_2_alg».proof.Proof.RefStageB
import proofs.«173479_g14800457302192_cont_week2b_463_2_alg».proof.Proof.RefCount
import proofs.«173479_g14800457302192_cont_week2b_463_2_alg».proof.Proof.Spec
import proofs.«173479_g14800457302192_cont_week2b_463_2_alg».proof.Proof.Arr
import proofs.«173479_g14800457302192_cont_week2b_463_2_alg».proof.Proof.Consts
import Idealize.ShloMosaic.Lib.ValueIdx
import Idealize.ShloMosaic.Lib.Pipeline.Value
import Idealize.ShloMosaic.Lib.StableHlo.Predicate

noncomputable section

namespace Cert.ReferenceIdeal.Read

open Cert.ReferenceIdeal Cert.ReferenceIdeal.Stage Idealize.ShloMosaic Idealize.ShloMosaic.TcCoe Idealize.SL.Sem
open Cert.Spec Cert.Consts
open Idealize.ShloMosaic.ValueIdx Idealize.ShloMosaic.StableHlo.Predicate
open Facts₀

namespace B2

/-! ## Words below 2048 -/

/-- A word below 2048 is nonnegative as a signed word: the wrap of negative indices leaves it. -/
theorem wrap_small (a : BitVec 32) (ha : a.toNat < 2048) :
    Scalar.select (IntOp.cmpi .slt a 0#32) (IntOp.addi a 2048#32) a = a := by
  have h : ¬ (IntOp.cmpi .slt a 0#32 = 1#1) := by
    rw [slt_iff_toNat (by omega) (by decide)]
    exact Nat.not_lt_zero _
  rw [eq_zero_of_ne_one h, select_zero]

/-- A word below 2048 lies in [0, 2047] as a signed word. -/
theorem inb_small (a : BitVec 32) (ha : a.toNat < 2048) :
    IntOp.andi (IntOp.cmpi .sge a 0#32) (IntOp.cmpi .sle a 2047#32) = 1#1 := by
  have h1 : IntOp.cmpi .sge a 0#32 = 1#1 := (sge_iff_toNat (by omega) (by decide)).mpr (Nat.zero_le _)
  have h2 : IntOp.cmpi .sle a 2047#32 = 1#1 :=
    (sle_iff_toNat (by omega) (by decide)).mpr (by show a.toNat ≤ 2047; omega)
  rw [h1, h2]; rfl

/-- A word below 2048, read signed and clamped into [0, 2047], is its value. -/
theorem clamp_small (a : BitVec 32) (ha : a.toNat < 2048) : min a.toInt.toNat 2047 = a.toNat := by
  rw [toInt_eq_toNat_of_lt (by omega), Int.toNat_natCast]
  omega

/-- An and-reduction of an array of set bits from a set bit is set. -/
theorem reduce_andi_ones {s t u : Shape} {axes : List (Fin s.rank)} (x : IVec s 1) (init : IVec u 1)
    (h : s.ReducesTo axes t) (hu : 0 < u.numel) (hx : ∀ i, x i = 1#1) (hi : ∀ i, init i = 1#1) (j : t.Idx) :
    Host.reduce IntOp.andi x init h hu j = 1#1 := by
  unfold Host.reduce
  rw [hi]
  generalize List.filter _ _ = l
  induction l with
  | nil => rfl
  | cons n l ih => rw [List.foldl_cons, hx]; exact ih

/-- The row gather of the rank-3 table: batch axis 0, the index selects the row on axis 1, the whole width is the slice. -/
abbrev g3 := gather_S4x2048x512_S4x2048x1_S4x2048x512_2_1_0_0_1_2_11512
/-- The entry gather of the rank-2 table: batch axis 0, the index selects the entry on axis 1. -/
abbrev g2 := gather_S4x2048_S4x2048x1_S4x2048_n_1_0_0_1_2_11

/-- The row gather at (b, j, d) reads the table at (b, r, d), r the index word at (b, j, 0) read signed and clamped. -/
theorem gather3_apply {α : Type} (x : S4x2048x512.Idx → α) (idx : IVec S4x2048x1 32) (b : Fin 4) (j : Fin 2048)
    (d : Fin 512) :
    Host.gather g3 x idx (ix3 b j d)
      = x (ix3 b ⟨min (idx (ix3 b j (0 : Fin 1))).toInt.toNat 2047, by omega⟩ d) := by
  unfold Host.gather
  refine congrArg x (funext fun a => Fin.ext ?_)
  match a with
  | ⟨0, _⟩ =>
    simp [GatherDims.operandIdx, GatherDims.start, GatherDims.offCoord, GatherDims.batchCoord, g3,
      gather_S4x2048x512_S4x2048x1_S4x2048x512_2_1_0_0_1_2_11512, GatherDims.sKept, Shape.kept]
    rfl
  | ⟨1, _⟩ =>
    simp [GatherDims.operandIdx, GatherDims.start, GatherDims.offCoord, GatherDims.batchCoord, g3,
      gather_S4x2048x512_S4x2048x1_S4x2048x512_2_1_0_0_1_2_11512, GatherDims.sKept, Shape.kept]
    refine congrArg (fun k => min (idx k).toInt.toNat 2047) (funext fun k => Fin.ext ?_)
    match k with
    | ⟨0, _⟩ => rfl
    | ⟨1, _⟩ => rfl
    | ⟨2, _⟩ => rfl
  | ⟨2, _⟩ =>
    simp [GatherDims.operandIdx, GatherDims.start, GatherDims.offCoord, GatherDims.batchCoord, g3,
      gather_S4x2048x512_S4x2048x1_S4x2048x512_2_1_0_0_1_2_11512, GatherDims.sKept, Shape.kept]
    rfl

/-- The entry gather at (b, j) reads the table at (b, r), r the index word at (b, j, 0) read signed and clamped. -/
theorem gather2_apply {α : Type} (x : S4x2048.Idx → α) (idx : IVec S4x2048x1 32) (b : Fin 4) (j : Fin 2048) :
    Host.gather g2 x idx (ix2 b j)
      = x (ix2 b ⟨min (idx (ix3 b j (0 : Fin 1))).toInt.toNat 2047, by omega⟩) := by
  unfold Host.gather
  refine congrArg x (funext fun a => Fin.ext ?_)
  match a with
  | ⟨0, _⟩ =>
    simp [GatherDims.operandIdx, GatherDims.start, GatherDims.offCoord, GatherDims.batchCoord, g2,
      gather_S4x2048_S4x2048x1_S4x2048_n_1_0_0_1_2_11, GatherDims.sKept, Shape.kept]
    rfl
  | ⟨1, _⟩ =>
    simp [GatherDims.operandIdx, GatherDims.start, GatherDims.offCoord, GatherDims.batchCoord, g2,
      gather_S4x2048_S4x2048x1_S4x2048_n_1_0_0_1_2_11, GatherDims.sKept, Shape.kept]
    refine congrArg (fun k => min (idx k).toInt.toNat 2047) (funext fun k => Fin.ext ?_)
    match k with
    | ⟨0, _⟩ => rfl
    | ⟨1, _⟩ => rfl
    | ⟨2, _⟩ => rfl

/-- A natural number below 2048 is the value of its 32-bit word. -/
theorem ofNat_small (n : ℕ) (h : n < 2048) : (BitVec.ofNat 32 n).toNat = n := by
  rw [BitVec.toNat_ofNat]; exact Nat.mod_eq_of_lt (by omega)

/-- The wrap of negative indices leaves a word below 2048. -/
theorem wrap_apply {s : Shape} (v c0 c2048 : IVec s 32) (h0 : ∀ k, c0 k = 0#32) (h2048 : ∀ k, c2048 k = 2048#32)
    (k : s.Idx) (hv : (v k).toNat < 2048) : select (cmpi .slt v c0) (addi v c2048) v k = v k := by
  show Scalar.select (IntOp.cmpi .slt (v k) (c0 k)) (IntOp.addi (v k) (c2048 k)) (v k) = v k
  rw [h0, h2048]; exact wrap_small _ hv

/-- The bounds test passes on words below 2048. -/
theorem inb_bit (c0 c2047 : IVec S4x2048x1 32) (c1 : IVec S_ 1) (h0 : ∀ k, c0 k = 0#32) (h2047 : ∀ k, c2047 k = 2047#32)
    (h1 : ∀ k, c1 k = 1#1) (w : IVec S4x2048x1 32) (hw : ∀ k, (w k).toNat < 2048) (i : S4x2048.Idx) :
    Host.reduce IntOp.andi (andi (cmpi .sge w c0) (cmpi .sle w c2047)) c1 reducesTo_S4x2048x1_S4x2048_d2 h_S_ i = 1#1 := by
  refine reduce_andi_ones _ _ _ _ (fun k => ?_) h1 i
  show IntOp.andi (IntOp.cmpi .sge (w k) (c0 k)) (IntOp.cmpi .sle (w k) (c2047 k)) = 1#1
  rw [h0, h2047]; exact inb_small _ (hw k)

/-- A broadcast of an array that is constant is that constant everywhere. -/
theorem bcast_const {α : Type} {s t : Shape} (dims : Fin s.rank → Fin t.rank) (h : s.BroadcastsInDim t dims)
    (v : s.Idx → α) (c : α) (hv : ∀ k, v k = c) (i : t.Idx) : broadcastInDim t dims h v i = c := hv _

/-- The gathered rows at one point. -/
theorem fB40_point (X : ℕ → ℕ → ℕ → ℝ) (O : ℕ → ℕ → ℕ) (hO : ∀ b j, b < 4 → j < 2048 → O b j < 2048)
    (b : Fin 4) (j : Fin 2048) (d : Fin 512) :
    fB40 (F := Ideal) (emb3 4 2048 512 X) (natArr 4 2048 O) (ix3 b j d)
      = ((X b.val (O b.val j.val) d.val : ℝ) : EReal) := by
  have hvk : ∀ k : S4x2048x1.Idx,
      (broadcastInDim S4x2048x1 ![0, 1] bcast_S4x2048_S4x2048x1_0_1 (natArr 4 2048 O) : IVec S4x2048x1 32) k
        = BitVec.ofNat 32 (O (k 0).val (k 1).val) := fun k => rfl
  have hv : ∀ k : S4x2048x1.Idx,
      ((broadcastInDim S4x2048x1 ![0, 1] bcast_S4x2048_S4x2048x1_0_1 (natArr 4 2048 O) : IVec S4x2048x1 32) k).toNat
        < 2048 := by
    intro k
    have := hO _ _ (k 0).isLt (k 1).isLt
    rw [hvk, ofNat_small _ this]; exact this
  have hW : select (cmpi .slt (broadcastInDim S4x2048x1 ![0, 1] bcast_S4x2048_S4x2048x1_0_1 (natArr 4 2048 O))
        (broadcastInDim S4x2048x1 ![] bcast_S_S4x2048x1 (constantI S_ 32 0#32)))
      (addi (broadcastInDim S4x2048x1 ![0, 1] bcast_S4x2048_S4x2048x1_0_1 (natArr 4 2048 O))
        (broadcastInDim S4x2048x1 ![] bcast_S_S4x2048x1 (constantI S_ 32 2048#32)))
      (broadcastInDim S4x2048x1 ![0, 1] bcast_S4x2048_S4x2048x1_0_1 (natArr 4 2048 O))
      = broadcastInDim S4x2048x1 ![0, 1] bcast_S4x2048_S4x2048x1_0_1 (natArr 4 2048 O) :=
    funext fun k => wrap_apply _ _ _ (fun _ => rfl) (fun _ => rfl) k (hv k)
  unfold fB40
  simp only [select_apply, hW]
  rw [bcast_const _ _ _ (1#1) (inb_bit _ _ _ ?_ ?_ ?_ _ hv), select_one, gather3_apply]
  · have hlt := hO _ _ b.isLt j.isLt
    have hm := clamp_small _ (hv (ix3 b j (0 : Fin 1)))
    rw [show (broadcastInDim S4x2048x1 ![0, 1] bcast_S4x2048_S4x2048x1_0_1 (natArr 4 2048 O) : IVec S4x2048x1 32)
        (ix3 b j (0 : Fin 1)) = BitVec.ofNat 32 (O b.val j.val) from rfl, ofNat_small _ hlt] at hm
    exact congrArg (fun n => ((X b.val n d.val : ℝ) : EReal)) hm
  · exact fun _ => rfl
  · exact fun _ => rfl
  · exact fun _ => rfl

/-! ## The decays -/

/-- A bit converted to a real, read at an index: the bit's value. -/
theorem uitofp_bit_apply (x : IVec S4x2048 1) (i : S4x2048.Idx) :
    uitofp (F := Ideal) .f32 x i = (((x i).toNat : ℝ) : EReal) := rfl

/-- The value of the bit of a proposition is the real 1 where it holds, 0 elsewhere. -/
theorem bit_toNat (c : Prop) [i1 : Decidable c] [i2 : Decidable c] :
    (((@ite _ c i1 (1#1) (0#1) : BitVec 1).toNat : ℝ)) = @ite _ c i2 (1 : ℝ) 0 := by
  by_cases h : c <;> simp [h]

/-- The decays at one point. -/
theorem fB52_point (P : ℕ → ℕ → ℝ) (O : ℕ → ℕ → ℕ) (hO : ∀ b j, b < 4 → j < 2048 → O b j < 2048)
    (b : Fin 4) (j : Fin 2048) :
    fB52 (F := Ideal) (emb2 4 2048 P) (natArr 4 2048 O) (propArr 4 2048 fun b l => 1 / 2 < P b l) (ix2 b j)
      = ((decay (P b.val) (O b.val) j.val : ℝ) : EReal) := by
  have ho : ∀ k : S4x2048.Idx, (natArr 4 2048 O k).toNat < 2048 := by
    intro k
    have := hO _ _ (k 0).isLt (k 1).isLt
    show (BitVec.ofNat 32 (O (k 0).val (k 1).val)).toNat < 2048
    rw [ofNat_small _ this]; exact this
  have hW : select (cmpi .slt (natArr 4 2048 O) (broadcastInDim S4x2048 ![] bcast_S_S4x2048 (constantI S_ 32 0#32)))
      (addi (natArr 4 2048 O) (broadcastInDim S4x2048 ![] bcast_S_S4x2048 (constantI S_ 32 2048#32)))
      (natArr 4 2048 O) = natArr 4 2048 O :=
    funext fun k => wrap_apply _ _ _ (fun _ => rfl) (fun _ => rfl) k (ho k)
  have hv : ∀ k : S4x2048x1.Idx,
      ((shapeCast S4x2048x1 (natArr 4 2048 O) shapeCasts_S4x2048_S4x2048x1 : IVec S4x2048x1 32) k).toNat < 2048 :=
    fun k => ho _
  show minimumf _ (maximumf _ (subf _ (mulf (select _ _ _) (uitofp .f32 (fB46 (F := Ideal) _))))) (ix2 b j) = _
  simp only [fB46_emb, hW, minimumf_apply, maximumf_apply, subf_apply, mulf_apply, select_apply, id_eq,
    uitofp_bit_apply]
  rw [inb_bit _ _ _ ?_ ?_ ?_ _ hv, select_one, gather2_apply]
  · have hlt := hO _ _ b.isLt j.isLt
    have hc : (shapeCast S4x2048x1 (natArr 4 2048 O) shapeCasts_S4x2048_S4x2048x1 : IVec S4x2048x1 32)
        (ix3 b j (0 : Fin 1)) = BitVec.ofNat 32 (O b.val j.val) :=
      shapeCast_apply (natArr 4 2048 O) shapeCasts_S4x2048_S4x2048x1 (ix3 b j (0 : Fin 1)) (ix2 b j) (by
        rw [Shape.rowMajor_val_two, Shape.rowMajor_val_three]
        show b.val * 2048 + j.val = (b.val * 2048 + j.val) * 1 + 0
        omega)
    have hm := clamp_small _ (hv (ix3 b j (0 : Fin 1)))
    show min (Ideal.ofBits .f32 0x3F800000#32) (max (Ideal.ofBits .f32 0x00000000#32)
      (Ideal.ofBits .f32 0x3F800000#32
        - ((P b.val (min ((shapeCast S4x2048x1 (natArr 4 2048 O) shapeCasts_S4x2048_S4x2048x1 : IVec S4x2048x1 32)
              (ix3 b j (0 : Fin 1))).toInt.toNat 2047) : ℝ) : EReal)
          * ((((@ite _ (j.val < nBnd (P b.val)) (Classical.propDecidable _) (1#1) (0#1) : BitVec 1).toNat : ℝ)) : EReal))) = _
    rw [ofBits_one, ofBits_zero, hm, hc, ofNat_small _ hlt, bit_toNat, ← EReal.coe_mul, ← EReal.coe_sub,
      ← EReal.coe_strictMono.monotone.map_max, ← EReal.coe_strictMono.monotone.map_min]
    rfl
  · exact fun _ => rfl
  · exact fun _ => rfl
  · exact fun _ => rfl

end B2

open B2

/-- The rows gathered along an in-range order. -/
theorem fB40_emb (X : ℕ → ℕ → ℕ → ℝ) (O : ℕ → ℕ → ℕ) (hO : ∀ b j, b < 4 → j < 2048 → O b j < 2048) :
    fB40 (F := Ideal) (emb3 4 2048 512 X) (natArr 4 2048 O)
      = (emb3 4 2048 512 fun b j d => X b (O b j) d : FVec Ideal S4x2048x512 .f32) := by
  funext i
  rw [eq_ix3 i]
  exact fB40_point X O hO (i 0) (i 1) (i 2)

/-- The slots' decays from the probabilities, an in-range order and the mask. -/
theorem fB52_emb (P : ℕ → ℕ → ℝ) (O : ℕ → ℕ → ℕ) (hO : ∀ b j, b < 4 → j < 2048 → O b j < 2048) :
    fB52 (F := Ideal) (emb2 4 2048 P) (natArr 4 2048 O) (propArr 4 2048 fun b l => 1 / 2 < P b l)
      = (emb2 4 2048 fun b j => decay (P b) (O b) j : FVec Ideal S4x2048 .f32) := by
  funext i
  rw [eq_ix2 i]
  exact fB52_point P O hO (i 0) (i 1)

end Cert.ReferenceIdeal.Read

end
-- ==== Proof.RefC.lean ====
/-
  The moving average's doubling steps over real tables: rows below the stride are kept, row j at or above it takes
  the product (decay component) or the product-plus-own (accumulated component) with row j − stride; each step is a slice
  of the leading rows, a slice of the trailing rows, pointwise arithmetic and a concatenation along the row axis.
-/
import proofs.«173479_g14800457302192_cont_week2b_463_2_alg».proof.Proof.RefStageC
import proofs.«173479_g14800457302192_cont_week2b_463_2_alg».proof.Proof.Spec
import proofs.«173479_g14800457302192_cont_week2b_463_2_alg».proof.Proof.Arr
import proofs.«173479_g14800457302192_cont_week2b_463_2_alg».proof.Proof.Consts
import Idealize.ShloMosaic.Lib.ValueLayout
import Idealize.ShloMosaic.Lib.ValueIdx

noncomputable section

namespace Cert.ReferenceIdeal.Read

open Cert.ReferenceIdeal Cert.ReferenceIdeal.Stage Idealize.ShloMosaic Idealize.ShloMosaic.TcCoe Idealize.SL.Sem
open Cert.Spec Cert.Consts
open Idealize.ShloMosaic.ValueIdx

/-! ## Tables read at coordinates, and the two patterns of a doubling step -/

/-- A real table read at an index given by its coordinates. -/
private theorem emb3_ix3 {n0 n1 n2 : ℕ} (R : ℕ → ℕ → ℕ → ℝ) (a : Fin n0) (b : Fin n1) (c : Fin n2) :
    emb3 n0 n1 n2 R (ix3 a b c) = ((R a.val b.val c.val : ℝ) : EReal) := rfl

/-- A real table indexed by two numbers, read at an index given by its coordinates. -/
private theorem emb2_ix2 {n0 n1 : ℕ} (R : ℕ → ℕ → ℝ) (a : Fin n0) (b : Fin n1) :
    emb2 n0 n1 R (ix2 a b) = ((R a.val b.val : ℝ) : EReal) := rfl

/-- A table over (sequence, row) broadcast over the width: first a unit axis, then the 512 columns. -/
private theorem bcastRow_emb (R : ℕ → ℕ → ℝ)
    (h1 : S4x2048.BroadcastsInDim S4x2048x1 ![0, 1]) (h2 : S4x2048x1.BroadcastsInDim S4x2048x512 ![0, 1, 2]) :
    broadcastInDim S4x2048x512 ![0, 1, 2] h2 (broadcastInDim S4x2048x1 ![0, 1] h1 (emb2 4 2048 R : FVec Ideal S4x2048 .f32))
      = (emb3 4 2048 512 fun b j _ => R b j : FVec Ideal S4x2048x512 .f32) := by
  funext i
  obtain ⟨b, j, d, rfl⟩ : ∃ b j d, i = ix3 b j d := ⟨i 0, i 1, i 2, eq_ix3 i⟩
  rw [broadcastInDim_apply _ h2 _ (ix3 b j d) (ix3 b j (0 : Fin 1))
    (fun a => by match a with | ⟨0, _⟩ => rfl | ⟨1, _⟩ => rfl | ⟨2, _⟩ => rfl)]
  rw [broadcastInDim_apply _ h1 _ (ix3 b j (0 : Fin 1)) (ix2 b j)
    (fun a => by match a with | ⟨0, _⟩ => rfl | ⟨1, _⟩ => rfl)]
  rw [emb2_ix2, emb3_ix3]

/-- `1 − decay` over (sequence, row): the constant one broadcast, less the decays. -/
private theorem oneSub_emb (Dc : ℕ → ℕ → ℝ) (h : S_.BroadcastsInDim S4x2048 ![]) :
    subf (F := Ideal) (broadcastInDim S4x2048 ![] h (constant (F := Ideal) S_ .f32 0x3F800000#32)) (emb2 4 2048 Dc : FVec Ideal S4x2048 .f32)
      = (emb2 4 2048 fun b j => 1 - Dc b j : FVec Ideal S4x2048 .f32) := by
  funext i
  obtain ⟨b, j, rfl⟩ : ∃ b j, i = ix2 b j := ⟨i 0, i 1, eq_ix2 i⟩
  rw [subf_apply, emb2_ix2, emb2_ix2]
  show Ideal.ofBits .f32 0x3F800000#32 - _ = _
  rw [ofBits_one, EReal.coe_sub]

/-- The pointwise product of two real tables is the table of products. -/
private theorem mulf_emb3 (P Q : ℕ → ℕ → ℕ → ℝ) :
    mulf (F := Ideal) (φ := .f32) (emb3 4 2048 512 P : FVec Ideal S4x2048x512 .f32) (emb3 4 2048 512 Q : FVec Ideal S4x2048x512 .f32)
      = (emb3 4 2048 512 fun b j d => P b j d * Q b j d : FVec Ideal S4x2048x512 .f32) := by
  funext i
  obtain ⟨b, j, d, rfl⟩ : ∃ b j d, i = ix3 b j d := ⟨i 0, i 1, i 2, eq_ix3 i⟩
  rw [mulf_apply, emb3_ix3, emb3_ix3, emb3_ix3, EReal.coe_mul]

/-- One doubling step, accumulated component, at any split of the 2048 rows into `s` kept and `t` computed rows. -/
private theorem stepB_emb (s t : ℕ) (hst : s + t = 2048) (A B : ℕ → ℕ → ℕ → ℝ)
    (h0 : S4x2048x512.Slices ![0, 0, 0] ⟨3, ![4, s, 512]⟩)
    (h1 : S4x2048x512.Slices ![0, s, 0] ⟨3, ![4, t, 512]⟩)
    (h2 : S4x2048x512.Slices ![0, 0, 0] ⟨3, ![4, t, 512]⟩)
    (hc : Shape.Concatenates [⟨3, ![4, s, 512]⟩, ⟨3, ![4, t, 512]⟩] S4x2048x512 1) :
    concatenate S4x2048x512 1
      [⟨⟨3, ![4, s, 512]⟩, extractStridedSlice ⟨3, ![4, s, 512]⟩ ![0, 0, 0] (emb3 4 2048 512 B : FVec Ideal S4x2048x512 .f32) h0⟩,
       ⟨⟨3, ![4, t, 512]⟩, (addf (F := Ideal) (mulf (F := Ideal) (extractStridedSlice ⟨3, ![4, t, 512]⟩ ![0, s, 0] (emb3 4 2048 512 A : FVec Ideal S4x2048x512 .f32) h1)
          (extractStridedSlice ⟨3, ![4, t, 512]⟩ ![0, 0, 0] (emb3 4 2048 512 B : FVec Ideal S4x2048x512 .f32) h2))
          (extractStridedSlice ⟨3, ![4, t, 512]⟩ ![0, s, 0] (emb3 4 2048 512 B : FVec Ideal S4x2048x512 .f32) h1) : FVec Ideal ⟨3, ![4, t, 512]⟩ .f32)⟩] hc
      = (emb3 4 2048 512 fun b j d => if j < s then B b j d else A b j d * B b (j - s) d + B b j d : FVec Ideal S4x2048x512 .f32) := by
  funext i
  obtain ⟨b, j, d, rfl⟩ : ∃ b j d, i = ix3 b j d := ⟨i 0, i 1, i 2, eq_ix3 i⟩
  by_cases hj : j.val < s
  · rw [concatenate_pair_apply_left (s₁ := ⟨3, ![4, s, 512]⟩) (s₂ := ⟨3, ![4, t, 512]⟩) (1 : Fin 3) _ _ hc (ix3 b j d) rfl (ix3 b (⟨j.val, hj⟩ : Fin s) d)
      (fun a => by match a with | ⟨0, _⟩ => rfl | ⟨1, _⟩ => rfl | ⟨2, _⟩ => rfl)]
    rw [slice3_axis1_apply 0 _ h0 b (⟨j.val, hj⟩ : Fin s) d j (by simp)]
    rw [emb3_ix3, emb3_ix3, if_pos hj]
  · have hs : s ≤ j.val := Nat.le_of_not_lt hj
    have hjlt : j.val < 2048 := j.isLt
    have hjt : j.val - s < t := by omega
    have hj2 : j.val - s < 2048 := by omega
    rw [concatenate_pair_apply_right (s₁ := ⟨3, ![4, s, 512]⟩) (s₂ := ⟨3, ![4, t, 512]⟩) (1 : Fin 3) _ _ hc (ix3 b j d) rfl rfl
      (ix3 b (⟨j.val - s, hjt⟩ : Fin t) d)
      (fun a ha => by
        match a, ha with
        | ⟨0, _⟩, _ => rfl
        | ⟨1, _⟩, ha => exact absurd rfl ha
        | ⟨2, _⟩, _ => rfl)
      (by show (j.val - s) + s = j.val; omega)]
    rw [addf_apply, mulf_apply]
    rw [slice3_axis1_apply s (emb3 4 2048 512 A) h1 b (⟨j.val - s, hjt⟩ : Fin t) d j (by show j.val = s + (j.val - s); omega)]
    rw [slice3_axis1_apply s (emb3 4 2048 512 B) h1 b (⟨j.val - s, hjt⟩ : Fin t) d j (by show j.val = s + (j.val - s); omega)]
    rw [slice3_axis1_apply 0 (emb3 4 2048 512 B) h2 b (⟨j.val - s, hjt⟩ : Fin t) d (⟨j.val - s, hj2⟩ : Fin 2048) (by simp)]
    rw [emb3_ix3, emb3_ix3, emb3_ix3, emb3_ix3, if_neg hj, EReal.coe_add, EReal.coe_mul]

/-- One doubling step, decay component, at any split of the 2048 rows into `s` kept and `t` computed rows. -/
private theorem stepA_emb (s t : ℕ) (hst : s + t = 2048) (A : ℕ → ℕ → ℕ → ℝ)
    (h0 : S4x2048x512.Slices ![0, 0, 0] ⟨3, ![4, s, 512]⟩)
    (h1 : S4x2048x512.Slices ![0, s, 0] ⟨3, ![4, t, 512]⟩)
    (h2 : S4x2048x512.Slices ![0, 0, 0] ⟨3, ![4, t, 512]⟩)
    (hc : Shape.Concatenates [⟨3, ![4, s, 512]⟩, ⟨3, ![4, t, 512]⟩] S4x2048x512 1) :
    concatenate S4x2048x512 1
      [⟨⟨3, ![4, s, 512]⟩, extractStridedSlice ⟨3, ![4, s, 512]⟩ ![0, 0, 0] (emb3 4 2048 512 A : FVec Ideal S4x2048x512 .f32) h0⟩,
       ⟨⟨3, ![4, t, 512]⟩, (mulf (F := Ideal) (extractStridedSlice ⟨3, ![4, t, 512]⟩ ![0, s, 0] (emb3 4 2048 512 A : FVec Ideal S4x2048x512 .f32) h1)
          (extractStridedSlice ⟨3, ![4, t, 512]⟩ ![0, 0, 0] (emb3 4 2048 512 A : FVec Ideal S4x2048x512 .f32) h2) : FVec Ideal ⟨3, ![4, t, 512]⟩ .f32)⟩] hc
      = (emb3 4 2048 512 fun b j d => if j < s then A b j d else A b j d * A b (j - s) d : FVec Ideal S4x2048x512 .f32) := by
  funext i
  obtain ⟨b, j, d, rfl⟩ : ∃ b j d, i = ix3 b j d := ⟨i 0, i 1, i 2, eq_ix3 i⟩
  by_cases hj : j.val < s
  · rw [concatenate_pair_apply_left (s₁ := ⟨3, ![4, s, 512]⟩) (s₂ := ⟨3, ![4, t, 512]⟩) (1 : Fin 3) _ _ hc (ix3 b j d) rfl (ix3 b (⟨j.val, hj⟩ : Fin s) d)
      (fun a => by match a with | ⟨0, _⟩ => rfl | ⟨1, _⟩ => rfl | ⟨2, _⟩ => rfl)]
    rw [slice3_axis1_apply 0 _ h0 b (⟨j.val, hj⟩ : Fin s) d j (by simp)]
    rw [emb3_ix3, emb3_ix3, if_pos hj]
  · have hs : s ≤ j.val := Nat.le_of_not_lt hj
    have hjlt : j.val < 2048 := j.isLt
    have hjt : j.val - s < t := by omega
    have hj2 : j.val - s < 2048 := by omega
    rw [concatenate_pair_apply_right (s₁ := ⟨3, ![4, s, 512]⟩) (s₂ := ⟨3, ![4, t, 512]⟩) (1 : Fin 3) _ _ hc (ix3 b j d) rfl rfl
      (ix3 b (⟨j.val - s, hjt⟩ : Fin t) d)
      (fun a ha => by
        match a, ha with
        | ⟨0, _⟩, _ => rfl
        | ⟨1, _⟩, ha => exact absurd rfl ha
        | ⟨2, _⟩, _ => rfl)
      (by show (j.val - s) + s = j.val; omega)]
    rw [mulf_apply]
    rw [slice3_axis1_apply s (emb3 4 2048 512 A) h1 b (⟨j.val - s, hjt⟩ : Fin t) d j (by show j.val = s + (j.val - s); omega)]
    rw [slice3_axis1_apply 0 (emb3 4 2048 512 A) h2 b (⟨j.val - s, hjt⟩ : Fin t) d (⟨j.val - s, hj2⟩ : Fin 2048) (by simp)]
    rw [emb3_ix3, emb3_ix3, emb3_ix3, if_neg hj, EReal.coe_mul]

/-! ## The steps -/

/-- The decays broadcast over the width. -/
theorem fC0a_emb (Dc : ℕ → ℕ → ℝ) :
    fC0a (F := Ideal) (emb2 4 2048 Dc) = (emb3 4 2048 512 fun b j _ => Dc b j : FVec Ideal S4x2048x512 .f32) := by
  unfold fC0a
  dsimp only
  exact bcastRow_emb Dc _ _

/-- The slots' inputs: `(1 − decay) · row`, slot 0 also adding `decay · 0`. -/
theorem fC0b_emb (Dc : ℕ → ℕ → ℝ) (Ch : ℕ → ℕ → ℕ → ℝ) :
    fC0b (F := Ideal) (emb2 4 2048 Dc) (emb3 4 2048 512 Ch)
      = (emb3 4 2048 512 fun b j d => if j < 1 then (1 - Dc b j) * Ch b j d + Dc b j * 0 else (1 - Dc b j) * Ch b j d :
          FVec Ideal S4x2048x512 .f32) := by
  unfold fC0b
  dsimp only
  rw [oneSub_emb Dc, bcastRow_emb (fun b j => 1 - Dc b j), bcastRow_emb Dc, mulf_emb3]
  funext i
  obtain ⟨b, j, d, rfl⟩ : ∃ b j d, i = ix3 b j d := ⟨i 0, i 1, i 2, eq_ix3 i⟩
  by_cases hj : j.val < 1
  · rw [concatenate_pair_apply_left (s₁ := S4x1x512) (s₂ := S4x2047x512) (1 : Fin 3) _ _ _ (ix3 b j d) rfl (ix3 b (⟨j.val, hj⟩ : Fin 1) d)
      (fun a => by match a with | ⟨0, _⟩ => rfl | ⟨1, _⟩ => rfl | ⟨2, _⟩ => rfl)]
    rw [addf_apply, mulf_apply]
    rw [slice3_axis1_apply 0 (emb3 4 2048 512 fun b j d => (1 - Dc b j) * Ch b j d) _ b (⟨j.val, hj⟩ : Fin 1) d j (by simp)]
    rw [slice3_axis1_apply 0 (emb3 4 2048 512 fun b j _ => Dc b j) _ b (⟨j.val, hj⟩ : Fin 1) d j (by simp)]
    rw [emb3_ix3, emb3_ix3, emb3_ix3, if_pos hj]
    show _ + _ * Ideal.ofBits .f32 0x00000000#32 = _
    rw [ofBits_zero, ← EReal.coe_mul, ← EReal.coe_add]
  · have hs : 1 ≤ j.val := Nat.le_of_not_lt hj
    have hjlt : j.val < 2048 := j.isLt
    have hjt : j.val - 1 < 2047 := by omega
    rw [concatenate_pair_apply_right (s₁ := S4x1x512) (s₂ := S4x2047x512) (1 : Fin 3) _ _ _ (ix3 b j d) rfl rfl
      (ix3 b (⟨j.val - 1, hjt⟩ : Fin 2047) d)
      (fun a ha => by
        match a, ha with
        | ⟨0, _⟩, _ => rfl
        | ⟨1, _⟩, ha => exact absurd rfl ha
        | ⟨2, _⟩, _ => rfl)
      (by show (j.val - 1) + 1 = j.val; omega)]
    rw [slice3_axis1_apply 1 _ _ b (⟨j.val - 1, hjt⟩ : Fin 2047) d j (by show j.val = 1 + (j.val - 1); omega)]
    rw [emb3_ix3, emb3_ix3, if_neg hj]

/-- The step at stride 1, accumulated component. -/
theorem fC1b_emb (A B : ℕ → ℕ → ℕ → ℝ) :
    fC1b (F := Ideal) (emb3 4 2048 512 A) (emb3 4 2048 512 B)
      = (emb3 4 2048 512 fun b j d => if j < 1 then B b j d else A b j d * B b (j - 1) d + B b j d : FVec Ideal S4x2048x512 .f32) := by
  unfold fC1b
  dsimp only
  exact stepB_emb 1 2047 rfl A B _ _ _ _

/-- The step at stride 1, decay component. -/
theorem fC1a_emb (A : ℕ → ℕ → ℕ → ℝ) :
    fC1a (F := Ideal) (emb3 4 2048 512 A)
      = (emb3 4 2048 512 fun b j d => if j < 1 then A b j d else A b j d * A b (j - 1) d : FVec Ideal S4x2048x512 .f32) := by
  unfold fC1a
  dsimp only
  exact stepA_emb 1 2047 rfl A _ _ _ _

/-- The step at stride 2, accumulated component. -/
theorem fC2b_emb (A B : ℕ → ℕ → ℕ → ℝ) :
    fC2b (F := Ideal) (emb3 4 2048 512 A) (emb3 4 2048 512 B)
      = (emb3 4 2048 512 fun b j d => if j < 2 then B b j d else A b j d * B b (j - 2) d + B b j d : FVec Ideal S4x2048x512 .f32) := by
  unfold fC2b
  dsimp only
  exact stepB_emb 2 2046 rfl A B _ _ _ _

/-- The step at stride 2, decay component. -/
theorem fC2a_emb (A : ℕ → ℕ → ℕ → ℝ) :
    fC2a (F := Ideal) (emb3 4 2048 512 A)
      = (emb3 4 2048 512 fun b j d => if j < 2 then A b j d else A b j d * A b (j - 2) d : FVec Ideal S4x2048x512 .f32) := by
  unfold fC2a
  dsimp only
  exact stepA_emb 2 2046 rfl A _ _ _ _

/-- The step at stride 4, accumulated component. -/
theorem fC3b_emb (A B : ℕ → ℕ → ℕ → ℝ) :
    fC3b (F := Ideal) (emb3 4 2048 512 A) (emb3 4 2048 512 B)
      = (emb3 4 2048 512 fun b j d => if j < 4 then B b j d else A b j d * B b (j - 4) d + B b j d : FVec Ideal S4x2048x512 .f32) := by
  unfold fC3b
  dsimp only
  exact stepB_emb 4 2044 rfl A B _ _ _ _

/-- The step at stride 4, decay component. -/
theorem fC3a_emb (A : ℕ → ℕ → ℕ → ℝ) :
    fC3a (F := Ideal) (emb3 4 2048 512 A)
      = (emb3 4 2048 512 fun b j d => if j < 4 then A b j d else A b j d * A b (j - 4) d : FVec Ideal S4x2048x512 .f32) := by
  unfold fC3a
  dsimp only
  exact stepA_emb 4 2044 rfl A _ _ _ _

/-- The step at stride 8, accumulated component. -/
theorem fC4b_emb (A B : ℕ → ℕ → ℕ → ℝ) :
    fC4b (F := Ideal) (emb3 4 2048 512 A) (emb3 4 2048 512 B)
      = (emb3 4 2048 512 fun b j d => if j < 8 then B b j d else A b j d * B b (j - 8) d + B b j d : FVec Ideal S4x2048x512 .f32) := by
  unfold fC4b
  dsimp only
  exact stepB_emb 8 2040 rfl A B _ _ _ _

/-- The step at stride 8, decay component. -/
theorem fC4a_emb (A : ℕ → ℕ → ℕ → ℝ) :
    fC4a (F := Ideal) (emb3 4 2048 512 A)
      = (emb3 4 2048 512 fun b j d => if j < 8 then A b j d else A b j d * A b (j - 8) d : FVec Ideal S4x2048x512 .f32) := by
  unfold fC4a
  dsimp only
  exact stepA_emb 8 2040 rfl A _ _ _ _

/-- The step at stride 16, accumulated component. -/
theorem fC5b_emb (A B : ℕ → ℕ → ℕ → ℝ) :
    fC5b (F := Ideal) (emb3 4 2048 512 A) (emb3 4 2048 512 B)
      = (emb3 4 2048 512 fun b j d => if j < 16 then B b j d else A b j d * B b (j - 16) d + B b j d : FVec Ideal S4x2048x512 .f32) := by
  unfold fC5b
  dsimp only
  exact stepB_emb 16 2032 rfl A B _ _ _ _

/-- The step at stride 16, decay component. -/
theorem fC5a_emb (A : ℕ → ℕ → ℕ → ℝ) :
    fC5a (F := Ideal) (emb3 4 2048 512 A)
      = (emb3 4 2048 512 fun b j d => if j < 16 then A b j d else A b j d * A b (j - 16) d : FVec Ideal S4x2048x512 .f32) := by
  unfold fC5a
  dsimp only
  exact stepA_emb 16 2032 rfl A _ _ _ _

/-- The step at stride 32, accumulated component. -/
theorem fC6b_emb (A B : ℕ → ℕ → ℕ → ℝ) :
    fC6b (F := Ideal) (emb3 4 2048 512 A) (emb3 4 2048 512 B)
      = (emb3 4 2048 512 fun b j d => if j < 32 then B b j d else A b j d * B b (j - 32) d + B b j d : FVec Ideal S4x2048x512 .f32) := by
  unfold fC6b
  dsimp only
  exact stepB_emb 32 2016 rfl A B _ _ _ _

/-- The step at stride 32, decay component. -/
theorem fC6a_emb (A : ℕ → ℕ → ℕ → ℝ) :
    fC6a (F := Ideal) (emb3 4 2048 512 A)
      = (emb3 4 2048 512 fun b j d => if j < 32 then A b j d else A b j d * A b (j - 32) d : FVec Ideal S4x2048x512 .f32) := by
  unfold fC6a
  dsimp only
  exact stepA_emb 32 2016 rfl A _ _ _ _

/-- The step at stride 64, accumulated component. -/
theorem fC7b_emb (A B : ℕ → ℕ → ℕ → ℝ) :
    fC7b (F := Ideal) (emb3 4 2048 512 A) (emb3 4 2048 512 B)
      = (emb3 4 2048 512 fun b j d => if j < 64 then B b j d else A b j d * B b (j - 64) d + B b j d : FVec Ideal S4x2048x512 .f32) := by
  unfold fC7b
  dsimp only
  exact stepB_emb 64 1984 rfl A B _ _ _ _

/-- The step at stride 64, decay component. -/
theorem fC7a_emb (A : ℕ → ℕ → ℕ → ℝ) :
    fC7a (F := Ideal) (emb3 4 2048 512 A)
      = (emb3 4 2048 512 fun b j d => if j < 64 then A b j d else A b j d * A b (j - 64) d : FVec Ideal S4x2048x512 .f32) := by
  unfold fC7a
  dsimp only
  exact stepA_emb 64 1984 rfl A _ _ _ _

/-- The step at stride 128, accumulated component. -/
theorem fC8b_emb (A B : ℕ → ℕ → ℕ → ℝ) :
    fC8b (F := Ideal) (emb3 4 2048 512 A) (emb3 4 2048 512 B)
      = (emb3 4 2048 512 fun b j d => if j < 128 then B b j d else A b j d * B b (j - 128) d + B b j d : FVec Ideal S4x2048x512 .f32) := by
  unfold fC8b
  dsimp only
  exact stepB_emb 128 1920 rfl A B _ _ _ _

/-- The step at stride 128, decay component. -/
theorem fC8a_emb (A : ℕ → ℕ → ℕ → ℝ) :
    fC8a (F := Ideal) (emb3 4 2048 512 A)
      = (emb3 4 2048 512 fun b j d => if j < 128 then A b j d else A b j d * A b (j - 128) d : FVec Ideal S4x2048x512 .f32) := by
  unfold fC8a
  dsimp only
  exact stepA_emb 128 1920 rfl A _ _ _ _

/-- The step at stride 256, accumulated component. -/
theorem fC9b_emb (A B : ℕ → ℕ → ℕ → ℝ) :
    fC9b (F := Ideal) (emb3 4 2048 512 A) (emb3 4 2048 512 B)
      = (emb3 4 2048 512 fun b j d => if j < 256 then B b j d else A b j d * B b (j - 256) d + B b j d : FVec Ideal S4x2048x512 .f32) := by
  unfold fC9b
  dsimp only
  exact stepB_emb 256 1792 rfl A B _ _ _ _

/-- The step at stride 256, decay component. -/
theorem fC9a_emb (A : ℕ → ℕ → ℕ → ℝ) :
    fC9a (F := Ideal) (emb3 4 2048 512 A)
      = (emb3 4 2048 512 fun b j d => if j < 256 then A b j d else A b j d * A b (j - 256) d : FVec Ideal S4x2048x512 .f32) := by
  unfold fC9a
  dsimp only
  exact stepA_emb 256 1792 rfl A _ _ _ _

/-- The step at stride 512, accumulated component. -/
theorem fC10b_emb (A B : ℕ → ℕ → ℕ → ℝ) :
    fC10b (F := Ideal) (emb3 4 2048 512 A) (emb3 4 2048 512 B)
      = (emb3 4 2048 512 fun b j d => if j < 512 then B b j d else A b j d * B b (j - 512) d + B b j d : FVec Ideal S4x2048x512 .f32) := by
  unfold fC10b
  dsimp only
  exact stepB_emb 512 1536 rfl A B _ _ _ _

/-- The step at stride 512, decay component. -/
theorem fC10a_emb (A : ℕ → ℕ → ℕ → ℝ) :
    fC10a (F := Ideal) (emb3 4 2048 512 A)
      = (emb3 4 2048 512 fun b j d => if j < 512 then A b j d else A b j d * A b (j - 512) d : FVec Ideal S4x2048x512 .f32) := by
  unfold fC10a
  dsimp only
  exact stepA_emb 512 1536 rfl A _ _ _ _

/-- The step at stride 1024, accumulated component. -/
theorem fC11b_emb (A B : ℕ → ℕ → ℕ → ℝ) :
    fC11b (F := Ideal) (emb3 4 2048 512 A) (emb3 4 2048 512 B)
      = (emb3 4 2048 512 fun b j d => if j < 1024 then B b j d else A b j d * B b (j - 1024) d + B b j d : FVec Ideal S4x2048x512 .f32) := by
  unfold fC11b
  dsimp only
  exact stepB_emb 1024 1024 rfl A B _ _ _ _

end Cert.ReferenceIdeal.Read

end
-- ==== Proof.RefD2.lean ====
/-
  The tail over real tables: a 0/1 factor from a bit column, the gather at in-range slots, the straight-through
  coefficient, and the final sum with the rows.
-/
import proofs.«173479_g14800457302192_cont_week2b_463_2_alg».proof.Proof.RefStageD
import proofs.«173479_g14800457302192_cont_week2b_463_2_alg».proof.Proof.Spec
import proofs.«173479_g14800457302192_cont_week2b_463_2_alg».proof.Proof.Arr
import proofs.«173479_g14800457302192_cont_week2b_463_2_alg».proof.Proof.Consts
import Idealize.ShloMosaic.Lib.ValueIdx
import Idealize.ShloMosaic.Lib.Pipeline.Value
import Idealize.ShloMosaic.Lib.StableHlo.Predicate

noncomputable section

/-! ## The pieces of the tail, each read at one index (b, l, d) -/

namespace Cert.ReferenceIdeal.Read.D2

open Cert.ReferenceIdeal Cert.ReferenceIdeal.Stage Idealize.ShloMosaic Idealize.ShloMosaic.TcCoe Idealize.SL.Sem
open Cert.Spec Cert.Consts
open Idealize.ShloMosaic.ValueIdx Idealize.ShloMosaic.StableHlo.Predicate
open Facts₀

/-! ### Broadcasts read at an index -/

/-- A table over (b, l) broadcast to [4, 2048, 1] reads the table's entry. -/
theorem bcastCol_apply {α : Type} (h : S4x2048.BroadcastsInDim S4x2048x1 ![0, 1]) (v : S4x2048.Idx → α)
    (b : Fin 4) (l : Fin 2048) (z : Fin 1) :
    broadcastInDim S4x2048x1 ![0, 1] h v (ix3 b l z) = v (ix2 b l) := by
  refine broadcastInDim_apply _ h v _ _ (fun a => ?_)
  fin_cases a <;> rfl

/-- A column [4, 2048, 1] broadcast over the width reads the column at (b, l, 0). -/
theorem bcastWide_apply {α : Type} (h : S4x2048x1.BroadcastsInDim S4x2048x512 ![0, 1, 2]) (v : S4x2048x1.Idx → α)
    (b : Fin 4) (l : Fin 2048) (d : Fin 512) :
    broadcastInDim S4x2048x512 ![0, 1, 2] h v (ix3 b l d) = v (ix3 b l 0) := by
  refine broadcastInDim_apply _ h v _ _ (fun a => ?_)
  fin_cases a <;> rfl

/-- A table over (b, l) broadcast over the width reads the table's entry. -/
theorem bcastRow_apply {α : Type} (h : S4x2048.BroadcastsInDim S4x2048x512 ![0, 1]) (v : S4x2048.Idx → α)
    (b : Fin 4) (l : Fin 2048) (d : Fin 512) :
    broadcastInDim S4x2048x512 ![0, 1] h v (ix3 b l d) = v (ix2 b l) := by
  refine broadcastInDim_apply _ h v _ _ (fun a => ?_)
  fin_cases a <;> rfl

/-! ### The 0/1 factor of a bit column -/

/-- A bit read as an unsigned integer is the real 0 or 1. -/
theorem bit_toNat_coe (p : Prop) [Decidable p] :
    (((if p then 1#1 else 0#1 : BitVec 1).toNat : ℝ) : EReal) = (((if p then 1 else 0 : ℝ)) : EReal) := by
  by_cases hp : p
  · simp [hp]
  · simp [hp]

/-- The bit column as a real column, broadcast over the width: 1 where the proposition holds, else 0. -/
theorem bitFactor_apply (G : ℕ → ℕ → Prop) (b : Fin 4) (l : Fin 2048) (d : Fin 512) :
    broadcastInDim S4x2048x512 ![0, 1, 2] bcast_S4x2048x1_S4x2048x512_0_1_2
      (uitofp (F := Ideal) .f32 (broadcastInDim S4x2048x1 ![0, 1] bcast_S4x2048_S4x2048x1_0_1 (propArr 4 2048 G))) (ix3 b l d)
      = (((by classical exact if G b.val l.val then 1 else 0 : ℝ)) : EReal) := by
  rw [bcastWide_apply]
  show (((broadcastInDim S4x2048x1 ![0, 1] _ (propArr 4 2048 G) (ix3 b l 0)).toNat : ℝ) : EReal) = _
  rw [bcastCol_apply]
  classical
  show ((((if G b.val l.val then 1#1 else 0#1 : BitVec 1)).toNat : ℝ) : EReal) = _
  rw [bit_toNat_coe]

/-! ### Words below 2048, the and-reduce, the gather -/

/-- A word below 2048 is nonnegative as a signed word, at most 2047, and reads back as itself. -/
theorem word_facts (n : ℕ) (hn : n < 2048) :
    IntOp.cmpi .slt (BitVec.ofNat 32 n) 0#32 = 0#1 ∧ IntOp.cmpi .sge (BitVec.ofNat 32 n) 0#32 = 1#1
      ∧ IntOp.cmpi .sle (BitVec.ofNat 32 n) 2047#32 = 1#1 ∧ (BitVec.ofNat 32 n).toInt.toNat = n := by
  have hN : (BitVec.ofNat 32 n).toNat = n := by rw [BitVec.toNat_ofNat]; exact Nat.mod_eq_of_lt (by omega)
  have h31 : (BitVec.ofNat 32 n).toNat < 2 ^ 31 := by rw [hN]; omega
  have h0 : (0#32 : BitVec 32).toNat < 2 ^ 31 := by decide
  have h2047 : (2047#32 : BitVec 32).toNat < 2 ^ 31 := by decide
  refine ⟨?_, ?_, ?_, ?_⟩
  · refine eq_zero_of_ne_one (fun h => ?_)
    have := (slt_iff_toNat h31 h0).1 h
    exact absurd this (Nat.not_lt_zero _)
  · exact (sge_iff_toNat h31 h0).2 (Nat.zero_le _)
  · refine (sle_iff_toNat h31 h2047).2 ?_
    rw [hN]; show n ≤ 2047; omega
  · rw [toInt_eq_toNat_of_lt h31, Int.toNat_natCast, hN]

/-- An and-reduce of an array of ones from the initial value one is one. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  generalize (((List.finRange s.numel).map s.rowMajor.symm).filter fun i => h.drop i = j) = L
  induction L with
  | nil => rfl
  | cons a L ih => rw [List.foldl_cons, hx a]; exact ih

/-- The gather's dimension numbers: axis 0 batched, axis 1 collapsed and indexed, axis 2 the offset axis. -/
abbrev gd := gather_S4x2048x512_S4x2048x1_S4x2048x512_2_1_0_0_1_2_11512

/-- The gather reads its operand at (b, the start word at (b, l, 0) read signed and clamped into 0 … 2047, d). -/
theorem gather_apply {α : Type} (x : S4x2048x512.Idx → α) (idx : IVec S4x2048x1 32) (b : Fin 4) (l : Fin 2048) (d : Fin 512) :
    Host.gather gd x idx (ix3 b l d)
      = x (ix3 b ⟨min (idx (ix3 b l 0)).toInt.toNat 2047, Nat.lt_succ_of_le (Nat.min_le_right _ _)⟩ d) := by
  unfold Host.gather
  congr 1
  funext a
  apply Fin.ext
  fin_cases a
  · -- the batched axis: no start, no offset, the batch coordinate b
    show gd.start (ix3 b l d) idx 0 + gd.batchCoord (ix3 b l d) 0 + gd.offCoord (ix3 b l d) 0 = b.val
    rw [gd.start_batching _ _ _ (List.mem_singleton.mpr rfl),
      gd.offCoord_eq_zero _ _ (fun h => ((gd.mem_sKept _).mp h).2 (List.mem_singleton.mpr rfl))]
    unfold GatherDims.batchCoord
    rw [dif_pos (show (0 : Fin S4x2048x512.rank) ∈ gd.operandBatchingDims from List.mem_singleton.mpr rfl)]
    rw [Nat.add_zero, Nat.zero_add]
    rfl
  · -- the indexed axis: the clamped start, no batch coordinate, no offset
    show gd.start (ix3 b l d) idx 1 + gd.batchCoord (ix3 b l d) 1 + gd.offCoord (ix3 b l d) 1
      = min (idx (ix3 b l 0)).toInt.toNat 2047
    rw [gd.batchCoord_eq_zero _ _ (fun h => absurd (List.mem_singleton.mp h) (by decide)),
      gd.offCoord_eq_zero _ _ (fun h => ((gd.mem_sKept _).mp h).1 (List.mem_singleton.mpr rfl))]
    unfold GatherDims.start
    rw [dif_pos (show (1 : Fin S4x2048x512.rank) ∈ gd.startIndexMap from List.mem_singleton.mpr rfl)]
    have hsi : gd.siIdx (ix3 b l d) ⟨List.idxOf (1 : Fin S4x2048x512.rank) gd.startIndexMap,
        List.idxOf_lt_length_iff.2 (List.mem_singleton.mpr rfl)⟩ = ix3 b l 0 := by
      funext c; refine Fin.ext ?_
      match c with
      | ⟨0, _⟩ => rfl
      | ⟨1, _⟩ => rfl
      | ⟨2, _⟩ => rfl
    rw [hsi]
    rfl
  · -- the offset axis: no start, no batch coordinate, the offset d
    show gd.start (ix3 b l d) idx 2 + gd.batchCoord (ix3 b l d) 2 + gd.offCoord (ix3 b l d) 2 = d.val
    rw [gd.batchCoord_eq_zero _ _ (fun h => absurd (List.mem_singleton.mp h) (by decide))]
    unfold GatherDims.start GatherDims.offCoord
    rw [dif_neg (show ¬ (2 : Fin S4x2048x512.rank) ∈ gd.startIndexMap from
        fun h => absurd (List.mem_singleton.mp h) (by decide)),
      dif_pos (show (2 : Fin S4x2048x512.rank) ∈ gd.sKept from (gd.mem_sKept _).mpr
        ⟨fun h => absurd (List.mem_singleton.mp h) (by decide), fun h => absurd (List.mem_singleton.mp h) (by decide)⟩)]
    rw [Nat.add_zero, Nat.zero_add]
    rfl

/-! ### The slots: the wrap keeps them, the bounds test passes, the gather reads the table there -/

/-- The slots as a column of words, after the wrap of negative indices (x < 0 ↦ x + 2048). -/
def wrapped (S : ℕ → ℕ → ℕ) : IVec S4x2048x1 32 :=
  select (cmpi .slt (broadcastInDim S4x2048x1 ![0, 1] bcast_S4x2048_S4x2048x1_0_1 (natArr 4 2048 S))
      (broadcastInDim S4x2048x1 ![] bcast_S_S4x2048x1 (constantI S_ 32 0#32)))
    (addi (broadcastInDim S4x2048x1 ![0, 1] bcast_S4x2048_S4x2048x1_0_1 (natArr 4 2048 S))
      (broadcastInDim S4x2048x1 ![] bcast_S_S4x2048x1 (constantI S_ 32 2048#32)))
    (broadcastInDim S4x2048x1 ![0, 1] bcast_S4x2048_S4x2048x1_0_1 (natArr 4 2048 S))

/-- A slot below 2048 is nonnegative, so the wrap keeps it. -/
theorem wrapped_apply (S : ℕ → ℕ → ℕ) (hS : ∀ b l, b < 4 → l < 2048 → S b l < 2048) (b : Fin 4) (l : Fin 2048) (z : Fin 1) :
    wrapped S (ix3 b l z) = BitVec.ofNat 32 (S b.val l.val) := by
  show Scalar.select (IntOp.cmpi .slt
      (broadcastInDim S4x2048x1 ![0, 1] bcast_S4x2048_S4x2048x1_0_1 (natArr 4 2048 S) (ix3 b l z)) 0#32)
    (IntOp.addi (broadcastInDim S4x2048x1 ![0, 1] bcast_S4x2048_S4x2048x1_0_1 (natArr 4 2048 S) (ix3 b l z)) 2048#32)
    (broadcastInDim S4x2048x1 ![0, 1] bcast_S4x2048_S4x2048x1_0_1 (natArr 4 2048 S) (ix3 b l z)) = _
  rw [bcastCol_apply]
  show Scalar.select (IntOp.cmpi .slt (BitVec.ofNat 32 (S b.val l.val)) 0#32) _ (BitVec.ofNat 32 (S b.val l.val)) = _
  rw [(word_facts _ (hS _ _ b.isLt l.isLt)).1, select_zero]

/-- The bounds test of the wrapped slots, 0 ≤ · ≤ 2047. -/
def inRange (S : ℕ → ℕ → ℕ) : IVec S4x2048x1 1 :=
  andi (cmpi .sge (wrapped S) (broadcastInDim S4x2048x1 ![] bcast_S_S4x2048x1 (constantI S_ 32 0#32)))
    (cmpi .sle (wrapped S) (broadcastInDim S4x2048x1 ![0, 1, 2] bcast_S1x1x1_S4x2048x1_0_1_2
      (broadcastInDim S1x1x1 ![2] bcast_S1_S1x1x1_2 (constantI S1 32 2047#32))))

/-- Every slot passes the bounds test. -/
theorem inRange_one (S : ℕ → ℕ → ℕ) (hS : ∀ b l, b < 4 → l < 2048 → S b l < 2048) (i : S4x2048x1.Idx) :
    inRange S i = 1#1 := by
  obtain ⟨b, l, z, rfl⟩ : ∃ b l z, i = ix3 b l z := ⟨_, _, _, eq_ix3 i⟩
  show IntOp.andi (IntOp.cmpi .sge (wrapped S (ix3 b l z)) 0#32) (IntOp.cmpi .sle (wrapped S (ix3 b l z)) 2047#32) = 1#1
  rw [wrapped_apply S hS, (word_facts _ (hS _ _ b.isLt l.isLt)).2.1, (word_facts _ (hS _ _ b.isLt l.isLt)).2.2.1]
  rfl

/-- The gathered value behind the bounds select is the table at the slot: the test is 1 everywhere, so its and-reduce
    over the unit axis is 1 and the select never takes the fill; the clamp leaves a slot below 2048. -/
theorem taken_apply (M : ℕ → ℕ → ℕ → ℝ) (S : ℕ → ℕ → ℕ) (hS : ∀ b l, b < 4 → l < 2048 → S b l < 2048)
    (fill : EReal) (b : Fin 4) (l : Fin 2048) (d : Fin 512) :
    Scalar.select (broadcastInDim S4x2048x512 ![0, 1] bcast_S4x2048_S4x2048x512_0_1
        (Host.reduce IntOp.andi (inRange S) (constantI S_ 1 1#1) reducesTo_S4x2048x1_S4x2048_d2 h_S_) (ix3 b l d))
      (Host.gather gd (emb3 4 2048 512 M) (wrapped S) (ix3 b l d)) fill
      = ((M b.val (S b.val l.val) d.val : ℝ) : EReal) := by
  rw [bcastRow_apply, reduce_andi_ones _ _ _ _ (inRange_one S hS) rfl, select_one, gather_apply, wrapped_apply S hS,
    (word_facts _ (hS _ _ b.isLt l.isLt)).2.2.2]
  have h : min (S b.val l.val) 2047 = S b.val l.val := Nat.min_eq_left (by have := hS _ _ b.isLt l.isLt; omega)
  show ((M b.val (min (S b.val l.val) 2047) d.val : ℝ) : EReal) = _
  rw [h]

/-! ### The straight-through coefficient -/

/-- The maximum of two reals, as extended reals. -/
theorem coe_max' (x y : ℝ) : max (x : EReal) (y : EReal) = ((max x y : ℝ) : EReal) :=
  (EReal.coe_strictMono.monotone.map_max).symm

/-- The coefficient array from the probabilities: 1 + (max (1 − p) p − max (1 − p) p). -/
def coefArr (Pa : FVec Ideal S4x2048 .f32) : FVec Ideal S4x2048 .f32 :=
  addf (broadcastInDim S4x2048 ![] bcast_S_S4x2048 (constant (F := Ideal) S_ .f32 0x3F800000#32))
    (subf
      (maximumf (subf (broadcastInDim S4x2048 ![] bcast_S_S4x2048 (constant (F := Ideal) S_ .f32 0x3F800000#32)) Pa) Pa)
      (maximumf (subf (broadcastInDim S4x2048 ![] bcast_S_S4x2048 (constant (F := Ideal) S_ .f32 0x3F800000#32)) Pa) Pa))

/-- Over real probabilities the coefficient array, broadcast over the width, is the real coefficient. -/
theorem coefFactor_apply (P : ℕ → ℕ → ℝ) (b : Fin 4) (l : Fin 2048) (d : Fin 512) :
    broadcastInDim S4x2048x512 ![0, 1, 2] bcast_S4x2048x1_S4x2048x512_0_1_2
      (broadcastInDim S4x2048x1 ![0, 1] bcast_S4x2048_S4x2048x1_0_1 (coefArr (emb2 4 2048 P))) (ix3 b l d)
      = ((coef (P b.val) l.val : ℝ) : EReal) := by
  rw [bcastWide_apply, bcastCol_apply]
  show Ideal.ofBits .f32 0x3F800000#32
      + (max (Ideal.ofBits .f32 0x3F800000#32 - ((P b.val l.val : ℝ) : EReal)) ((P b.val l.val : ℝ) : EReal)
        - max (Ideal.ofBits .f32 0x3F800000#32 - ((P b.val l.val : ℝ) : EReal)) ((P b.val l.val : ℝ) : EReal)) = _
  rw [ofBits_one, ← EReal.coe_sub, coe_max', ← EReal.coe_sub, ← EReal.coe_add]
  rfl

end Cert.ReferenceIdeal.Read.D2

/-! ## The two stages over real tables -/

namespace Cert.ReferenceIdeal.Read

open Cert.ReferenceIdeal Cert.ReferenceIdeal.Stage Idealize.ShloMosaic Idealize.ShloMosaic.TcCoe Idealize.SL.Sem
open Cert.Spec Cert.Consts
open Idealize.ShloMosaic.ValueIdx
open Facts₀ D2

/-- The average zeroed where the bit column is 0. -/
theorem fD203_emb (E : ℕ → ℕ → ℕ → ℝ) (G : ℕ → ℕ → Prop) :
    fD203 (F := Ideal) (emb3 4 2048 512 E) (propArr 4 2048 G)
      = (emb3 4 2048 512 fun b j d => by classical exact E b j d * (if G b j then 1 else 0) : FVec Ideal S4x2048x512 .f32) := by
  funext i
  obtain ⟨b, l, d, rfl⟩ : ∃ b l d, i = ix3 b l d := ⟨_, _, _, eq_ix3 i⟩
  show ((E b.val l.val d.val : ℝ) : EReal)
      * broadcastInDim S4x2048x512 ![0, 1, 2] bcast_S4x2048x1_S4x2048x512_0_1_2
          (uitofp (F := Ideal) .f32 (broadcastInDim S4x2048x1 ![0, 1] bcast_S4x2048_S4x2048x1_0_1 (propArr 4 2048 G))) (ix3 b l d)
      = _
  rw [bitFactor_apply, ← EReal.coe_mul]
  rfl

/-- The tail: gather at the slots, zero where the slot bit is 0, times the coefficient, plus the rows. -/
theorem fD_emb (M : ℕ → ℕ → ℕ → ℝ) (S : ℕ → ℕ → ℕ) (hS : ∀ b l, b < 4 → l < 2048 → S b l < 2048) (G : ℕ → ℕ → Prop)
    (P : ℕ → ℕ → ℝ) (X : ℕ → ℕ → ℕ → ℝ) :
    fD (F := Ideal) (emb3 4 2048 512 M) (natArr 4 2048 S) (propArr 4 2048 G) (emb2 4 2048 P) (emb3 4 2048 512 X)
      = (emb3 4 2048 512 fun b l d => by classical exact X b l d + M b (S b l) d * (if G b l then 1 else 0) * coef (P b) l :
          FVec Ideal S4x2048x512 .f32) := by
  funext i
  obtain ⟨b, l, d, rfl⟩ : ∃ b l d, i = ix3 b l d := ⟨_, _, _, eq_ix3 i⟩
  -- the value at (b, l, d): the row, plus the selected gather times the bit factor times the coefficient factor
  show ((X b.val l.val d.val : ℝ) : EReal)
      + Scalar.select (broadcastInDim S4x2048x512 ![0, 1] bcast_S4x2048_S4x2048x512_0_1
            (Host.reduce IntOp.andi (inRange S) (constantI S_ 1 1#1) reducesTo_S4x2048x1_S4x2048_d2 h_S_) (ix3 b l d))
          (Host.gather gd (emb3 4 2048 512 M) (wrapped S) (ix3 b l d)) (Ideal.ofBits .f32 0x7FC00000#32)
        * broadcastInDim S4x2048x512 ![0, 1, 2] bcast_S4x2048x1_S4x2048x512_0_1_2
            (uitofp (F := Ideal) .f32 (broadcastInDim S4x2048x1 ![0, 1] bcast_S4x2048_S4x2048x1_0_1 (propArr 4 2048 G))) (ix3 b l d)
        * broadcastInDim S4x2048x512 ![0, 1, 2] bcast_S4x2048x1_S4x2048x512_0_1_2
            (broadcastInDim S4x2048x1 ![0, 1] bcast_S4x2048_S4x2048x1_0_1 (coefArr (emb2 4 2048 P))) (ix3 b l d)
      = _
  rw [taken_apply M S hS, bitFactor_apply, coefFactor_apply, ← EReal.coe_mul, ← EReal.coe_mul, ← EReal.coe_add]
  rfl

end Cert.ReferenceIdeal.Read

end
-- ==== Proof.LibStableSortLex.lean ====
/-
  A general fact about the stable insertion sort of positions (`stableSort` / `sortedFrom`, the sort behind a host
  sort or argsort along an axis): when the comparator only compares a natural-number key of the positions
  (`before k k' ↔ key k < key k'`), the sorting permutation lists the positions by (key, position) lexicographically —
  smaller key first, and equal keys in their original order (stability).

  The sort inserts the positions from the right: the head of the list goes into the sorted tail, after every
  element whose key is strictly smaller and before the first whose key is not. When the list is strictly
  increasing in position, the head is earlier than everything in the sorted tail (the tail is a permutation
  of the later positions), so insertion keeps the order lexicographic. Use: `sortedFrom_lex`, for any key and any
  `before` that is the strict comparison of keys; with an injectivity argument it identifies slot j with the j-th
  position in that order.
-/
import Idealize.ShloMosaic.Lib.SortFacts

noncomputable section

namespace Cert.Lib

open Idealize.ShloMosaic

/-- The lexicographic order of (key, position): smaller key, or equal key and earlier position. -/
def LexLt {n : ℕ} (key : Fin n → ℕ) (b c : Fin n) : Prop :=
  key b < key c ∨ (key b = key c ∧ b < c)

/-- Inserting a position that is earlier than every element of a lexicographically ordered list keeps
    the list lexicographically ordered. -/
theorem lex_insertBefore {n : ℕ} (key : Fin n → ℕ) (before : Fin n → Fin n → Bool)
    (h : ∀ k k', before k k' = decide (key k < key k')) (a : Fin n) (l : List (Fin n))
    (ha : ∀ b ∈ l, a < b) (hl : l.Pairwise (LexLt key)) :
    (insertBefore before a l).Pairwise (LexLt key) := by
  induction l with
  | nil => exact List.pairwise_singleton _ _
  | cons b l ih =>
    rw [List.pairwise_cons] at hl
    have hab : a < b := ha b List.mem_cons_self
    have hal : ∀ c ∈ l, a < c := fun c hc => ha c (List.mem_cons_of_mem b hc)
    unfold insertBefore
    split
    · -- key b < key a: b stays first, a goes further in
      rename_i hb
      rw [h b a, decide_eq_true_eq] at hb
      refine List.pairwise_cons.mpr ⟨fun c hc => ?_, ih hal hl.2⟩
      rcases List.mem_cons.mp ((perm_insertBefore before a l).mem_iff.mp hc) with rfl | hc'
      · exact Or.inl hb
      · exact hl.1 c hc'
    · -- key a ≤ key b: a goes first, and key a ≤ key b ≤ key c for every later c
      rename_i hb
      rw [h b a, decide_eq_true_eq, not_lt] at hb
      refine List.pairwise_cons.mpr ⟨fun c hc => ?_, List.pairwise_cons.mpr hl⟩
      rcases List.mem_cons.mp hc with rfl | hc'
      · rcases Nat.lt_or_eq_of_le hb with hlt | heq
        · exact Or.inl hlt
        · exact Or.inr ⟨heq, hab⟩
      · have hac : a < c := hal c hc'
        have hbc : key b ≤ key c := by
          rcases hl.1 c hc' with hlt | ⟨heq, _⟩
          · exact Nat.le_of_lt hlt
          · exact Nat.le_of_eq heq
        rcases Nat.lt_or_eq_of_le (Nat.le_trans hb hbc) with hlt | heq
        · exact Or.inl hlt
        · exact Or.inr ⟨heq, hac⟩

/-- The stable sort of a list that is strictly increasing in position is lexicographically ordered. -/
theorem lex_stableSort {n : ℕ} (key : Fin n → ℕ) (before : Fin n → Fin n → Bool)
    (h : ∀ k k', before k k' = decide (key k < key k')) (l : List (Fin n))
    (hl : l.Pairwise (· < ·)) : (stableSort before l).Pairwise (LexLt key) := by
  induction l with
  | nil => exact List.Pairwise.nil
  | cons a l ih =>
    rw [List.pairwise_cons] at hl
    unfold stableSort
    exact lex_insertBefore key before h a _
      (fun b hb => hl.1 b ((perm_stableSort before l).mem_iff.mp hb)) (ih hl.2)

/-- Under `before k k' ↔ key k < key k'` the sorting permutation is increasing for the lexicographic order
    of (key, position). -/
theorem sortedFrom_lex {n : ℕ} (key : Fin n → ℕ) (before : Fin n → Fin n → Bool)
    (h : ∀ k k', before k k' = decide (key k < key k')) (i j : Fin n) (hij : i < j) :
    key (sortedFrom before i) < key (sortedFrom before j) ∨
      (key (sortedFrom before i) = key (sortedFrom before j) ∧ sortedFrom before i < sortedFrom before j) := by
  have hp : ∀ a b : Fin (sortPositions n before).length, a < b →
      LexLt key ((sortPositions n before).get a) ((sortPositions n before).get b) :=
    List.pairwise_iff_get.mp
      (lex_stableSort key before h (List.finRange n) (List.sortedLT_finRange n).pairwise)
  unfold sortedFrom
  exact hp _ _ (by simp only [Fin.lt_def, Fin.val_cast]; exact hij)

end Cert.Lib

end
-- ==== Proof.SortMath.lean ====
/-
  The order of the 2048 rows used by the compacted computation is the stable sort by the boundary key: slot j holds
  the j-th row in the lexicographic order of (key, row), by the general fact about the stable insertion sort.
-/
import proofs.«173479_g14800457302192_cont_week2b_463_2_alg».proof.Proof.Spec
import proofs.«173479_g14800457302192_cont_week2b_463_2_alg».proof.Proof.LibStableSortLex

noncomputable section

namespace Cert.Spec

open Idealize.ShloMosaic Cert.Lib

/-- The order of the 2048 rows by `keyOf P` is a stable sort by that key. -/
theorem ordOf_sortsBy (P : ℕ → ℝ) : SortsBy (keyOf P) (ordOf P) 2048 := by
  refine ⟨fun j hj => ?_, fun i j hij hj => ?_⟩
  · unfold ordOf
    rw [dif_pos hj]
    exact (sortedFrom _ _).isLt
  · have hi : i < 2048 := Nat.lt_trans hij hj
    unfold ordOf
    rw [dif_pos hi, dif_pos hj]
    have hlex := sortedFrom_lex (fun k : Fin 2048 => keyOf P k.val)
      (fun k k' : Fin 2048 => decide (keyOf P k.val < keyOf P k'.val)) (fun _ _ => rfl)
      ⟨i, hi⟩ ⟨j, hj⟩ (by simp only [Fin.lt_def]; exact hij)
    rcases hlex with hlt | ⟨heq, hpos⟩
    · exact Or.inl hlt
    · exact Or.inr ⟨heq, by simpa only [Fin.lt_def] using hpos⟩

end Cert.Spec

end
-- ==== Proof.CompactMath.lean ====
/-
  Compaction is the recurrence: gathering the boundary rows to the front in order, averaging over the slots and
  reading, at row l, the slot of the latest boundary not after l, gives the per-row state s_l.
-/
import proofs.«173479_g14800457302192_cont_week2b_463_2_alg».proof.Proof.Spec
import proofs.«173479_g14800457302192_cont_week2b_463_2_alg».proof.Proof.ScanMath

noncomputable section

namespace Cert.Spec

/-- The router's probability of row 0 is 1. -/
theorem prob_zero (ε : ℝ) (X Wq Wk : ℕ → ℕ → ℝ) : prob ε X Wq Wk 0 = 1 := by
  unfold prob
  rw [if_pos rfl]

/-- The router's probabilities lie in [0, 1]. -/
theorem prob_mem (ε : ℝ) (X Wq Wk : ℕ → ℕ → ℝ) (l : ℕ) : 0 ≤ prob ε X Wq Wk l ∧ prob ε X Wq Wk l ≤ 1 := by
  unfold prob
  split_ifs with h
  · exact ⟨zero_le_one, le_refl 1⟩
  · unfold pm
    exact ⟨le_min zero_le_one (le_max_left _ _), min_le_left _ _⟩

/-! ## Counting boundaries -/

open Classical in
/-- How many boundaries strictly below row l. -/
def cntBelow (P : ℕ → ℝ) (l : ℕ) : ℕ := ((Finset.range l).filter fun l' => 1 / 2 < P l').card

theorem cntUpTo_eq (P : ℕ → ℝ) (l : ℕ) : cntUpTo P l = cntBelow P (l + 1) := rfl

theorem cntBelow_zero (P : ℕ → ℝ) : cntBelow P 0 = 0 := by
  unfold cntBelow
  rw [Finset.range_zero, Finset.filter_empty, Finset.card_empty]

/-- One more row adds one to the count exactly when it is a boundary. -/
theorem cntBelow_succ_of_bnd (P : ℕ → ℝ) (l : ℕ) (hb : 1 / 2 < P l) : cntBelow P (l + 1) = cntBelow P l + 1 := by
  unfold cntBelow
  rw [Finset.range_add_one, Finset.filter_insert, if_pos hb, Finset.card_insert_of_notMem]
  intro hmem
  exact absurd (Finset.mem_range.1 (Finset.mem_filter.1 hmem).1) (lt_irrefl l)

theorem cntBelow_succ_of_not (P : ℕ → ℝ) (l : ℕ) (hb : ¬ 1 / 2 < P l) : cntBelow P (l + 1) = cntBelow P l := by
  unfold cntBelow
  rw [Finset.range_add_one, Finset.filter_insert, if_neg hb]

theorem cntBelow_mono (P : ℕ → ℝ) {l l' : ℕ} (h : l ≤ l') : cntBelow P l ≤ cntBelow P l' := by
  unfold cntBelow
  apply Finset.card_le_card
  apply Finset.filter_subset_filter
  exact Finset.range_mono h

theorem nBnd_eq (P : ℕ → ℝ) : nBnd P = cntBelow P 2048 := rfl

theorem nBnd_le (P : ℕ → ℝ) : nBnd P ≤ 2048 := by
  unfold nBnd
  calc _ ≤ (Finset.range 2048).card := Finset.card_filter_le _ _
    _ = 2048 := Finset.card_range 2048

/-! ## The stable order is a bijection of the rows, and a boundary sits at the slot counting the boundaries below it -/

theorem sortsBy_inj {key : ℕ → ℕ} {π : ℕ → ℕ} {N : ℕ} (h : SortsBy key π N) (i j : ℕ) (hi : i < N) (hj : j < N)
    (e : π i = π j) : i = j := by
  rcases lt_trichotomy i j with hij | hij | hij
  · rcases h.2 i j hij hj with h1 | ⟨_, h2⟩
    · rw [e] at h1; exact absurd h1 (lt_irrefl _)
    · rw [e] at h2; exact absurd h2 (lt_irrefl _)
  · exact hij
  · rcases h.2 j i hij hi with h1 | ⟨_, h2⟩
    · rw [e] at h1; exact absurd h1 (lt_irrefl _)
    · rw [e] at h2; exact absurd h2 (lt_irrefl _)

theorem sortsBy_surj {key : ℕ → ℕ} {π : ℕ → ℕ} {N : ℕ} (h : SortsBy key π N) (r : ℕ) (hr : r < N) :
    ∃ j, j < N ∧ π j = r := by
  have himg : (Finset.range N).image π = Finset.range N := by
    apply Finset.eq_of_subset_of_card_le
    · intro x hx
      rcases Finset.mem_image.1 hx with ⟨j, hj, rfl⟩
      exact Finset.mem_range.2 (h.1 j (Finset.mem_range.1 hj))
    · rw [Finset.card_image_of_injOn]
      intro i hi j hj e
      exact sortsBy_inj h i j (Finset.mem_range.1 (Finset.mem_coe.1 hi)) (Finset.mem_range.1 (Finset.mem_coe.1 hj)) e
  have hmem : r ∈ (Finset.range N).image π := by
    rw [himg]; exact Finset.mem_range.2 hr
  rcases Finset.mem_image.1 hmem with ⟨j, hj, e⟩
  exact ⟨j, Finset.mem_range.1 hj, e⟩

theorem keyOf_of_bnd (P : ℕ → ℝ) (l : ℕ) (hb : 1 / 2 < P l) : keyOf P l = 0 := by
  unfold keyOf
  rw [if_pos hb]

theorem bnd_of_keyOf (P : ℕ → ℝ) (l : ℕ) (hk : keyOf P l = 0) : 1 / 2 < P l := by
  by_contra hn
  unfold keyOf at hk
  rw [if_neg hn] at hk
  exact one_ne_zero hk

/-- A boundary row l sits at the slot numbered by the boundaries below it: the slots before it hold exactly those. -/
theorem slot_of_bnd (P : ℕ → ℝ) (π : ℕ → ℕ) (hπ : SortsBy (keyOf P) π 2048) (l : ℕ) (hl : l < 2048)
    (hb : 1 / 2 < P l) : π (cntBelow P l) = l := by
  obtain ⟨j, hj, e⟩ := sortsBy_surj hπ l hl
  have hkl : keyOf P l = 0 := keyOf_of_bnd P l hb
  have hcnt : cntBelow P l = j := by
    have himg : ((Finset.range j).image π).card = cntBelow P l := by
      unfold cntBelow
      congr 1
      ext r
      simp only [Finset.mem_image, Finset.mem_range, Finset.mem_filter]
      constructor
      · rintro ⟨i, hi, rfl⟩
        rcases hπ.2 i j hi hj with h1 | ⟨h1, h2⟩
        · rw [e, hkl] at h1
          exact absurd h1 (Nat.not_lt_zero _)
        · rw [e] at h2
          rw [e, hkl] at h1
          exact ⟨h2, bnd_of_keyOf P _ h1⟩
      · rintro ⟨hr, hbr⟩
        obtain ⟨i, hi, ei⟩ := sortsBy_surj hπ r (lt_trans hr hl)
        refine ⟨i, ?_, ei⟩
        have hkr : keyOf P r = 0 := keyOf_of_bnd P r hbr
        rcases lt_trichotomy i j with h | h | h
        · exact h
        · exfalso
          rw [h, e] at ei
          omega
        · exfalso
          rcases hπ.2 j i h hi with h1 | ⟨_, h2⟩
          · rw [e, ei, hkl, hkr] at h1
            exact absurd h1 (lt_irrefl _)
          · rw [e, ei] at h2
            omega
    rw [← himg, Finset.card_image_of_injOn, Finset.card_range]
    intro a ha b hb' eab
    exact sortsBy_inj hπ a b (lt_trans (Finset.mem_range.1 (Finset.mem_coe.1 ha)) hj)
      (lt_trans (Finset.mem_range.1 (Finset.mem_coe.1 hb')) hj) eab
  rw [hcnt, e]

/-! ## The slots' decay and input at a boundary slot -/

theorem decay_of_lt (P : ℕ → ℝ) (π : ℕ → ℕ) (hP : ∀ l, 0 ≤ P l ∧ P l ≤ 1) (j : ℕ) (hj : j < nBnd P) :
    decay P π j = 1 - P (π j) := by
  unfold decay chunkProb
  rw [if_pos hj, mul_one]
  have h := hP (π j)
  rw [max_eq_right (by linarith [h.2]), min_eq_right (by linarith [h.1])]

/-! ## The recurrence over the rows is the recurrence over the slots -/

theorem state_eq_linRec (P : ℕ → ℝ) (π : ℕ → ℕ) (X : ℕ → ℕ → ℝ) (h0 : P 0 = 1) (hP : ∀ l, 0 ≤ P l ∧ P l ≤ 1)
    (hπ : SortsBy (keyOf P) π 2048) (d : ℕ) :
    ∀ l, l < 2048 → state P X l d = linRec (decay P π) (emaB P π X d) (cntUpTo P l - 1) := by
  have hb0 : 1 / 2 < P 0 := by rw [h0]; norm_num
  have hc0 : cntUpTo P 0 = 1 := by
    rw [cntUpTo_eq, cntBelow_succ_of_bnd P 0 hb0, cntBelow_zero]
  intro l
  induction l with
  | zero =>
    intro hl
    have hπ0 : π 0 = 0 := by
      have := slot_of_bnd P π hπ 0 hl hb0
      rwa [cntBelow_zero] at this
    have hn : 0 < nBnd P := by
      have := cntBelow_mono P (show 1 ≤ 2048 by norm_num)
      rw [← nBnd_eq, ← cntUpTo_eq, hc0] at this
      exact this
    have hd : decay P π 0 = 1 - P 0 := by
      rw [decay_of_lt P π hP 0 hn, hπ0]
    rw [hc0]
    show cC P 0 * X 0 d = emaB P π X d 0
    unfold emaB cC
    rw [if_pos hb0, if_pos Nat.zero_lt_one, hd, hπ0]
    ring
  | succ l ih =>
    intro hl
    have ih' := ih (Nat.lt_of_succ_lt hl)
    have hpos : 1 ≤ cntUpTo P l := by
      have := cntBelow_mono P (show 1 ≤ l + 1 by omega)
      rw [← cntUpTo_eq, ← cntUpTo_eq, hc0] at this
      exact this
    have hstep : state P X (l + 1) d = aC P (l + 1) * state P X l d + cC P (l + 1) * X (l + 1) d := rfl
    rw [hstep, ih']
    by_cases hb : 1 / 2 < P (l + 1)
    · have hcs : cntUpTo P (l + 1) = cntUpTo P l + 1 := by
        rw [cntUpTo_eq, cntBelow_succ_of_bnd P (l + 1) hb, ← cntUpTo_eq]
      have hidx : cntUpTo P (l + 1) - 1 = (cntUpTo P l - 1) + 1 := by omega
      have hslot : π ((cntUpTo P l - 1) + 1) = l + 1 := by
        have := slot_of_bnd P π hπ (l + 1) hl hb
        rw [← cntUpTo_eq] at this
        rw [Nat.sub_add_cancel hpos]
        exact this
      have hlt : (cntUpTo P l - 1) + 1 < nBnd P := by
        have := cntBelow_mono P (show l + 1 + 1 ≤ 2048 by omega)
        rw [← nBnd_eq, ← cntUpTo_eq] at this
        omega
      have hd : decay P π ((cntUpTo P l - 1) + 1) = 1 - P (l + 1) := by
        rw [decay_of_lt P π hP _ hlt, hslot]
      rw [hidx]
      show _ = decay P π ((cntUpTo P l - 1) + 1) * linRec (decay P π) (emaB P π X d) (cntUpTo P l - 1)
        + emaB P π X d ((cntUpTo P l - 1) + 1)
      unfold emaB aC cC
      rw [if_pos hb, if_pos hb, if_neg (by omega), hd, hslot]
      ring
    · have hcs : cntUpTo P (l + 1) = cntUpTo P l := by
        rw [cntUpTo_eq, cntBelow_succ_of_not P (l + 1) hb, ← cntUpTo_eq]
      rw [hcs]
      unfold aC cC
      rw [if_neg hb, if_neg hb]
      ring

/-- With row 0 a boundary, probabilities in [0, 1] and `π` the stable order by `keyOf P`, the compacted
    computation is the per-row recurrence. -/
theorem refSeq_eq (P : ℕ → ℝ) (π : ℕ → ℕ) (X : ℕ → ℕ → ℝ) (h0 : P 0 = 1) (hP : ∀ l, 0 ≤ P l ∧ P l ≤ 1)
    (hπ : SortsBy (keyOf P) π 2048) (l d : ℕ) (hl : l < 2048) :
    refSeq P π X l d = X l d + state P X l d := by
  have hb0 : 1 / 2 < P 0 := by rw [h0]; norm_num
  have hpos : 1 ≤ cntUpTo P l := by
    have hc0 : cntUpTo P 0 = 1 := by
      rw [cntUpTo_eq, cntBelow_succ_of_bnd P 0 hb0, cntBelow_zero]
    have := cntBelow_mono P (show 1 ≤ l + 1 by omega)
    rw [← cntUpTo_eq, ← cntUpTo_eq, hc0] at this
    exact this
  have hle : cntUpTo P l ≤ nBnd P := by
    have := cntBelow_mono P (show l + 1 ≤ 2048 by omega)
    rw [← nBnd_eq, ← cntUpTo_eq] at this
    exact this
  have hn := nBnd_le P
  have hlt : cntUpTo P l - 1 < nBnd P := by omega
  have hmin : min (cntUpTo P l - 1) 2047 = cntUpTo P l - 1 := min_eq_left (by omega)
  rw [state_eq_linRec P π X h0 hP hπ d l hl]
  unfold refSeq longSt emaM coef
  rw [hmin, if_pos hlt, if_pos hpos, hsScan_eq _ _ _ (by omega), sub_self]
  ring

end Cert.Spec

end
-- ==== Proof.RefMath.lean ====
/-
  The reference's result array over real inputs is the table `out`: the stages composed on real tables give, per
  sequence, the compacted computation `refSeq` over the stable order of the boundaries-first sort — the eleven doubling steps
  on the slot tables are, column by column, the doubling scan —, and compaction is the per-row recurrence.
-/
import proofs.«173479_g14800457302192_cont_week2b_463_2_alg».proof.Proof.RefStages
import proofs.«173479_g14800457302192_cont_week2b_463_2_alg».proof.Proof.RefA
import proofs.«173479_g14800457302192_cont_week2b_463_2_alg».proof.Proof.RefB1
import proofs.«173479_g14800457302192_cont_week2b_463_2_alg».proof.Proof.RefB2
import proofs.«173479_g14800457302192_cont_week2b_463_2_alg».proof.Proof.RefCount
import proofs.«173479_g14800457302192_cont_week2b_463_2_alg».proof.Proof.RefC
import proofs.«173479_g14800457302192_cont_week2b_463_2_alg».proof.Proof.RefD2
import proofs.«173479_g14800457302192_cont_week2b_463_2_alg».proof.Proof.SortMath
import proofs.«173479_g14800457302192_cont_week2b_463_2_alg».proof.Proof.CompactMath

noncomputable section

namespace Cert.ReferenceIdeal.Read

open Cert.ReferenceIdeal Cert.ReferenceIdeal.Stage Idealize.ShloMosaic Idealize.ShloMosaic.TcCoe Idealize.SL.Sem
open Cert.Spec Cert.Consts

/-! ## The doubling steps on slot tables, column by column -/

/-- One doubling step on a table of decays (sequence, slot, column). -/
def stepA (s : ℕ) (A : ℕ → ℕ → ℕ → ℝ) : ℕ → ℕ → ℕ → ℝ :=
  fun b j d => if j < s then A b j d else A b j d * A b (j - s) d
/-- One doubling step on a table of accumulated values, with its table of decays. -/
def stepB (s : ℕ) (A B : ℕ → ℕ → ℕ → ℝ) : ℕ → ℕ → ℕ → ℝ :=
  fun b j d => if j < s then B b j d else A b j d * B b (j - s) d + B b j d
/-- Column `d` of sequence `b` of a pair of tables, as a pair of sequences over the slots. -/
def colPair (A B : ℕ → ℕ → ℕ → ℝ) (b d : ℕ) : (ℕ → ℝ) × (ℕ → ℝ) := (fun j => A b j d, fun j => B b j d)

/-- A step on the tables is the step on every column. -/
theorem hsStep_colPair (s : ℕ) (A B : ℕ → ℕ → ℕ → ℝ) (b d : ℕ) :
    hsStep s (colPair A B b d) = colPair (stepA s A) (stepB s A B) b d := rfl

theorem fC1b_tab (A B : ℕ → ℕ → ℕ → ℝ) : fC1b (F := Ideal) (emb3 4 2048 512 A) (emb3 4 2048 512 B) = (emb3 4 2048 512 (stepB 1 A B) : FVec Ideal S4x2048x512 .f32) := fC1b_emb A B
theorem fC1a_tab (A : ℕ → ℕ → ℕ → ℝ) : fC1a (F := Ideal) (emb3 4 2048 512 A) = (emb3 4 2048 512 (stepA 1 A) : FVec Ideal S4x2048x512 .f32) := fC1a_emb A
theorem fC2b_tab (A B : ℕ → ℕ → ℕ → ℝ) : fC2b (F := Ideal) (emb3 4 2048 512 A) (emb3 4 2048 512 B) = (emb3 4 2048 512 (stepB 2 A B) : FVec Ideal S4x2048x512 .f32) := fC2b_emb A B
theorem fC2a_tab (A : ℕ → ℕ → ℕ → ℝ) : fC2a (F := Ideal) (emb3 4 2048 512 A) = (emb3 4 2048 512 (stepA 2 A) : FVec Ideal S4x2048x512 .f32) := fC2a_emb A
theorem fC3b_tab (A B : ℕ → ℕ → ℕ → ℝ) : fC3b (F := Ideal) (emb3 4 2048 512 A) (emb3 4 2048 512 B) = (emb3 4 2048 512 (stepB 4 A B) : FVec Ideal S4x2048x512 .f32) := fC3b_emb A B
theorem fC3a_tab (A : ℕ → ℕ → ℕ → ℝ) : fC3a (F := Ideal) (emb3 4 2048 512 A) = (emb3 4 2048 512 (stepA 4 A) : FVec Ideal S4x2048x512 .f32) := fC3a_emb A
theorem fC4b_tab (A B : ℕ → ℕ → ℕ → ℝ) : fC4b (F := Ideal) (emb3 4 2048 512 A) (emb3 4 2048 512 B) = (emb3 4 2048 512 (stepB 8 A B) : FVec Ideal S4x2048x512 .f32) := fC4b_emb A B
theorem fC4a_tab (A : ℕ → ℕ → ℕ → ℝ) : fC4a (F := Ideal) (emb3 4 2048 512 A) = (emb3 4 2048 512 (stepA 8 A) : FVec Ideal S4x2048x512 .f32) := fC4a_emb A
theorem fC5b_tab (A B : ℕ → ℕ → ℕ → ℝ) : fC5b (F := Ideal) (emb3 4 2048 512 A) (emb3 4 2048 512 B) = (emb3 4 2048 512 (stepB 16 A B) : FVec Ideal S4x2048x512 .f32) := fC5b_emb A B
theorem fC5a_tab (A : ℕ → ℕ → ℕ → ℝ) : fC5a (F := Ideal) (emb3 4 2048 512 A) = (emb3 4 2048 512 (stepA 16 A) : FVec Ideal S4x2048x512 .f32) := fC5a_emb A
theorem fC6b_tab (A B : ℕ → ℕ → ℕ → ℝ) : fC6b (F := Ideal) (emb3 4 2048 512 A) (emb3 4 2048 512 B) = (emb3 4 2048 512 (stepB 32 A B) : FVec Ideal S4x2048x512 .f32) := fC6b_emb A B
theorem fC6a_tab (A : ℕ → ℕ → ℕ → ℝ) : fC6a (F := Ideal) (emb3 4 2048 512 A) = (emb3 4 2048 512 (stepA 32 A) : FVec Ideal S4x2048x512 .f32) := fC6a_emb A
theorem fC7b_tab (A B : ℕ → ℕ → ℕ → ℝ) : fC7b (F := Ideal) (emb3 4 2048 512 A) (emb3 4 2048 512 B) = (emb3 4 2048 512 (stepB 64 A B) : FVec Ideal S4x2048x512 .f32) := fC7b_emb A B
theorem fC7a_tab (A : ℕ → ℕ → ℕ → ℝ) : fC7a (F := Ideal) (emb3 4 2048 512 A) = (emb3 4 2048 512 (stepA 64 A) : FVec Ideal S4x2048x512 .f32) := fC7a_emb A
theorem fC8b_tab (A B : ℕ → ℕ → ℕ → ℝ) : fC8b (F := Ideal) (emb3 4 2048 512 A) (emb3 4 2048 512 B) = (emb3 4 2048 512 (stepB 128 A B) : FVec Ideal S4x2048x512 .f32) := fC8b_emb A B
theorem fC8a_tab (A : ℕ → ℕ → ℕ → ℝ) : fC8a (F := Ideal) (emb3 4 2048 512 A) = (emb3 4 2048 512 (stepA 128 A) : FVec Ideal S4x2048x512 .f32) := fC8a_emb A
theorem fC9b_tab (A B : ℕ → ℕ → ℕ → ℝ) : fC9b (F := Ideal) (emb3 4 2048 512 A) (emb3 4 2048 512 B) = (emb3 4 2048 512 (stepB 256 A B) : FVec Ideal S4x2048x512 .f32) := fC9b_emb A B
theorem fC9a_tab (A : ℕ → ℕ → ℕ → ℝ) : fC9a (F := Ideal) (emb3 4 2048 512 A) = (emb3 4 2048 512 (stepA 256 A) : FVec Ideal S4x2048x512 .f32) := fC9a_emb A
theorem fC10b_tab (A B : ℕ → ℕ → ℕ → ℝ) : fC10b (F := Ideal) (emb3 4 2048 512 A) (emb3 4 2048 512 B) = (emb3 4 2048 512 (stepB 512 A B) : FVec Ideal S4x2048x512 .f32) := fC10b_emb A B
theorem fC10a_tab (A : ℕ → ℕ → ℕ → ℝ) : fC10a (F := Ideal) (emb3 4 2048 512 A) = (emb3 4 2048 512 (stepA 512 A) : FVec Ideal S4x2048x512 .f32) := fC10a_emb A
theorem fC11b_tab (A B : ℕ → ℕ → ℕ → ℝ) : fC11b (F := Ideal) (emb3 4 2048 512 A) (emb3 4 2048 512 B) = (emb3 4 2048 512 (stepB 1024 A B) : FVec Ideal S4x2048x512 .f32) := fC11b_emb A B

/-- The eleven steps on the tables, the accumulated component: column by column the doubling scan. -/
theorem steps_eq_hsScan (A0 B0 : ℕ → ℕ → ℕ → ℝ) (b j d : ℕ) :
    (stepB 1024 (stepA 512 (stepA 256 (stepA 128 (stepA 64 (stepA 32 (stepA 16 (stepA 8 (stepA 4 (stepA 2 (stepA 1 A0)))))))))) (stepB 512 (stepA 256 (stepA 128 (stepA 64 (stepA 32 (stepA 16 (stepA 8 (stepA 4 (stepA 2 (stepA 1 A0))))))))) (stepB 256 (stepA 128 (stepA 64 (stepA 32 (stepA 16 (stepA 8 (stepA 4 (stepA 2 (stepA 1 A0)))))))) (stepB 128 (stepA 64 (stepA 32 (stepA 16 (stepA 8 (stepA 4 (stepA 2 (stepA 1 A0))))))) (stepB 64 (stepA 32 (stepA 16 (stepA 8 (stepA 4 (stepA 2 (stepA 1 A0)))))) (stepB 32 (stepA 16 (stepA 8 (stepA 4 (stepA 2 (stepA 1 A0))))) (stepB 16 (stepA 8 (stepA 4 (stepA 2 (stepA 1 A0)))) (stepB 8 (stepA 4 (stepA 2 (stepA 1 A0))) (stepB 4 (stepA 2 (stepA 1 A0)) (stepB 2 (stepA 1 A0) (stepB 1 A0 B0))))))))))) b j d
      = hsScan (fun j => A0 b j d) (fun j => B0 b j d) j := by
  unfold hsScan
  rw [show ((fun j => A0 b j d, fun j => B0 b j d) : (ℕ → ℝ) × (ℕ → ℝ)) = colPair A0 B0 b d from rfl]
  simp only [strides, List.foldl_cons, List.foldl_nil, hsStep_colPair]
  rfl

/-- The reference's whole result array over real inputs. -/
theorem ROut_emb (X : ℕ → ℕ → ℕ → ℝ) (Wq Wk : ℕ → ℕ → ℝ) :
    ROut (F := Ideal) (emb3 4 2048 512 X) (emb2 512 512 Wq) (emb2 512 512 Wk)
      = (emb3 4 2048 512 (out epsR X Wq Wk) : FVec Ideal S4x2048x512 .f32) := by
  have hO : ∀ b j, b < 4 → j < 2048 → ordOf (prob epsR (X b) Wq Wk) j < 2048 :=
    fun b j _ hj => (ordOf_sortsBy (prob epsR (X b) Wq Wk)).1 j hj
  have hS : ∀ b l, b < 4 → l < 2048 → min (cntUpTo (prob epsR (X b) Wq Wk) l - 1) 2047 < 2048 :=
    fun b l _ _ => Nat.lt_succ_of_le (Nat.min_le_right _ _)
  simp only [ROut]
  rw [fA_emb, fB33_emb, fB36_emb, fB52_emb _ _ hO, fB40_emb _ _ hO, fC0a_emb, fC0b_emb, fB46_emb, fD208_emb, fD210_emb]
  simp only [fC1b_tab, fC2b_tab, fC3b_tab, fC4b_tab, fC5b_tab, fC6b_tab, fC7b_tab, fC8b_tab, fC9b_tab, fC10b_tab, fC11b_tab, fC1a_tab, fC2a_tab, fC3a_tab, fC4a_tab, fC5a_tab, fC6a_tab, fC7a_tab, fC8a_tab, fC9a_tab, fC10a_tab]
  rw [fD203_emb, fD_emb _ _ hS]
  funext i
  simp only [emb3]
  congr 1
  rw [steps_eq_hsScan]
  have hl : (i 1).val < 2048 := (i 1).isLt
  rw [show out epsR X Wq Wk (i 0).val (i 1).val (i 2).val
        = X (i 0).val (i 1).val (i 2).val + state (prob epsR (X (i 0).val) Wq Wk) (X (i 0).val) (i 1).val (i 2).val from rfl,
    ← refSeq_eq (prob epsR (X (i 0).val) Wq Wk) (ordOf (prob epsR (X (i 0).val) Wq Wk)) (X (i 0).val)
      (prob_zero _ _ _ _) (prob_mem _ _ _ _) (ordOf_sortsBy _) _ _ hl]
  simp only [refSeq, longSt, emaM]
  by_cases h1 : min (cntUpTo (prob epsR (X (i 0).val) Wq Wk) (i 1).val - 1) 2047 < nBnd (prob epsR (X (i 0).val) Wq Wk)
  · by_cases h2 : 1 ≤ cntUpTo (prob epsR (X (i 0).val) Wq Wk) (i 1).val
    · simp only [if_pos h1, if_pos h2]; rfl
    · simp only [if_pos h1, if_neg h2]; rfl
  · by_cases h2 : 1 ≤ cntUpTo (prob epsR (X (i 0).val) Wq Wk) (i 1).val
    · simp only [if_neg h1, if_pos h2]; rfl
    · simp only [if_neg h1, if_neg h2]; rfl

end Cert.ReferenceIdeal.Read

end
-- ==== Proof.Finite.lean ====
/-
  The precondition says every entry of the three argument arrays is finite; so each array is a real table.
-/
import proofs.«173479_g14800457302192_cont_week2b_463_2_alg».proof.Proof.Spec
import proofs.«173479_g14800457302192_cont_week2b_463_2_alg».proof.Pre_finite_inputs
import proofs.«173479_g14800457302192_cont_week2b_463_2_alg».proof.Proof.Gen.Pre_finite_inputs
import Idealize.ShloMosaic.Lib.ReduceAll
import Idealize.ShloMosaic.Lib.ValueIdx

noncomputable section

namespace Cert.Finite

open Idealize.ShloMosaic Cert.Spec

/-- The scalar shape has a single index. -/
instance : Subsingleton Cert.Pre_finite_inputs.S_.Idx := ⟨fun a b => funext fun d => d.elim0⟩

/-- The word 0x7F800000 (sign 0, exponent all ones, fraction 0) denotes +∞. -/
theorem inf_pattern : Ideal.ofBits .f32 0x7F800000#32 = (⊤ : EReal) := by
  simp [Ideal.ofBits, Ideal.ieee]

/-- An extended real with max b (−b) < ⊤ is neither ⊥ nor ⊤: it is a real. -/
theorem real_of_max_neg_lt_top (b : EReal) (hb : max b (-b) < (⊤ : EReal)) : ∃ r : ℝ, b = ((r : ℝ) : EReal) := by
  induction b using EReal.rec with
  | bot => simp at hb
  | coe r => exact ⟨r, rfl⟩
  | top => simp at hb

/-- One element of the predicate: the comparison |a| < +∞ coming out 1 makes a a real. -/
theorem real_of_abs_lt (a : Ideal .f32)
    (h : FloatOps.cmpf .olt (FloatOps.hostAbsf a) (FloatOps.ofBits (F := Ideal) .f32 0x7F800000#32) = 1#1) :
    ∃ r : ℝ, a = ((r : ℝ) : EReal) := by
  have h' : Ideal.cmp .olt (max a (-a)) (⊤ : EReal) = 1#1 := by
    rw [← inf_pattern]; exact h
  refine real_of_max_neg_lt_top a ?_
  by_contra hn
  simp [Ideal.cmp, hn] at h'

/-- A rank-3 array whose entries are all reals is the embedding of a real table. -/
theorem emb3_of_reals {n0 n1 n2 : ℕ} (x : (⟨3, ![n0, n1, n2]⟩ : Shape).Idx → EReal)
    (hx : ∀ i, ∃ r : ℝ, x i = ((r : ℝ) : EReal)) : ∃ X : ℕ → ℕ → ℕ → ℝ, x = emb3 n0 n1 n2 X := by
  choose f hf using hx
  refine ⟨fun b l d => if h : b < n0 ∧ l < n1 ∧ d < n2 then
    f (ValueIdx.ix3 ⟨b, h.1⟩ ⟨l, h.2.1⟩ ⟨d, h.2.2⟩) else 0, ?_⟩
  funext i
  have h0 : (i 0).val < n0 := (i 0).isLt
  have h1 : (i 1).val < n1 := (i 1).isLt
  have h2 : (i 2).val < n2 := (i 2).isLt
  rw [hf i]
  show ((f i : ℝ) : EReal) = ((dite _ _ _ : ℝ) : EReal)
  rw [dif_pos ⟨h0, h1, h2⟩]
  exact congrArg _ (congrArg f (ValueIdx.eq_ix3 i))

/-- A rank-2 array whose entries are all reals is the embedding of a real table. -/
theorem emb2_of_reals {n0 n1 : ℕ} (x : (⟨2, ![n0, n1]⟩ : Shape).Idx → EReal)
    (hx : ∀ i, ∃ r : ℝ, x i = ((r : ℝ) : EReal)) : ∃ X : ℕ → ℕ → ℝ, x = emb2 n0 n1 X := by
  choose f hf using hx
  refine ⟨fun a b => if h : a < n0 ∧ b < n1 then f (ValueIdx.ix2 ⟨a, h.1⟩ ⟨b, h.2⟩) else 0, ?_⟩
  funext i
  have h0 : (i 0).val < n0 := (i 0).isLt
  have h1 : (i 1).val < n1 := (i 1).isLt
  rw [hf i]
  show ((f i : ℝ) : EReal) = ((dite _ _ _ : ℝ) : EReal)
  rw [dif_pos ⟨h0, h1⟩]
  exact congrArg _ (congrArg f (ValueIdx.eq_ix2 i))

/-- Arrays on which the printed finiteness predicate is all ones are real tables. -/
theorem reals_of_pre (x : FVec Ideal Cert.Pre_finite_inputs.S4x2048x512 .f32) (wq wk : FVec Ideal Cert.Pre_finite_inputs.S512x512 .f32)
    (h : Cert.Pre_finite_inputs.fn (F := Ideal) x wq wk = fun _ => 1#1) :
    ∃ (X : ℕ → ℕ → ℕ → ℝ) (Wq Wk : ℕ → ℕ → ℝ), x = emb3 4 2048 512 X ∧ wq = emb2 512 512 Wq ∧ wk = emb2 512 512 Wk := by
  have h0 := congrFun h ValueIdx.ix0
  dsimp only [Cert.Pre_finite_inputs.fn] at h0
  -- the result is the conjunction of the three all-reductions
  obtain ⟨h12, h3⟩ := IntOp.andi_eq_one.1 h0
  obtain ⟨h1, h2⟩ := IntOp.andi_eq_one.1 h12
  -- each all-reduction being 1 makes every compared element 1, hence every entry a real
  have e1 : ∀ i, ∃ r : ℝ, x i = ((r : ℝ) : EReal) := fun i =>
    real_of_abs_lt (x i) (Host.reduce_andi_all _ _ _ _ _ h1 i)
  have e2 : ∀ i, ∃ r : ℝ, wq i = ((r : ℝ) : EReal) := fun i =>
    real_of_abs_lt (wq i) (Host.reduce_andi_all _ _ _ _ _ h2 i)
  have e3 : ∀ i, ∃ r : ℝ, wk i = ((r : ℝ) : EReal) := fun i =>
    real_of_abs_lt (wk i) (Host.reduce_andi_all _ _ _ _ _ h3 i)
  obtain ⟨X, hX⟩ := emb3_of_reals x e1
  obtain ⟨Wq, hWq⟩ := emb2_of_reals wq e2
  obtain ⟨Wk, hWk⟩ := emb2_of_reals wk e3
  exact ⟨X, Wq, Wk, hX, hWq, hWk⟩

end Cert.Finite

end
-- ==== Proof.lean ====
/-
  The certificate's claims. Both programs compute, on every sequence of 2048 rows x_l of width 512, the rows plus a
  carried state: q_l = W_q x_l and k_l = W_k x_l, the cosine of q_{l-1} and k_l over norms clamped below, the
  boundary probability p_l = clip((1 - cos)/2) with p_0 = 1, and s_l = a_l s_{l-1} + c_l x_l where a boundary
  (p_l > 1/2) has a_l = 1 - p_l, c_l = p_l and any other row a_l = 1, c_l = 0; the result is x_l + s_l.
  The kernel runs this recurrence directly by a doubling scan over the rows. The reference gathers the boundary rows
  to the front by a stable sort, runs an exponential moving average over the gathered slots by the same doubling
  scan, and lets each row read the slot of the latest boundary not after it. On finite inputs every operation is the
  real one, the doubling scan is the linear recurrence, and compaction is the per-row recurrence: the two results
  are one real table (Spec.out). The frames are the generated ones (the kernel's programs) and the reference's run with
  its result dropped; the ideal pass rewrote nothing, so preserves is trivial.
-/
import proofs.«173479_g14800457302192_cont_week2b_463_2_alg».proof.Defs
import proofs.«173479_g14800457302192_cont_week2b_463_2_alg».proof.Proof.Gen.Kernel
import proofs.«173479_g14800457302192_cont_week2b_463_2_alg».proof.Proof.Gen.Kernel.Skeleton
import proofs.«173479_g14800457302192_cont_week2b_463_2_alg».proof.Proof.Gen.Kernel.Launch
import proofs.«173479_g14800457302192_cont_week2b_463_2_alg».proof.Proof.Gen.Kernel.Points
import proofs.«173479_g14800457302192_cont_week2b_463_2_alg».proof.Proof.Gen.Kernel.Frame
import proofs.«173479_g14800457302192_cont_week2b_463_2_alg».proof.Proof.Gen.KernelIdeal
import proofs.«173479_g14800457302192_cont_week2b_463_2_alg».proof.Proof.Gen.KernelIdeal.Skeleton
import proofs.«173479_g14800457302192_cont_week2b_463_2_alg».proof.Proof.Gen.KernelIdeal.Launch
import proofs.«173479_g14800457302192_cont_week2b_463_2_alg».proof.Proof.Gen.KernelIdeal.Points
import proofs.«173479_g14800457302192_cont_week2b_463_2_alg».proof.Proof.Gen.KernelIdeal.Frame
import proofs.«173479_g14800457302192_cont_week2b_463_2_alg».proof.Proof.Gen.KernelIdeal.Value
import proofs.«173479_g14800457302192_cont_week2b_463_2_alg».proof.Proof.Gen.ReferenceIdeal
import proofs.«173479_g14800457302192_cont_week2b_463_2_alg».proof.Proof.Gen.Pre_finite_inputs
import proofs.«173479_g14800457302192_cont_week2b_463_2_alg».proof.Proof.KernelBody
import proofs.«173479_g14800457302192_cont_week2b_463_2_alg».proof.Proof.KernelMath
import proofs.«173479_g14800457302192_cont_week2b_463_2_alg».proof.Proof.RefRun
import proofs.«173479_g14800457302192_cont_week2b_463_2_alg».proof.Proof.RefMath
import proofs.«173479_g14800457302192_cont_week2b_463_2_alg».proof.Proof.Finite
import Idealize.ShloMosaic.Adequacy
import Idealize.ShloMosaic.Init

noncomputable section

namespace Cert.Proof

open Idealize.ShloMosaic Idealize.ShloMosaic.TcCoe Idealize.SL.Sem
open Cert.Spec Cert.Consts

theorem frame_k : Cert.frame_Kernel := fun m ρ _ => Cert.Kernel.Gen.frame m ρ
theorem frame_ki : Cert.frame_KernelIdeal := fun m ρ _ => Cert.KernelIdeal.Gen.frame m ρ
/-- The reference's frame: its run, the result dropped. -/
theorem frame_ri : Cert.frame_ReferenceIdeal := fun m ρ _ =>
  (θ_run Cert.ReferenceIdeal.defs _ _).mono (fun _ h c => (h c).2) (Cert.ReferenceIdeal.Run.run (F := Ideal) m ρ)

/-- On finite inputs the kernel's result array and the reference's are the one real table `out` of the arguments. -/
theorem algebraic : Cert.algebraic_KernelIdeal_ReferenceIdeal := by
  intro m ρ m' ρ' hpre hagree
  have hr := fun c => Cert.Finite.reals_of_pre _ _ _ (hpre c)
  choose X Wq Wk hx hq hk using hr
  refine ⟨fun c => (emb3 4 2048 512 (out epsR (X c) (Wq c) (Wk c)) : FVec Ideal Cert.KernelIdeal.S4x2048x512 .f32), ?_, ?_⟩
  · refine (θ_run Cert.KernelIdeal.defs _ _).mono (fun r h c => ⟨(h c).1.trans ?_, (h c).2⟩)
      (Cert.KernelIdeal.KVal.run (F := Ideal) m ρ)
    rw [hx c, hq c, hk c]
    exact Cert.KernelIdeal.KVal.KOut_emb _ _ _
  · refine (θ_run Cert.ReferenceIdeal.defs _ _).mono (fun r h c => ⟨(h c).1.trans ?_, (h c).2⟩)
      (Cert.ReferenceIdeal.Run.run (F := Ideal) m' ρ')
    rw [(hagree c).1, (hagree c).2.1, (hagree c).2.2, hx c, hq c, hk c]
    exact Cert.ReferenceIdeal.Read.ROut_emb _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
